-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨3, ![4, 512, 256]⟩ ⟨3, ![4, 512, 8192]⟩ 2 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![128, 256]⟩ ⟨2, ![128, 8192]⟩ 1 32 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![4, 512, 256]⟩ ⟨3, ![4, 512, 8192]⟩ 2 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v21) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S4x512x256 : Shape := ⟨3, ![4, 512, 256]⟩
abbrev S4x128 : Shape := ⟨2, ![4, 128]⟩
abbrev S128x256 : Shape := ⟨2, ![128, 256]⟩
abbrev S_ : Shape := ⟨0, ![]⟩

class Facts : Prop where
  bcast_S_S4x512x256 : S_.BroadcastsInDim S4x512x256 (![] : Fin 0 → Fin S4x512x256.rank)
  reducesTo_S4x512x256_S_d0_1_2 : S4x512x256.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x256 : S_.BroadcastsInDim S128x256 (![] : Fin 0 → Fin S128x256.rank)
  reducesTo_S128x256_S_d0_1 : S128x256.ReducesTo [0, 1] S_

variable [Facts]

def fn_part1 {F : FTy → Type} [FloatOps F] (main_v13 : IVec S_ 1) (main_v16 : IVec S128x256 1) : IVec S_ 1 :=
  let main_c_5 : IVec S_ 1 := constantI S_ 1 1#1
  let main_v17 : IVec S_ 1 := (fun x v => Host.reduce IntOp.andi x v reducesTo_S128x256_S_d0_1 h_S_) main_v16 main_c_5
  let main_v18 : IVec S_ 1 := andi main_v13 main_v17
  main_v18

def fn {F : FTy → Type} [FloatOps F] (main_arg0 : FVec F S4x512x256 .f32) (main_arg1 : FVec F S4x128 .f32) (main_arg2 : FVec F S128x256 .f32) (main_arg3 : FVec F S128x256 .f32) : IVec S_ 1 :=
  let main_v0 : FVec F S4x512x256 .f32 := Host.absf main_arg0
  let main_cst : FVec F S_ .f32 := constant S_ .f32 0x7F800000#32
  let main_v1 : FVec F S4x512x256 .f32 := broadcastInDim S4x512x256 ![] bcast_S_S4x512x256 main_cst
  let main_v2 : IVec S4x512x256 1 := cmpf .olt main_v0 main_v1
  let main_c : IVec S_ 1 := constantI S_ 1 1#1
  let main_v3 : IVec S_ 1 := (fun x v => Host.reduce IntOp.andi x v reducesTo_S4x512x256_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128x256 .f32 := Host.absf main_arg3
  let main_cst_4 : FVec F S_ .f32 := constant S_ .f32 0x7F800000#32
  let main_v15 : FVec F S128x256 .f32 := broadcastInDim S128x256 ![] bcast_S_S128x256 main_cst_4
  let main_v16 : IVec S128x256 1 := cmpf .olt main_v14 main_v15
  fn_part1 (F := F) main_v13 main_v16
-- ==== Pre_finite_inputs_ReferenceIdeal.lean ====
abbrev S4x512x8192 : Shape := ⟨3, ![4, 512, 8192]⟩
abbrev S4x128 : Shape := ⟨2, ![4, 128]⟩
abbrev S128x8192 : Shape := ⟨2, ![128, 8192]⟩
abbrev S_ : Shape := ⟨0, ![]⟩

class Facts : Prop where
  bcast_S_S4x512x8192 : S_.BroadcastsInDim S4x512x8192 (![] : Fin 0 → Fin S4x512x8192.rank)
  reducesTo_S4x512x8192_S_d0_1_2 : S4x512x8192.ReducesTo [0, 1, 2] S_
  h_S_ : 0 < S_.numel
  bcast_S_S4x128 : S_.BroadcastsInDim S4x128 (![] : Fin 0 → Fin S4x128.rank)
  reducesTo_S4x128_S_d0_1 : S4x128.ReducesTo [0, 1] S_
  bcast_S_S128x8192 : S_.BroadcastsInDim S128x8192 (![] : Fin 0 → Fin S128x8192.rank)
  reducesTo_S128x8192_S_d0_1 : S128x8192.ReducesTo [0, 1] S_

variable [Facts]

def fn_part1 {F : FTy → Type} [FloatOps F] (main_v13 : IVec S_ 1) (main_v16 : IVec S128x8192 1) : IVec S_ 1 :=
  let main_c_5 : IVec S_ 1 := constantI S_ 1 1#1
  let main_v17 : IVec S_ 1 := (fun x v => Host.reduce IntOp.andi x v reducesTo_S128x8192_S_d0_1 h_S_) main_v16 main_c_5
  let main_v18 : IVec S_ 1 := andi main_v13 main_v17
  main_v18

def fn {F : FTy → Type} [FloatOps F] (main_arg0 : FVec F S4x512x8192 .f32) (main_arg1 : FVec F S4x128 .f32) (main_arg2 : FVec F S128x8192 .f32) (main_arg3 : FVec F S128x8192 .f32) : IVec S_ 1 :=
  let main_v0 : FVec F S4x512x8192 .f32 := Host.absf main_arg0
  let main_cst : FVec F S_ .f32 := constant S_ .f32 0x7F800000#32
  let main_v1 : FVec F S4x512x8192 .f32 := broadcastInDim S4x512x8192 ![] bcast_S_S4x512x8192 main_cst
  let main_v2 : IVec S4x512x8192 1 := cmpf .olt main_v0 main_v1
  let main_c : IVec S_ 1 := constantI S_ 1 1#1
  let main_v3 : IVec S_ 1 := (fun x v => Host.reduce IntOp.andi x v reducesTo_S4x512x8192_S_d0_1_2 h_S_) main_v2 main_c
  let main_v4 : FVec F S4x128 .f32 := Host.absf main_arg1
  let main_cst_0 : FVec F S_ .f32 := constant S_ .f32 0x7F800000#32
  let main_v5 : FVec F S4x128 .f32 := broadcastInDim S4x128 ![] bcast_S_S4x128 main_cst_0
  let main_v6 : IVec S4x128 1 := cmpf .olt main_v4 main_v5
  let main_c_1 : IVec S_ 1 := constantI S_ 1 1#1
  let main_v7 : IVec S_ 1 := (fun x v => Host.reduce IntOp.andi x v reducesTo_S4x128_S_d0_1 h_S_) main_v6 main_c_1
  let main_v8 : IVec S_ 1 := andi main_v3 main_v7
  let main_v9 : FVec F S128x8192 .f32 := Host.absf main_arg2
  let main_cst_2 : FVec F S_ .f32 := constant S_ .f32 0x7F800000#32
  let main_v10 : FVec F S128x8192 .f32 := broadcastInDim S128x8192 ![] bcast_S_S128x8192 main_cst_2
  let main_v11 : IVec S128x8192 1 := cmpf .olt main_v9 main_v10
  let main_c_3 : IVec S_ 1 := constantI S_ 1 1#1
  let main_v12 : IVec S_ 1 := (fun x v => Host.reduce IntOp.andi x v reducesTo_S128x8192_S_d0_1 h_S_) main_v11 main_c_3
  let main_v13 : IVec S_ 1 := andi main_v8 main_v12
  let main_v14 : FVec F S128x8192 .f32 := Host.absf main_arg3
  let main_cst_4 : FVec F S_ .f32 := constant S_ .f32 0x7F800000#32
  let main_v15 : FVec F S128x8192 .f32 := broadcastInDim S128x8192 ![] bcast_S_S128x8192 main_cst_4
  let main_v16 : IVec S128x8192 1 := cmpf .olt main_v14 main_v15
  fn_part1 (F := F) main_v13 main_v16
-- ==== Kernel.lean ====
abbrev S4x512x256 : Shape := ⟨3, ![4, 512, 256]⟩
abbrev S4x128 : Shape := ⟨2, ![4, 128]⟩
abbrev S128x256 : Shape := ⟨2, ![128, 256]⟩
abbrev S32x8x512 : Shape := ⟨3, ![32, 8, 512]⟩
abbrev S31 : Shape := ⟨1, ![31]⟩
abbrev S_ : Shape := ⟨0, ![]⟩
abbrev S4x512 : Shape := ⟨2, ![4, 512]⟩
abbrev S8x512 : Shape := ⟨2, ![8, 512]⟩
abbrev S1x8x512 : Shape := ⟨3, ![1, 8, 512]⟩
abbrev S1 : Shape := ⟨1, ![1]⟩
abbrev S4x256 : Shape := ⟨2, ![4, 256]⟩
abbrev S4x512x1 : Shape := ⟨3, ![4, 512, 1]⟩
abbrev S4x1x256 : Shape := ⟨3, ![4, 1, 256]⟩

abbrev nBuf : Space → Nat
  | .hbm => 5
  | .vmem => 6
  | .smem => 0
  | _ => 0

abbrev bufTy : (tb : Table) → Fin (tcTables nBuf tb) → BufTy
  | .hbm, ⟨0, _⟩ => ⟨S4x512x256, .f32⟩
  | .hbm, ⟨1, _⟩ => ⟨S4x128, .f32⟩
  | .hbm, ⟨2, _⟩ => ⟨S128x256, .f32⟩
  | .hbm, ⟨3, _⟩ => ⟨S128x256, .f32⟩
  | .hbm, ⟨4, _⟩ => ⟨S4x512x256, .f32⟩
  | .local _ .vmem, ⟨0, _⟩ => ⟨S4x512x256, .f32⟩
  | .local _ .vmem, ⟨1, _⟩ => ⟨S4x128, .f32⟩
  | .local _ .vmem, ⟨2, _⟩ => ⟨S128x256, .f32⟩
  | .local _ .vmem, ⟨3, _⟩ => ⟨S128x256, .f32⟩
  | .local _ .vmem, ⟨4, _⟩ => ⟨S4x512x256, .f32⟩
  | .local _ .vmem, ⟨5, _⟩ => ⟨S32x8x512, .bf16⟩
  | _, _ => ⟨S4x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  (ofTc nBuf bufTy 1 67 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_off1 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v136 : Index := Scalar.indexCast v2
  let c0_127 : Index := 0#32
  let c0_128 : Index := 0#32
  ![v136.toNat, 0, 0]
def k0_off2 (d0 : Dev nD) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c0_i32_136 : BitVec 32 := 0#32
  let c0_i32_137 : BitVec 32 := 0#32
  ![v2.toNat, 0, 0]
def k0_dev32 (d0 : Dev nD) : Nat :=
  let c0_i32_135 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_130 : BitVec 32 := 1#32
  let v140 : BitVec 32 := Scalar.addi v2 c1_i32_130
  let c32_i32_131 : BitVec 32 := 32#32
  let v141 : BitVec 32 := Scalar.remsi v140 c32_i32_131
  let c1_i32_134 : BitVec 32 := 1#32
  let v142 : BitVec 32 := Scalar.muli v141 c1_i32_134
  let v143 : BitVec 32 := Scalar.addi c0_i32_135 v142
  v143.toNat
def k0_dev33 (d0 : Dev nD) : Nat :=
  let c0_i32_145 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_140 : BitVec 32 := 2#32
  let v152 : BitVec 32 := Scalar.addi v2 c2_i32_140
  let c32_i32_141 : BitVec 32 := 32#32
  let v153 : BitVec 32 := Scalar.remsi v152 c32_i32_141
  let c1_i32_144 : BitVec 32 := 1#32
  let v154 : BitVec 32 := Scalar.muli v153 c1_i32_144
  let v155 : BitVec 32 := Scalar.addi c0_i32_145 v154
  v155.toNat
def k0_dev34 (d0 : Dev nD) : Nat :=
  let c0_i32_155 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_150 : BitVec 32 := 3#32
  let v164 : BitVec 32 := Scalar.addi v2 c3_i32_150
  let c32_i32_151 : BitVec 32 := 32#32
  let v165 : BitVec 32 := Scalar.remsi v164 c32_i32_151
  let c1_i32_154 : BitVec 32 := 1#32
  let v166 : BitVec 32 := Scalar.muli v165 c1_i32_154
  let v167 : BitVec 32 := Scalar.addi c0_i32_155 v166
  v167.toNat
def k0_dev35 (d0 : Dev nD) : Nat :=
  let c0_i32_165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_160 : BitVec 32 := 4#32
  let v176 : BitVec 32 := Scalar.addi v2 c4_i32_160
  let c32_i32_161 : BitVec 32 := 32#32
  let v177 : BitVec 32 := Scalar.remsi v176 c32_i32_161
  let c1_i32_164 : BitVec 32 := 1#32
  let v178 : BitVec 32 := Scalar.muli v177 c1_i32_164
  let v179 : BitVec 32 := Scalar.addi c0_i32_165 v178
  v179.toNat
def k0_dev36 (d0 : Dev nD) : Nat :=
  let c0_i32_175 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_170 : BitVec 32 := 5#32
  let v188 : BitVec 32 := Scalar.addi v2 c5_i32_170
  let c32_i32_171 : BitVec 32 := 32#32
  let v189 : BitVec 32 := Scalar.remsi v188 c32_i32_171
  let c1_i32_174 : BitVec 32 := 1#32
  let v190 : BitVec 32 := Scalar.muli v189 c1_i32_174
  let v191 : BitVec 32 := Scalar.addi c0_i32_175 v190
  v191.toNat
def k0_dev37 (d0 : Dev nD) : Nat :=
  let c0_i32_185 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_180 : BitVec 32 := 6#32
  let v200 : BitVec 32 := Scalar.addi v2 c6_i32_180
  let c32_i32_181 : BitVec 32 := 32#32
  let v201 : BitVec 32 := Scalar.remsi v200 c32_i32_181
  let c1_i32_184 : BitVec 32 := 1#32
  let v202 : BitVec 32 := Scalar.muli v201 c1_i32_184
  let v203 : BitVec 32 := Scalar.addi c0_i32_185 v202
  v203.toNat
def k0_dev38 (d0 : Dev nD) : Nat :=
  let c0_i32_195 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_190 : BitVec 32 := 7#32
  let v212 : BitVec 32 := Scalar.addi v2 c7_i32_190
  let c32_i32_191 : BitVec 32 := 32#32
  let v213 : BitVec 32 := Scalar.remsi v212 c32_i32_191
  let c1_i32_194 : BitVec 32 := 1#32
  let v214 : BitVec 32 := Scalar.muli v213 c1_i32_194
  let v215 : BitVec 32 := Scalar.addi c0_i32_195 v214
  v215.toNat
def k0_dev39 (d0 : Dev nD) : Nat :=
  let c0_i32_205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_200 : BitVec 32 := 8#32
  let v224 : BitVec 32 := Scalar.addi v2 c8_i32_200
  let c32_i32_201 : BitVec 32 := 32#32
  let v225 : BitVec 32 := Scalar.remsi v224 c32_i32_201
  let c1_i32_204 : BitVec 32 := 1#32
  let v226 : BitVec 32 := Scalar.muli v225 c1_i32_204
  let v227 : BitVec 32 := Scalar.addi c0_i32_205 v226
  v227.toNat
def k0_dev40 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_210 : BitVec 32 := 9#32
  let v236 : BitVec 32 := Scalar.addi v2 c9_i32_210
  let c32_i32_211 : BitVec 32 := 32#32
  let v237 : BitVec 32 := Scalar.remsi v236 c32_i32_211
  let c1_i32_214 : BitVec 32 := 1#32
  let v238 : BitVec 32 := Scalar.muli v237 c1_i32_214
  let v239 : BitVec 32 := Scalar.addi c0_i32_215 v238
  v239.toNat
def k0_dev41 (d0 : Dev nD) : Nat :=
  let c0_i32_225 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_220 : BitVec 32 := 10#32
  let v248 : BitVec 32 := Scalar.addi v2 c10_i32_220
  let c32_i32_221 : BitVec 32 := 32#32
  let v249 : BitVec 32 := Scalar.remsi v248 c32_i32_221
  let c1_i32_224 : BitVec 32 := 1#32
  let v250 : BitVec 32 := Scalar.muli v249 c1_i32_224
  let v251 : BitVec 32 := Scalar.addi c0_i32_225 v250
  v251.toNat
def k0_dev42 (d0 : Dev nD) : Nat :=
  let c0_i32_235 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_230 : BitVec 32 := 11#32
  let v260 : BitVec 32 := Scalar.addi v2 c11_i32_230
  let c32_i32_231 : BitVec 32 := 32#32
  let v261 : BitVec 32 := Scalar.remsi v260 c32_i32_231
  let c1_i32_234 : BitVec 32 := 1#32
  let v262 : BitVec 32 := Scalar.muli v261 c1_i32_234
  let v263 : BitVec 32 := Scalar.addi c0_i32_235 v262
  v263.toNat
def k0_dev43 (d0 : Dev nD) : Nat :=
  let c0_i32_245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_240 : BitVec 32 := 12#32
  let v272 : BitVec 32 := Scalar.addi v2 c12_i32_240
  let c32_i32_241 : BitVec 32 := 32#32
  let v273 : BitVec 32 := Scalar.remsi v272 c32_i32_241
  let c1_i32_244 : BitVec 32 := 1#32
  let v274 : BitVec 32 := Scalar.muli v273 c1_i32_244
  let v275 : BitVec 32 := Scalar.addi c0_i32_245 v274
  v275.toNat
def k0_dev44 (d0 : Dev nD) : Nat :=
  let c0_i32_255 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_250 : BitVec 32 := 13#32
  let v284 : BitVec 32 := Scalar.addi v2 c13_i32_250
  let c32_i32_251 : BitVec 32 := 32#32
  let v285 : BitVec 32 := Scalar.remsi v284 c32_i32_251
  let c1_i32_254 : BitVec 32 := 1#32
  let v286 : BitVec 32 := Scalar.muli v285 c1_i32_254
  let v287 : BitVec 32 := Scalar.addi c0_i32_255 v286
  v287.toNat
def k0_dev45 (d0 : Dev nD) : Nat :=
  let c0_i32_265 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_260 : BitVec 32 := 14#32
  let v296 : BitVec 32 := Scalar.addi v2 c14_i32_260
  let c32_i32_261 : BitVec 32 := 32#32
  let v297 : BitVec 32 := Scalar.remsi v296 c32_i32_261
  let c1_i32_264 : BitVec 32 := 1#32
  let v298 : BitVec 32 := Scalar.muli v297 c1_i32_264
  let v299 : BitVec 32 := Scalar.addi c0_i32_265 v298
  v299.toNat
def k0_dev46 (d0 : Dev nD) : Nat :=
  let c0_i32_275 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_270 : BitVec 32 := 15#32
  let v308 : BitVec 32 := Scalar.addi v2 c15_i32_270
  let c32_i32_271 : BitVec 32 := 32#32
  let v309 : BitVec 32 := Scalar.remsi v308 c32_i32_271
  let c1_i32_274 : BitVec 32 := 1#32
  let v310 : BitVec 32 := Scalar.muli v309 c1_i32_274
  let v311 : BitVec 32 := Scalar.addi c0_i32_275 v310
  v311.toNat
def k0_dev47 (d0 : Dev nD) : Nat :=
  let c0_i32_285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_280 : BitVec 32 := 16#32
  let v320 : BitVec 32 := Scalar.addi v2 c16_i32_280
  let c32_i32_281 : BitVec 32 := 32#32
  let v321 : BitVec 32 := Scalar.remsi v320 c32_i32_281
  let c1_i32_284 : BitVec 32 := 1#32
  let v322 : BitVec 32 := Scalar.muli v321 c1_i32_284
  let v323 : BitVec 32 := Scalar.addi c0_i32_285 v322
  v323.toNat
def k0_dev48 (d0 : Dev nD) : Nat :=
  let c0_i32_295 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_290 : BitVec 32 := 17#32
  let v332 : BitVec 32 := Scalar.addi v2 c17_i32_290
  let c32_i32_291 : BitVec 32 := 32#32
  let v333 : BitVec 32 := Scalar.remsi v332 c32_i32_291
  let c1_i32_294 : BitVec 32 := 1#32
  let v334 : BitVec 32 := Scalar.muli v333 c1_i32_294
  let v335 : BitVec 32 := Scalar.addi c0_i32_295 v334
  v335.toNat
def k0_dev49 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_300 : BitVec 32 := 18#32
  let v344 : BitVec 32 := Scalar.addi v2 c18_i32_300
  let c32_i32_301 : BitVec 32 := 32#32
  let v345 : BitVec 32 := Scalar.remsi v344 c32_i32_301
  let c1_i32_304 : BitVec 32 := 1#32
  let v346 : BitVec 32 := Scalar.muli v345 c1_i32_304
  let v347 : BitVec 32 := Scalar.addi c0_i32_305 v346
  v347.toNat
def k0_dev50 (d0 : Dev nD) : Nat :=
  let c0_i32_315 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_310 : BitVec 32 := 19#32
  let v356 : BitVec 32 := Scalar.addi v2 c19_i32_310
  let c32_i32_311 : BitVec 32 := 32#32
  let v357 : BitVec 32 := Scalar.remsi v356 c32_i32_311
  let c1_i32_314 : BitVec 32 := 1#32
  let v358 : BitVec 32 := Scalar.muli v357 c1_i32_314
  let v359 : BitVec 32 := Scalar.addi c0_i32_315 v358
  v359.toNat
def k0_dev51 (d0 : Dev nD) : Nat :=
  let c0_i32_325 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_320 : BitVec 32 := 20#32
  let v368 : BitVec 32 := Scalar.addi v2 c20_i32_320
  let c32_i32_321 : BitVec 32 := 32#32
  let v369 : BitVec 32 := Scalar.remsi v368 c32_i32_321
  let c1_i32_324 : BitVec 32 := 1#32
  let v370 : BitVec 32 := Scalar.muli v369 c1_i32_324
  let v371 : BitVec 32 := Scalar.addi c0_i32_325 v370
  v371.toNat
def k0_dev52 (d0 : Dev nD) : Nat :=
  let c0_i32_335 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_330 : BitVec 32 := 21#32
  let v380 : BitVec 32 := Scalar.addi v2 c21_i32_330
  let c32_i32_331 : BitVec 32 := 32#32
  let v381 : BitVec 32 := Scalar.remsi v380 c32_i32_331
  let c1_i32_334 : BitVec 32 := 1#32
  let v382 : BitVec 32 := Scalar.muli v381 c1_i32_334
  let v383 : BitVec 32 := Scalar.addi c0_i32_335 v382
  v383.toNat
def k0_dev53 (d0 : Dev nD) : Nat :=
  let c0_i32_345 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_340 : BitVec 32 := 22#32
  let v392 : BitVec 32 := Scalar.addi v2 c22_i32_340
  let c32_i32_341 : BitVec 32 := 32#32
  let v393 : BitVec 32 := Scalar.remsi v392 c32_i32_341
  let c1_i32_344 : BitVec 32 := 1#32
  let v394 : BitVec 32 := Scalar.muli v393 c1_i32_344
  let v395 : BitVec 32 := Scalar.addi c0_i32_345 v394
  v395.toNat
def k0_dev54 (d0 : Dev nD) : Nat :=
  let c0_i32_355 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_350 : BitVec 32 := 23#32
  let v404 : BitVec 32 := Scalar.addi v2 c23_i32_350
  let c32_i32_351 : BitVec 32 := 32#32
  let v405 : BitVec 32 := Scalar.remsi v404 c32_i32_351
  let c1_i32_354 : BitVec 32 := 1#32
  let v406 : BitVec 32 := Scalar.muli v405 c1_i32_354
  let v407 : BitVec 32 := Scalar.addi c0_i32_355 v406
  v407.toNat
def k0_dev55 (d0 : Dev nD) : Nat :=
  let c0_i32_365 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_360 : BitVec 32 := 24#32
  let v416 : BitVec 32 := Scalar.addi v2 c24_i32_360
  let c32_i32_361 : BitVec 32 := 32#32
  let v417 : BitVec 32 := Scalar.remsi v416 c32_i32_361
  let c1_i32_364 : BitVec 32 := 1#32
  let v418 : BitVec 32 := Scalar.muli v417 c1_i32_364
  let v419 : BitVec 32 := Scalar.addi c0_i32_365 v418
  v419.toNat
def k0_dev56 (d0 : Dev nD) : Nat :=
  let c0_i32_375 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_370 : BitVec 32 := 25#32
  let v428 : BitVec 32 := Scalar.addi v2 c25_i32_370
  let c32_i32_371 : BitVec 32 := 32#32
  let v429 : BitVec 32 := Scalar.remsi v428 c32_i32_371
  let c1_i32_374 : BitVec 32 := 1#32
  let v430 : BitVec 32 := Scalar.muli v429 c1_i32_374
  let v431 : BitVec 32 := Scalar.addi c0_i32_375 v430
  v431.toNat
def k0_dev57 (d0 : Dev nD) : Nat :=
  let c0_i32_385 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_380 : BitVec 32 := 26#32
  let v440 : BitVec 32 := Scalar.addi v2 c26_i32_380
  let c32_i32_381 : BitVec 32 := 32#32
  let v441 : BitVec 32 := Scalar.remsi v440 c32_i32_381
  let c1_i32_384 : BitVec 32 := 1#32
  let v442 : BitVec 32 := Scalar.muli v441 c1_i32_384
  let v443 : BitVec 32 := Scalar.addi c0_i32_385 v442
  v443.toNat
def k0_dev58 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_390 : BitVec 32 := 27#32
  let v452 : BitVec 32 := Scalar.addi v2 c27_i32_390
  let c32_i32_391 : BitVec 32 := 32#32
  let v453 : BitVec 32 := Scalar.remsi v452 c32_i32_391
  let c1_i32_394 : BitVec 32 := 1#32
  let v454 : BitVec 32 := Scalar.muli v453 c1_i32_394
  let v455 : BitVec 32 := Scalar.addi c0_i32_395 v454
  v455.toNat
def k0_dev59 (d0 : Dev nD) : Nat :=
  let c0_i32_405 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_400 : BitVec 32 := 28#32
  let v464 : BitVec 32 := Scalar.addi v2 c28_i32_400
  let c32_i32_401 : BitVec 32 := 32#32
  let v465 : BitVec 32 := Scalar.remsi v464 c32_i32_401
  let c1_i32_404 : BitVec 32 := 1#32
  let v466 : BitVec 32 := Scalar.muli v465 c1_i32_404
  let v467 : BitVec 32 := Scalar.addi c0_i32_405 v466
  v467.toNat
def k0_dev60 (d0 : Dev nD) : Nat :=
  let c0_i32_415 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_410 : BitVec 32 := 29#32
  let v476 : BitVec 32 := Scalar.addi v2 c29_i32_410
  let c32_i32_411 : BitVec 32 := 32#32
  let v477 : BitVec 32 := Scalar.remsi v476 c32_i32_411
  let c1_i32_414 : BitVec 32 := 1#32
  let v478 : BitVec 32 := Scalar.muli v477 c1_i32_414
  let v479 : BitVec 32 := Scalar.addi c0_i32_415 v478
  v479.toNat
def k0_dev61 (d0 : Dev nD) : Nat :=
  let c0_i32_425 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_420 : BitVec 32 := 30#32
  let v488 : BitVec 32 := Scalar.addi v2 c30_i32_420
  let c32_i32_421 : BitVec 32 := 32#32
  let v489 : BitVec 32 := Scalar.remsi v488 c32_i32_421
  let c1_i32_424 : BitVec 32 := 1#32
  let v490 : BitVec 32 := Scalar.muli v489 c1_i32_424
  let v491 : BitVec 32 := Scalar.addi c0_i32_425 v490
  v491.toNat
def k0_dev62 (d0 : Dev nD) : Nat :=
  let c0_i32_435 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_430 : BitVec 32 := 31#32
  let v500 : BitVec 32 := Scalar.addi v2 c31_i32_430
  let c32_i32_431 : BitVec 32 := 32#32
  let v501 : BitVec 32 := Scalar.remsi v500 c32_i32_431
  let c1_i32_434 : BitVec 32 := 1#32
  let v502 : BitVec 32 := Scalar.muli v501 c1_i32_434
  let v503 : BitVec 32 := Scalar.addi c0_i32_435 v502
  v503.toNat
def k0_off3 (d0 : Dev nD) (c1_i32_450 : BitVec 32) : Fin 3 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v522 : BitVec 32 := Scalar.subi v2 c1_i32_450
  let c32_i32_451 : BitVec 32 := 32#32
  let v523 : BitVec 32 := Scalar.addi v522 c32_i32_451
  let c32_i32_452 : BitVec 32 := 32#32
  let v524 : BitVec 32 := Scalar.remsi v523 c32_i32_452
  let c0_i32_457 : BitVec 32 := 0#32
  let c0_i32_458 : BitVec 32 := 0#32
  ![v524.toNat, 0, 0]
abbrev stage0_0 : Fin 1 → Memref sig .tc .vmem S4x512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

class Facts₀ : Prop where
  hamt_1 : (1#32 : BitVec 32).msb = false
  inb_S4x512x256_S4x512x256_0_0_0 : ∀ a, (![0, 0, 0] : Fin 3 → Nat) a + S4x512x256.size a ≤ S4x512x256.size a
  h_S4x512x256 : 0 < S4x512x256.numel
  shapeCasts_S4x512x256_S4x512x256 : S4x512x256.ShapeCasts S4x512x256
  reduces_S4x512x256_S4x512 : S4x512x256.Reduces [2] S4x512
  concatenates_S4x512_S4x512_S8x512_d0 : Shape.Concatenates [S4x512, S4x512] S8x512 0
  shapeCasts_S8x512_S1x8x512 : S8x512.ShapeCasts S1x8x512
  bitsLt_bf16_f32 : FTy.bits .bf16 < FTy.bits .f32
  h_S1x8x512 : 0 < S1x8x512.numel
  shapeCasts_S1x8x512_S1x8x512 : S1x8x512.ShapeCasts S1x8x512
  hamt_31 : (31#32 : BitVec 32).msb = false
  inb_S31_S1_0 : ∀ a, (![0] : Fin 1 → Nat) a + S1.size a ≤ S31.size a
  squeezes_S1_S_ : S1.Squeezes S_
  squeezes_S1x8x512_S8x512 : S1x8x512.Squeezes S8x512
  inb_S31_S1_1 : ∀ a, (![1] : Fin 1 → Nat) a + S1.size a ≤ S31.size a
  inb_S31_S1_2 : ∀ a, (![2] : Fin 1 → Nat) a + S1.size a ≤ S31.size a
  inb_S31_S1_3 : ∀ a, (![3] : Fin 1 → Nat) a + S1.size a ≤ S31.size a
  inb_S31_S1_4 : ∀ a, (![4] : Fin 1 → Nat) a + S1.size a ≤ S31.size a
  inb_S31_S1_5 : ∀ a, (![5] : Fin 1 → Nat) a + S1.size a ≤ S31.size a
  inb_S31_S1_6 : ∀ a, (![6] : Fin 1 → Nat) a + S1.size a ≤ S31.size a
  inb_S31_S1_7 : ∀ a, (![7] : Fin 1 → Nat) a + S1.size a ≤ S31.size a
  inb_S31_S1_8 : ∀ a, (![8] : Fin 1 → Nat) a + S1.size a ≤ S31.size a
  inb_S31_S1_9 : ∀ a, (![9] : Fin 1 → Nat) a + S1.size a ≤ S31.size a
  inb_S31_S1_10 : ∀ a, (![10] : Fin 1 → Nat) a + S1.size a ≤ S31.size a
  inb_S31_S1_11 : ∀ a, (![11] : Fin 1 → Nat) a + S1.size a ≤ S31.size a
  inb_S31_S1_12 : ∀ a, (![12] : Fin 1 → Nat) a + S1.size a ≤ S31.size a
  inb_S31_S1_13 : ∀ a, (![13] : Fin 1 → Nat) a + S1.size a ≤ S31.size a
  inb_S31_S1_14 : ∀ a, (![14] : Fin 1 → Nat) a + S1.size a ≤ S31.size a
  inb_S31_S1_15 : ∀ a, (![15] : Fin 1 → Nat) a + S1.size a ≤ S31.size a
  inb_S31_S1_16 : ∀ a, (![16] : Fin 1 → Nat) a + S1.size a ≤ S31.size a
  inb_S31_S1_17 : ∀ a, (![17] : Fin 1 → Nat) a + S1.size a ≤ S31.size a
  inb_S31_S1_18 : ∀ a, (![18] : Fin 1 → Nat) a + S1.size a ≤ S31.size a
  inb_S31_S1_19 : ∀ a, (![19] : Fin 1 → Nat) a + S1.size a ≤ S31.size a
  inb_S31_S1_20 : ∀ a, (![20] : Fin 1 → Nat) a + S1.size a ≤ S31.size a
  inb_S31_S1_21 : ∀ a, (![21] : Fin 1 → Nat) a + S1.size a ≤ S31.size a
  inb_S31_S1_22 : ∀ a, (![22] : Fin 1 → Nat) a + S1.size a ≤ S31.size a
  inb_S31_S1_23 : ∀ a, (![23] : Fin 1 → Nat) a + S1.size a ≤ S31.size a
  inb_S31_S1_24 : ∀ a, (![24] : Fin 1 → Nat) a + S1.size a ≤ S31.size a
  inb_S31_S1_25 : ∀ a, (![25] : Fin 1 → Nat) a + S1.size a ≤ S31.size a
  inb_S31_S1_26 : ∀ a, (![26] : Fin 1 → Nat) a + S1.size a ≤ S31.size a
  inb_S31_S1_27 : ∀ a, (![27] : Fin 1 → Nat) a + S1.size a ≤ S31.size a
  inb_S31_S1_28 : ∀ a, (![28] : Fin 1 → Nat) a + S1.size a ≤ S31.size a
  inb_S31_S1_29 : ∀ a, (![29] : Fin 1 → Nat) a + S1.size a ≤ S31.size a
  inb_S31_S1_30 : ∀ a, (![30] : Fin 1 → Nat) a + S1.size a ≤ S31.size a
  inb_S4x128_S4x128_0_0 : ∀ a, (![0, 0] : Fin 2 → Nat) a + S4x128.size a ≤ S4x128.size a
  h_S4x128 : 0 < S4x128.numel
  shapeCasts_S4x128_S4x128 : S4x128.ShapeCasts S4x128
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S32x8x512_S32x8x512_0_0_0 : ∀ a, (![0, 0, 0] : Fin 3 → Nat) a + S32x8x512.size a ≤ S32x8x512.size a
  h_S32x8x512 : 0 < S32x8x512.numel
  reduces_S32x8x512_S8x512 : S32x8x512.Reduces [0] S8x512
  slices_S8x512_o0_0_S4x512 : S8x512.Slices ![0, 0] S4x512
  slices_S8x512_o4_0_S4x512 : S8x512.Slices ![4, 0] S4x512
  shapeCasts_S4x512_S4x512x1 : S4x512.ShapeCasts S4x512x1
  broadcasts_S4x512x1_S4x512x256 : S4x512x1.Broadcasts S4x512x256
  shapeCasts_S4x256_S4x1x256 : S4x256.ShapeCasts S4x1x256
  broadcasts_S4x1x256_S4x512x256 : S4x1x256.Broadcasts S4x512x256
  dot_S4x128_S128x256_S4x256_1_0_0_1_n_n_wf : DotDims.WF S4x128 S128x256 S4x256 [1] [0] [0] [1] [] []
  hcc0_scratch1 : 5 + S31.numel ≤ 67
  hcc0_scratch2 : 36 + S31.numel ≤ 67
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_dev31_lt : ∀ d0 : Dev nD, (k0_dev31 d0) < nD
  k0_off1_inb : ∀ d0 : Dev nD, ∀ a, (k0_off1 d0) a + S1x8x512.size a ≤ S32x8x512.size a
  k0_off1_packedbf16 : ∀ d0 : Dev nD, (Rect.unit (s := S32x8x512) (k0_off1 d0) S1x8x512.size (k0_off1_inb d0)).PackedRows (EltTy.packing .bf16)
  k0_off2_inb : ∀ d0 : Dev nD, ∀ a, (k0_off2 d0) a + S1x8x512.size a ≤ S32x8x512.size a
  k0_off2_wordsbf16 : ∀ d0 : Dev nD, (Rect.unit (s := S32x8x512) (k0_off2 d0) S1x8x512.size (k0_off2_inb d0)).WholeWords (EltTy.packing .bf16)
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  k0_dev46_lt : ∀ d0 : Dev nD, (k0_dev46 d0) < nD
  k0_dev47_lt : ∀ d0 : Dev nD, (k0_dev47 d0) < nD
  k0_dev48_lt : ∀ d0 : Dev nD, (k0_dev48 d0) < nD
  k0_dev49_lt : ∀ d0 : Dev nD, (k0_dev49 d0) < nD
  k0_dev50_lt : ∀ d0 : Dev nD, (k0_dev50 d0) < nD
  k0_dev51_lt : ∀ d0 : Dev nD, (k0_dev51 d0) < nD
  k0_dev52_lt : ∀ d0 : Dev nD, (k0_dev52 d0) < nD
  k0_dev53_lt : ∀ d0 : Dev nD, (k0_dev53 d0) < nD
  k0_dev54_lt : ∀ d0 : Dev nD, (k0_dev54 d0) < nD
  k0_dev55_lt : ∀ d0 : Dev nD, (k0_dev55 d0) < nD
  k0_dev56_lt : ∀ d0 : Dev nD, (k0_dev56 d0) < nD
  k0_dev57_lt : ∀ d0 : Dev nD, (k0_dev57 d0) < nD
  k0_dev58_lt : ∀ d0 : Dev nD, (k0_dev58 d0) < nD
  k0_dev59_lt : ∀ d0 : Dev nD, (k0_dev59 d0) < nD
  k0_dev60_lt : ∀ d0 : Dev nD, (k0_dev60 d0) < nD
  k0_dev61_lt : ∀ d0 : Dev nD, (k0_dev61 d0) < nD
  k0_dev62_lt : ∀ d0 : Dev nD, (k0_dev62 d0) < nD
  k0_off3_inb : ∀ d0 : Dev nD, ∀ (r : Fin 31), ∀ a, (k0_off3 d0 (BitVec.ofNat 32 (1 + r.val))) a + S1x8x512.size a ≤ S32x8x512.size a
  k0_off3_wordsbf16 : ∀ d0 : Dev nD, ∀ (r : Fin 31), (Rect.unit (s := S32x8x512) (k0_off3 d0 (BitVec.ofNat 32 (1 + r.val))) S1x8x512.size (k0_off3_inb d0 r)).WholeWords (EltTy.packing .bf16)
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole

variable [Facts₀]

abbrev cc0_scratch1 : DmaSems sig S31 := SemArray.consecutive 5 S31 hcc0_scratch1
abbrev cc0_scratch2 : DmaSems sig S31 := SemArray.consecutive 36 S31 hcc0_scratch2
def dot_S4x128_S128x256_S4x256_1_0_0_1_n_n : DotDims S4x128 S128x256 S4x256 where
  lhsContracting := [1]
  rhsContracting := [0]
  lhsNonContracting := [0]
  rhsNonContracting := [1]
  lhsBatch := []
  rhsBatch := []
  wf := dot_S4x128_S128x256_S4x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_v1) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x8192 : Shape := ⟨3, ![4, 512, 8192]⟩
abbrev S4x128 : Shape := ⟨2, ![4, 128]⟩
abbrev S128x8192 : Shape := ⟨2, ![128, 8192]⟩
abbrev S_ : Shape := ⟨0, ![]⟩
abbrev S4x512 : Shape := ⟨2, ![4, 512]⟩
abbrev S4x512x1 : Shape := ⟨3, ![4, 512, 1]⟩
abbrev S4x8192 : Shape := ⟨2, ![4, 8192]⟩
abbrev S4x1x8192 : Shape := ⟨3, ![4, 1, 8192]⟩

abbrev nBuf : Space → Nat
  | .hbm => 53
  | .vmem => 0
  | .smem => 0
  | _ => 0

abbrev bufTy : (tb : Table) → Fin (tcTables nBuf tb) → BufTy
  | .hbm, ⟨0, _⟩ => ⟨S4x512x8192, .f32⟩
  | .hbm, ⟨1, _⟩ => ⟨S4x128, .f32⟩
  | .hbm, ⟨2, _⟩ => ⟨S128x8192, .f32⟩
  | .hbm, ⟨3, _⟩ => ⟨S128x8192, .f32⟩
  | .hbm, ⟨4, _⟩ => ⟨S_, .f32⟩
  | .hbm, ⟨5, _⟩ => ⟨S4x512, .f32⟩
  | .hbm, ⟨6, _⟩ => ⟨S4x512x1, .f32⟩
  | .hbm, ⟨7, _⟩ => ⟨S_, .f32⟩
  | .hbm, ⟨8, _⟩ => ⟨S4x512x1, .f32⟩
  | .hbm, ⟨9, _⟩ => ⟨S4x512x1, .f32⟩
  | .hbm, ⟨10, _⟩ => ⟨S_, .i32⟩
  | .hbm, ⟨11, _⟩ => ⟨S_, .f32⟩
  | .hbm, ⟨12, _⟩ => ⟨S4x512, .f32⟩
  | .hbm, ⟨13, _⟩ => ⟨S4x512x1, .f32⟩
  | .hbm, ⟨14, _⟩ => ⟨S_, .f32⟩
  | .hbm, ⟨15, _⟩ => ⟨S4x512x1, .f32⟩
  | .hbm, ⟨16, _⟩ => ⟨S4x512x1, .f32⟩
  | .hbm, ⟨17, _⟩ => ⟨S4x512x8192, .f32⟩
  | .hbm, ⟨18, _⟩ => ⟨S4x512x8192, .f32⟩
  | .hbm, ⟨19, _⟩ => ⟨S4x512x8192, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x512, .f32⟩
  | .hbm, ⟨25, _⟩ => ⟨S4x512x1, .f32⟩
  | .hbm, ⟨26, _⟩ => ⟨S4x512x1, .f32⟩
  | .hbm, ⟨27, _⟩ => ⟨S4x512x1, .f32⟩
  | .hbm, ⟨28, _⟩ => ⟨S_, .f32⟩
  | .hbm, ⟨29, _⟩ => ⟨S_, .i1⟩
  | .hbm, ⟨30, _⟩ => ⟨S_, .f32⟩
  | .hbm, ⟨31, _⟩ => ⟨S_, .f32⟩
  | .hbm, ⟨32, _⟩ => ⟨S4x512x1, .f32⟩
  | .hbm, ⟨33, _⟩ => ⟨S4x512x1, .f32⟩
  | .hbm, ⟨34, _⟩ => ⟨S4x512x8192, .f32⟩
  | .hbm, ⟨35, _⟩ => ⟨S4x512x8192, .f32⟩
  | .hbm, ⟨36, _⟩ => ⟨S_, .f32⟩
  | .hbm, ⟨37, _⟩ => ⟨S4x512x1, .f32⟩
  | .hbm, ⟨38, _⟩ => ⟨S4x512x1, .f32⟩
  | .hbm, ⟨39, _⟩ => ⟨S4x512x1, .f32⟩
  | .hbm, ⟨40, _⟩ => ⟨S4x512x8192, .f32⟩
  | .hbm, ⟨41, _⟩ => ⟨S4x512x8192, .f32⟩
  | .hbm, ⟨42, _⟩ => ⟨S4x8192, .f32⟩
  | .hbm, ⟨43, _⟩ => ⟨S4x8192, .f32⟩
  | .hbm, ⟨44, _⟩ => ⟨S4x1x8192, .f32⟩
  | .hbm, ⟨45, _⟩ => ⟨S_, .f32⟩
  | .hbm, ⟨46, _⟩ => ⟨S4x1x8192, .f32⟩
  | .hbm, ⟨47, _⟩ => ⟨S4x1x8192, .f32⟩
  | .hbm, ⟨48, _⟩ => ⟨S4x512x8192, .f32⟩
  | .hbm, ⟨49, _⟩ => ⟨S4x512x8192, .f32⟩
  | .hbm, ⟨50, _⟩ => ⟨S4x1x8192, .f32⟩
  | .hbm, ⟨51, _⟩ => ⟨S4x512x8192, .f32⟩
  | .hbm, ⟨52, _⟩ => ⟨S4x512x8192, .f32⟩
  | _, _ => ⟨S4x512x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_cst : Ref sig .tc := ⟨.hbm, 11, rfl⟩
abbrev main_call0_v0 : Ref sig .tc := ⟨.hbm, 12, rfl⟩
abbrev main_call0_v1 : Ref sig .tc := ⟨.hbm, 13, rfl⟩
abbrev main_call0_cst_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_cst_1 : Ref sig .tc := ⟨.hbm, 21, rfl⟩
abbrev main_call0_v8 : Ref sig .tc := ⟨.hbm, 22, rfl⟩
abbrev main_call0_cst_2 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_cst_3 : Ref sig .tc := ⟨.hbm, 28, rfl⟩
abbrev main_call0_v13 : Ref sig .tc := ⟨.hbm, 29, rfl⟩
abbrev main_call0_cst_4 : Ref sig .tc := ⟨.hbm, 30, rfl⟩
abbrev main_call0_call0_v0 : Ref sig .tc := ⟨.hbm, 31, rfl⟩
abbrev main_call0_call0_v1 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_cst_1 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_cst_2 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩

abbrev nD : Nat := 1
abbrev τ : Topo := Topo.v7x

variable {F : FTy → Type} [FloatOps F]

class Facts₀ : Prop where
  reducesTo_S4x512x8192_S4x512_d2 : S4x512x8192.ReducesTo [2] S4x512
  h_S_ : 0 < S_.numel
  bcast_S4x512_S4x512x1_0_1 : S4x512.BroadcastsInDim S4x512x1 (![0, 1] : Fin 2 → Fin S4x512x1.rank)
  bcast_S_S4x512x1 : S_.BroadcastsInDim S4x512x1 (![] : Fin 0 → Fin S4x512x1.rank)
  bcast_S4x512x1_S4x512x8192_0_1_2 : S4x512x1.BroadcastsInDim S4x512x8192 (![0, 1, 2] : Fin 3 → Fin S4x512x8192.rank)
  bcast_S4x8192_S4x1x8192_0_2 : S4x8192.BroadcastsInDim S4x1x8192 (![0, 2] : Fin 2 → Fin S4x1x8192.rank)
  bcast_S_S4x1x8192 : S_.BroadcastsInDim S4x1x8192 (![] : Fin 0 → Fin S4x1x8192.rank)
  bcast_S4x1x8192_S4x512x8192_0_1_2 : S4x1x8192.BroadcastsInDim S4x512x8192 (![0, 1, 2] : Fin 3 → Fin S4x512x8192.rank)
  dot_S4x128_S128x8192_S4x8192_1_0_0_1_n_n_wf : DotDims.WF S4x128 S128x8192 S4x8192 [1] [0] [0] [1] [] []

variable [Facts₀]

def dot_S4x128_S128x8192_S4x8192_1_0_0_1_n_n : DotDims S4x128 S128x8192 S4x8192 where
  lhsContracting := [1]
  rhsContracting := [0]
  lhsNonContracting := [0]
  rhsNonContracting := [1]
  lhsBatch := []
  rhsBatch := []
  wf := dot_S4x128_S128x8192_S4x8192_1_0_0_1_n_n_wf

class Facts : Prop extends Facts₀ where

variable [Facts]
-- ==== Proof.RefTerm.lean ====
/-
  The reference's result as a pure term of its four argument arrays: each host operation's
  function applied to the terms of its operands, in @main's order, the callee @_var (and the
  @_where it calls) inlined at its call site. Stages are named so that each can be read at an index.
-/
import proofs.«900770_g7700000000000771_dist_diff_adaln_cshard_i_b4_s512_c256_v7x_i32_bf16_1_alg».proof.ReferenceIdeal

noncomputable section

namespace Cert.RefTerm

open Cert.ReferenceIdeal Idealize.ShloMosaic
open Cert.ReferenceIdeal.Facts₀ Cert.ReferenceIdeal.Facts

variable {F : FTy → Type} [FloatOps F] [Cert.ReferenceIdeal.Facts]

/-- %0 … %3 of @main (and of @_var, whose first six lines are the same): the sum of each row
    over dimension 2 from 0, kept as a trailing unit dimension, divided by 8192. -/
def meanTerm (X : Vec F S4x512x8192 .f32) : Vec F S4x512x1 .f32 :=
  Host.divf
    (broadcastInDim S4x512x1 ![0, 1] bcast_S4x512_S4x512x1_0_1
      (Host.reduceAdd X (constant S_ .f32 0x00000000#32 : Vec F S_ .f32) reducesTo_S4x512x8192_S4x512_d2 h_S_))
    (broadcastInDim S4x512x1 ![] bcast_S_S4x512x1 (constant S_ .f32 0x46000000#32 : Vec F S_ .f32))

/-- %5 of @_var (equally %6 of @main): the argument less its row mean broadcast along dimension 2. -/
def centredTerm (X : Vec F S4x512x8192 .f32) : Vec F S4x512x8192 .f32 :=
  subf X (broadcastInDim S4x512x8192 ![0, 1, 2] bcast_S4x512x1_S4x512x8192_0_1_2 (meanTerm X))

/-- %8 of @_var: 8192 less the count correction (the i32 constant 0 of @main, converted). -/
def countTerm : Vec F S_ .f32 :=
  subf (constant S_ .f32 0x46000000#32 : Vec F S_ .f32) (sitofp .f32 (constantI S_ 32 0#32))

/-- %12 of @_var: the row sums of the squared centred argument, from 0, divided by the count. -/
def sumSqOverCountTerm (X : Vec F S4x512x8192 .f32) : Vec F S4x512x1 .f32 :=
  Host.divf
    (broadcastInDim S4x512x1 ![0, 1] bcast_S4x512_S4x512x1_0_1
      (Host.reduceAdd (mulf (centredTerm X) (centredTerm X)) (constant S_ .f32 0x00000000#32 : Vec F S_ .f32)
        reducesTo_S4x512x8192_S4x512_d2 h_S_))
    (broadcastInDim S4x512x1 ![] bcast_S_S4x512x1 (countTerm (F := F)))

/-- %4 of @main, the call's result (@_where's %2): where the count is positive the quotient,
    elsewhere the constant 0x7FC00000 broadcast. -/
def varTerm (X : Vec F S4x512x8192 .f32) : Vec F S4x512x1 .f32 :=
  select
    (broadcastInDim S4x512x1 ![] bcast_S_S4x512x1
      (cmpf .ogt (countTerm (F := F)) (constant S_ .f32 0x00000000#32 : Vec F S_ .f32)))
    (sumSqOverCountTerm X)
    (broadcastInDim S4x512x1 ![] bcast_S_S4x512x1
      (id (constant S_ .f32 0x7FC00000#32 : Vec F S_ .f32)))

/-- %11 of @main: the centred argument divided by the square root of the variance plus the
    constant 0x3727C5AC, broadcast along dimension 2. -/
def normTerm (X : Vec F S4x512x8192 .f32) : Vec F S4x512x8192 .f32 :=
  Host.divf (centredTerm X)
    (broadcastInDim S4x512x8192 ![0, 1, 2] bcast_S4x512x1_S4x512x8192_0_1_2
      (Host.sqrt (addf (varTerm X)
        (broadcastInDim S4x512x1 ![] bcast_S_S4x512x1 (constant S_ .f32 0x3727C5AC#32 : Vec F S_ .f32)))))

/-- %12 and %13 of @main: the contraction of T's dimension 1 with W's dimension 0. -/
def dotTerm (T : Vec F S4x128 .f32) (W : Vec F S128x8192 .f32) : Vec F S4x8192 .f32 :=
  Host.dotGeneral dot_S4x128_S128x8192_S4x8192_1_0_0_1_n_n none T W

/-- %17 of @main: one plus the scale product, as 4x1x8192, broadcast over dimension 1. -/
def scaleTerm (T : Vec F S4x128 .f32) (WS : Vec F S128x8192 .f32) : Vec F S4x512x8192 .f32 :=
  broadcastInDim S4x512x8192 ![0, 1, 2] bcast_S4x1x8192_S4x512x8192_0_1_2
    (addf (broadcastInDim S4x1x8192 ![] bcast_S_S4x1x8192 (constant S_ .f32 0x3F800000#32 : Vec F S_ .f32))
      (broadcastInDim S4x1x8192 ![0, 2] bcast_S4x8192_S4x1x8192_0_2 (dotTerm T WS)))

/-- %20 of @main: the shift product, as 4x1x8192, broadcast over dimension 1. -/
def shiftTerm (T : Vec F S4x128 .f32) (WB : Vec F S128x8192 .f32) : Vec F S4x512x8192 .f32 :=
  broadcastInDim S4x512x8192 ![0, 1, 2] bcast_S4x1x8192_S4x512x8192_0_1_2
    (broadcastInDim S4x1x8192 ![0, 2] bcast_S4x8192_S4x1x8192_0_2 (dotTerm T WB))

/-- %21 of @main, the reference's result: the normalised argument times the scale, plus the shift. -/
def refTerm (X : Vec F S4x512x8192 .f32) (T : Vec F S4x128 .f32) (WS WB : Vec F S128x8192 .f32) :
    Vec F S4x512x8192 .f32 :=
  addf (mulf (normTerm X) (scaleTerm T WS)) (shiftTerm T WB)

end Cert.RefTerm

end
-- ==== Proof.RefRun.lean ====
/-
  The reference's run. The reference is a straight line of host tensor operations with one call
  (the variance of each row, which itself calls an elementwise choice): with the callee's
  operations written at the call site over the call's own buffers, the program is a list of 49
  operations run in order, and every weakly fair execution of it terminates with the result
  buffer at the composed pure term of the four arguments (Cert.RefTerm.refTerm) and the
  arguments unchanged.
-/
import proofs.«900770_g7700000000000771_dist_diff_adaln_cshard_i_b4_s512_c256_v7x_i32_bf16_1_alg».proof.Proof.RefTerm
import proofs.«900770_g7700000000000771_dist_diff_adaln_cshard_i_b4_s512_c256_v7x_i32_bf16_1_alg».proof.Proof.Gen.ReferenceIdeal
import Idealize.ShloMosaic.Lib.StableHlo.Run

noncomputable section

namespace Cert.RefRun

open Cert.ReferenceIdeal Idealize.ShloMosaic Idealize.ShloMosaic.TcCoe Idealize.SL.Sem Idealize.ShloMosaic.StableHlo
open Cert.ReferenceIdeal.Facts₀ Cert.ReferenceIdeal.Facts

variable {F : FTy → Type} [FloatOps F]

/-- The program's 49 operations in order: seven of its own (the row means and the integer
    zero), the twenty of the variance written over the call's buffers, the three of the choice
    it calls (its last writes the call's result), then the nineteen that normalise, scale and
    shift. -/
abbrev ops : List (HloOp τ sig (Elt F)) :=
  [ nullary main_cst (constant S_ .f32 0x00000000#32),
    binary main_arg0 main_cst main_v0 ((fun x v => Host.reduceAdd x v reducesTo_S4x512x8192_S4x512_d2 h_S_) : (⟨S4x512x8192, .f32⟩ : BufTy).Contents (Elt F) → (⟨S_, .f32⟩ : BufTy).Contents (Elt F) → (⟨S4x512, .f32⟩ : BufTy).Contents (Elt F)),
    unary main_v0 main_v1 (broadcastInDim S4x512x1 ![0, 1] bcast_S4x512_S4x512x1_0_1 : (⟨S4x512, .f32⟩ : BufTy).Contents (Elt F) → (⟨S4x512x1, .f32⟩ : BufTy).Contents (Elt F)),
    nullary main_cst_0 (constant S_ .f32 0x46000000#32),
    unary main_cst_0 main_v2 (broadcastInDim S4x512x1 ![] bcast_S_S4x512x1 : (⟨S_, .f32⟩ : BufTy).Contents (Elt F) → (⟨S4x512x1, .f32⟩ : BufTy).Contents (Elt F)),
    binary main_v1 main_v2 main_v3 (Host.divf : (⟨S4x512x1, .f32⟩ : BufTy).Contents (Elt F) → (⟨S4x512x1, .f32⟩ : BufTy).Contents (Elt F) → (⟨S4x512x1, .f32⟩ : BufTy).Contents (Elt F)),
    nullary main_c (constantI S_ 32 0#32),
    TRef.nullary main_call0.cst (constant S_ .f32 0x00000000#32),
    TRef.binary (.of main_arg0) main_call0.cst main_call0.v0 (fun x v => Host.reduceAdd x v reducesTo_S4x512x8192_S4x512_d2 h_S_),
    TRef.unary main_call0.v0 main_call0.v1 (broadcastInDim S4x512x1 ![0, 1] bcast_S4x512_S4x512x1_0_1),
    TRef.nullary main_call0.cst_0 (constant S_ .f32 0x46000000#32),
    TRef.unary main_call0.cst_0 main_call0.v2 (broadcastInDim S4x512x1 ![] bcast_S_S4x512x1),
    TRef.binary main_call0.v1 main_call0.v2 main_call0.v3 Host.divf,
    TRef.unary main_call0.v3 main_call0.v4 (broadcastInDim S4x512x8192 ![0, 1, 2] bcast_S4x512x1_S4x512x8192_0_1_2),
    TRef.binary (.of main_arg0) main_call0.v4 main_call0.v5 subf,
    TRef.binary main_call0.v5 main_call0.v5 main_call0.v6 mulf,
    TRef.unary (.of main_c) main_call0.v7 (sitofp .f32),
    TRef.nullary main_call0.cst_1 (constant S_ .f32 0x46000000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S4x512x8192_S4x512_d2 h_S_),
    TRef.unary main_call0.v9 main_call0.v10 (broadcastInDim S4x512x1 ![0, 1] bcast_S4x512_S4x512x1_0_1),
    TRef.unary main_call0.v8 main_call0.v11 (broadcastInDim S4x512x1 ![] bcast_S_S4x512x1),
    TRef.binary main_call0.v10 main_call0.v11 main_call0.v12 Host.divf,
    TRef.nullary main_call0.cst_3 (constant S_ .f32 0x00000000#32),
    TRef.binary main_call0.v8 main_call0.cst_3 main_call0.v13 (cmpf .ogt),
    TRef.nullary main_call0.cst_4 (constant S_ .f32 0x7FC00000#32),
    TRef.unary main_call0.cst_4 main_call0.call0.v0 id,
    TRef.unary main_call0.call0.v0 main_call0.call0.v1 (broadcastInDim S4x512x1 ![] bcast_S_S4x512x1),
    TRef.ternary main_call0.v13 main_call0.v12 main_call0.call0.v1 main_call0.call0.v2 (fun p a b => select (broadcastInDim S4x512x1 ![] bcast_S_S4x512x1 p) a b),
    unary main_v3 main_v5 (broadcastInDim S4x512x8192 ![0, 1, 2] bcast_S4x512x1_S4x512x8192_0_1_2 : (⟨S4x512x1, .f32⟩ : BufTy).Contents (Elt F) → (⟨S4x512x8192, .f32⟩ : BufTy).Contents (Elt F)),
    binary main_arg0 main_v5 main_v6 (subf : (⟨S4x512x8192, .f32⟩ : BufTy).Contents (Elt F) → (⟨S4x512x8192, .f32⟩ : BufTy).Contents (Elt F) → (⟨S4x512x8192, .f32⟩ : BufTy).Contents (Elt F)),
    nullary main_cst_1 (constant S_ .f32 0x3727C5AC#32),
    unary main_cst_1 main_v7 (broadcastInDim S4x512x1 ![] bcast_S_S4x512x1 : (⟨S_, .f32⟩ : BufTy).Contents (Elt F) → (⟨S4x512x1, .f32⟩ : BufTy).Contents (Elt F)),
    binary main_v4 main_v7 main_v8 (addf : (⟨S4x512x1, .f32⟩ : BufTy).Contents (Elt F) → (⟨S4x512x1, .f32⟩ : BufTy).Contents (Elt F) → (⟨S4x512x1, .f32⟩ : BufTy).Contents (Elt F)),
    unary main_v8 main_v9 (Host.sqrt : (⟨S4x512x1, .f32⟩ : BufTy).Contents (Elt F) → (⟨S4x512x1, .f32⟩ : BufTy).Contents (Elt F)),
    unary main_v9 main_v10 (broadcastInDim S4x512x8192 ![0, 1, 2] bcast_S4x512x1_S4x512x8192_0_1_2 : (⟨S4x512x1, .f32⟩ : BufTy).Contents (Elt F) → (⟨S4x512x8192, .f32⟩ : BufTy).Contents (Elt F)),
    binary main_v6 main_v10 main_v11 (Host.divf : (⟨S4x512x8192, .f32⟩ : BufTy).Contents (Elt F) → (⟨S4x512x8192, .f32⟩ : BufTy).Contents (Elt F) → (⟨S4x512x8192, .f32⟩ : BufTy).Contents (Elt F)),
    binary main_arg1 main_arg2 main_v12 ((fun l r => Host.dotGeneral dot_S4x128_S128x8192_S4x8192_1_0_0_1_n_n none l r) : (⟨S4x128, .f32⟩ : BufTy).Contents (Elt F) → (⟨S128x8192, .f32⟩ : BufTy).Contents (Elt F) → (⟨S4x8192, .f32⟩ : BufTy).Contents (Elt F)),
    binary main_arg1 main_arg3 main_v13 ((fun l r => Host.dotGeneral dot_S4x128_S128x8192_S4x8192_1_0_0_1_n_n none l r) : (⟨S4x128, .f32⟩ : BufTy).Contents (Elt F) → (⟨S128x8192, .f32⟩ : BufTy).Contents (Elt F) → (⟨S4x8192, .f32⟩ : BufTy).Contents (Elt F)),
    unary main_v12 main_v14 (broadcastInDim S4x1x8192 ![0, 2] bcast_S4x8192_S4x1x8192_0_2 : (⟨S4x8192, .f32⟩ : BufTy).Contents (Elt F) → (⟨S4x1x8192, .f32⟩ : BufTy).Contents (Elt F)),
    nullary main_cst_2 (constant S_ .f32 0x3F800000#32),
    unary main_cst_2 main_v15 (broadcastInDim S4x1x8192 ![] bcast_S_S4x1x8192 : (⟨S_, .f32⟩ : BufTy).Contents (Elt F) → (⟨S4x1x8192, .f32⟩ : BufTy).Contents (Elt F)),
    binary main_v15 main_v14 main_v16 (addf : (⟨S4x1x8192, .f32⟩ : BufTy).Contents (Elt F) → (⟨S4x1x8192, .f32⟩ : BufTy).Contents (Elt F) → (⟨S4x1x8192, .f32⟩ : BufTy).Contents (Elt F)),
    unary main_v16 main_v17 (broadcastInDim S4x512x8192 ![0, 1, 2] bcast_S4x1x8192_S4x512x8192_0_1_2 : (⟨S4x1x8192, .f32⟩ : BufTy).Contents (Elt F) → (⟨S4x512x8192, .f32⟩ : BufTy).Contents (Elt F)),
    binary main_v11 main_v17 main_v18 (mulf : (⟨S4x512x8192, .f32⟩ : BufTy).Contents (Elt F) → (⟨S4x512x8192, .f32⟩ : BufTy).Contents (Elt F) → (⟨S4x512x8192, .f32⟩ : BufTy).Contents (Elt F)),
    unary main_v13 main_v19 (broadcastInDim S4x1x8192 ![0, 2] bcast_S4x8192_S4x1x8192_0_2 : (⟨S4x8192, .f32⟩ : BufTy).Contents (Elt F) → (⟨S4x1x8192, .f32⟩ : BufTy).Contents (Elt F)),
    unary main_v19 main_v20 (broadcastInDim S4x512x8192 ![0, 1, 2] bcast_S4x1x8192_S4x512x8192_0_1_2 : (⟨S4x1x8192, .f32⟩ : BufTy).Contents (Elt F) → (⟨S4x512x8192, .f32⟩ : BufTy).Contents (Elt F)),
    binary main_v18 main_v20 main_v21 (addf : (⟨S4x512x8192, .f32⟩ : BufTy).Contents (Elt F) → (⟨S4x512x8192, .f32⟩ : BufTy).Contents (Elt F) → (⟨S4x512x8192, .f32⟩ : BufTy).Contents (Elt F)) ]

-- forty-nine binds re-associated: the rewrite under the chain recurses once per statement
set_option maxRecDepth 2048 in
/-- The program is that straight line: the two callees' definitions unfolded at their calls, both
    sides are one chain of steps once sequencing is re-associated. -/
theorem main_eq (c : Dev nD) : main (F := F) c = seq ops := by
  simp only [main, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., unary_bufs_sub .., binary_bufs_sub .., nullary_bufs_sub ..,
    binary_bufs_sub .., nullary_bufs_sub ..,
    unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., binary_bufs_sub .., binary_bufs_sub .., unary_bufs_sub .., nullary_bufs_sub ..,
    unary_bufs_sub .., binary_bufs_sub .., unary_bufs_sub .., binary_bufs_sub .., unary_bufs_sub .., unary_bufs_sub ..,
    binary_bufs_sub ..⟩

attribute [local irreducible] Host.reduceAdd in
set_option maxRecDepth 8192 in
set_option maxHeartbeats 800000 in
/-- What the result buffer holds after the line, from any contents: the composed term of the
    four arguments' contents. The fold unrolled, each operation's result decides whether the
    buffer read is the one it writes; the sums and the contractions are kept folded meanwhile. -/
theorem out_eq (V : Valuation τ sig (Elt F)) :
    after ops V (Proc.devRef .tc main_v21)
      = Cert.RefTerm.refTerm (V (Proc.devRef .tc main_arg0)) (V (Proc.devRef .tc main_arg1))
          (V (Proc.devRef .tc main_arg2)) (V (Proc.devRef .tc main_arg3)) := by
  simp only [after_cons, after_nil]
  rfl

set_option maxRecDepth 8192 in
theorem arg0_eq (V : Valuation τ sig (Elt F)) :
    after ops V (Proc.devRef .tc main_arg0) = V (Proc.devRef .tc main_arg0) := by
  simp only [after_cons, after_nil]
  rfl

set_option maxRecDepth 8192 in
theorem arg1_eq (V : Valuation τ sig (Elt F)) :
    after ops V (Proc.devRef .tc main_arg1) = V (Proc.devRef .tc main_arg1) := by
  simp only [after_cons, after_nil]
  rfl

set_option maxRecDepth 8192 in
theorem arg2_eq (V : Valuation τ sig (Elt F)) :
    after ops V (Proc.devRef .tc main_arg2) = V (Proc.devRef .tc main_arg2) := by
  simp only [after_cons, after_nil]
  rfl

set_option maxRecDepth 8192 in
theorem arg3_eq (V : Valuation τ sig (Elt F)) :
    after ops V (Proc.devRef .tc main_arg3) = V (Proc.devRef .tc main_arg3) := by
  simp only [after_cons, after_nil]
  rfl

/-- On the one device, for any float values, from any memory with zero counters: every weakly fair
    execution of the reference terminates with the result at the composed term of the arguments'
    launch contents and the four arguments unchanged. -/
theorem run (m' : (ℓ : Loc Cert.ReferenceIdeal.nD Cert.ReferenceIdeal.τ Cert.ReferenceIdeal.sig) → Buf (Elt F) ℓ)
    (ρ' : Dev Cert.ReferenceIdeal.nD → PrngReg) :
    θ_run (Cert.ReferenceIdeal.defs (F := F)) (onTc (τ := Cert.ReferenceIdeal.τ) (Cert.ReferenceIdeal.main (F := F))) ⟨m', fun _ => 0, ρ'⟩
      (fun r => ∀ c : Dev Cert.ReferenceIdeal.nD,
        r.2.mem ((c.tc : Thread Cert.ReferenceIdeal.nD Cert.ReferenceIdeal.τ).loc Cert.ReferenceIdeal.main_v21)
            = Cert.RefTerm.refTerm (m' ((c.tc : Thread Cert.ReferenceIdeal.nD Cert.ReferenceIdeal.τ).loc Cert.ReferenceIdeal.main_arg0))
                (m' ((c.tc : Thread Cert.ReferenceIdeal.nD Cert.ReferenceIdeal.τ).loc Cert.ReferenceIdeal.main_arg1))
                (m' ((c.tc : Thread Cert.ReferenceIdeal.nD Cert.ReferenceIdeal.τ).loc Cert.ReferenceIdeal.main_arg2))
                (m' ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)) :=
  (θ_run defs _ _).mono (fun _ h c => ⟨(h c main_v21).trans (out_eq _),
      (h c main_arg0).trans (arg0_eq _), (h c main_arg1).trans (arg1_eq _),
      (h c main_arg2).trans (arg2_eq _), (h c main_arg3).trans (arg3_eq _)⟩)
    (run_seq scopedRefs_eq scopedSems_eq defs main (fun _ => ops) main_eq (fun _ => ops_sub) m' ρ')

end Cert.RefRun

end
-- ==== Proof.Spec.lean ====
/-
  The function both programs compute, index by index, over the whole arrays.

  For an input `X` of shape [4, 512, 8192], a conditioning vector `T` of shape [4, 128] and two weight matrices
  of shape [128, 8192]: every row (b, s) of `X` is normalized by its own mean and variance over the 8192 channels
  (variance as the mean squared deviation, with 1e-5 added under the square root), then multiplied by one plus the
  product `T · WS` at (b, channel) and shifted by the product `T · WB` at (b, channel).
-/
import Idealize.ShloMosaic.PureOps.Ideal
import Idealize.ShloMosaic.Lib.ValueIdx

noncomputable section

namespace Cert.Spec

open Idealize.ShloMosaic Idealize.ShloMosaic.ValueIdx

abbrev SX : Shape := ⟨3, ![4, 512, 8192]⟩
abbrev ST : Shape := ⟨2, ![4, 128]⟩
abbrev SW : Shape := ⟨2, ![128, 8192]⟩

/-- The float literals of both programs, as the same words. -/
def eps : EReal := Ideal.ofBits .f32 0x3727C5AC#32
def cnt : EReal := Ideal.ofBits .f32 0x46000000#32
def one : EReal := Ideal.ofBits .f32 0x3F800000#32

/-- The mean of row (b, s) over the channels. -/
def mean (X : SX.Idx → EReal) (b : Fin 4) (s : Fin 512) : EReal :=
  Ideal.div (∑ j : Fin 8192, X (ix3 b s j)) cnt

/-- The variance of row (b, s): the mean of the squared deviations from the row's mean. -/
def var (X : SX.Idx → EReal) (b : Fin 4) (s : Fin 512) : EReal :=
  Ideal.div (∑ j : Fin 8192, (X (ix3 b s j) - mean X b s) * (X (ix3 b s j) - mean X b s)) cnt

/-- The product of the conditioning vector with a weight matrix at (b, channel). -/
def proj (T : ST.Idx → EReal) (W : SW.Idx → EReal) (b : Fin 4) (j : Fin 8192) : EReal :=
  ∑ k : Fin 128, T (ix2 b k) * W (ix2 k j)

/-- The result at (b, s, channel). -/
def G (X : SX.Idx → EReal) (T : ST.Idx → EReal) (WS WB : SW.Idx → EReal) : SX.Idx → EReal := fun i =>
  Ideal.div (X i - mean X (i 0) (i 1)) (Ideal.sqrt (var X (i 0) (i 1) + eps)) * (one + proj T WS (i 0) (i 2))
    + proj T WB (i 0) (i 2)

end Cert.Spec

end
-- ==== Proof.RefVal.lean ====
/-
  The reference's result, read at an index, is the specification's function G.

  Each stage of the reference's composed term is read at explicit coordinates (b, s, channel): a row sum from the
  zero word is the sum over the channel coordinate; a broadcast reads its operand at the coordinates it keeps; the
  variance's count 8192 − 0 is 8192, it is positive, and so the select takes the quotient; a product of the
  conditioning vector with a weight matrix is the sum over the contracted coordinate.
-/
import proofs.«900770_g7700000000000771_dist_diff_adaln_cshard_i_b4_s512_c256_v7x_i32_bf16_1_alg».proof.Proof.Spec
import proofs.«900770_g7700000000000771_dist_diff_adaln_cshard_i_b4_s512_c256_v7x_i32_bf16_1_alg».proof.Proof.RefTerm
import Idealize.ShloMosaic.PureOps.Ideal.Laws
import Idealize.ShloMosaic.Lib.ValueIdx
import Idealize.ShloMosaic.Lib.Pipeline.Value

noncomputable section

namespace Cert.RefVal

open Cert.ReferenceIdeal Cert.RefTerm Idealize.ShloMosaic Idealize.ShloMosaic.ValueIdx
open Cert.ReferenceIdeal.Facts₀ Cert.ReferenceIdeal.Facts

/-! ## The literals -/

/-- The word 0x46000000 denotes 8192 = 2²³ · 2⁻¹⁰. -/
theorem cnt_eq : Ideal.ofBits .f32 0x46000000#32 = ((8192 : ℝ) : EReal) := by
  simp [Ideal.ofBits, Ideal.ieee]
  rw [← EReal.coe_mul, EReal.coe_eq_coe_iff]
  norm_num

/-- 8192 is positive. -/
theorem cnt_pos : (0 : EReal) < Ideal.ofBits .f32 0x46000000#32 := by
  rw [cnt_eq]
  exact EReal.coe_pos.mpr (by norm_num)

/-! ## Indices -/

/-- Dropping the channel axis of [4, 512, 8192] leaves [4, 512]. -/
theorem redX : S4x512x8192.Reduces [2] S4x512 := by decide

/-- Row (b, s) with the channel coordinate k inserted is (b, s, k). -/
theorem lift_eq (b : Fin 4) (s : Fin 512) (k : Fin 8192) : redX.lift (ix2 b s) k = ix3 b s k := by
  funext a; apply Fin.ext
  match a with
  | ⟨0, _⟩ => rfl
  | ⟨1, _⟩ => rfl
  | ⟨2, _⟩ => rfl

section
variable [Cert.ReferenceIdeal.Facts]

/-! ## The broadcasts, each read at explicit coordinates -/

/-- A scalar broadcast to any shape reads the scalar. -/
theorem bcastScalar_apply {α : Type} {t : Shape} (h : S_.BroadcastsInDim t ![]) (x : S_.Idx → α) (j : t.Idx) :
    broadcastInDim t ![] h x j = x ix0 :=
  broadcastInDim_apply _ _ _ _ _ (fun a => a.elim0)

/-- [4, 512] as [4, 512, 1]. -/
theorem bcastRow_apply {α : Type} (x : S4x512.Idx → α) (b : Fin 4) (s : Fin 512) (z : Fin 1) :
    broadcastInDim S4x512x1 ![0, 1] bcast_S4x512_S4x512x1_0_1 x (ix3 b s z) = x (ix2 b s) :=
  broadcastInDim_apply _ _ _ _ _ (fun a => by
    match a with
    | ⟨0, _⟩ => rfl
    | ⟨1, _⟩ => rfl)

/-- [4, 512, 1] along the channels. -/
theorem bcastCol_apply {α : Type} (x : S4x512x1.Idx → α) (b : Fin 4) (s : Fin 512) (j : Fin 8192) :
    broadcastInDim S4x512x8192 ![0, 1, 2] bcast_S4x512x1_S4x512x8192_0_1_2 x (ix3 b s j) = x (ix3 b s 0) :=
  broadcastInDim_apply _ _ _ _ _ (fun a => by
    match a with
    | ⟨0, _⟩ => rfl
    | ⟨1, _⟩ => rfl
    | ⟨2, _⟩ => rfl)

/-- [4, 8192] as [4, 1, 8192]. -/
theorem bcastMid_apply {α : Type} (x : S4x8192.Idx → α) (b : Fin 4) (z : Fin 1) (j : Fin 8192) :
    broadcastInDim S4x1x8192 ![0, 2] bcast_S4x8192_S4x1x8192_0_2 x (ix3 b z j) = x (ix2 b j) :=
  broadcastInDim_apply _ _ _ _ _ (fun a => by
    match a with
    | ⟨0, _⟩ => rfl
    | ⟨1, _⟩ => rfl)

/-- [4, 1, 8192] down the rows. -/
theorem bcastRows_apply {α : Type} (x : S4x1x8192.Idx → α) (b : Fin 4) (s : Fin 512) (j : Fin 8192) :
    broadcastInDim S4x512x8192 ![0, 1, 2] bcast_S4x1x8192_S4x512x8192_0_1_2 x (ix3 b s j) = x (ix3 b 0 j) :=
  broadcastInDim_apply _ _ _ _ _ (fun a => by
    match a with
    | ⟨0, _⟩ => rfl
    | ⟨1, _⟩ => rfl
    | ⟨2, _⟩ => rfl)

/-! ## The row sum -/

/-- A row sum from the zero word is the sum over the channel coordinate. -/
theorem rowSum_apply (Y : S4x512x8192.Idx → EReal) (b : Fin 4) (s : Fin 512) :
    Host.reduceAdd (F := Ideal) (φ := .f32) Y (constant (F := Ideal) S_ .f32 0x00000000#32)
        reducesTo_S4x512x8192_S4x512_d2 h_S_ (ix2 b s)
      = ∑ j : Fin 8192, Y (ix3 b s j) := by
  show Ideal.hostReduceAdd reducesTo_S4x512x8192_S4x512_d2 Y (Ideal.ofBits .f32 0x00000000#32) (ix2 b s) = _
  rw [Ideal.hostReduceAdd_single _ redX, Ideal.ofBits_zero_f32, zero_add]
  exact Finset.sum_congr rfl fun k _ => congrArg Y (lift_eq b s k)

/-! ## The stages -/

/-- The row mean, kept as a trailing unit coordinate. -/
theorem meanTerm_apply (X : Cert.Spec.SX.Idx → EReal) (b : Fin 4) (s : Fin 512) (z : Fin 1) :
    meanTerm (F := Ideal) X (ix3 b s z) = Cert.Spec.mean X b s := by
  unfold meanTerm
  show Ideal.div
      (broadcastInDim S4x512x1 ![0, 1] bcast_S4x512_S4x512x1_0_1
        (Host.reduceAdd (F := Ideal) (φ := .f32) X (constant (F := Ideal) S_ .f32 0x00000000#32)
          reducesTo_S4x512x8192_S4x512_d2 h_S_) (ix3 b s z))
      (broadcastInDim S4x512x1 ![] bcast_S_S4x512x1 (constant (F := Ideal) S_ .f32 0x46000000#32) (ix3 b s z)) = _
  rw [bcastRow_apply, rowSum_apply, bcastScalar_apply]
  rfl

/-- The argument less its row mean. -/
theorem centredTerm_apply (X : Cert.Spec.SX.Idx → EReal) (b : Fin 4) (s : Fin 512) (j : Fin 8192) :
    centredTerm (F := Ideal) X (ix3 b s j) = X (ix3 b s j) - Cert.Spec.mean X b s := by
  unfold centredTerm
  show X (ix3 b s j)
      - broadcastInDim S4x512x8192 ![0, 1, 2] bcast_S4x512x1_S4x512x8192_0_1_2 (meanTerm (F := Ideal) X) (ix3 b s j) = _
  rw [bcastCol_apply, meanTerm_apply]

/-- The count: 8192 less the converted integer 0 is 8192. -/
theorem countTerm_apply (i : S_.Idx) : countTerm (F := Ideal) i = Cert.Spec.cnt := by
  show Ideal.ofBits .f32 0x46000000#32 - (((0#32 : BitVec 32).toInt : ℝ) : EReal) = Cert.Spec.cnt
  simp [Cert.Spec.cnt]

/-- The count is positive: the comparison's bit is 1. -/
theorem countPos_apply (i : S_.Idx) :
    cmpf .ogt (countTerm (F := Ideal)) (constant (F := Ideal) S_ .f32 0x00000000#32) i = 1#1 := by
  show Ideal.cmp .ogt (countTerm (F := Ideal) i) (Ideal.ofBits .f32 0x00000000#32) = 1#1
  rw [countTerm_apply, Ideal.ofBits_zero_f32]
  simp [Ideal.cmp, Cert.Spec.cnt, cnt_pos]

/-- The row sum of the squared deviations, divided by the count: the variance. -/
theorem sumSqOverCountTerm_apply (X : Cert.Spec.SX.Idx → EReal) (b : Fin 4) (s : Fin 512) (z : Fin 1) :
    sumSqOverCountTerm (F := Ideal) X (ix3 b s z) = Cert.Spec.var X b s := by
  unfold sumSqOverCountTerm
  show Ideal.div
      (broadcastInDim S4x512x1 ![0, 1] bcast_S4x512_S4x512x1_0_1
        (Host.reduceAdd (F := Ideal) (φ := .f32) (mulf (centredTerm (F := Ideal) X) (centredTerm (F := Ideal) X))
          (constant (F := Ideal) S_ .f32 0x00000000#32) reducesTo_S4x512x8192_S4x512_d2 h_S_) (ix3 b s z))
      (broadcastInDim S4x512x1 ![] bcast_S_S4x512x1 (countTerm (F := Ideal)) (ix3 b s z)) = _
  rw [bcastRow_apply, rowSum_apply, bcastScalar_apply, countTerm_apply]
  unfold Cert.Spec.var
  refine congrArg (fun t => Ideal.div t Cert.Spec.cnt) (Finset.sum_congr rfl fun j _ => ?_)
  show centredTerm (F := Ideal) X (ix3 b s j) * centredTerm (F := Ideal) X (ix3 b s j) = _
  rw [centredTerm_apply]

/-- The select on the positive count takes the variance. -/
theorem varTerm_apply (X : Cert.Spec.SX.Idx → EReal) (b : Fin 4) (s : Fin 512) (z : Fin 1) :
    varTerm (F := Ideal) X (ix3 b s z) = Cert.Spec.var X b s := by
  unfold varTerm
  rw [select_apply, bcastScalar_apply, countPos_apply, select_one, sumSqOverCountTerm_apply]

/-- The normalized argument. -/
theorem normTerm_apply (X : Cert.Spec.SX.Idx → EReal) (b : Fin 4) (s : Fin 512) (j : Fin 8192) :
    normTerm (F := Ideal) X (ix3 b s j)
      = Ideal.div (X (ix3 b s j) - Cert.Spec.mean X b s) (Ideal.sqrt (Cert.Spec.var X b s + Cert.Spec.eps)) := by
  unfold normTerm
  show Ideal.div (centredTerm (F := Ideal) X (ix3 b s j))
      (broadcastInDim S4x512x8192 ![0, 1, 2] bcast_S4x512x1_S4x512x8192_0_1_2
        (Host.sqrt (addf (varTerm (F := Ideal) X)
          (broadcastInDim S4x512x1 ![] bcast_S_S4x512x1 (constant (F := Ideal) S_ .f32 0x3727C5AC#32)))) (ix3 b s j)) = _
  rw [centredTerm_apply, bcastCol_apply]
  show Ideal.div _ (Ideal.sqrt (varTerm (F := Ideal) X (ix3 b s 0)
      + broadcastInDim S4x512x1 ![] bcast_S_S4x512x1 (constant (F := Ideal) S_ .f32 0x3727C5AC#32) (ix3 b s 0))) = _
  rw [varTerm_apply, bcastScalar_apply]
  rfl

/-! ## The two products -/

/-- The left operand's row coordinate is the result's row coordinate. -/
theorem lhs_dot_0 (i : S4x8192.Idx) (q : dot_S4x128_S128x8192_S4x8192_1_0_0_1_n_n.contr.Idx) :
    (dot_S4x128_S128x8192_S4x8192_1_0_0_1_n_n.lhsIdx i q 0).val = (i 0).val := by
  unfold DotDims.lhsIdx
  rw [dif_neg (show ¬(0 : Fin S4x128.rank) ∈ dot_S4x128_S128x8192_S4x8192_1_0_0_1_n_n.lhsBatch from List.not_mem_nil),
    dif_pos (show (0 : Fin S4x128.rank) ∈ dot_S4x128_S128x8192_S4x8192_1_0_0_1_n_n.lhsNonContracting from
      List.mem_singleton.mpr rfl)]
  rfl

/-- The left operand's column coordinate is the contraction coordinate. -/
theorem lhs_dot_1 (i : S4x8192.Idx) (q : dot_S4x128_S128x8192_S4x8192_1_0_0_1_n_n.contr.Idx)
    (h0 : 0 < dot_S4x128_S128x8192_S4x8192_1_0_0_1_n_n.contr.rank) :
    (dot_S4x128_S128x8192_S4x8192_1_0_0_1_n_n.lhsIdx i q 1).val = (q ⟨0, h0⟩).val :=
  dot_S4x128_S128x8192_S4x8192_1_0_0_1_n_n.lhsIdx_val_of_single rfl i q

/-- The right operand's row coordinate is the contraction coordinate. -/
theorem rhs_dot_0 (i : S4x8192.Idx) (q : dot_S4x128_S128x8192_S4x8192_1_0_0_1_n_n.contr.Idx)
    (h0 : 0 < dot_S4x128_S128x8192_S4x8192_1_0_0_1_n_n.contr.rank) :
    (dot_S4x128_S128x8192_S4x8192_1_0_0_1_n_n.rhsIdx i q 0).val = (q ⟨0, h0⟩).val :=
  dot_S4x128_S128x8192_S4x8192_1_0_0_1_n_n.rhsIdx_val_of_single rfl i q

/-- The right operand's column coordinate is the result's column coordinate. -/
theorem rhs_dot_1 (i : S4x8192.Idx) (q : dot_S4x128_S128x8192_S4x8192_1_0_0_1_n_n.contr.Idx) :
    (dot_S4x128_S128x8192_S4x8192_1_0_0_1_n_n.rhsIdx i q 1).val = (i 1).val := by
  unfold DotDims.rhsIdx
  rw [dif_neg (show ¬(1 : Fin S128x8192.rank) ∈ dot_S4x128_S128x8192_S4x8192_1_0_0_1_n_n.rhsBatch from List.not_mem_nil),
    dif_pos (show (1 : Fin S128x8192.rank) ∈ dot_S4x128_S128x8192_S4x8192_1_0_0_1_n_n.rhsNonContracting from
      List.mem_singleton.mpr rfl)]
  rfl

/-- The product of the conditioning vector with a weight matrix at (b, channel): the sum over the contracted
    coordinate. -/
theorem dotTerm_apply (T : Cert.Spec.ST.Idx → EReal) (W : Cert.Spec.SW.Idx → EReal) (b : Fin 4) (j : Fin 8192) :
    dotTerm (F := Ideal) T W (ix2 b j) = Cert.Spec.proj T W b j := by
  unfold dotTerm Cert.Spec.proj
  show FloatOps.dotGeneral (F := Ideal) dot_S4x128_S128x8192_S4x8192_1_0_0_1_n_n none .single
      (T : FVec Ideal S4x128 .f32) (W : FVec Ideal S128x8192 .f32) (ix2 b j) = _
  rw [Ideal.dotGeneral_apply,
    ← Equiv.sum_comp (contrEquiv1 dot_S4x128_S128x8192_S4x8192_1_0_0_1_n_n 128 rfl rfl).symm]
  refine Finset.sum_congr rfl fun k _ => ?_
  have hk := contrEquiv1_symm_val dot_S4x128_S128x8192_S4x8192_1_0_0_1_n_n 128 rfl rfl k
  have el : dot_S4x128_S128x8192_S4x8192_1_0_0_1_n_n.lhsIdx (ix2 b j)
      ((contrEquiv1 dot_S4x128_S128x8192_S4x8192_1_0_0_1_n_n 128 rfl rfl).symm k) = ix2 b k :=
    funext fun a => Fin.ext (by
      match a with
      | ⟨0, _⟩ => exact lhs_dot_0 _ _
      | ⟨1, _⟩ => exact (lhs_dot_1 _ _ _).trans hk)
  have er : dot_S4x128_S128x8192_S4x8192_1_0_0_1_n_n.rhsIdx (ix2 b j)
      ((contrEquiv1 dot_S4x128_S128x8192_S4x8192_1_0_0_1_n_n 128 rfl rfl).symm k) = ix2 k j :=
    funext fun a => Fin.ext (by
      match a with
      | ⟨0, _⟩ => exact (rhs_dot_0 _ _ _).trans hk
      | ⟨1, _⟩ => exact rhs_dot_1 _ _)
  rw [el, er]

/-- One plus the scale product, the same down every row. -/
theorem scaleTerm_apply (T : Cert.Spec.ST.Idx → EReal) (WS : Cert.Spec.SW.Idx → EReal) (b : Fin 4) (s : Fin 512)
    (j : Fin 8192) : scaleTerm (F := Ideal) T WS (ix3 b s j) = Cert.Spec.one + Cert.Spec.proj T WS b j := by
  unfold scaleTerm
  rw [bcastRows_apply]
  show broadcastInDim S4x1x8192 ![] bcast_S_S4x1x8192 (constant (F := Ideal) S_ .f32 0x3F800000#32) (ix3 b 0 j)
      + broadcastInDim S4x1x8192 ![0, 2] bcast_S4x8192_S4x1x8192_0_2 (dotTerm (F := Ideal) T WS) (ix3 b 0 j) = _
  rw [bcastScalar_apply, bcastMid_apply, dotTerm_apply]
  rfl

/-- The shift product, the same down every row. -/
theorem shiftTerm_apply (T : Cert.Spec.ST.Idx → EReal) (WB : Cert.Spec.SW.Idx → EReal) (b : Fin 4) (s : Fin 512)
    (j : Fin 8192) : shiftTerm (F := Ideal) T WB (ix3 b s j) = Cert.Spec.proj T WB b j := by
  unfold shiftTerm
  rw [bcastRows_apply, bcastMid_apply, dotTerm_apply]

end

/-! ## The result -/

/-- The reference's composed term is the specification's function. -/
theorem refTerm_eq_G [Cert.ReferenceIdeal.Facts] (X : Cert.Spec.SX.Idx → EReal) (T : Cert.Spec.ST.Idx → EReal) (WS WB : Cert.Spec.SW.Idx → EReal) :
    Cert.RefTerm.refTerm (F := Ideal) X T WS WB = Cert.Spec.G X T WS WB := by
  funext i
  obtain ⟨b, s, j, rfl⟩ : ∃ (b : Fin 4) (s : Fin 512) (j : Fin 8192), i = ix3 b s j := ⟨i 0, i 1, i 2, eq_ix3 i⟩
  show normTerm (F := Ideal) X (ix3 b s j) * scaleTerm (F := Ideal) T WS (ix3 b s j)
      + shiftTerm (F := Ideal) T WB (ix3 b s j) = _
  rw [normTerm_apply, scaleTerm_apply, shiftTerm_apply]
  rfl

/-- info: 'Cert.RefVal.refTerm_eq_G' depends on axioms: [propext, Classical.choice, Quot.sound] -/
#guard_msgs in #print axioms refTerm_eq_G

end Cert.RefVal

end
-- ==== Proof.Finite.lean ====
/-
  From the precondition to finiteness. The precondition says, of each device's four argument buffers, that every
  entry's absolute value lies strictly below +∞. On the extended reals that excludes exactly ⊤ and ⊥, so every entry is
  a real number.
-/
import proofs.«900770_g7700000000000771_dist_diff_adaln_cshard_i_b4_s512_c256_v7x_i32_bf16_1_alg».proof.Defs
import proofs.«900770_g7700000000000771_dist_diff_adaln_cshard_i_b4_s512_c256_v7x_i32_bf16_1_alg».proof.Proof.Gen.Pre_finite_inputs_Kernel
import Idealize.ShloMosaic.Lib.ReduceAll
import Idealize.ShloMosaic.Lib.ValueIdx

noncomputable section

namespace Cert.Finite

open Idealize.ShloMosaic Idealize.ShloMosaic.ValueIdx Idealize.SL.Sem

/-- The scalar shape has one index. -/
instance : Subsingleton Cert.Pre_finite_inputs_Kernel.S_.Idx := ⟨fun a b => funext fun d => d.elim0⟩

/-- The word 0x7F800000 denotes +∞. -/
theorem ofBits_inf : Ideal.ofBits .f32 0x7F800000#32 = (⊤ : EReal) := by
  simp [Ideal.ofBits, Ideal.ieee]

/-- An extended real whose absolute value max x (−x) compares strictly below +∞ is a real number: at ⊤ the maximum is
    ⊤, at ⊥ it is −⊥ = ⊤, and ⊤ < ⊤ is false. -/
theorem real_of_abs_lt (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- The precondition at device c, read at the scalar result's one index and split into its four conjuncts: each
    argument's "all entries compare below +∞" reduction is 1. -/
theorem pre_split [Cert.Pre_finite_inputs_Kernel.Facts] (m : (ℓ : Loc Cert.KernelIdeal.nD Cert.KernelIdeal.τ Cert.KernelIdeal.sig) → Buf (Elt Ideal) ℓ) (h : Cert.Pre_KernelIdeal m) (c : Dev Cert.KernelIdeal.nD) :
    Cert.Pre_finite_inputs_Kernel.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) ix0 = 1#1 :=
  congrFun (h c) ix0

/-- Every entry of device c's block of x is a real number. -/
theorem finite_of_pre [Cert.Pre_finite_inputs_Kernel.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg0) i = (r : EReal) := by
  intro i
  have h0 := pre_split m h c
  dsimp only [Cert.Pre_finite_inputs_Kernel.fn, Cert.Pre_finite_inputs_Kernel.fn_part1] at h0
  have h1 := (IntOp.andi_eq_one.1 h0).1
  have h2 := (IntOp.andi_eq_one.1 h1).1
  have h3 := (IntOp.andi_eq_one.1 h2).1
  exact real_of_abs_lt _ (Host.reduce_andi_all _ _ _ _ ix0 h3 i)

/-- Every entry of device c's copy of the conditioning vector is a real number. -/
theorem finite_of_pre_arg1 [Cert.Pre_finite_inputs_Kernel.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg1) i = (r : EReal) := by
  intro i
  have h0 := pre_split m h c
  dsimp only [Cert.Pre_finite_inputs_Kernel.fn, Cert.Pre_finite_inputs_Kernel.fn_part1] at h0
  have h1 := (IntOp.andi_eq_one.1 h0).1
  have h2 := (IntOp.andi_eq_one.1 h1).1
  have h3 := (IntOp.andi_eq_one.1 h2).2
  exact real_of_abs_lt _ (Host.reduce_andi_all _ _ _ _ ix0 h3 i)

/-- Every entry of device c's block of the scale weights is a real number. -/
theorem finite_of_pre_arg2 [Cert.Pre_finite_inputs_Kernel.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg2) i = (r : EReal) := by
  intro i
  have h0 := pre_split m h c
  dsimp only [Cert.Pre_finite_inputs_Kernel.fn, Cert.Pre_finite_inputs_Kernel.fn_part1] at h0
  have h1 := (IntOp.andi_eq_one.1 h0).1
  have h2 := (IntOp.andi_eq_one.1 h1).2
  exact real_of_abs_lt _ (Host.reduce_andi_all _ _ _ _ ix0 h2 i)

/-- Every entry of device c's block of the shift weights is a real number. -/
theorem finite_of_pre_arg3 [Cert.Pre_finite_inputs_Kernel.Facts] (m : (ℓ : Loc Cert.KernelIdeal.nD Cert.KernelIdeal.τ Cert.KernelIdeal.sig) → Buf (Elt Ideal) ℓ) (h : Cert.Pre_KernelIdeal m) (c : Dev Cert.KernelIdeal.nD) :
    ∀ i, ∃ r : ℝ, m ((c.tc : Thread Cert.KernelIdeal.nD Cert.KernelIdeal.τ).loc Cert.KernelIdeal.main_arg3) i = (r : EReal) := by
  intro i
  have h0 := pre_split m h c
  dsimp only [Cert.Pre_finite_inputs_Kernel.fn, Cert.Pre_finite_inputs_Kernel.fn_part1] at h0
  have h1 := (IntOp.andi_eq_one.1 h0).2
  exact real_of_abs_lt _ (Host.reduce_andi_all _ _ _ _ ix0 h1 i)

/-- info: 'Cert.Finite.finite_of_pre' depends on axioms: [propext, Classical.choice, Quot.sound] -/
#guard_msgs in #print axioms finite_of_pre

end Cert.Finite

end
-- ==== Proof.Vals.lean ====
/-
  The values the kernel moves and computes, as pure functions of the devices' blocks.

  Device `d` reduces its block of `x` along the channel axis to eight rows (four of sums, four of sums of
  squares); the exchange puts device `d`'s rows in row `d` of every device's table, so the table every device
  ends with is one function of all the blocks; each device then normalizes its own block by the table's column
  sums and applies its own block of the scale and shift products.
-/
import proofs.«900770_g7700000000000771_dist_diff_adaln_cshard_i_b4_s512_c256_v7x_i32_bf16_1_alg».proof.Proof.Gen.KernelIdeal.Skeleton
import Idealize.ShloMosaic.Lib.ValueIdx

noncomputable section

namespace Cert.KernelIdeal.Vals

open Idealize.ShloMosaic Cert.KernelIdeal Cert.KernelIdeal.Gen

variable {F : FTy → Type} [FloatOps F]

/-- One device's eight rows of partial sums, from its block of `x`. -/
def partialOf (X : Vec F S4x512x256 .f32) : Vec F S1x8x512 .bf16 := k0_pay2 X

/-- The gathered table: row `d` holds device `d`'s partial sums. -/
def statsOf (Xs : Dev nD → Vec F S4x512x256 .f32) : Vec F S32x8x512 .bf16 :=
  fun i => partialOf (Xs (i 0)) (ValueIdx.ix3 (0 : Fin 1) (i 1) (i 2))

/-- A device's result block: its block of `x` normalized by the table's totals, times one plus its block of the
    scale product, plus its block of the shift product. -/
def outOf (X : Vec F S4x512x256 .f32) (T : Vec F S4x128 .f32) (WS WB : Vec F S128x256 .f32)
    (S : Vec F S32x8x512 .bf16) : Vec F S4x512x256 .f32 :=
  k0_pay9 (k0_pay1 X) (k0_pay3 T WS) (k0_pay4 T WB) (k0_pay6 S) (k0_pay7 S) k0_pay8

end Cert.KernelIdeal.Vals

end
-- ==== Proof.KerVal1.lean ====
/-
  The arithmetic of the normalization, apart from any program.

  Over finite reals the mean of the squares minus the squared mean is the mean of the squared deviations, and for a
  positive real `v` the product with the reciprocal square root of `v` is the quotient by the square root of `v`.
  The two float words that occur are evaluated here: the count 8192 and the positive constant added to the variance.
-/
import Idealize.ShloMosaic.PureOps.Ideal
import Mathlib.Algebra.BigOperators.Field
import Mathlib.Tactic.FieldSimp
import Mathlib.Tactic.Ring
import Mathlib.Tactic.Positivity

noncomputable section

namespace Cert.KerVal

open Idealize.ShloMosaic

/-- The word of the count is the real 8192. -/
theorem cnt_eq : Ideal.ofBits .f32 0x46000000#32 = ((8192 : ℝ) : EReal) := by
  simp [Ideal.ofBits, Ideal.ieee]
  rw [← EReal.coe_mul]
  exact congrArg _ (by norm_num)

/-- The word added to the variance is a positive real. -/
theorem eps_eq : ∃ e : ℝ, 0 < e ∧ Ideal.ofBits .f32 0x3727C5AC#32 = (e : EReal) := by
  refine ⟨10995116 * (2 ^ 40)⁻¹, by positivity, ?_⟩
  simp [Ideal.ofBits, Ideal.ieee]

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Over the reals: the mean of the squares minus the squared mean is the mean of the squared deviations. -/
theorem real_var {ι : Type} [Fintype ι] (x : ι → ℝ) (N : ℝ) (hN : (Fintype.card ι : ℝ) = N) (h0 : N ≠ 0) :
    (∑ i, x i * x i) * (1 / N) - (∑ i, x i) * (1 / N) * ((∑ i, x i) * (1 / N))
      = (∑ i, (x i - (∑ i, x i) * (1 / N)) * (x i - (∑ i, x i) * (1 / N))) * (1 / N) := by
  have e : ∀ m : ℝ, ∑ i, (x i - m) * (x i - m) = (∑ i, x i * x i) - 2 * m * (∑ i, x i) + N * (m * m) := by
    intro m
    have : ∀ i, (x i - m) * (x i - m) = x i * x i - 2 * m * x i + m * m := fun i => by ring
    simp only [this, Finset.sum_add_distrib, Finset.sum_sub_distrib, ← Finset.mul_sum, Finset.sum_const, Finset.card_univ,
      nsmul_eq_mul, hN]
    ring
  rw [e]
  field_simp
  ring

/-- A sum over the 8192 channels is the sum over the 32 blocks of the sums over each block's 256 channels. -/
theorem sum_blocks {M : Type} [AddCommMonoid M] (f : Fin 8192 → M) :
    ∑ J : Fin 8192, f J
      = ∑ d : Fin 32, ∑ j : Fin 256, f ⟨d.val * 256 + j.val, by have := d.isLt; have := j.isLt; omega⟩ := by
  have e := (Equiv.sum_comp (finProdFinEquiv (m := 32) (n := 256)) f).symm
  rw [Fintype.sum_prod_type] at e
  refine e.trans (Finset.sum_congr rfl fun d _ => Finset.sum_congr rfl fun j _ => congrArg f (Fin.ext ?_))
  show j.val + 256 * d.val = d.val * 256 + j.val
  omega

/-- The normalization of one entry `a` of a row `x` of 8192 finite entries: subtracting the mean and multiplying by the
    reciprocal square root of (mean of squares − squared mean + ε) is subtracting the mean and dividing by the square
    root of (mean squared deviation + ε). -/
theorem norm_eq (x : Fin 8192 → EReal) (hx : ∀ j, ∃ r : ℝ, x j = (r : EReal)) (a : EReal) :
    (a - Ideal.div (∑ j, x j) (Ideal.ofBits .f32 0x46000000#32))
        * Ideal.rsqrt (Ideal.div (∑ j, x j * x j) (Ideal.ofBits .f32 0x46000000#32)
            - Ideal.div (∑ j, x j) (Ideal.ofBits .f32 0x46000000#32) * Ideal.div (∑ j, x j) (Ideal.ofBits .f32 0x46000000#32)
            + Ideal.ofBits .f32 0x3727C5AC#32)
      = Ideal.div (a - Ideal.div (∑ j, x j) (Ideal.ofBits .f32 0x46000000#32))
          (Ideal.sqrt (Ideal.div (∑ j, (x j - Ideal.div (∑ j, x j) (Ideal.ofBits .f32 0x46000000#32))
              * (x j - Ideal.div (∑ j, x j) (Ideal.ofBits .f32 0x46000000#32))) (Ideal.ofBits .f32 0x46000000#32)
            + Ideal.ofBits .f32 0x3727C5AC#32)) := by
  choose r hr using hx
  obtain rfl : x = fun j => (r j : EReal) := funext hr
  obtain ⟨e, he0, he⟩ := eps_eq
  have h8 : (8192 : ℝ) ≠ 0 := by norm_num
  have hS : (∑ j, ((r j : ℝ) : EReal)) = ((∑ j, r j : ℝ) : EReal) := (coe_sum _ _).symm
  have hQ : (∑ j, ((r j : ℝ) : EReal) * (r j : EReal)) = ((∑ j, r j * r j : ℝ) : EReal) := by
    rw [coe_sum]; exact Finset.sum_congr rfl fun j _ => (EReal.coe_mul _ _).symm
  have hv := real_var r 8192 (by simp) h8
  have hm : ((∑ j, r j : ℝ) : EReal) * ((1 / 8192 : ℝ) : EReal) = (((∑ j, r j) * (1 / 8192) : ℝ) : EReal) :=
    (EReal.coe_mul _ _).symm
  simp only [cnt_eq, he, hS, hQ, Ideal.div_coe h8, hm]
  generalize (∑ j, r j) * (1 / 8192) = M at hv ⊢
  have hD : (∑ j, (((r j : ℝ) : EReal) - (M : EReal)) * ((r j : EReal) - (M : EReal)))
      = ((∑ j, (r j - M) * (r j - M) : ℝ) : EReal) := by
    rw [coe_sum]; exact Finset.sum_congr rfl fun j _ => by rw [EReal.coe_mul, EReal.coe_sub]
  rw [hD]
  have hD0 : 0 ≤ ∑ j, (r j - M) * (r j - M) := Finset.sum_nonneg fun j _ => mul_self_nonneg _
  have hsv : 0 < (∑ j, (r j - M) * (r j - M)) * (1 / 8192) + e :=
    add_pos_of_nonneg_of_pos (mul_nonneg hD0 (by norm_num)) he0
  simp only [← EReal.coe_mul, ← EReal.coe_sub, ← EReal.coe_add]
  rw [hv, Ideal.rsqrt_coe, Ideal.sqrt_coe, if_neg (not_lt.2 hsv.le), if_neg hsv.ne', if_neg (not_lt.2 hsv.le),
    Ideal.div_coe (Real.sqrt_ne_zero'.2 hsv)]
  simp only [one_div]

end Cert.KerVal

end
-- ==== Proof.KerVal2.lean ====
/-
  The kernel's payloads read at an index, at the ideal values.

  Each payload is a pure term over the values the body loaded; here each is read at explicit coordinates: the partial
  sums of a block (lane sums of `x` and of `x * x`, eight rows), the table's column sums over the 32 devices, the
  mean and the sum of squares sliced from them, the two products with the weights, and the final normalization.
-/
import proofs.«900770_g7700000000000771_dist_diff_adaln_cshard_i_b4_s512_c256_v7x_i32_bf16_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KerVal

open Idealize.ShloMosaic Idealize.ShloMosaic.ValueIdx Cert.KernelIdeal Cert.KernelIdeal.Gen

/-! ## Layout operations of the final payload, by coordinates -/

section Layout
variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, c]` array cast to `[a, 1, c]` reads, at `(i, u, j)`, the operand at `(i, j)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (j : Fin c) :
    shapeCast ⟨3, ![a, 1, c]⟩ x h (ix3 i u j) = x (ix2 i j) :=
  shapeCast_apply x h _ _ (by
    have hu : u.val = 0 := by omega
    rw [Shape.rowMajor_val_three, Shape.rowMajor_val_two]
    show i.val * c + j.val = (i.val * 1 + u.val) * c + j.val
    rw [hu, Nat.mul_one, Nat.add_zero])

/-- A column `[4, 512, 1]` broadcast along the channels reads, at `(b, s, j)`, the column at `(b, s)`. -/
theorem broadcastTo_col_apply (v : S4x512x1.Idx → α) (h : S4x512x1.Broadcasts S4x512x256) (b : Fin 4) (s : Fin 512)
    (j : Fin 256) : broadcastTo S4x512x256 v h (ix3 b s j) = v (ix3 b s (0 : Fin 1)) :=
  broadcastTo_apply v h (ix3 b s j) (ix3 b s (0 : Fin 1)) fun ax =>
    match ax with
    | ⟨0, _⟩ => rfl
    | ⟨1, _⟩ => rfl
    | ⟨2, _⟩ => rfl

/-- A row `[4, 1, 256]` broadcast along the sequence reads, at `(b, s, j)`, the row at `(b, j)`. -/
theorem broadcastTo_row_apply (v : S4x1x256.Idx → α) (h : S4x1x256.Broadcasts S4x512x256) (b : Fin 4) (s : Fin 512)
    (j : Fin 256) : broadcastTo S4x512x256 v h (ix3 b s j) = v (ix3 b (0 : Fin 1) j) :=
  broadcastTo_apply v h (ix3 b s j) (ix3 b (0 : Fin 1) j) fun ax =>
    match ax with
    | ⟨0, _⟩ => rfl
    | ⟨1, _⟩ => rfl
    | ⟨2, _⟩ => rfl

end Layout

/-! ## The loaded block and its partial sums -/

/-- The loaded block passes through its identity cast. -/
theorem pay1_eq (X : Vec Ideal S4x512x256 .f32) : k0_pay1 X = X := by
  unfold k0_pay1
  exact shapeCast_self _ _

/-- A lane sum of a block at row `(r, s)`: the sum over the block's 256 channels. -/
theorem laneSum_apply (V : FVec Ideal S4x512x256 .f32) (h : S4x512x256.Reduces [2] S4x512) (hφ : FKind.Formats .f32)
    (hacc : (0x00000000#32 : BitVec 32) = FKind.add.neutral .f32 hφ) (r : Fin 4) (s : Fin 512) :
    multiReduction .add [2] S4x512 V 0x00000000#32 h hφ hacc (ix2 r s) = ∑ j : Fin 256, V (ix3 r s j) := by
  have e := Ideal.multiReduction_add_single V 0x00000000#32 h hφ hacc (ix2 r s)
  refine e.trans ?_
  refine Finset.sum_congr rfl fun j _ => congrArg V (funext fun c => Fin.ext ?_)
  match c with
  | ⟨0, _⟩ => rfl
  | ⟨1, _⟩ => rfl
  | ⟨2, _⟩ => rfl

/-- A sum over the devices' rows of a table at `(r, s)`. -/
theorem devSum_apply (V : FVec Ideal S32x8x512 .f32) (h : S32x8x512.Reduces [0] S8x512) (hφ : FKind.Formats .f32)
    (hacc : (0x00000000#32 : BitVec 32) = FKind.add.neutral .f32 hφ) (r : Fin 8) (s : Fin 512) :
    multiReduction .add [0] S8x512 V 0x00000000#32 h hφ hacc (ix2 r s) = ∑ d : Fin 32, V (ix3 d r s) := by
  have e := Ideal.multiReduction_add_single V 0x00000000#32 h hφ hacc (ix2 r s)
  refine e.trans ?_
  refine Finset.sum_congr rfl fun d _ => congrArg V (funext fun c => Fin.ext ?_)
  match c with
  | ⟨0, _⟩ => rfl
  | ⟨1, _⟩ => rfl
  | ⟨2, _⟩ => rfl

/-- Rows 0–3 of a device's partial sums: the lane sums of its block. -/
theorem pay2_lo (X : Vec Ideal S4x512x256 .f32) (r : Fin 4) (s : Fin 512) :
    k0_pay2 X (ix3 (0 : Fin 1) (⟨r.val, by omega⟩ : Fin 8) s) = ∑ j : Fin 256, X (ix3 r s j) := by
  unfold k0_pay2
  rw [shapeCast_self]
  refine Eq.trans (truncf_apply (φ := .f32) (ψ := .bf16) _ bitsLt_bf16_f32 _) ?_
  refine (shapeCast_ab_1ab_apply _ _ _ _ _).trans ?_
  refine (concatenate_pair_apply_left (t := S8x512) (s₁ := S4x512) (s₂ := S4x512) (0 : Fin 2) _ _ _ _ rfl (ix2 r s)
    fun b => ?_).trans ?_
  · match b with
    | ⟨0, _⟩ => rfl
    | ⟨1, _⟩ => rfl
  · exact (laneSum_apply _ _ _ _ r s).trans (by rw [pay1_eq])

/-- Rows 4–7 of a device's partial sums: the lane sums of the squares of its block. -/
theorem pay2_hi (X : Vec Ideal S4x512x256 .f32) (r : Fin 4) (s : Fin 512) :
    k0_pay2 X (ix3 (0 : Fin 1) (⟨r.val + 4, by omega⟩ : Fin 8) s) = ∑ j : Fin 256, X (ix3 r s j) * X (ix3 r s j) := by
  unfold k0_pay2
  rw [shapeCast_self]
  refine Eq.trans (truncf_apply (φ := .f32) (ψ := .bf16) _ bitsLt_bf16_f32 _) ?_
  refine (shapeCast_ab_1ab_apply _ _ _ _ _).trans ?_
  refine (concatenate_pair_apply_right (t := S8x512) (s₁ := S4x512) (s₂ := S4x512) (0 : Fin 2) _ _ _ _ rfl rfl (ix2 r s)
    (fun b hb => ?_) rfl).trans ?_
  · match b with
    | ⟨0, _⟩ => exact absurd rfl hb
    | ⟨1, _⟩ => rfl
  · exact (laneSum_apply _ _ _ _ r s).trans (by rw [pay1_eq]; rfl)

/-! ## The table's column sums, the mean and the sum of squares -/

/-- The table summed over the devices. -/
theorem pay5_apply (S : Vec Ideal S32x8x512 .bf16) (r : Fin 8) (s : Fin 512) :
    k0_pay5 S (ix2 r s) = ∑ d : Fin 32, S (ix3 d r s) := by
  unfold k0_pay5
  exact (devSum_apply _ _ _ _ r s).trans (Finset.sum_congr rfl fun d _ => extf_apply _ _ _)

/-- The mean: rows 0–3 of the column sums divided by the count. -/
theorem pay6_apply (S : Vec Ideal S32x8x512 .bf16) (b : Fin 4) (s : Fin 512) :
    k0_pay6 S (ix2 b s)
      = Ideal.div (∑ d : Fin 32, S (ix3 d (⟨b.val, by omega⟩ : Fin 8) s)) (Ideal.ofBits .f32 0x46000000#32) := by
  unfold k0_pay6
  refine (divf_apply _ _ _).trans ?_
  refine congrArg₂ Ideal.div ?_ rfl
  refine (extractStridedSlice_apply _ _ _ (ix2 b s) (ix2 (⟨b.val, by omega⟩ : Fin 8) s) fun a => ?_).trans (pay5_apply S _ s)
  match a with
  | ⟨0, _⟩ => show b.val = 0 + b.val; omega
  | ⟨1, _⟩ => show s.val = 0 + s.val; omega

/-- The sum of squares: rows 4–7 of the column sums. -/
theorem pay7_apply (S : Vec Ideal S32x8x512 .bf16) (b : Fin 4) (s : Fin 512) :
    k0_pay7 S (ix2 b s) = ∑ d : Fin 32, S (ix3 d (⟨b.val + 4, by omega⟩ : Fin 8) s) := by
  unfold k0_pay7
  refine (extractStridedSlice_apply _ _ _ (ix2 b s) (ix2 (⟨b.val + 4, by omega⟩ : Fin 8) s) fun a => ?_).trans (pay5_apply S _ s)
  match a with
  | ⟨0, _⟩ => show b.val + 4 = 4 + b.val; omega
  | ⟨1, _⟩ => show s.val = 0 + s.val; omega

/-- The count, broadcast. -/
theorem pay8_apply (b : Fin 4) (s : Fin 512) :
    (k0_pay8 (F := Ideal)) (ix2 b s) = Ideal.ofBits .f32 0x46000000#32 := rfl

/-! ## The products with the weights -/

theorem lhs_mm_0 (i : S4x256.Idx) (q : dot_S4x128_S128x256_S4x256_1_0_0_1_n_n.contr.Idx) :
    (dot_S4x128_S128x256_S4x256_1_0_0_1_n_n.lhsIdx i q 0).val = (i 0).val := by
  unfold DotDims.lhsIdx
  rw [dif_neg (show ¬(0 : Fin S4x128.rank) ∈ dot_S4x128_S128x256_S4x256_1_0_0_1_n_n.lhsBatch by decide),
    dif_pos (show (0 : Fin S4x128.rank) ∈ dot_S4x128_S128x256_S4x256_1_0_0_1_n_n.lhsNonContracting by decide)]
  rfl

theorem lhs_mm_1 (i : S4x256.Idx) (q : dot_S4x128_S128x256_S4x256_1_0_0_1_n_n.contr.Idx) :
    (dot_S4x128_S128x256_S4x256_1_0_0_1_n_n.lhsIdx i q 1).val = (q ⟨0, by decide⟩).val :=
  dot_S4x128_S128x256_S4x256_1_0_0_1_n_n.lhsIdx_val_of_single rfl i q

theorem rhs_mm_0 (i : S4x256.Idx) (q : dot_S4x128_S128x256_S4x256_1_0_0_1_n_n.contr.Idx) :
    (dot_S4x128_S128x256_S4x256_1_0_0_1_n_n.rhsIdx i q 0).val = (q ⟨0, by decide⟩).val :=
  dot_S4x128_S128x256_S4x256_1_0_0_1_n_n.rhsIdx_val_of_single rfl i q

theorem rhs_mm_1 (i : S4x256.Idx) (q : dot_S4x128_S128x256_S4x256_1_0_0_1_n_n.contr.Idx) :
    (dot_S4x128_S128x256_S4x256_1_0_0_1_n_n.rhsIdx i q 1).val = (i 1).val := by
  unfold DotDims.rhsIdx
  rw [dif_neg (show ¬(1 : Fin S128x256.rank) ∈ dot_S4x128_S128x256_S4x256_1_0_0_1_n_n.rhsBatch by decide),
    dif_pos (show (1 : Fin S128x256.rank) ∈ dot_S4x128_S128x256_S4x256_1_0_0_1_n_n.rhsNonContracting by decide)]
  rfl

/-- The matrix product into the zero splat at `(b, j)`: the sum over the 128 contracted coordinates. -/
theorem mm_apply (L : FVec Ideal S4x128 .f32) (R : FVec Ideal S128x256 .f32) (b : Fin 4) (j : Fin 256) :
    FloatOps.matmul dot_S4x128_S128x256_S4x256_1_0_0_1_n_n none L R (constant (F := Ideal) S4x256 .f32 0x00000000#32) (ix2 b j)
      = ∑ k : Fin 128, L (ix2 b k) * R (ix2 k j) := by
  rw [Ideal.matmul_constant_zero_apply, ← Equiv.sum_comp (contrEquiv1 dot_S4x128_S128x256_S4x256_1_0_0_1_n_n 128 rfl rfl).symm]
  refine Finset.sum_congr rfl fun k _ => ?_
  have hk := contrEquiv1_symm_val dot_S4x128_S128x256_S4x256_1_0_0_1_n_n 128 rfl rfl k
  have el : dot_S4x128_S128x256_S4x256_1_0_0_1_n_n.lhsIdx (ix2 b j) ((contrEquiv1 dot_S4x128_S128x256_S4x256_1_0_0_1_n_n 128 rfl rfl).symm k) = ix2 b k :=
    funext fun a => Fin.ext (by
      match a with
      | ⟨0, _⟩ => exact lhs_mm_0 _ _
      | ⟨1, _⟩ => exact (lhs_mm_1 _ _).trans hk)
  have er : dot_S4x128_S128x256_S4x256_1_0_0_1_n_n.rhsIdx (ix2 b j) ((contrEquiv1 dot_S4x128_S128x256_S4x256_1_0_0_1_n_n 128 rfl rfl).symm k) = ix2 k j :=
    funext fun a => Fin.ext (by
      match a with
      | ⟨0, _⟩ => exact (rhs_mm_0 _ _).trans hk
      | ⟨1, _⟩ => exact rhs_mm_1 _ _)
  rw [el, er]

/-- The scale product at `(b, j)`. -/
theorem pay3_apply (T : Vec Ideal S4x128 .f32) (W : Vec Ideal S128x256 .f32) (b : Fin 4) (j : Fin 256) :
    k0_pay3 T W (ix2 b j) = ∑ k : Fin 128, T (ix2 b k) * W (ix2 k j) := by
  unfold k0_pay3
  rw [shapeCast_self, shapeCast_self]
  exact mm_apply T W b j

/-- The shift product at `(b, j)`. -/
theorem pay4_apply (T : Vec Ideal S4x128 .f32) (W : Vec Ideal S128x256 .f32) (b : Fin 4) (j : Fin 256) :
    k0_pay4 T W (ix2 b j) = ∑ k : Fin 128, T (ix2 b k) * W (ix2 k j) := by
  unfold k0_pay4
  rw [shapeCast_self, shapeCast_self]
  exact mm_apply T W b j

/-! ## The final payload -/

/-- The result at `(b, s, j)`: the entry minus the mean, times the reciprocal square root of
    (sum of squares / count − mean² + ε), times (one + scale), plus shift. -/
theorem pay9_apply (x : FVec Ideal S4x512x256 .f32) (sc sh : FVec Ideal S4x256 .f32) (mu q n : FVec Ideal S4x512 .f32)
    (b : Fin 4) (s : Fin 512) (j : Fin 256) :
    k0_pay9 x sc sh mu q n (ix3 b s j)
      = (x (ix3 b s j) - mu (ix2 b s))
          * Ideal.rsqrt (Ideal.div (q (ix2 b s)) (n (ix2 b s)) - mu (ix2 b s) * mu (ix2 b s)
              + Ideal.ofBits .f32 0x3727C5AC#32)
          * (Ideal.ofBits .f32 0x3F800000#32 + sc (ix2 b j)) + sh (ix2 b j) := by
  unfold k0_pay9
  simp only [addf_apply, mulf_apply, subf_apply, broadcastTo_col_apply, broadcastTo_row_apply, shapeCast_ab_ab1_apply,
    shapeCast_ac_a1c_apply]
  rfl

end Cert.KerVal

end
-- ==== Proof.KerVal.lean ====
/-
  The kernel's value at the ideal instance: device `c`'s result block is block `c` of the specification.

  Device `d` holds channels `256 d .. 256 d + 255` of every row. The table's column sums run over the 32 devices
  and, within each, over its 256 channels: together, over the 8192 channels of the whole row. So the kernel's mean
  is the row's mean and its sum of squares the row's; over finite entries the kernel's normalization (mean of
  squares minus squared mean under a reciprocal square root) is the specification's (mean squared deviation under
  a square root and a division). The two products with the weights at column `j` of block `c` are the whole
  products at column `256 c + j`.
-/
import proofs.«900770_g7700000000000771_dist_diff_adaln_cshard_i_b4_s512_c256_v7x_i32_bf16_1_alg».proof.Proof.Spec
import proofs.«900770_g7700000000000771_dist_diff_adaln_cshard_i_b4_s512_c256_v7x_i32_bf16_1_alg».proof.Proof.Vals
import proofs.«900770_g7700000000000771_dist_diff_adaln_cshard_i_b4_s512_c256_v7x_i32_bf16_1_alg».proof.Proof.KerVal1
import proofs.«900770_g7700000000000771_dist_diff_adaln_cshard_i_b4_s512_c256_v7x_i32_bf16_1_alg».proof.Proof.KerVal2
import Idealize.ShloMosaic.Lib.Layout

noncomputable section

namespace Cert.KerVal

open Idealize.ShloMosaic Idealize.ShloMosaic.ValueIdx Cert.KernelIdeal Cert.KernelIdeal.Gen Cert.KernelIdeal.Vals

/-- Channel `j` of block `c` is channel `256 c + j` of the whole row. -/
def gch (c : Fin 32) (j : Fin 256) : Fin 8192 :=
  ⟨c.val * 256 + j.val, by have := c.isLt; have := j.isLt; omega⟩

/-- Where an entry of block `c` of `x` lies in the whole array. -/
theorem idx_x (h : Layout.Tiles ⟨3, ![4, 512, 256]⟩ ⟨3, ![4, 512, 8192]⟩ 2 32) (c : Fin 32) (b : Fin 4) (s : Fin 512)
    (j : Fin 256) : h.idx c (ix3 b s j) = ix3 b s (gch c j) :=
  funext fun a => Fin.ext (by
    match a with
    | ⟨0, _⟩ => rfl
    | ⟨1, _⟩ => rfl
    | ⟨2, _⟩ => rfl)

/-- Where an entry of block `c` of a weight matrix lies in the whole matrix. -/
theorem idx_w (h : Layout.Tiles ⟨2, ![128, 256]⟩ ⟨2, ![128, 8192]⟩ 1 32) (c : Fin 32) (k : Fin 128) (j : Fin 256) :
    h.idx c (ix2 k j) = ix2 k (gch c j) :=
  funext fun a => Fin.ext (by
    match a with
    | ⟨0, _⟩ => rfl
    | ⟨1, _⟩ => rfl)

theorem block_x {α : Type} (v : Cert.Spec.SX.Idx → α) (c : Fin 32) (b : Fin 4) (s : Fin 512) (j : Fin 256) :
    (Layout.block ⟨3, ![4, 512, 256]⟩ ⟨3, ![4, 512, 8192]⟩ 2 32 c v) (ix3 b s j) = v (ix3 b s (gch c j)) := by
  rw [Layout.block_apply, idx_x]

theorem block_w {α : Type} (v : Cert.Spec.SW.Idx → α) (c : Fin 32) (k : Fin 128) (j : Fin 256) :
    (Layout.block ⟨2, ![128, 256]⟩ ⟨2, ![128, 8192]⟩ 1 32 c v) (ix2 k j) = v (ix2 k (gch c j)) := by
  rw [Layout.block_apply, idx_w]

/-- Rows 0–3 of the table: row `d` holds device `d`'s lane sums. -/
theorem stats_lo (Xs : Dev nD → Vec Ideal S4x512x256 .f32) (d : Fin 32) (r : Fin 4) (s : Fin 512) :
    statsOf Xs (ix3 d (⟨r.val, by omega⟩ : Fin 8) s) = ∑ j : Fin 256, Xs d (ix3 r s j) :=
  pay2_lo (Xs d) r s

/-- Rows 4–7 of the table: row `d` holds device `d`'s lane sums of squares. -/
theorem stats_hi (Xs : Dev nD → Vec Ideal S4x512x256 .f32) (d : Fin 32) (r : Fin 4) (s : Fin 512) :
    statsOf Xs (ix3 d (⟨r.val + 4, by omega⟩ : Fin 8) s) = ∑ j : Fin 256, Xs d (ix3 r s j) * Xs d (ix3 r s j) :=
  pay2_hi (Xs d) r s

section Whole

variable (Xs : Dev 32 → Vec Ideal S4x512x256 .f32) (X' : Cert.Spec.SX.Idx → EReal)
  (hX : ∀ c, Xs c = Layout.block ⟨3, ![4, 512, 256]⟩ ⟨3, ![4, 512, 8192]⟩ 2 32 c X')
include hX

/-- An entry of device `d`'s block is the whole array's entry at the block's channel. -/
theorem entry_x (d : Fin 32) (b : Fin 4) (s : Fin 512) (j : Fin 256) : Xs d (ix3 b s j) = X' (ix3 b s (gch d j)) := by
  rw [hX d]; exact block_x X' d b s j

/-- The table's column sum of rows 0–3 is the row's sum over all 8192 channels. -/
theorem colsum (b : Fin 4) (s : Fin 512) :
    ∑ d : Fin 32, statsOf Xs (ix3 d (⟨b.val, by omega⟩ : Fin 8) s) = ∑ J : Fin 8192, X' (ix3 b s J) := by
  rw [sum_blocks (fun J => X' (ix3 b s J))]
  refine Finset.sum_congr rfl fun d _ => ?_
  rw [stats_lo]
  exact Finset.sum_congr rfl fun j _ => entry_x Xs X' hX d b s j

/-- The table's column sum of rows 4–7 is the row's sum of squares over all 8192 channels. -/
theorem colsumsq (b : Fin 4) (s : Fin 512) :
    ∑ d : Fin 32, statsOf Xs (ix3 d (⟨b.val + 4, by omega⟩ : Fin 8) s)
      = ∑ J : Fin 8192, X' (ix3 b s J) * X' (ix3 b s J) := by
  rw [sum_blocks (fun J => X' (ix3 b s J) * X' (ix3 b s J))]
  refine Finset.sum_congr rfl fun d _ => ?_
  rw [stats_hi]
  exact Finset.sum_congr rfl fun j _ => by rw [entry_x Xs X' hX d b s j]; rfl

/-- Every entry of the whole array is finite when every device's block is. -/
theorem finite_row (hfin : ∀ c i, ∃ r : ℝ, Xs c i = (r : EReal)) (b : Fin 4) (s : Fin 512) (J : Fin 8192) :
    ∃ r : ℝ, X' (ix3 b s J) = (r : EReal) := by
  have hd : J.val / 256 < 32 := by have := J.isLt; omega
  have hj : J.val % 256 < 256 := Nat.mod_lt _ (by norm_num)
  have h := hfin ⟨J.val / 256, hd⟩ (ix3 b s ⟨J.val % 256, hj⟩)
  have e : gch ⟨J.val / 256, hd⟩ ⟨J.val % 256, hj⟩ = J :=
    Fin.ext (by show J.val / 256 * 256 + J.val % 256 = J.val; omega)
  rwa [entry_x Xs X' hX, e] at h

end Whole

/-- Device `c`'s result block, computed from its own blocks and the gathered table, is block `c` of the
    specification over the whole arrays. -/
theorem outOf_eq_block (Xs : Dev 32 → Vec Ideal Cert.KernelIdeal.S4x512x256 .f32)
    (Ts : Dev 32 → Vec Ideal Cert.KernelIdeal.S4x128 .f32) (WSs WBs : Dev 32 → Vec Ideal Cert.KernelIdeal.S128x256 .f32)
    (X' : Cert.Spec.SX.Idx → EReal) (T' : Cert.Spec.ST.Idx → EReal) (WS' WB' : Cert.Spec.SW.Idx → EReal)
    (hX : ∀ c, Xs c = Layout.block ⟨3, ![4, 512, 256]⟩ ⟨3, ![4, 512, 8192]⟩ 2 32 c X')
    (hT : ∀ c, Ts c = T')
    (hWS : ∀ c, WSs c = Layout.block ⟨2, ![128, 256]⟩ ⟨2, ![128, 8192]⟩ 1 32 c WS')
    (hWB : ∀ c, WBs c = Layout.block ⟨2, ![128, 256]⟩ ⟨2, ![128, 8192]⟩ 1 32 c WB')
    (hfin : ∀ c i, ∃ r : ℝ, Xs c i = (r : EReal)) (c : Dev 32) :
    Cert.KernelIdeal.Vals.outOf (Xs c) (Ts c) (WSs c) (WBs c) (Cert.KernelIdeal.Vals.statsOf Xs)
      = Layout.block ⟨3, ![4, 512, 256]⟩ ⟨3, ![4, 512, 8192]⟩ 2 32 c (Cert.Spec.G X' T' WS' WB') := by
  funext i
  obtain ⟨b, s, j, rfl⟩ : ∃ (b : Fin 4) (s : Fin 512) (j : Fin 256), i = ix3 b s j := ⟨i 0, i 1, i 2, eq_ix3 i⟩
  rw [block_x]
  unfold Cert.KernelIdeal.Vals.outOf
  rw [pay9_apply, pay1_eq, pay3_apply, pay4_apply, pay6_apply, pay7_apply, pay8_apply, colsum Xs X' hX,
    colsumsq Xs X' hX, entry_x Xs X' hX]
  have hP : ∀ (Ws : Dev 32 → Vec Ideal S128x256 .f32) (W' : Cert.Spec.SW.Idx → EReal),
      (∀ c, Ws c = Layout.block ⟨2, ![128, 256]⟩ ⟨2, ![128, 8192]⟩ 1 32 c W') →
      (∑ k : Fin 128, Ts c (ix2 b k) * Ws c (ix2 k j)) = Cert.Spec.proj T' W' b (gch c j) := by
    intro Ws W' hW
    unfold Cert.Spec.proj
    refine Finset.sum_congr rfl fun k _ => ?_
    rw [hT c, hW c, block_w]
  rw [hP WSs WS' hWS, hP WBs WB' hWB]
  have key := norm_eq (fun J => X' (ix3 b s J)) (finite_row Xs X' hX hfin b s) (X' (ix3 b s (gch c j)))
  rw [key]
  rfl

/-- info: 'Cert.KerVal.outOf_eq_block' depends on axioms: [propext, Classical.choice, Quot.sound] -/
#guard_msgs in #print axioms outOf_eq_block

end Cert.KerVal

end
-- ==== Proof.Sched.lean ====
/-
  The exchange's protocol: the cells, who pays what on them, and what each payment hands over.

  Thirty-two devices on a ring of offsets. Device `c` names its peers by offset: `fwd c j` is the device
  `j + 1` places after it and `bwd c j` the device `j + 1` places before it (`j` ranges over thirty-one
  offsets). Every device has one barrier cell, thirty-one send cells and thirty-one receive cells.
  * Barrier cell of `c`: thirty-one duties of one unit, duty `j` paid by `bwd c j` when it enters the kernel; with it
    that device hands `c` its own table's row `c`, the row `c`'s transfer to it will overwrite.
  * Receive cell `j` of `c`: one duty, paid by the transfer of `bwd c j`; it hands `c` its own table's row
    `bwd c j` holding that device's partial sums.
  * Send cell `j` of `c`: one duty, paid by `c`'s own transfer number `j`; it hands back the share of row `c`
    the transfer read from.
-/
import proofs.«900770_g7700000000000771_dist_diff_adaln_cshard_i_b4_s512_c256_v7x_i32_bf16_1_alg».proof.Proof.Vals
import proofs.«900770_g7700000000000771_dist_diff_adaln_cshard_i_b4_s512_c256_v7x_i32_bf16_1_alg».proof.Proof.Gen.KernelIdeal.Launch
import proofs.«900770_g7700000000000771_dist_diff_adaln_cshard_i_b4_s512_c256_v7x_i32_bf16_1_alg».proof.Proof.Gen.KernelIdeal.Points
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

/-! ## The resource algebra: the pipeline's copy and the exchange's, duties named by offset -/

abbrev DD : Type := Fin 31
abbrev UB : Type := URounds (GSem nD τ sig) DD
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring of offsets -/

def fwd (c : Dev nD) (j : Fin 31) : Dev nD := ⟨(c.val + (j.val + 1)) % 32, Nat.mod_lt _ (by decide)⟩
def bwd (c : Dev nD) (j : Fin 31) : Dev nD := ⟨(c.val + 31 - j.val) % 32, Nat.mod_lt _ (by decide)⟩

theorem bwd_fwd (c : Dev nD) (j : Fin 31) : bwd (fwd c j) j = c := by revert c j; decide
theorem fwd_bwd (c : Dev nD) (j : Fin 31) : fwd (bwd c j) j = c := by revert c j; decide
theorem fwd_ne (c : Dev nD) (j : Fin 31) : fwd c j ≠ c := by revert c j; decide
theorem bwd_ne (c : Dev nD) (j : Fin 31) : bwd c j ≠ c := by revert c j; decide
theorem fwd_inj (c : Dev nD) {j k : Fin 31} (h : fwd c j = fwd c k) : j = k := by
  have h1 : (c.val + (j.val + 1)) % 32 = (c.val + (k.val + 1)) % 32 := congrArg Fin.val h
  have := c.isLt; have := j.isLt; have := k.isLt
  exact Fin.ext (by omega)
theorem bwd_inj (c : Dev nD) {j k : Fin 31} (h : bwd c j = bwd c k) : j = k := by
  have h1 : (c.val + 31 - j.val) % 32 = (c.val + 31 - k.val) % 32 := congrArg Fin.val h
  have := c.isLt; have := j.isLt; have := k.isLt
  exact Fin.ext (by omega)

/-! ## Semaphores and cells -/

/-- The barrier semaphore; the `k`-th send and receive semaphores. -/
abbrev barS : Sem sig := (SemArray.scalar (sig.barrier 0 rfl) : Sems sig S_).sem
theorem inb31 (k : Fin 31) : ∀ a, (![k.val] : Fin 1 → Nat) a + S1.size a ≤ S31.size a := by
  intro a; fin_cases a; show k.val + 1 ≤ 31; omega
abbrev sendS (k : Fin 31) : DmaSem sig := ((cc0_scratch1.slice (Rect.unit (s := S31) ![k.val] S1.size (inb31 k))).squeeze S_ squeezes_S1_S_).sem
abbrev recvS (k : Fin 31) : DmaSem sig := ((cc0_scratch2.slice (Rect.unit (s := S31) ![k.val] S1.size (inb31 k))).squeeze S_ squeezes_S1_S_).sem

theorem sendS_val (k : Fin 31) : (sendS k).val = 5 + k.val := by revert k; decide
theorem recvS_val (k : Fin 31) : (recvS k).val = 36 + k.val := by revert k; decide

abbrev barCell (c : Dev nD) : GSem nD τ sig := ((c : Thread nD τ), .reg barS)
abbrev sendCell (c : Dev nD) (k : Fin 31) : GSem nD τ sig := ((c : Thread nD τ), .dma (sendS k))
abbrev recvCell (c : Dev nD) (k : Fin 31) : GSem nD τ sig := ((c : Thread nD τ), .dma (recvS k))

/-! ## The blocks a device starts from, and the values of `Vals` at them -/

def xin (c : Dev nD) : Vec F S4x512x256 .f32 :=
  (win0_0.blk t0_0).view.read (Elt F) ((s₀ m ρ).mem ((c : Thread nD τ).loc main_arg0))
def tin (c : Dev nD) : Vec F S4x128 .f32 :=
  (win0_1.blk t0_0).view.read (Elt F) ((s₀ m ρ).mem ((c : Thread nD τ).loc main_arg1))
def wsin (c : Dev nD) : Vec F S128x256 .f32 :=
  (win0_2.blk t0_0).view.read (Elt F) ((s₀ m ρ).mem ((c : Thread nD τ).loc main_arg2))
def wbin (c : Dev nD) : Vec F S128x256 .f32 :=
  (win0_3.blk t0_0).view.read (Elt F) ((s₀ m ρ).mem ((c : Thread nD τ).loc main_arg3))

/-- The table every device ends with: row `d` is device `d`'s partial sums. -/
def stats : Vec F S32x8x512 .bf16 := statsOf (fun d => xin m ρ d)
/-- Device `c`'s result block. -/
def outAt (c : Dev nD) : Vec F S4x512x256 .f32 := outOf (xin m ρ c) (tin m ρ c) (wsin m ρ c) (wbin m ρ c) (stats m ρ)

/-! ## The table's rows -/

abbrev scrM : Memref sig .tc .vmem S32x8x512 .bf16 := Memref.whole cc0_scratch0
/-- Row `i` of the table, as the kernel's transfers name a row. -/
abbrev rowM (i : Dev nD) : Memref sig .tc .vmem S8x512 .bf16 :=
  (scrM.slice (Rect.unit (s := S32x8x512) (k0_off2 i) S1x8x512.size (k0_off2_inb i)) (fun _ => rfl)).squeeze S8x512 squeezes_S1x8x512_S8x512

/-- The table's elements in row `i`. -/
def rowSet (i : Dev nD) : Finset S32x8x512.Idx := (Rect.unit (s := S32x8x512) (k0_off2 i) S1x8x512.size (k0_off2_inb i)).set

theorem mem_rowSet {i : Dev nD} {x : S32x8x512.Idx} : x ∈ rowSet i ↔ (x 0).val = i.val := by
  unfold rowSet
  rw [Rect.mem_set_unit, k0_off2_eq]
  constructor
  · intro h; have := h 0; simp at this; omega
  · intro h a
    fin_cases a
    · simp; omega
    · simp; exact (x 1).isLt
    · simp; exact (x 2).isLt

theorem rowSet_disjoint {i j : Dev nD} (h : i ≠ j) : Disjoint (rowSet i) (rowSet j) :=
  Finset.disjoint_left.mpr fun x hi hj => h (Fin.ext ((mem_rowSet.mp hi).symm.trans (mem_rowSet.mp hj)))

theorem rowSet_cover : (Finset.univ : Finset (Dev nD)).biUnion rowSet = Finset.univ := by
  ext x
  simp only [Finset.mem_biUnion, Finset.mem_univ, true_and, iff_true]
  exact ⟨x 0, mem_rowSet.mpr rfl⟩

/-- Row `i` of device `c`'s table, held at share `q` with contents `f`. -/
def rowPts (c : Dev nD) (i : Dev nD) (q : PosShare TreeShare) (f : Buf (Elt F) ((c : Thread nD τ).loc cc0_scratch0)) : sProp 𝕄 :=
  ((c : Thread nD τ).loc cc0_scratch0) ↦[rowSet i]{q} f

/-! ## Shares of a device's own row

One half stays with the device for its own reads of the table; the other half is cut thirty-one times, one piece lent
to each transfer until its send wait returns it. -/

def keepSh : PosShare TreeShare := fullShare.right
def restSh : ℕ → PosShare TreeShare
  | 0 => fullShare.left
  | n + 1 => (restSh n).right
def sendSh (n : ℕ) : PosShare TreeShare := (restSh n).left

theorem restSh_split (n : ℕ) : restSh n ∈ sendSh n ·? restSh (n + 1) := PosShare.mem_left_op_right (restSh n)
theorem full_split : (fullShare : PosShare TreeShare) ∈ restSh 0 ·? keepSh := PosShare.mem_left_op_right fullShare

/-! ## The schedule -/

abbrev N : ℕ := (rowM (0 : Dev nD)).view.dmaCredit
theorem N_pos : 0 < N := View.dmaCredit_pos _ (by decide)

/-- What `bwd c j` hands `c` when it signals `c`'s barrier: its own table's row `c`, at whatever contents. -/
def barPay (c : Dev nD) (j : Fin 31) : sProp 𝕄 := iprop(∃ f, rowPts (bwd c j) c fullShare f)
/-- What the landing on receive cell `j` hands `c`: its row `bwd c j` holding that device's partial sums. -/
def recvPay (c : Dev nD) (j : Fin 31) : sProp 𝕄 := rowPts c (bwd c j) fullShare (stats m ρ)
/-- What send cell `j` hands back: the share of its own row the transfer read. -/
def sendPay (c : Dev nD) (j : Fin 31) : sProp 𝕄 := rowPts c c (sendSh j.val) (stats m ρ)

abbrev IsBar (g : GSem nD τ sig) : Prop := g.1.2 = .tc ∧ g.2 = .reg barS
def IsSend (g : GSem nD τ sig) : Prop := g.1.2 = .tc ∧ ∃ k : Fin 31, g.2 = .dma (sendS k)
def IsRecv (g : GSem nD τ sig) : Prop := g.1.2 = .tc ∧ ∃ k : Fin 31, g.2 = .dma (recvS k)
instance (g : GSem nD τ sig) : Decidable (IsSend g) := by unfold IsSend; infer_instance
instance (g : GSem nD τ sig) : Decidable (IsRecv g) := by unfold IsRecv; infer_instance

/-- The offset a send or receive semaphore is numbered by (junk elsewhere). -/
def slotOf (sm : SemLoc sig) : Fin 31 :=
  match sm with
  | .dma q => if h : 5 ≤ q.val ∧ q.val < 36 then ⟨q.val - 5, by omega⟩ else if h : 36 ≤ q.val ∧ q.val < 67 then ⟨q.val - 36, by omega⟩ else 0
  | _ => 0

theorem slotOf_send (k : Fin 31) : slotOf (.dma (sendS k) : SemLoc sig) = k := by revert k; decide
theorem slotOf_recv (k : Fin 31) : slotOf (.dma (recvS k) : SemLoc sig) = k := by revert k; decide

/-- One round. A barrier cell has the thirty-one unit duties; a send or receive cell the one duty `0` of a row's
    credit. -/
def ringRd : Rounds.Schedule (GSem nD τ sig) DD 𝕄 where
  duties g r := if r = 0 ∧ IsBar g then Finset.univ else if r = 0 ∧ (IsSend g ∨ IsRecv g) then {0} else ∅
  unitless _ := False
  amount g _ _ := if g.2 = .reg barS then 1 else N
  payload g _ d :=
    if g.2 = .reg barS then barPay g.1.1 d
    else if IsRecv g then recvPay m ρ g.1.1 (slotOf g.2)
    else if IsSend g then sendPay m ρ g.1.1 (slotOf g.2)
    else iprop(emp)
  amount_pos g _ _ _ := by
    by_cases h : g.2 = .reg barS
    · rw [if_pos h]; exact Nat.one_pos
    · rw [if_neg h]; exact N_pos

end Cert.KernelIdeal.Proto

end
-- ==== Proof.Seq.lean ====
/-
  A separating conjunction over the first `n` of thirty-one offsets, by recursion on `n`, so that an unrolled
  sequence of thirty-one steps can add (or take) one conjunct per step by unfolding, and the whole is the conjunction
  over all offsets.
-/
import Idealize.ShloMosaic.Lib.Tactic

noncomputable section

namespace Cert.Seq

open Idealize.SL Idealize.SL.RA Idealize.SL.BI
open scoped Idealize.SL.BI
open Idealize.SL.BI.BIBase Idealize.SL.BI.Laws Idealize.SL.ProofMode

universe u
variable {M : Type u} [URA M]

/-- The conjuncts at offsets `0 … n - 1`, the last on the outside. -/
def upTo (Φ : Fin 31 → sProp M) : (n : ℕ) → n ≤ 31 → sProp M
  | 0, _ => iprop(emp)
  | n + 1, h => iprop(Φ ⟨n, h⟩ ∗ upTo Φ n (Nat.le_of_succ_le h))

theorem upTo_succ (Φ : Fin 31 → sProp M) (n : ℕ) (h : n + 1 ≤ 31) :
    upTo Φ (n + 1) h = iprop(Φ ⟨n, h⟩ ∗ upTo Φ n (Nat.le_of_succ_le h)) := rfl

theorem upTo_zero (Φ : Fin 31 → sProp M) (h : 0 ≤ 31) : upTo Φ 0 h = iprop(emp) := rfl

theorem upTo_eq_filter (Φ : Fin 31 → sProp M) (n : ℕ) (h : n ≤ 31) :
    upTo Φ n h = bigSep (Finset.univ.filter fun k : Fin 31 => k.val < n) Φ := by
  induction n with
  | zero =>
    rw [upTo_zero, show (Finset.univ.filter fun k : Fin 31 => k.val < 0) = ∅ from
      Finset.filter_false_of_mem fun k _ => Nat.not_lt_zero _, bigSep_empty]
    rfl
  | succ n ih =>
    have hs : (Finset.univ.filter fun k : Fin 31 => k.val < n + 1)
        = insert (⟨n, h⟩ : Fin 31) (Finset.univ.filter fun k : Fin 31 => k.val < n) := by
      ext k
      rw [Finset.mem_insert, Finset.mem_filter, Finset.mem_filter, Fin.ext_iff]
      constructor
      · rintro ⟨-, hk⟩
        rcases Nat.lt_succ_iff_lt_or_eq.mp hk with hk | hk
        · exact Or.inr ⟨Finset.mem_univ _, hk⟩
        · exact Or.inl hk
      · rintro (hk | ⟨-, hk⟩)
        · exact ⟨Finset.mem_univ _, by rw [hk]; exact Nat.lt_succ_self n⟩
        · exact ⟨Finset.mem_univ _, Nat.lt_succ_of_lt hk⟩
    rw [upTo_succ, ih, hs, bigSep_insert (by rw [Finset.mem_filter]; exact fun hk => Nat.lt_irrefl n hk.2)]
    rfl

/-- All thirty-one. -/
theorem upTo_all (Φ : Fin 31 → sProp M) : upTo Φ 31 le_rfl = bigSep Finset.univ Φ := by
  rw [upTo_eq_filter, Finset.filter_true_of_mem fun k _ => k.isLt]

/-- All thirty-one, in the opposite order: the conjunct at offset `0` on the outside. -/
theorem upTo_all_rev (Φ : Fin 31 → sProp M) : upTo (fun k => Φ k.rev) 31 le_rfl = bigSep Finset.univ Φ := by
  rw [upTo_all]
  exact (bigSep_univ_equiv Fin.revPerm Φ).symm

end Cert.Seq

end
-- ==== Proof.Data.lean ====
/-
  What a device holds and owes at the kernel's start and end: the ghost state of the exchange, the tallies it owes its
  peers, the order of the cells' levels, and the pipeline's proof data.
-/
import proofs.«900770_g7700000000000771_dist_diff_adaln_cshard_i_b4_s512_c256_v7x_i32_bf16_1_alg».proof.Proof.Sched
import proofs.«900770_g7700000000000771_dist_diff_adaln_cshard_i_b4_s512_c256_v7x_i32_bf16_1_alg».proof.Proof.Seq

noncomputable section

namespace Cert.KernelIdeal.Proto

open Cert.KernelIdeal Cert.KernelIdeal.Gen Cert.KernelIdeal.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes at launch

Device `c` owes every peer `fwd c j` one unit on its barrier cell and a row's credit on its receive cell `j`. The
tallies are summed by recursion so that the signals, then the transfers, each peel the last summand in program order:
with `n` payments left the next goes to offset `31 - n`. -/

def sigOwed (c : Dev nD) : (n : ℕ) → n ≤ 31 → CellTallies nD τ sig Unit
  | 0, _ => 0
  | n + 1, h => sigOwed c n (Nat.le_of_succ_le h) + tallyAt (barCell (fwd c ⟨30 - n, by omega⟩)) () 1

def sendOwed (c : Dev nD) : (n : ℕ) → n ≤ 31 → CellTallies nD τ sig Unit
  | 0, _ => 0
  | n + 1, h => sendOwed c n (Nat.le_of_succ_le h) + tallyAt (recvCell (fwd c ⟨30 - n, by omega⟩) ⟨30 - n, by omega⟩) () N

def O₀ (c : Dev nD) : CellTallies nD τ sig Unit := sendOwed c 31 le_rfl + sigOwed c 31 le_rfl

/-! ## Levels: barrier cells at 1, receive cells at 2, everything else (staging, send) at 0 -/

def L (g : GSem nD τ sig) : Finset Unit := if g.1.2 = .tc then {()} else ∅
def lv (g : GSem nD τ sig) (_ : Unit) : ℕ := if g.2 = .reg barS then 1 else if IsRecv g then 2 else 0

/-! ## The exchange's ghost state -/

/-- Every cell's invariant, under the names the launch allocated them at, and that every cell is at round 0 or later. -/
def records (Kb : Dev nD → ℕ) (Ks Kr : Dev nD × Fin 31 → ℕ) : sProp 𝕄 :=
  iprop((bigSep Finset.univ fun d : Dev nD => iprop(cellInv ER (ringRd m ρ) (Kb d) (barCell d) ∗ reached ER (barCell d) 0))
    ∗ (bigSep Finset.univ fun dk : Dev nD × Fin 31 => iprop(cellInv ER (ringRd m ρ) (Ks dk) (sendCell dk.1 dk.2) ∗ reached ER (sendCell dk.1 dk.2) 0))
    ∗ (bigSep Finset.univ fun dk : Dev nD × Fin 31 => iprop(cellInv ER (ringRd m ρ) (Kr dk) (recvCell dk.1 dk.2) ∗ reached ER (recvCell dk.1 dk.2) 0)))

instance records_persistent (Kb : Dev nD → ℕ) (Ks Kr : Dev nD × Fin 31 → ℕ) : BI.Persistent (records m ρ Kb Ks Kr) := by
  unfold records; infer_instance

/-- What is device `c`'s alone: its positions on its own cells, and the tokens of the duties IT pays — duty `j` of the
    barrier cell of `fwd c j`, the duty of receive cell `j` of `fwd c j`, the duty of its own send cell `j`. -/
def linear (c : Dev nD) : sProp 𝕄 :=
  iprop(atPos ER (barCell c) 0 ∅ 0
    ∗ (bigSep Finset.univ fun k : Fin 31 => atPos ER (sendCell c k) 0 ∅ 0)
    ∗ (bigSep Finset.univ fun k : Fin 31 => atPos ER (recvCell c k) 0 ∅ 0)
    ∗ (bigSep Finset.univ fun j : Fin 31 => dutyTok ER (barCell (fwd c j)) 0 j)
    ∗ (bigSep Finset.univ fun j : Fin 31 => dutyTok ER (recvCell (fwd c j) j) 0 (0 : Fin 31))
    ∗ (bigSep Finset.univ fun j : Fin 31 => dutyTok ER (sendCell c j) 0 (0 : Fin 31)))

def ghost (Kb : Dev nD → ℕ) (Ks Kr : Dev nD × Fin 31 → ℕ) (c : Dev nD) : sProp 𝕄 :=
  iprop(records m ρ Kb Ks Kr ∗ linear c)

/-- What device `c`'s body starts from besides its buffers: the ghost state at some names, the credit its peers owe its
    barrier cell (thirty-one units) and each receive cell (a row's credit), and the level facts. -/
def start (c : Dev nD) : sProp 𝕄 :=
  iprop((∃ Kb Ks Kr, ghost m ρ Kb Ks Kr c) ∗ cred (tallyAt (barCell c) () 31)
    ∗ (bigSep Finset.univ fun k : Fin 31 => cred (tallyAt (recvCell c k) () N)) ∗ levAts L lv)

/-- Before the point: that, and the table at whatever contents. -/
def Φ₀ (c : Dev nD) : sProp 𝕄 := iprop(start m ρ c ∗ ∃ f, ((c : Thread nD τ).loc cc0_scratch0) ↦{fullShare} f)
/-- After it: the table holding every device's partial sums, and the device's own sixty-two cells closed at zero. -/
def Φ₁ (c : Dev nD) : sProp 𝕄 :=
  iprop((((c : Thread nD τ).loc cc0_scratch0) ↦{fullShare} stats m ρ)
    ∗ (bigSep Finset.univ fun k : Fin 31 => semVal (sendCell c k) 0) ∗ (bigSep Finset.univ fun k : Fin 31 => semVal (recvCell c k) 0))

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => tin m ρ c
    | ⟨2, _⟩ => wsin m ρ c
    | ⟨3, _⟩ => wbin m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.KernelIdeal.Proto

end
-- ==== Proof.Tables.lean ====
/-
  The schedule read at each kind of cell: which duties, what amounts, what payloads, how many units a round expects.
-/
import proofs.«900770_g7700000000000771_dist_diff_adaln_cshard_i_b4_s512_c256_v7x_i32_bf16_1_alg».proof.Proof.Sched

noncomputable section

namespace Cert.KernelIdeal.Proto

open Cert.KernelIdeal Cert.KernelIdeal.Gen Cert.KernelIdeal.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance ringRd_payload_storable (g : GSem nD τ sig) (r : ℕ) (d : DD) :
    BI.Storable (upEmb : UEmb _ 𝕄) ((ringRd (F := F) m ρ).payload g r d) := by
  show BI.Storable upEmb (if g.2 = .reg barS then barPay g.1.1 d
    else if IsRecv g then recvPay m ρ g.1.1 (slotOf g.2)
    else if IsSend g then sendPay m ρ g.1.1 (slotOf g.2) else iprop(emp))
  unfold barPay recvPay sendPay rowPts
  (repeat' split) <;> infer_instance

section Tables
variable (c : Dev nD) (k : Fin 31)

theorem send_ne_bar : (SemLoc.dma (sendS k) : SemLoc sig) ≠ .reg barS := fun h => by cases h
theorem recv_ne_bar : (SemLoc.dma (recvS k) : SemLoc sig) ≠ .reg barS := fun h => by cases h
theorem send_ne_recv (k' : Fin 31) : (SemLoc.dma (sendS k) : SemLoc sig) ≠ .dma (recvS k') := fun h => by
  have h1 : (sendS k).val = (recvS k').val := congrArg Fin.val (SemLoc.dma.inj h)
  rw [sendS_val, recvS_val] at h1; have := k.isLt; omega
theorem sendS_inj {k k' : Fin 31} (h : sendS k = sendS k') : k = k' := by
  have h1 := congrArg Fin.val h; rw [sendS_val, sendS_val] at h1; exact Fin.ext (by omega)
theorem recvS_inj {k k' : Fin 31} (h : recvS k = recvS k') : k = k' := by
  have h1 := congrArg Fin.val h; rw [recvS_val, recvS_val] at h1; exact Fin.ext (by omega)

theorem isSend_send : IsSend (sendCell c k) := ⟨rfl, k, rfl⟩
theorem isRecv_recv : IsRecv (recvCell c k) := ⟨rfl, k, rfl⟩
theorem not_isRecv_send : ¬ IsRecv (sendCell c k) := fun ⟨_, k', h⟩ => send_ne_recv k k' h
theorem not_isBar_send : ¬ IsBar (sendCell c k) := fun h => send_ne_bar k h.2
theorem not_isBar_recv : ¬ IsBar (recvCell c k) := fun h => recv_ne_bar k h.2
theorem not_isRecv_bar : ¬ IsRecv (barCell c) := fun ⟨_, k', h⟩ => (recv_ne_bar k' h.symm)

theorem duties_bar : (ringRd (F := F) m ρ).duties (barCell c) 0 = Finset.univ := by dsimp only [ringRd]; exact if_pos ⟨rfl, rfl, rfl⟩
theorem duties_send : (ringRd (F := F) m ρ).duties (sendCell c k) 0 = {0} := by
  dsimp only [ringRd]; rw [if_neg (fun h => not_isBar_send c k h.2)]; exact if_pos ⟨rfl, .inl (isSend_send c k)⟩
theorem duties_recv : (ringRd (F := F) m ρ).duties (recvCell c k) 0 = {0} := by
  dsimp only [ringRd]; rw [if_neg (fun h => not_isBar_recv c k h.2)]; exact if_pos ⟨rfl, .inr (isRecv_recv c k)⟩
theorem duties_later (g : GSem nD τ sig) : ∀ r, 1 ≤ r → (ringRd (F := F) m ρ).duties g r = ∅ :=
  fun r hr => by dsimp only [ringRd]; rw [if_neg fun h => by omega, if_neg fun h => by omega]

theorem amount_bar (d : DD) : (ringRd (F := F) m ρ).amount (barCell c) 0 d = 1 := by dsimp only [ringRd]; exact if_pos rfl
theorem amount_send (d : DD) : (ringRd (F := F) m ρ).amount (sendCell c k) 0 d = N := by dsimp only [ringRd]; exact if_neg (send_ne_bar k)
theorem amount_recv (d : DD) : (ringRd (F := F) m ρ).amount (recvCell c k) 0 d = N := by dsimp only [ringRd]; exact if_neg (recv_ne_bar k)

theorem expect_bar : (ringRd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_send : (ringRd (F := F) m ρ).expect (sendCell c k) 0 = N := by
  unfold Schedule.expect Schedule.amountOf; rw [duties_send, Finset.sum_singleton, amount_send]
theorem expect_recv : (ringRd (F := F) m ρ).expect (recvCell c k) 0 = N := by
  unfold Schedule.expect Schedule.amountOf; rw [duties_recv, Finset.sum_singleton, amount_recv]

theorem payload_bar (d : DD) : (ringRd (F := F) m ρ).payload (barCell c) 0 d = barPay c d := by dsimp only [ringRd]; rw [if_pos rfl]
theorem payload_send (d : DD) : (ringRd (F := F) m ρ).payload (sendCell c k) 0 d = sendPay m ρ c k := by
  dsimp only [ringRd]; rw [if_neg (send_ne_bar k), if_neg (not_isRecv_send c k), if_pos (isSend_send c k), slotOf_send]
theorem payload_recv (d : DD) : (ringRd (F := F) m ρ).payload (recvCell c k) 0 d = recvPay m ρ c k := by
  dsimp only [ringRd]; rw [if_neg (recv_ne_bar k), if_pos (isRecv_recv c k), slotOf_recv]

theorem rest_bar : bigSep ((ringRd (F := F) m ρ).duties (barCell c) 0 \ ∅) (fun d => (ringRd (F := F) m ρ).payload (barCell c) 0 d)
    = bigSep Finset.univ (fun d => (barPay c d : sProp 𝕄)) := by
  rw [Finset.sdiff_empty, duties_bar]; exact bigSep_congr fun d _ => payload_bar m ρ c d
theorem rest_send : bigSep ((ringRd (F := F) m ρ).duties (sendCell c k) 0 \ ∅) (fun d => (ringRd (F := F) m ρ).payload (sendCell c k) 0 d) = sendPay m ρ c k := by
  rw [Finset.sdiff_empty, duties_send, bigSep_singleton, payload_send]
theorem rest_recv : bigSep ((ringRd (F := F) m ρ).duties (recvCell c k) 0 \ ∅) (fun d => (ringRd (F := F) m ρ).payload (recvCell c k) 0 d) = recvPay m ρ c k := by
  rw [Finset.sdiff_empty, duties_recv, bigSep_singleton, payload_recv]

end Tables

end Cert.KernelIdeal.Proto

end
-- ==== Proof.Levels.lean ====
/-
  The levels of the exchange's cells and the credit the launch deals each device.

  A device owes each of its thirty-one peers one unit on the peer's barrier cell and a row's credit on one of the
  peer's receive cells. Barrier cells sit at level 1, receive cells at level 2, every other cell at level 0: a device
  waits on its barrier cell while it still owes receive credits only, and on its staging and send cells whatever it
  owes. Summed over the devices, what the peers owe a device is thirty-one units on its own barrier cell and a row's
  credit on each of its own receive cells: the ring of offsets is a bijection of the devices at each offset.
-/
import proofs.«900770_g7700000000000771_dist_diff_adaln_cshard_i_b4_s512_c256_v7x_i32_bf16_1_alg».proof.Proof.Data
import proofs.«900770_g7700000000000771_dist_diff_adaln_cshard_i_b4_s512_c256_v7x_i32_bf16_1_alg».proof.Proof.Tables

noncomputable section

namespace Cert.KernelIdeal.Proto

open Cert.KernelIdeal Cert.KernelIdeal.Gen Cert.KernelIdeal.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the level facts live -/

theorem L_of_ne (g : GSem nD τ sig) (h : g.1.2 ≠ .tc) : L g = ∅ := if_neg h
theorem L_tc (c : Dev nD) (sm : SemLoc sig) : L ((c : Thread nD τ), sm) = {()} := if_pos rfl

/-! ## What is still owed with `n` payments left: the offsets from `31 - n` on -/

/-- With `n + 1` payments left the offsets still to pay are the next one, `30 - n`, and those left after it. -/
theorem left_succ (n : ℕ) (h : n + 1 ≤ 31) :
    (Finset.univ.filter fun j : Fin 31 => 31 - (n + 1) ≤ j.val)
      = insert (⟨30 - n, by omega⟩ : Fin 31) (Finset.univ.filter fun j : Fin 31 => 31 - n ≤ j.val) := by
  ext j
  simp only [Finset.mem_insert, Finset.mem_filter, Finset.mem_univ, true_and, Fin.ext_iff, Fin.val_mk]
  have := j.isLt
  omega

theorem left_not_mem (n : ℕ) (h : n + 1 ≤ 31) :
    (⟨30 - n, by omega⟩ : Fin 31) ∉ Finset.univ.filter fun j : Fin 31 => 31 - n ≤ j.val := by
  simp only [Finset.mem_filter, Finset.mem_univ, true_and, Fin.val_mk]
  omega

theorem left_zero : (Finset.univ.filter fun j : Fin 31 => 31 - 0 ≤ j.val) = ∅ :=
  Finset.filter_false_of_mem fun j _ => by have := j.isLt; omega

theorem left_all : (Finset.univ.filter fun j : Fin 31 => 31 - 31 ≤ j.val) = Finset.univ :=
  Finset.filter_true_of_mem fun j _ => by omega

/-- The barrier units still owed with `n` signals left: one to each peer at an offset from `31 - n` on. -/
theorem sigOwed_eq_left (c : Dev nD) (n : ℕ) (h : n ≤ 31) :
    sigOwed c n h = ∑ j ∈ Finset.univ.filter (fun j : Fin 31 => 31 - n ≤ j.val), tallyAt (barCell (fwd c j)) () 1 := by
  induction n with
  | zero => rw [left_zero, Finset.sum_empty]; rfl
  | succ n ih =>
    rw [left_succ n h, Finset.sum_insert (left_not_mem n h), ← ih (Nat.le_of_succ_le h)]
    exact add_comm _ _

/-- The receive credits still owed with `n` transfers left: a row's to each peer at an offset from `31 - n` on. -/
theorem sendOwed_eq_left (c : Dev nD) (n : ℕ) (h : n ≤ 31) :
    sendOwed c n h = ∑ j ∈ Finset.univ.filter (fun j : Fin 31 => 31 - n ≤ j.val), tallyAt (recvCell (fwd c j) j) () N := by
  induction n with
  | zero => rw [left_zero, Finset.sum_empty]; rfl
  | succ n ih =>
    rw [left_succ n h, Finset.sum_insert (left_not_mem n h), ← ih (Nat.le_of_succ_le h)]
    exact add_comm _ _

theorem sigOwed_eq (c : Dev nD) : sigOwed c 31 le_rfl = ∑ j : Fin 31, tallyAt (barCell (fwd c j)) () 1 := by
  rw [sigOwed_eq_left, left_all]

theorem sendOwed_eq (c : Dev nD) : sendOwed c 31 le_rfl = ∑ j : Fin 31, tallyAt (recvCell (fwd c j) j) () N := by
  rw [sendOwed_eq_left, left_all]

/-- A receive credit is owed only to a peer's receive cell at the peer's offset. -/
theorem sendOwed_pos {c : Dev nD} {n : ℕ} {h : n ≤ 31} {g : GSem nD τ sig} {u : Unit} (hp : 0 < sendOwed c n h g u) :
    ∃ j : Fin 31, g = recvCell (fwd c j) j := by
  rw [sendOwed_eq_left] at hp
  obtain ⟨j, -, hj⟩ := Pipeline.sum_pos_exists hp
  exact ⟨j, (Pipeline.tallyAt_pos hj).1⟩

/-- A barrier unit is owed only to a peer's barrier cell. -/
theorem sigOwed_pos {c : Dev nD} {n : ℕ} {h : n ≤ 31} {g : GSem nD τ sig} {u : Unit} (hp : 0 < sigOwed c n h g u) :
    ∃ j : Fin 31, g = barCell (fwd c j) := by
  rw [sigOwed_eq_left] at hp
  obtain ⟨j, -, hj⟩ := Pipeline.sum_pos_exists hp
  exact ⟨j, (Pipeline.tallyAt_pos hj).1⟩

theorem O₀_pos {c : Dev nD} {g : GSem nD τ sig} {u : Unit} (hp : 0 < O₀ c g u) :
    (∃ j : Fin 31, g = recvCell (fwd c j) j) ∨ ∃ j : Fin 31, g = barCell (fwd c j) := by
  unfold O₀ at hp
  rcases Pipeline.add_pos_cases hp with h | h
  · exact Or.inl (sendOwed_pos h)
  · exact Or.inr (sigOwed_pos h)

/-! ## The waits -/

theorem lv_bar (c : Dev nD) (u : Unit) : lv (barCell c) u = 1 := by dsimp only [lv]; rw [if_pos rfl]
theorem lv_recv (c : Dev nD) (k : Fin 31) (u : Unit) : lv (recvCell c k) u = 2 := by
  dsimp only [lv]; rw [if_neg (recv_ne_bar k), if_pos (isRecv_recv c k)]

/-- At its barrier wait a device owes receive credits only: receive cells, above its barrier cell. -/
theorem mayWait_bar (c : Dev nD) (n : ℕ) (h : n ≤ 31) :
    (levAts L lv : sProp 𝕄) ⊢ MayWait (c : Thread nD τ) (.reg barS) () (sendOwed c n h + sigOwed c 0 (Nat.zero_le _)) :=
  Pipeline.mayWait_of_levAts (by rw [L_tc]; exact Finset.mem_singleton_self _) fun g u hg => by
    rcases Pipeline.add_pos_cases hg with hg | hg
    · obtain ⟨j, rfl⟩ := sendOwed_pos hg
      refine ⟨by rw [L_tc]; exact Finset.mem_singleton_self _, ?_⟩
      rw [show lv ((c : Thread nD τ), SemLoc.reg barS) () = 1 from lv_bar c (), lv_recv]
      exact Nat.one_lt_two
    · exact absurd hg (Nat.lt_irrefl 0)

/-- On a cell that is no receive cell and no barrier cell — a staging or a send cell — a device may wait whatever it
    still owes: all of it is owed to barrier and receive cells, above level 0. -/
theorem mayWait_stage (c : Dev nD) (q : DmaSem sig) (hq : ¬ IsRecv (((c : Thread nD τ), SemLoc.dma q) : GSem nD τ sig))
    (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have h0 : lv ((c : Thread nD τ), SemLoc.dma q) () = 0 := by
      dsimp only [lv]; rw [if_neg (fun h => by cases h), if_neg hq]
    rw [h0]
    rcases O₀_pos hg with ⟨j, rfl⟩ | ⟨j, rfl⟩
    · refine ⟨by rw [L_tc]; exact Finset.mem_singleton_self _, ?_⟩
      rw [lv_recv]; exact Nat.zero_lt_two
    · refine ⟨by rw [L_tc]; exact Finset.mem_singleton_self _, ?_⟩
      rw [lv_bar]; exact Nat.zero_lt_one
  · rw [MayWait_zero]; iintro -; iempintro

/-- The pipeline's own staging semaphores are numbered below the receive semaphores. -/
theorem stage_not_recv (c : Dev nD) (w : Fin (cfgs 0).W) (s : Fin ((cfgs 0).win w).nbuf) :
    ¬ IsRecv (((c : Thread nD τ), SemLoc.dma (((cfgs 0).win w).sem s)) : GSem nD τ sig) := by
  rintro ⟨-, k, hk⟩
  have h1 : (((cfgs 0).win w).sem s).val = (recvS k).val := congrArg Fin.val (SemLoc.dma.inj hk)
  rw [recvS_val] at h1
  have hv : (((cfgs 0).win w).sem s).val < 36 := by fin_cases w <;> fin_cases s <;> decide
  omega

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_not_recv c w s) _ (by
      rcases t with ⟨_ | _, ht⟩
      · exact Or.inl rfl
      · exact Or.inr rfl)

/-! ## The credit the launch deals -/

theorem nsmul_tallyAt_one (g : GSem nD τ sig) (n : ℕ) :
    n • (tallyAt g () 1 : CellTallies nD τ sig Unit) = tallyAt g () n := by
  induction n with
  | zero => rw [zero_smul, tallyAt_zero]
  | succ n ih => rw [succ_nsmul, ih, tallyAt_add]

/-- What every device owes at launch, as two sums over the offsets. -/
theorem O₀_eq : (O₀ : Dev nD → CellTallies nD τ sig Unit)
    = fun d => (∑ j : Fin 31, tallyAt (recvCell (fwd d j) j) () N) + ∑ j : Fin 31, tallyAt (barCell (fwd d j)) () 1 :=
  funext fun d => by unfold O₀; rw [sendOwed_eq, sigOwed_eq]

/-- What the launch deals device `c`: at each offset `j` the device `bwd c j` owes `c` a unit on its barrier cell and a
    row's credit on its receive cell `j`, and `d ↦ fwd d j` is a bijection of the devices; the thirty-one units on the
    barrier cell add up. -/
theorem creds (c : Dev nD) :
    (Pipeline.launchCred O₀ c : sProp 𝕄)
      ⊢ iprop(cred (tallyAt (barCell c) () 31) ∗ bigSep Finset.univ fun k : Fin 31 => cred (tallyAt (recvCell c k) () N)) := by
  rw [O₀_eq, Pipeline.launchCred_add (fun d => ∑ j : Fin 31, tallyAt (recvCell (fwd d j) j) () N) (fun d => ∑ j : Fin 31, tallyAt (barCell (fwd d j)) () 1),
    Pipeline.launchCred_sum Finset.univ (fun (j : Fin 31) d => tallyAt (recvCell (fwd d j) j) () N),
    Pipeline.launchCred_sum Finset.univ (fun (j : Fin 31) d => tallyAt (barCell (fwd d j)) () 1)]
  refine sep_symm.trans (BI.sep_mono ?_ ?_)
  · refine (bigSep_mono fun j _ => Pipeline.launchCred_tallyAt (.reg barS) (fun d => fwd d j) (fun c => bwd c j)
      (fun c => fwd_bwd c j) (fun d => bwd_fwd d j) () 1 c).trans ?_
    rw [← Pipeline.cred_finsetSum Finset.univ (fun _ : Fin 31 => (tallyAt (barCell c) () 1 : CellTallies nD τ sig Unit)),
      Finset.sum_const, Finset.card_univ, Fintype.card_fin, nsmul_tallyAt_one]
    exact BI.Entails.refl _
  · exact bigSep_mono fun j _ => Pipeline.launchCred_tallyAt (.dma (recvS j)) (fun d => fwd d j) (fun c => bwd c j)
      (fun c => fwd_bwd c j) (fun d => bwd_fwd d j) () N c

/-- info: 'Cert.KernelIdeal.Proto.creds' depends on axioms: [propext, Classical.choice, Quot.sound] -/
#guard_msgs in #print axioms creds

/-- info: 'Cert.KernelIdeal.Proto.waits' depends on axioms: [propext, Classical.choice, Quot.sound] -/
#guard_msgs in #print axioms waits

end Cert.KernelIdeal.Proto

end
-- ==== Proof.LibDeal.lean ====
/-
  Three general facts for a launch on a mesh.

  A separating conjunction over a finite index may be read along an injection, the summands outside its range
  dropped; a doubly indexed one may have its outer index permuted separately for each inner index (every token moves
  from its owner to the device that pays it); and when every device owes one tally to a semaphore of a peer, the
  semaphore depending on the device, the launch deals each device the matching credit on the semaphore its payer names.
-/
import Idealize.ShloMosaic.Lib.Pipeline.Launch
import Idealize.ShloMosaic.Lib.Tactic

noncomputable section

namespace Cert.LibDeal

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

section BigOp

universe u
variable {M : Type u} [URA M]

/-- Along an injection: the summands at its values are kept, the others dropped. -/
theorem bigSep_pick {I J : Type} [Fintype I] [Fintype J] [DecidableEq J] (f : I → J) (hf : Function.Injective f)
    (Φ : J → sProp M) : bigSep Finset.univ Φ ⊢ bigSep Finset.univ fun i => Φ (f i) := by
  have e : bigSep ((Finset.univ : Finset I).map ⟨f, hf⟩) Φ = bigSep Finset.univ fun i => Φ (f i) := bigSep_map ⟨f, hf⟩
  rw [← e]
  exact bigSep_subset (Finset.subset_univ _)

/-- The outer index permuted separately for each inner index. -/
theorem bigSep_deal {α J : Type} [Fintype α] [Fintype J] (e : J → α ≃ α) (Φ : α → J → sProp M) :
    (bigSep Finset.univ fun c => bigSep Finset.univ fun j => Φ c j)
      = bigSep Finset.univ fun c => bigSep Finset.univ fun j => Φ (e j c) j := by
  rw [bigSep_univ_comm Φ, bigSep_univ_comm (fun c j => Φ (e j c) j)]
  exact bigSep_congr fun j _ => bigSep_univ_equiv (e j) (fun c => Φ c j)

/-- The same with the permutations given as maps with inverses. -/
theorem bigSep_deal_fn {α J : Type} [Fintype α] [Fintype J] (f finv : J → α → α) (h1 : ∀ j c, f j (finv j c) = c)
    (h2 : ∀ j c, finv j (f j c) = c) (Φ : α → J → sProp M) :
    (bigSep Finset.univ fun c => bigSep Finset.univ fun j => Φ c j)
      = bigSep Finset.univ fun c => bigSep Finset.univ fun j => Φ (f j c) j :=
  bigSep_deal (fun j => ⟨f j, finv j, h2 j, h1 j⟩) Φ

end BigOp

section Credit

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

/-- Every device `d` owing one tally on semaphore `sm d` of device `f d`, `f` a bijection of the devices, the launch
    deals device `c` the matching credit on the semaphore its payer `finv c` names. -/
theorem launchCred_tallyAt_dep (sm : Dev nD → SemLoc sig) (f finv : Dev nD → Dev nD) (h1 : ∀ c, f (finv c) = c)
    (h2 : ∀ d, finv (f d) = d) (ι : Ix) (n : ℕ) (c : Dev nD) :
    (Pipeline.launchCred (fun d => tallyAt (((f d).tc : Thread nD τ), sm d) ι n) c : sProp 𝕄)
      ⊢ cred (tallyAt ((c.tc : Thread nD τ), sm (finv c)) ι n) := by
  refine (Pipeline.launchCred_elim _ c (sm (finv c))).trans (Entails.of_eq (congrArg cred ?_))
  rw [Pipeline.tallyOn_launchCredit_owing]
  unfold tallyAt
  refine congrArg _ ?_
  rw [Finset.sum_apply]
  have h0 : ∀ d ∈ (Finset.univ : Finset (Dev nD)), d ≠ finv c →
      tallyOn (nD := nD) (sig := sig) (((f d).tc : Thread nD τ), sm d) (Finsupp.single ι n) ((c.tc : Thread nD τ), sm (finv c)) = 0 := fun d _ hd => by
    unfold tallyOn
    refine Pi.single_eq_of_ne (fun h => hd ?_) _
    have h3 : c = f d := congrArg (fun g : GSem nD τ sig => g.1.1) h
    rw [h3, h2]
  rw [Finset.sum_eq_single (finv c) h0 (fun h => absurd (Finset.mem_univ _) h)]
  unfold tallyOn
  rw [h1, Pi.single_eq_same]

end Credit

/-- info: 'Cert.LibDeal.launchCred_tallyAt_dep' depends on axioms: [propext, Classical.choice, Quot.sound] -/
#guard_msgs in #print axioms launchCred_tallyAt_dep

end Cert.LibDeal

end
-- ==== Proof.Launch.lean ====
/-
  The launch: from "every device's body is proved" to the run of the whole program on the mesh, with every array's
  final contents named.

  Each device has sixty-three cells in the exchange: its barrier cell, thirty-one send cells and thirty-one receive
  cells. The launch element of the exchange's copy of the algebra is dealt cell by cell and token by token; every cell's
  invariant is allocated from its counter at zero; the duty tokens minted on a cell are dealt to the devices that pay
  them (duty `j` of the barrier cell of `d`, and the duty of receive cell `j` of `d`, go to `bwd d j`); and what each
  device then holds is what its body starts from.
-/
import proofs.«900770_g7700000000000771_dist_diff_adaln_cshard_i_b4_s512_c256_v7x_i32_bf16_1_alg».proof.Proof.Data
import proofs.«900770_g7700000000000771_dist_diff_adaln_cshard_i_b4_s512_c256_v7x_i32_bf16_1_alg».proof.Proof.Tables
import proofs.«900770_g7700000000000771_dist_diff_adaln_cshard_i_b4_s512_c256_v7x_i32_bf16_1_alg».proof.Proof.Levels
import proofs.«900770_g7700000000000771_dist_diff_adaln_cshard_i_b4_s512_c256_v7x_i32_bf16_1_alg».proof.Proof.LibDeal

noncomputable section

namespace Cert.KernelIdeal.Proto

open Cert.KernelIdeal Cert.KernelIdeal.Gen Cert.KernelIdeal.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, and a device's cells -/

/-- The kernel's own semaphores: the thirty-one send semaphores, then the thirty-one receive semaphores. -/
abbrev OwnK : Type := Fin 31 ⊕ Fin 31
abbrev osem : OwnK → SemLoc sig := fun
  | .inl k => .dma (sendS k)
  | .inr k => .dma (recvS k)

/-- A device's cells in the exchange: the barrier cell, then its own semaphores' cells. -/
abbrev CK : Type := Unit ⊕ OwnK
abbrev csem : CK → SemLoc sig := fun
  | .inl _ => .reg barS
  | .inr x => osem x
abbrev kcell (ck : Dev nD × CK) : GSem nD τ sig := ((ck.1 : Thread nD τ), csem ck.2)

theorem osem_injective : Function.Injective osem := by
  rintro (k | k) (k' | k') h
  · exact congrArg Sum.inl (sendS_inj (SemLoc.dma.inj h))
  · exact absurd h (send_ne_recv k k')
  · exact absurd h.symm (send_ne_recv k' k)
  · exact congrArg Sum.inr (recvS_inj (SemLoc.dma.inj h))

theorem osem_ne_bar (x : OwnK) : osem x ≠ .reg barS := by
  rcases x with k | k
  · exact send_ne_bar k
  · exact recv_ne_bar k

theorem csem_injective : Function.Injective csem := by
  rintro (u | x) (u' | x') h
  · rfl
  · exact absurd h.symm (osem_ne_bar x')
  · exact absurd h (osem_ne_bar x)
  · exact congrArg Sum.inr (osem_injective h)

theorem ownSemFacts : Pipeline.OwnSemFacts cfg0.spec osem where
  isScoped := by
    rintro (k | k)
    · revert k; decide
    · revert k; decide
  inj := osem_injective
  disj := by
    rintro (k | k)
    · revert k; decide
    · revert k; decide

theorem share_eq (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def ringCells : Finset (GSem nD τ sig) := Finset.univ.map ⟨kcell, kcell_injective⟩

/-- A device's own cells' duty tokens as minted: (device, which duty) — the thirty-one duties of its barrier cell, the
    one duty of each send cell and of each receive cell. -/
abbrev TK : Type := Fin 31 ⊕ OwnK
abbrev tokOf (ct : Dev nD × TK) : GSem nD τ sig × ℕ × DD := match ct.2 with
  | .inl j => (barCell ct.1, 0, j)
  | .inr x => (((ct.1 : Thread nD τ), osem x), 0, 0)
theorem tokOf_injective : Function.Injective (tokOf : Dev nD × TK → GSem nD τ sig × ℕ × DD) := by
  rintro ⟨c, t⟩ ⟨c', t'⟩ h
  have h1 : c = c' := by
    have := congrArg (fun x : GSem nD τ sig × ℕ × DD => x.1.1.1) h
    rcases t with j | x <;> rcases t' with j' | x' <;> exact this
  subst h1
  have : t = t' := by
    rcases t with j | x <;> rcases t' with j' | x'
    · exact congrArg Sum.inl (congrArg (fun x : GSem nD τ sig × ℕ × DD => x.2.2) h)
    · exact absurd (congrArg (fun x : GSem nD τ sig × ℕ × DD => x.1.2) h).symm (osem_ne_bar x')
    · exact absurd (congrArg (fun x : GSem nD τ sig × ℕ × DD => x.1.2) h) (osem_ne_bar x)
    · exact congrArg Sum.inr (osem_injective (congrArg (fun x : GSem nD τ sig × ℕ × DD => x.1.2) h))
  subst this; rfl
def ringToks : Finset (GSem nD τ sig × ℕ × DD) := Finset.univ.map ⟨tokOf, tokOf_injective⟩

def u₀ : UU :=
  (initOf (Pipeline.cells cfgs cellOf_inj) (Pipeline.launchToks cfgs cellOf_inj), initOf ringCells ringToks)

/-! ## Conjunctions over a device's cells and tokens, family by family -/

omit [FloatOps F] in
theorem bigSep_CK (Φ : CK → sProp 𝕄) :
    bigSep Finset.univ Φ = iprop(Φ (.inl ()) ∗ (bigSep Finset.univ fun k : Fin 31 => Φ (.inr (.inl k)))
      ∗ (bigSep Finset.univ fun k : Fin 31 => Φ (.inr (.inr k)))) := by
  rw [bigSep_univ_sum, bigSep_univ_sum, bigSep_univ_of_subsingleton ()]
  rfl

omit [FloatOps F] in
theorem bigSep_TK (Φ : TK → sProp 𝕄) :
    bigSep Finset.univ Φ = iprop((bigSep Finset.univ fun j : Fin 31 => Φ (.inl j)) ∗ (bigSep Finset.univ fun k : Fin 31 => Φ (.inr (.inl k)))
      ∗ (bigSep Finset.univ fun k : Fin 31 => Φ (.inr (.inr k)))) := by
  rw [bigSep_univ_sum, bigSep_univ_sum]
  rfl

omit [FloatOps F] in
/-- Over every device's cells: the barrier cells, the send cells, the receive cells. -/
theorem bigSep_DevCK (Φ : Dev nD × CK → sProp 𝕄) :
    bigSep Finset.univ Φ = iprop((bigSep Finset.univ fun d : Dev nD => Φ (d, .inl ()))
      ∗ (bigSep Finset.univ fun dk : Dev nD × Fin 31 => Φ (dk.1, .inr (.inl dk.2)))
      ∗ (bigSep Finset.univ fun dk : Dev nD × Fin 31 => Φ (dk.1, .inr (.inr dk.2)))) := by
  rw [bigSep_univ_prod, bigSep_congr (fun d _ => bigSep_CK (fun k => Φ (d, k))), bigSep_sep', bigSep_sep',
    bigSep_univ_prod (fun dk : Dev nD × Fin 31 => Φ (dk.1, .inr (.inl dk.2))),
    bigSep_univ_prod (fun dk : Dev nD × Fin 31 => Φ (dk.1, .inr (.inr dk.2)))]

/-! ## What the launch element deals -/

/-- The duty tokens of device `c`'s own cells. -/
def toks (c : Dev nD) : sProp 𝕄 :=
  iprop((bigSep Finset.univ fun j : Fin 31 => dutyTok ER (barCell c) 0 j)
    ∗ (bigSep Finset.univ fun k : Fin 31 => dutyTok ER (sendCell c k) 0 (0 : Fin 31))
    ∗ (bigSep Finset.univ fun k : Fin 31 => dutyTok ER (recvCell c k) 0 (0 : Fin 31)))

/-- What the launch element deals device `c` (the theorem's `G`). -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)

/-- What the global step makes of it (`G'`). -/
def G' (c : Dev nD) : sProp 𝕄 := iprop(∃ Kb Ks Kr, ghost m ρ Kb Ks Kr c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TK]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the cells' invariants -/

omit [FloatOps F] in
/-- The send and receive semaphores are the kernel's own sixty-two; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 31 => semVal (sendCell c k) 0) ∗ (bigSep Finset.univ fun k : Fin 31 => semVal (recvCell c k) 0)) := by
  unfold Pipeline.ownSems0; rw [bigSep_univ_sum]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (ringRd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k : CK => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## From the allocated invariants to what each device starts from -/

/-- The names of the three families of cells, read off one naming of all cells. -/
def KbOf (K : Dev nD × CK → ℕ) : Dev nD → ℕ := fun d => K (d, .inl ())
def KsOf (K : Dev nD × CK → ℕ) : Dev nD × Fin 31 → ℕ := fun dk => K (dk.1, .inr (.inl dk.2))
def KrOf (K : Dev nD × CK → ℕ) : Dev nD × Fin 31 → ℕ := fun dk => K (dk.1, .inr (.inr dk.2))

theorem records_of (K : Dev nD × CK → ℕ) :
    iprop((bigSep Finset.univ fun ck : Dev nD × CK => (cellInv ER (ringRd m ρ) (K ck) (kcell ck) : sProp 𝕄))
        ∗ bigSep Finset.univ fun ck : Dev nD × CK => (reached ER (kcell ck) 0 : sProp 𝕄))
      ⊢ records m ρ (KbOf K) (KsOf K) (KrOf K) := by
  rw [← bigSep_sep', bigSep_DevCK]
  exact Entails.of_eq rfl

/-- The tokens of the duties device `c` pays. -/
def payToks (c : Dev nD) : sProp 𝕄 :=
  iprop((bigSep Finset.univ fun j : Fin 31 => dutyTok ER (barCell (fwd c j)) 0 j)
    ∗ (bigSep Finset.univ fun j : Fin 31 => dutyTok ER (recvCell (fwd c j) j) 0 (0 : Fin 31))
    ∗ (bigSep Finset.univ fun j : Fin 31 => dutyTok ER (sendCell c j) 0 (0 : Fin 31)))

omit [FloatOps F] in
theorem linear_intro (c : Dev nD) :
    iprop((bigSep Finset.univ fun k : CK => (atPos ER (kcell (c, k)) 0 ∅ 0 : sProp 𝕄)) ∗ payToks c) ⊢ linear c := by
  rw [bigSep_CK]
  unfold linear payToks
  iintro ⟨⟨HaB, HaS, HaV⟩, HtB, HtV, HtS⟩
  isplitl [HaB]; · iexact HaB
  isplitl [HaS]; · iexact HaS
  isplitl [HaV]; · iexact HaV
  isplitl [HtB]; · iexact HtB
  isplitl [HtV]; · iexact HtV
  iexact HtS

theorem ghost_intro (Kb : Dev nD → ℕ) (Ks Kr : Dev nD × Fin 31 → ℕ) (c : Dev nD) :
    iprop(records m ρ Kb Ks Kr ∗ linear c) ⊢ G' m ρ c := by
  unfold G' ghost
  iintro H
  iexists Kb; iexists Ks; iexists Kr
  iexact H

omit [FloatOps F] in
/-- The tokens dealt to their payers: duty `j` of a barrier cell, and the duty of receive cell `j`, `j + 1` places
    back around the ring; a send cell's duty stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    Cert.LibDeal.bigSep_deal_fn (fun j c => fwd c j) (fun j c => bwd c j) (fun j c => fwd_bwd c j) (fun j c => bwd_fwd c j)
      (fun (c : Dev nD) (j : Fin 31) => (dutyTok ER (barCell c) 0 j : sProp 𝕄)),
    Cert.LibDeal.bigSep_deal_fn (fun j c => fwd c j) (fun j c => bwd c j) (fun j c => fwd_bwd c j) (fun j c => bwd_fwd c j)
      (fun (c : Dev nD) (j : Fin 31) => (dutyTok ER (recvCell c j) 0 (0 : Fin 31) : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (ringRd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (ringRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htk := (toks_around (F := F)) $$ Htok
  iapply (bigSep_with_persistent (R := records m ρ (KbOf K) (KsOf K) (KrOf K)) fun c _ => ghost_intro m ρ (KbOf K) (KsOf K) (KrOf K) c)
  isplitr
  · iapply (records_of m ρ K)
    isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => linear_intro c))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, HzS, HzV⟩
  isplitr; · iempintro
  isplitl [HzS HzV]
  · isplitl [HzS] <;> iassumption
  iexists (stats m ρ); iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of thirty-two devices, for any float values, from any memory with zero counters: given every
    device's body, every weakly fair execution of the program — the devices handshaking on the barrier semaphore, then
    each sending its partial sums to every other — terminates, and every final state has each device's arrays at the
    named contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.KernelIdeal.Proto.run_main' depends on axioms: [propext, Classical.choice, Quot.sound] -/
#guard_msgs in #print axioms run_main

end Cert.KernelIdeal.Proto

end
-- ==== Proof.Final.lean ====
/-
  The run's final arrays, read: from the launch's post (every window's array at what the pipeline's write-backs leave)
  to the values.

  The kernel has no grid: one point, and every window's one block is its whole array read at the origin. So each
  input's block is the launch memory's array, an input array ends as it began, and the output array ends as what the
  body left in the output's staging buffer at the one point, which the one write-back copies over the whole array.
-/
import proofs.«900770_g7700000000000771_dist_diff_adaln_cshard_i_b4_s512_c256_v7x_i32_bf16_1_alg».proof.Proof.Launch
import Idealize.ShloMosaic.Lib.Pipeline.Value

noncomputable section

namespace Cert.KernelIdeal.Proto

open Cert.KernelIdeal Cert.KernelIdeal.Gen Cert.KernelIdeal.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Each window's one block is its whole array -/

/-- Device `c`'s block of `x` is its argument array at launch. -/
theorem xin_eq (c : Dev nD) : xin m ρ c = m ((c : Thread nD τ).loc main_arg0) := by
  have hz : (fun a => win0_0.index t0_0 a * main_arg0.ty.shape.size a) = fun _ => 0 := funext fun a => Nat.zero_mul _
  exact Memref.read_access_unit_zero (Elt F) main_arg0 hz (fun a => by rw [congrFun hz a]; simp) (m ((c : Thread nD τ).loc main_arg0))

/-- Device `c`'s copy of the conditioning vector is its argument array at launch. -/
theorem tin_eq (c : Dev nD) : tin m ρ c = m ((c : Thread nD τ).loc main_arg1) := by
  have hz : (fun a => win0_1.index t0_0 a * main_arg1.ty.shape.size a) = fun _ => 0 := funext fun a => Nat.zero_mul _
  exact Memref.read_access_unit_zero (Elt F) main_arg1 hz (fun a => by rw [congrFun hz a]; simp) (m ((c : Thread nD τ).loc main_arg1))

/-- Device `c`'s block of the scale weights is its argument array at launch. -/
theorem wsin_eq (c : Dev nD) : wsin m ρ c = m ((c : Thread nD τ).loc main_arg2) := by
  have hz : (fun a => win0_2.index t0_0 a * main_arg2.ty.shape.size a) = fun _ => 0 := funext fun a => Nat.zero_mul _
  exact Memref.read_access_unit_zero (Elt F) main_arg2 hz (fun a => by rw [congrFun hz a]; simp) (m ((c : Thread nD τ).loc main_arg2))

/-- Device `c`'s block of the shift weights is its argument array at launch. -/
theorem wbin_eq (c : Dev nD) : wbin m ρ c = m ((c : Thread nD τ).loc main_arg3) := by
  have hz : (fun a => win0_3.index t0_0 a * main_arg3.ty.shape.size a) = fun _ => 0 := funext fun a => Nat.zero_mul _
  exact Memref.read_access_unit_zero (Elt F) main_arg3 hz (fun a => by rw [congrFun hz a]; simp) (m ((c : Thread nD τ).loc main_arg3))

/-- Device `c`'s result block over the launch memory's arrays. -/
theorem outAt_eq (c : Dev nD) :
    outAt m ρ c = outOf (m ((c : Thread nD τ).loc main_arg0)) (m ((c : Thread nD τ).loc main_arg1))
      (m ((c : Thread nD τ).loc main_arg2)) (m ((c : Thread nD τ).loc main_arg3))
      (statsOf fun d : Dev nD => m ((d : Thread nD τ).loc main_arg0)) := by
  unfold outAt stats
  rw [xin_eq, tin_eq, wsin_eq, wbin_eq, show (fun d => xin m ρ d) = fun d : Dev nD => m ((d : Thread nD τ).loc main_arg0) from
    funext (xin_eq m ρ)]

/-! ## The arrays after the run -/

/-- An input array is never written back: it ends as launched. -/
theorem finalA_in0 (c : Dev nD) : finalA m ρ c (0 : Fin 5) = m ((c : Thread nD τ).loc main_arg0) :=
  (dats (F := F) m ρ 0 c).arrAt_in (0 : Fin 5) rfl _
theorem finalA_in1 (c : Dev nD) : finalA m ρ c (1 : Fin 5) = m ((c : Thread nD τ).loc main_arg1) :=
  (dats (F := F) m ρ 0 c).arrAt_in (1 : Fin 5) rfl _
theorem finalA_in2 (c : Dev nD) : finalA m ρ c (2 : Fin 5) = m ((c : Thread nD τ).loc main_arg2) :=
  (dats (F := F) m ρ 0 c).arrAt_in (2 : Fin 5) rfl _
theorem finalA_in3 (c : Dev nD) : finalA m ρ c (3 : Fin 5) = m ((c : Thread nD τ).loc main_arg3) :=
  (dats (F := F) m ρ 0 c).arrAt_in (3 : Fin 5) rfl _

/-- The one point writes the output's whole block back: the result array ends as what the body left. -/
theorem finalA_out (c : Dev nD) : finalA m ρ c (4 : Fin 5) = outAt m ρ c := by
  have hz : (fun a => win0_4.index t0_0 a * main_v1.ty.shape.size a) = fun _ => 0 := funext fun a => Nat.zero_mul _
  refine (congrArg ((dats (F := F) m ρ 0 c).arrAt (4 : Fin 5)) N_0).trans ?_
  refine ((dats (F := F) m ρ 0 c).arrAt_succ (4 : Fin 5) t0_0).trans ?_
  rw [flush0_4 t0_0, if_pos rfl]
  exact Memref.write_access_unit_zero_univ (Elt F) main_v1 hz (fun a => by rw [congrFun hz a]; simp) _ (outAt m ρ c)

/-! ## The run, read -/

/-- Every fair run of the kernel's program ends with each device's result array at its result block over the launch
    memory's arrays, and its argument arrays unchanged. -/
theorem run_val (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outOf (m ((c.tc : Thread nD τ).loc main_arg0)) (m ((c.tc : Thread nD τ).loc main_arg1)) (m ((c.tc : Thread nD τ).loc main_arg2)) (m ((c.tc : Thread nD τ).loc main_arg3)) (statsOf fun d : Dev nD => m ((d.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c 4).trans ((finalA_out m ρ c).trans (outAt_eq m ρ c)),
      (h c 0).trans (finalA_in0 m ρ c), (h c 1).trans (finalA_in1 m ρ c), (h c 2).trans (finalA_in2 m ρ c),
      (h c 3).trans (finalA_in3 m ρ c)⟩) (run_main m ρ hbody)

/-- info: 'Cert.KernelIdeal.Proto.finalA_out' depends on axioms: [propext, Classical.choice, Quot.sound] -/
#guard_msgs in #print axioms finalA_out

end Cert.KernelIdeal.Proto

end
-- ==== Proof.Steps.lean ====
/-
  One rule per kind of step of a device's body, stated at a symbolic device and offset: the signal to a peer's barrier,
  the wait on the device's own barrier, the transfer of its row to a peer, the wait for a peer's row to land, the wait
  for one of its own transfers to have read its row.
-/
import proofs.«900770_g7700000000000771_dist_diff_adaln_cshard_i_b4_s512_c256_v7x_i32_bf16_1_alg».proof.Proof.Data
import proofs.«900770_g7700000000000771_dist_diff_adaln_cshard_i_b4_s512_c256_v7x_i32_bf16_1_alg».proof.Proof.Tables
import Idealize.ShloMosaic.Lib.Pipeline.Value

noncomputable section

namespace Cert.KernelIdeal.Proto

open Cert.KernelIdeal Cert.KernelIdeal.Gen Cert.KernelIdeal.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

/-! ## A row through the transfers' view of it -/

theorem rowM_set (i : Dev nD) : (rowM i).view.set = rowSet i := by
  unfold rowSet
  exact (View.set_reshape _ _).trans (View.set_slice_whole cc0_scratch0 _)

/-- Writing what the view reads of `f` leaves `f` on the view's elements. -/
theorem row_write_read (i : Dev nD) (fd f : (rowM i).view.ty.Contents (Elt F)) :
    ∀ x ∈ (rowM i).view.set, (rowM i).view.write (Elt F) fd ((rowM i).view.read (Elt F) f) Finset.univ x = f x := by
  intro x hx
  obtain ⟨y, rfl⟩ := View.exists_emb_of_mem_set _ hx
  rw [View.write_emb_of_mem _ _ (Finset.mem_univ y), View.read_apply, cast_cast, cast_eq]

/-! ## The signal to the barrier of the peer at offset `j` -/

theorem sig_step (Kb : Dev nD → ℕ) (c : Dev nD) (j : Fin 31) (O : CellTallies nD τ sig Unit) (W : Waits sig Unit)
    {α : Type} {Q : α → sProp 𝕄} {k : PUnit → Prog (TpuEff nD τ sig (Elt F) Λ₀ .tc) α} :
    iprop(cellInv ER (ringRd m ρ) (Kb (fwd c j)) (barCell (fwd c j)) ∗ reached ER (barCell (fwd c j)) 0
        ∗ owes (c : Thread nD τ) (O + tallyAt (barCell (fwd c j)) () 1) W
        ∗ dutyTok ER (barCell (fwd c j)) 0 j
        ∗ (∃ f, rowPts c (fwd c j) fullShare f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((fwd c j : Dev nD) : Thread nD τ) barS (1#32 : BitVec 32).toNat) k) Q) := by
  iintro ⟨#HI, #Hr, HO, Ht, Hrow⟩
  iapply (Rounds.wp_signal 𝒱₀ ER (ringRd m ρ) (c : Thread nD τ) none (dst := (fwd c j : Thread nD τ)) (κ := Kb (fwd c j))
      (d := j) (by rw [duties_bar]; exact Finset.mem_univ _) ((amount_bar m ρ (fwd c j) j).trans (by decide)) () O rfl)
  isplitr; · iexact HI
  isplitl [HO]; · iexact HO
  isplitl [Ht]; · iexact Ht
  isplitl [Hrow]
  · rw [payload_bar]; unfold barPay; rw [bwd_fwd]; iexact Hrow
  · iexact Hr

/-! ## The wait on the device's own barrier: every peer's row `c` comes with it -/

theorem bar_wait (Kb : Dev nD → ℕ) (c : Dev nD) (O : CellTallies nD τ sig Unit) (W : Waits sig Unit)
    (hO : (levAts L lv : sProp 𝕄) ⊢ MayWait (c : Thread nD τ) (.reg barS) () O)
    {α : Type} {Q : α → sProp 𝕄} {k : PUnit → Prog (TpuEff nD τ sig (Elt F) Λ₀ .tc) α} :
    iprop(cellInv ER (ringRd m ρ) (Kb c) (barCell c) ∗ cred (tallyAt (barCell c) () 31) ∗ owes (c : Thread nD τ) O W
        ∗ levAts L lv ∗ atPos ER (barCell c) 0 ∅ 0)
      ⊢ iprop(((owes (c : Thread nD τ) O (insert (SemLoc.reg barS, ()) W) ∗ atPos ER (barCell c) (0 + 1) ∅ 0
              ∗ bigSep Finset.univ (fun d => (barPay c d : sProp 𝕄)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (31#32 : BitVec 32).toNat) k) Q) := by
  iintro ⟨#HI, Hc, HO, #Hlev, Hat⟩ Hk
  iapply (Rounds.wp_wait_rest_token 𝒱₀ ER (ringRd m ρ) (c : Thread nD τ) none (κ := Kb c)
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr; · iapply hO; iexact Hlev
    iexact Hat
  iintro ⟨HO, Hat, -, Hpay⟩
  iapply Hk
  isplitl [HO]; · iexact HO
  isplitl [Hat]; · iexact Hat
  iapply (Entails.of_eq (rest_bar m ρ c)); iexact Hpay

/-! ## The transfer of the device's row to the peer at offset `j` -/

theorem send_step (Ks Kr : Dev nD × Fin 31 → ℕ) (c n : Dev nD) (j : Fin 31) (hn : n = fwd c j)
    {hsc : (rowM c : Memref sig (Dev.tc n : Thread nD τ).2.kind .vmem S8x512 .bf16).view.ref.isScScratch = false}
    {hsrc : (rowM c : Memref sig .tc .vmem S8x512 .bf16).view.WordExact} {hdst : (rowM c : Memref sig .tc .vmem S8x512 .bf16).view.WordExact}
    {hsem : DmaTarget.Typed .vmem (.dma (recvS j)) (.remote (Dev.tc n : Thread nD τ) (rowM c : Memref sig .tc .vmem S8x512 .bf16) (.dma (sendS j)) hsc)}
    {α : Type} {Q : α → sProp 𝕄} {k : PUnit → Prog (TpuEff nD τ sig (Elt F) Λ₀ .tc) α}
    (fd : Buf (Elt F) (((fwd c j : Dev nD) : Thread nD τ).loc cc0_scratch0)) (O : CellTallies nD τ sig Unit) (W : Waits sig Unit) :
    iprop(cellInv ER (ringRd m ρ) (Ks (c, j)) (sendCell c j) ∗ cellInv ER (ringRd m ρ) (Kr (fwd c j, j)) (recvCell (fwd c j) j)
        ∗ rowPts c c (sendSh j.val) (stats m ρ) ∗ rowPts (fwd c j) c fullShare fd
        ∗ owes (c : Thread nD τ) (O + tallyAt (recvCell (fwd c j) j) () N) W
        ∗ dutyTok ER (sendCell c j) 0 (0 : Fin 31) ∗ reached ER (sendCell c j) 0
        ∗ dutyTok ER (recvCell (fwd c j) j) 0 (0 : Fin 31) ∗ reached ER (recvCell (fwd c j) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma (sendS j)) hsc) (.dma (recvS j)) hsrc hdst hsem) k) Q) := by
  subst hn
  unfold rowPts
  rw [← rowM_set c]
  exact Rounds.wp_send_pointsTo 𝒱₀ ER (ringRd m ρ) (c : Thread nD τ) none (κ₁ := Ks (c, j)) (κ₂ := Kr (fwd c j, j))
    (src := rowM c) (dst := rowM c) (c' := (Dev.tc (fwd c j) : Thread nD τ)) (q := sendSh j.val) (fs := stats m ρ)
    (r₁ := 0) (r₂ := 0) (d₁ := (0 : Fin 31)) (d₂ := (0 : Fin 31)) (fd := fd)
    (by rw [duties_send]; exact Finset.mem_singleton_self _) (by rw [duties_recv]; exact Finset.mem_singleton_self _)
    () () N rfl (amount_send m ρ c j 0) (amount_recv m ρ (fwd c j) j 0) O rfl (W := W)
    (by rw [payload_send]; unfold sendPay rowPts; rw [← rowM_set c])
    (by rw [payload_recv]; unfold recvPay rowPts; rw [bwd_fwd, ← rowM_set c]
        exact Entails.of_eq (pointsTo_congr (row_write_read c fd (stats m ρ))))

/-! ## The wait for the row of the peer at offset `j` behind to have landed; the receive cell closes -/

theorem recv_wait (Kr : Dev nD × Fin 31 → ℕ) (c : Dev nD) (j : Fin 31) (W : Waits sig Unit)
    {sp' : Space} {s s' : Shape} {e e' : EltTy} {κ' : Kind}
    {src : Memref sig (c : Thread nD τ).2.kind sp' s' e'} {dst : Memref sig κ' .vmem s e} {hsrc : src.view.WordExact} {hdst : dst.view.WordExact}
    (hN : dst.view.dmaCredit = N)
    {α : Type} {Q : α → sProp 𝕄} {k : PUnit → Prog (TpuEff nD τ sig (Elt F) Λ₀ .tc) α} :
    iprop(cellInv ER (ringRd m ρ) (Kr (c, j)) (recvCell c j) ∗ cred (tallyAt (recvCell c j) () N) ∗ owes (c : Thread nD τ) 0 W
        ∗ atPos ER (recvCell c j) 0 ∅ 0)
      ⊢ iprop(((owes (c : Thread nD τ) 0 (insert (SemLoc.dma (recvS j), ()) W) ∗ rowPts c (bwd c j) fullShare (stats m ρ)
              ∗ semVal (recvCell c j) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS j) src dst hsrc hdst) k) Q) := by
  iintro ⟨#HI, Hc, HO, Hat⟩ Hk
  iapply (Rounds.wp_wait_rest_token 𝒱₀ ER (ringRd m ρ) (c : Thread nD τ) none (κ := Kr (c, j))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hrow := (Entails.of_eq (rest_recv m ρ c j)) $$ Hpay
  imod (Rounds.cell_close ER (ringRd m ρ) (Set.mem_univ (Kr (c, j))) (fun h => h) (R := 0 + 1) (duties_later m ρ (recvCell c j))) $$ [Hat] with Hz
  · isplitr; · iexact HI
    iexact Hat
  iapply Hk
  isplitl [HO]; · iexact HO
  isplitl [Hrow]; · unfold recvPay; iexact Hrow
  iexact Hz

/-! ## The wait for the transfer to offset `j` to have read the device's row; the send cell closes -/

theorem send_wait (Ks : Dev nD × Fin 31 → ℕ) (c : Dev nD) (j : Fin 31) (W : Waits sig Unit)
    {sp' : Space} {s s' : Shape} {e e' : EltTy} {κ' : Kind}
    {src : Memref sig (c : Thread nD τ).2.kind sp' s' e'} {dst : Memref sig κ' .vmem s e} {hsrc : src.view.WordExact} {hdst : dst.view.WordExact}
    (hN : dst.view.dmaCredit = N)
    {α : Type} {Q : α → sProp 𝕄} {k : PUnit → Prog (TpuEff nD τ sig (Elt F) Λ₀ .tc) α} :
    iprop(cellInv ER (ringRd m ρ) (Ks (c, j)) (sendCell c j) ∗ cred (tallyAt (sendCell c j) () N) ∗ owes (c : Thread nD τ) 0 W
        ∗ atPos ER (sendCell c j) 0 ∅ 0)
      ⊢ iprop(((owes (c : Thread nD τ) 0 (insert (SemLoc.dma (sendS j), ()) W) ∗ rowPts c c (sendSh j.val) (stats m ρ)
              ∗ semVal (sendCell c j) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS j) src dst hsrc hdst) k) Q) := by
  iintro ⟨#HI, Hc, HO, Hat⟩ Hk
  iapply (Rounds.wp_wait_rest_token 𝒱₀ ER (ringRd m ρ) (c : Thread nD τ) none (κ := Ks (c, j))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hrow := (Entails.of_eq (rest_send m ρ c j)) $$ Hpay
  imod (Rounds.cell_close ER (ringRd m ρ) (Set.mem_univ (Ks (c, j))) (fun h => h) (R := 0 + 1) (duties_later m ρ (sendCell c j))) $$ [Hat] with Hz
  · isplitr; · iexact HI
    iexact Hat
  iapply Hk
  isplitl [HO]; · iexact HO
  isplitl [Hrow]; · unfold sendPay; iexact Hrow
  iexact Hz

end Cert.KernelIdeal.Proto

end
-- ==== Proof.Phases.lean ====
/-
  The body's four unrolled sequences, each as a state indexed by the number of steps left and one rule that takes a
  step: with `n + 1` steps left the next is the one at offset `30 - n`; what is still to be paid or awaited is a
  conjunction over the offsets not yet reached, what has come back a conjunction over those passed.
-/
import proofs.«900770_g7700000000000771_dist_diff_adaln_cshard_i_b4_s512_c256_v7x_i32_bf16_1_alg».proof.Proof.Steps

noncomputable section

namespace Cert.KernelIdeal.Proto

open Cert.KernelIdeal Cert.KernelIdeal.Gen Cert.KernelIdeal.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

/-- The offset reached with `k + 1` steps left. -/
def rv (k : Fin 31) : Fin 31 := ⟨30 - k.val, by omega⟩
theorem rv_rv (k : Fin 31) : rv (rv k) = k := Fin.ext (by simp only [rv]; omega)
def rvEquiv : Fin 31 ≃ Fin 31 := ⟨rv, rv, rv_rv, rv_rv⟩

section Util
universe u
variable {M : Type u} [URA M]

theorem upTo_all_rv (Φ : Fin 31 → sProp M) : upTo (fun k => Φ (rv k)) 31 le_rfl = bigSep Finset.univ Φ := by
  rw [upTo_all]
  exact (bigSep_univ_equiv rvEquiv Φ).symm

theorem upTo_cast (Ψ : Fin 31 → sProp M) {a b : ℕ} (e : a = b) (ha : a ≤ 31) (hb : b ≤ 31) : upTo Ψ a ha = upTo Ψ b hb := by
  subst e; rfl

/-- What has come back grows by the conjunct at the offset just passed. -/
theorem upTo_acc (Ψ : Fin 31 → sProp M) (n : ℕ) (h : n + 1 ≤ 31) :
    upTo Ψ (31 - n) (Nat.sub_le _ _) = iprop(Ψ ⟨30 - n, by omega⟩ ∗ upTo Ψ (31 - (n + 1)) (Nat.sub_le _ _)) := by
  have e : 31 - n = (31 - (n + 1)) + 1 := by omega
  rw [upTo_cast Ψ e (Nat.sub_le _ _) (by omega), upTo_succ]
  have e2 : (⟨31 - (n + 1), by omega⟩ : Fin 31) = ⟨30 - n, by omega⟩ := Fin.ext (show 31 - (n + 1) = 30 - n by omega)
  rw [e2]
end Util

variable (Kb : Dev nD → ℕ) (Ks Kr : Dev nD × Fin 31 → ℕ) (c : Dev nD)

/-! ## The records read at one cell -/

theorem bar_at (d : Dev nD) :
    (bigSep Finset.univ fun d : Dev nD => iprop(cellInv ER (ringRd m ρ) (Kb d) (barCell d) ∗ reached ER (barCell d) 0) : sProp 𝕄)
      ⊢ iprop(cellInv ER (ringRd m ρ) (Kb d) (barCell d) ∗ reached ER (barCell d) 0) := bigSep_elim (Finset.mem_univ d)
theorem send_at (d : Dev nD) (k : Fin 31) :
    (bigSep Finset.univ fun dk : Dev nD × Fin 31 => iprop(cellInv ER (ringRd m ρ) (Ks dk) (sendCell dk.1 dk.2) ∗ reached ER (sendCell dk.1 dk.2) 0) : sProp 𝕄)
      ⊢ iprop(cellInv ER (ringRd m ρ) (Ks (d, k)) (sendCell d k) ∗ reached ER (sendCell d k) 0) := bigSep_elim (Finset.mem_univ (d, k))
theorem recv_at (d : Dev nD) (k : Fin 31) :
    (bigSep Finset.univ fun dk : Dev nD × Fin 31 => iprop(cellInv ER (ringRd m ρ) (Kr dk) (recvCell dk.1 dk.2) ∗ reached ER (recvCell dk.1 dk.2) 0) : sProp 𝕄)
      ⊢ iprop(cellInv ER (ringRd m ρ) (Kr (d, k)) (recvCell d k) ∗ reached ER (recvCell d k) 0) := bigSep_elim (Finset.mem_univ (d, k))

/-! ## The signals -/

def SigSt (W : Waits sig Unit) (n : ℕ) (h : n ≤ 31) : sProp 𝕄 :=
  iprop(owes (c : Thread nD τ) (sendOwed c 31 le_rfl + sigOwed c n h) W
    ∗ upTo (fun k => iprop(dutyTok ER (barCell (fwd c (rv k))) 0 (rv k) ∗ ∃ f, rowPts c (fwd c (rv k)) fullShare f)) n h)

theorem sig_phase (W : Waits sig Unit) (n : ℕ) (h : n + 1 ≤ 31)
    {α : Type} {Q : α → sProp 𝕄} {k : PUnit → Prog (TpuEff nD τ sig (Elt F) Λ₀ .tc) α} :
    iprop((bigSep Finset.univ fun d : Dev nD => iprop(cellInv ER (ringRd m ρ) (Kb d) (barCell d) ∗ reached ER (barCell d) 0))
        ∗ SigSt (F := F) c W (n + 1) h)
      ⊢ iprop((SigSt (F := F) c W n (Nat.le_of_succ_le h) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((fwd c ⟨30 - n, by omega⟩ : Dev nD) : Thread nD τ) barS (1#32 : BitVec 32).toNat) k) Q) := by
  have hj : 30 - n < 31 := by omega
  unfold SigSt
  rw [upTo_succ]
  iintro ⟨#HIb, HO, ⟨Ht, Hrow⟩, HS⟩ Hk
  ihave HI := (bar_at m ρ Kb (fwd c ⟨30 - n, hj⟩)) $$ HIb
  icases HI with ⟨#HI, #Hr⟩
  iapply (sig_step m ρ Kb c ⟨30 - n, hj⟩ (sendOwed c 31 le_rfl + sigOwed c n (Nat.le_of_succ_le h)) W) $$ [HO Ht Hrow]
  · isplitr; · iexact HI
    isplitr; · iexact Hr
    isplitl [HO]
    · rw [show sigOwed c (n + 1) h = sigOwed c n (Nat.le_of_succ_le h) + tallyAt (barCell (fwd c ⟨30 - n, hj⟩)) () 1 from rfl, ← add_assoc]
      iexact HO
    isplitl [Ht]; · iexact Ht
    iexact Hrow
  iintro HO
  iapply Hk
  isplitl [HO]; · iexact HO
  iexact HS

/-! ## The transfers -/

def SendSt (W : Waits sig Unit) (n : ℕ) (h : n ≤ 31) : sProp 𝕄 :=
  iprop(owes (c : Thread nD τ) (sendOwed c n h) W
    ∗ upTo (fun k => iprop(dutyTok ER (sendCell c (rv k)) 0 (0 : Fin 31) ∗ dutyTok ER (recvCell (fwd c (rv k)) (rv k)) 0 (0 : Fin 31)
        ∗ rowPts c c (sendSh (rv k).val) (stats m ρ) ∗ ∃ fd, rowPts (fwd c (rv k)) c fullShare fd)) n h
    ∗ upTo (fun k => cred (tallyAt (sendCell c k) () N)) (31 - n) (Nat.sub_le _ _))

theorem send_phase (W : Waits sig Unit) (n : ℕ) (h : n + 1 ≤ 31) (d : Dev nD) (hd : d = fwd c ⟨30 - n, by omega⟩)
    {hsc : (rowM c : Memref sig (Dev.tc d : Thread nD τ).2.kind .vmem S8x512 .bf16).view.ref.isScScratch = false}
    {hsrc : (rowM c : Memref sig .tc .vmem S8x512 .bf16).view.WordExact} {hdst : (rowM c : Memref sig .tc .vmem S8x512 .bf16).view.WordExact}
    {hsem : DmaTarget.Typed .vmem (.dma (recvS ⟨30 - n, by omega⟩)) (.remote (Dev.tc d : Thread nD τ) (rowM c : Memref sig .tc .vmem S8x512 .bf16) (.dma (sendS ⟨30 - n, by omega⟩)) hsc)}
    {α : Type} {Q : α → sProp 𝕄} {k : PUnit → Prog (TpuEff nD τ sig (Elt F) Λ₀ .tc) α} :
    iprop((bigSep Finset.univ fun dk : Dev nD × Fin 31 => iprop(cellInv ER (ringRd m ρ) (Ks dk) (sendCell dk.1 dk.2) ∗ reached ER (sendCell dk.1 dk.2) 0))
        ∗ (bigSep Finset.univ fun dk : Dev nD × Fin 31 => iprop(cellInv ER (ringRd m ρ) (Kr dk) (recvCell dk.1 dk.2) ∗ reached ER (recvCell dk.1 dk.2) 0))
        ∗ SendSt m ρ c W (n + 1) h)
      ⊢ iprop((SendSt m ρ c W n (Nat.le_of_succ_le h) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc d : Thread nD τ) (rowM c) (.dma (sendS ⟨30 - n, by omega⟩)) hsc) (.dma (recvS ⟨30 - n, by omega⟩)) hsrc hdst hsem) k) Q) := by
  have hj : 30 - n < 31 := by omega
  unfold SendSt
  rw [upTo_succ, upTo_acc _ n h]
  iintro ⟨#HIs, #HIr, HO, ⟨⟨HtS, HtR, Hsrc, ⟨%fd, Hdst⟩⟩, HS⟩, HC⟩ Hk
  ihave HI1 := (send_at m ρ Ks c ⟨30 - n, hj⟩) $$ HIs
  icases HI1 with ⟨#HI1, #Hr1⟩
  ihave HI2 := (recv_at m ρ Kr (fwd c ⟨30 - n, hj⟩) ⟨30 - n, hj⟩) $$ HIr
  icases HI2 with ⟨#HI2, #Hr2⟩
  iapply (send_step m ρ Ks Kr c d ⟨30 - n, hj⟩ hd fd (sendOwed c n (Nat.le_of_succ_le h)) W) $$ [HO HtS HtR Hsrc Hdst]
  · isplitr; · iexact HI1
    isplitr; · iexact HI2
    isplitl [Hsrc]; · iexact Hsrc
    isplitl [Hdst]; · iexact Hdst
    isplitl [HO]; · iexact HO
    isplitl [HtS]; · iexact HtS
    isplitr; · iexact Hr1
    isplitl [HtR]; · iexact HtR
    iexact Hr2
  iintro ⟨Hc, HO⟩
  iapply Hk
  isplitl [HO]; · iexact HO
  isplitl [HS]; · iexact HS
  isplitl [Hc]; · iexact Hc
  iexact HC

/-! ## The waits for the landings -/

def RecvSt (n : ℕ) (h : n ≤ 31) : sProp 𝕄 :=
  iprop((∃ W, owes (c : Thread nD τ) 0 W)
    ∗ upTo (fun k => iprop(cred (tallyAt (recvCell c (rv k)) () N) ∗ atPos ER (recvCell c (rv k)) 0 ∅ 0)) n h
    ∗ upTo (fun k => iprop(rowPts c (bwd c k) fullShare (stats m ρ) ∗ semVal (recvCell c k) 0)) (31 - n) (Nat.sub_le _ _))

theorem recv_phase (n : ℕ) (h : n + 1 ≤ 31)
    {sp' : Space} {s s' : Shape} {e e' : EltTy} {κ' : Kind}
    {src : Memref sig (c : Thread nD τ).2.kind sp' s' e'} {dst : Memref sig κ' .vmem s e} {hsrc : src.view.WordExact} {hdst : dst.view.WordExact}
    (hN : dst.view.dmaCredit = N)
    {α : Type} {Q : α → sProp 𝕄} {k : PUnit → Prog (TpuEff nD τ sig (Elt F) Λ₀ .tc) α} :
    iprop((bigSep Finset.univ fun dk : Dev nD × Fin 31 => iprop(cellInv ER (ringRd m ρ) (Kr dk) (recvCell dk.1 dk.2) ∗ reached ER (recvCell dk.1 dk.2) 0))
        ∗ RecvSt m ρ c (n + 1) h)
      ⊢ iprop((RecvSt m ρ c n (Nat.le_of_succ_le h) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS ⟨30 - n, by omega⟩) src dst hsrc hdst) k) Q) := by
  have hj : 30 - n < 31 := by omega
  unfold RecvSt
  rw [upTo_succ, upTo_acc _ n h]
  iintro ⟨#HIr, ⟨%W, HO⟩, ⟨⟨Hc, Hat⟩, HS⟩, HA⟩ Hk
  ihave HI := (recv_at m ρ Kr c ⟨30 - n, hj⟩) $$ HIr
  icases HI with ⟨#HI, -⟩
  iapply (recv_wait m ρ Kr c ⟨30 - n, hj⟩ W hN) $$ [Hc HO Hat]
  · isplitr; · iexact HI
    isplitl [Hc]; · iexact Hc
    isplitl [HO]; · iexact HO
    iexact Hat
  iintro ⟨HO, Hrow, Hz⟩
  iapply Hk
  isplitl [HO]; · iexists _; iexact HO
  isplitl [HS]; · iexact HS
  isplitl [Hrow Hz]
  · isplitl [Hrow]; · iexact Hrow
    iexact Hz
  iexact HA

/-! ## The waits for the transfers' reads -/

def SWaitSt (n : ℕ) (h : n ≤ 31) : sProp 𝕄 :=
  iprop((∃ W, owes (c : Thread nD τ) 0 W)
    ∗ upTo (fun k => iprop(cred (tallyAt (sendCell c (rv k)) () N) ∗ atPos ER (sendCell c (rv k)) 0 ∅ 0)) n h
    ∗ upTo (fun k => iprop(rowPts c c (sendSh k.val) (stats m ρ) ∗ semVal (sendCell c k) 0)) (31 - n) (Nat.sub_le _ _))

theorem swait_phase (n : ℕ) (h : n + 1 ≤ 31)
    {sp' : Space} {s s' : Shape} {e e' : EltTy} {κ' : Kind}
    {src : Memref sig (c : Thread nD τ).2.kind sp' s' e'} {dst : Memref sig κ' .vmem s e} {hsrc : src.view.WordExact} {hdst : dst.view.WordExact}
    (hN : dst.view.dmaCredit = N)
    {α : Type} {Q : α → sProp 𝕄} {k : PUnit → Prog (TpuEff nD τ sig (Elt F) Λ₀ .tc) α} :
    iprop((bigSep Finset.univ fun dk : Dev nD × Fin 31 => iprop(cellInv ER (ringRd m ρ) (Ks dk) (sendCell dk.1 dk.2) ∗ reached ER (sendCell dk.1 dk.2) 0))
        ∗ SWaitSt m ρ c (n + 1) h)
      ⊢ iprop((SWaitSt m ρ c n (Nat.le_of_succ_le h) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS ⟨30 - n, by omega⟩) src dst hsrc hdst) k) Q) := by
  have hj : 30 - n < 31 := by omega
  unfold SWaitSt
  rw [upTo_succ, upTo_acc _ n h]
  iintro ⟨#HIs, ⟨%W, HO⟩, ⟨⟨Hc, Hat⟩, HS⟩, HA⟩ Hk
  ihave HI := (send_at m ρ Ks c ⟨30 - n, hj⟩) $$ HIs
  icases HI with ⟨#HI, -⟩
  iapply (send_wait m ρ Ks c ⟨30 - n, hj⟩ W hN) $$ [Hc HO Hat]
  · isplitr; · iexact HI
    isplitl [Hc]; · iexact Hc
    isplitl [HO]; · iexact HO
    iexact Hat
  iintro ⟨HO, Hrow, Hz⟩
  iapply Hk
  isplitl [HO]; · iexists _; iexact HO
  isplitl [HS]; · iexact HS
  isplitl [Hrow Hz]
  · isplitl [Hrow]; · iexact Hrow
    iexact Hz
  iexact HA

end Cert.KernelIdeal.Proto

end
-- ==== Proof.PhaseIO.lean ====
/-
  Entering and leaving the four unrolled sequences: the state with all thirty-one steps left follows from what the
  device holds before the sequence, offset by offset; the state with no step left hands on what has come back, as
  conjunctions over all the offsets.
-/
import proofs.«900770_g7700000000000771_dist_diff_adaln_cshard_i_b4_s512_c256_v7x_i32_bf16_1_alg».proof.Proof.Phases

noncomputable section

namespace Cert.KernelIdeal.Proto

open Cert.KernelIdeal Cert.KernelIdeal.Gen Cert.KernelIdeal.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

/-- The device `d + 1` places before `c` is the one the forward offset opposite to `d` reaches. -/
theorem bwd_eq_fwd_rv (c : Dev nD) (d : Fin 31) : bwd c d = fwd c (rv d) := by
  have hd := d.isLt
  apply Fin.ext
  show (c.val + 31 - d.val) % 32 = (c.val + ((30 - d.val) + 1)) % 32
  congr 1
  omega

section Util
universe u
variable {M : Type u} [URA M]

/-- Entailment summand by summand. -/
theorem bigSep_mono_bi {I : Type} {s : Finset I} {Φ Ψ : I → sProp M} (h : ∀ i ∈ s, Φ i ⊢ Ψ i) :
    bigSep s Φ ⊢ bigSep s Ψ := bigSep_mono h

/-- With no step left, what has come back is the conjunction over all the offsets. -/
theorem upTo_back_all (Ψ : Fin 31 → sProp M) : upTo Ψ (31 - 0) (Nat.sub_le _ _) = bigSep Finset.univ Ψ := by
  rw [upTo_cast Ψ (show 31 - 0 = 31 from rfl) (Nat.sub_le _ _) le_rfl, upTo_all]

/-- With every step left, nothing has come back. -/
theorem upTo_back_none (Ψ : Fin 31 → sProp M) : upTo Ψ (31 - 31) (Nat.sub_le _ _) = iprop(emp) := by
  rw [upTo_cast Ψ (show 31 - 31 = 0 from rfl) (Nat.sub_le _ _) (Nat.zero_le _), upTo_zero]
end Util

/-! ## The signals -/

theorem sig_init (c : Dev nD) (W : Waits sig Unit) (f0 : Buf (Elt F) ((c : Thread nD τ).loc cc0_scratch0)) :
    iprop(owes (c : Thread nD τ) (O₀ c) W ∗ (bigSep Finset.univ fun j : Fin 31 => dutyTok ER (barCell (fwd c j)) 0 j)
        ∗ (bigSep Finset.univ fun j : Fin 31 => rowPts c (fwd c j) fullShare f0)) ⊢ (SigSt (F := F) c W 31 le_rfl : sProp 𝕄) := by
  have e : upTo (fun k => (iprop(dutyTok ER (barCell (fwd c (rv k))) 0 (rv k) ∗ ∃ f, rowPts c (fwd c (rv k)) fullShare f) : sProp 𝕄)) 31 le_rfl
      = bigSep Finset.univ fun j : Fin 31 => (iprop(dutyTok ER (barCell (fwd c j)) 0 j ∗ ∃ f, rowPts c (fwd c j) fullShare f) : sProp 𝕄) :=
    upTo_all_rv fun j : Fin 31 => (iprop(dutyTok ER (barCell (fwd c j)) 0 j ∗ ∃ f, rowPts c (fwd c j) fullShare f) : sProp 𝕄)
  have hrow : (bigSep Finset.univ fun j : Fin 31 => (rowPts c (fwd c j) fullShare f0 : sProp 𝕄))
      ⊢ bigSep Finset.univ fun j : Fin 31 => (iprop(∃ f, rowPts c (fwd c j) fullShare f) : sProp 𝕄) :=
    bigSep_mono_bi fun j _ => by iintro H; iexists f0; iexact H
  unfold SigSt O₀
  rw [e, bigSep_sep']
  iintro ⟨HO, Ht, Hr⟩
  isplitl [HO]; · iexact HO
  isplitl [Ht]; · iexact Ht
  ihave Hr' := hrow $$ Hr
  iexact Hr'

theorem sig_exit (c : Dev nD) (W : Waits sig Unit) :
    (SigSt (F := F) c W 0 (Nat.zero_le _) : sProp 𝕄) ⊢ owes (c : Thread nD τ) (sendOwed c 31 le_rfl + sigOwed c 0 (Nat.zero_le _)) W := by
  unfold SigSt
  rw [upTo_zero]
  iintro ⟨HO, -⟩
  iexact HO

/-! ## The transfers -/

theorem send_init (c : Dev nD) (W : Waits sig Unit) :
    iprop(owes (c : Thread nD τ) (sendOwed c 31 le_rfl + sigOwed c 0 (Nat.zero_le _)) W
        ∗ (bigSep Finset.univ fun j : Fin 31 => dutyTok ER (sendCell c j) 0 (0 : Fin 31))
        ∗ (bigSep Finset.univ fun j : Fin 31 => dutyTok ER (recvCell (fwd c j) j) 0 (0 : Fin 31))
        ∗ (bigSep Finset.univ fun j : Fin 31 => rowPts c c (sendSh j.val) (stats m ρ))
        ∗ (bigSep Finset.univ fun d : Fin 31 => (barPay c d : sProp 𝕄))) ⊢ SendSt m ρ c W 31 le_rfl := by
  have e : upTo (fun k => (iprop(dutyTok ER (sendCell c (rv k)) 0 (0 : Fin 31) ∗ dutyTok ER (recvCell (fwd c (rv k)) (rv k)) 0 (0 : Fin 31)
        ∗ rowPts c c (sendSh (rv k).val) (stats m ρ) ∗ ∃ fd, rowPts (fwd c (rv k)) c fullShare fd) : sProp 𝕄)) 31 le_rfl
      = bigSep Finset.univ fun j : Fin 31 => (iprop(dutyTok ER (sendCell c j) 0 (0 : Fin 31) ∗ dutyTok ER (recvCell (fwd c j) j) 0 (0 : Fin 31)
        ∗ rowPts c c (sendSh j.val) (stats m ρ) ∗ ∃ fd, rowPts (fwd c j) c fullShare fd) : sProp 𝕄) :=
    upTo_all_rv fun j : Fin 31 => (iprop(dutyTok ER (sendCell c j) 0 (0 : Fin 31) ∗ dutyTok ER (recvCell (fwd c j) j) 0 (0 : Fin 31)
        ∗ rowPts c c (sendSh j.val) (stats m ρ) ∗ ∃ fd, rowPts (fwd c j) c fullShare fd) : sProp 𝕄)
  have hpay : (bigSep Finset.univ fun d : Fin 31 => (barPay c d : sProp 𝕄))
      = bigSep Finset.univ fun j : Fin 31 => (iprop(∃ fd, rowPts (fwd c j) c fullShare fd) : sProp 𝕄) := by
    rw [bigSep_univ_equiv rvEquiv fun j : Fin 31 => (iprop(∃ fd, rowPts (fwd c j) c fullShare fd) : sProp 𝕄)]
    refine bigSep_congr fun d _ => ?_
    show (barPay c d : sProp 𝕄) = iprop(∃ fd, rowPts (fwd c (rv d)) c fullShare fd)
    unfold barPay
    rw [bwd_eq_fwd_rv]
  unfold SendSt
  rw [e, upTo_back_none, bigSep_sep', bigSep_sep', bigSep_sep', hpay, show sigOwed c 0 (Nat.zero_le _) = 0 from rfl, add_zero]
  iintro ⟨HO, HtS, HtR, Hsrc, Hdst⟩
  isplitl [HO]; · iexact HO
  isplitl [HtS HtR Hsrc Hdst]
  · isplitl [HtS]; · iexact HtS
    isplitl [HtR]; · iexact HtR
    isplitl [Hsrc]; · iexact Hsrc
    iexact Hdst
  · iempintro

theorem send_exit (c : Dev nD) (W : Waits sig Unit) :
    SendSt m ρ c W 0 (Nat.zero_le _) ⊢ iprop(owes (c : Thread nD τ) 0 W ∗ bigSep Finset.univ fun k : Fin 31 => cred (tallyAt (sendCell c k) () N)) := by
  unfold SendSt
  rw [upTo_back_all, upTo_zero, show sendOwed c 0 (Nat.zero_le _) = 0 from rfl]
  iintro ⟨HO, -, HC⟩
  isplitl [HO]; · iexact HO
  iexact HC

/-! ## The waits for the landings -/

theorem recv_init (c : Dev nD) :
    iprop((∃ W, owes (c : Thread nD τ) 0 W) ∗ (bigSep Finset.univ fun k : Fin 31 => cred (tallyAt (recvCell c k) () N))
        ∗ (bigSep Finset.univ fun k : Fin 31 => atPos ER (recvCell c k) 0 ∅ 0)) ⊢ RecvSt m ρ c 31 le_rfl := by
  have e : upTo (fun k => (iprop(cred (tallyAt (recvCell c (rv k)) () N) ∗ atPos ER (recvCell c (rv k)) 0 ∅ 0) : sProp 𝕄)) 31 le_rfl
      = bigSep Finset.univ fun k : Fin 31 => (iprop(cred (tallyAt (recvCell c k) () N) ∗ atPos ER (recvCell c k) 0 ∅ 0) : sProp 𝕄) :=
    upTo_all_rv fun k : Fin 31 => (iprop(cred (tallyAt (recvCell c k) () N) ∗ atPos ER (recvCell c k) 0 ∅ 0) : sProp 𝕄)
  unfold RecvSt
  rw [e, upTo_back_none, bigSep_sep']
  iintro ⟨HO, Hc, Hat⟩
  isplitl [HO]; · iexact HO
  isplitl [Hc Hat]
  · isplitl [Hc]; · iexact Hc
    iexact Hat
  · iempintro

theorem recv_exit (c : Dev nD) : RecvSt m ρ c 0 (Nat.zero_le _) ⊢ iprop((∃ W, owes (c : Thread nD τ) 0 W)
        ∗ (bigSep Finset.univ fun k : Fin 31 => rowPts c (bwd c k) fullShare (stats m ρ)) ∗ (bigSep Finset.univ fun k : Fin 31 => semVal (recvCell c k) 0)) := by
  unfold RecvSt
  rw [upTo_back_all, upTo_zero, bigSep_sep']
  iintro ⟨HO, -, Hrow, Hz⟩
  isplitl [HO]; · iexact HO
  isplitl [Hrow]; · iexact Hrow
  iexact Hz

/-! ## The waits for the transfers' reads -/

theorem swait_init (c : Dev nD) :
    iprop((∃ W, owes (c : Thread nD τ) 0 W) ∗ (bigSep Finset.univ fun k : Fin 31 => cred (tallyAt (sendCell c k) () N))
        ∗ (bigSep Finset.univ fun k : Fin 31 => atPos ER (sendCell c k) 0 ∅ 0)) ⊢ SWaitSt m ρ c 31 le_rfl := by
  have e : upTo (fun k => (iprop(cred (tallyAt (sendCell c (rv k)) () N) ∗ atPos ER (sendCell c (rv k)) 0 ∅ 0) : sProp 𝕄)) 31 le_rfl
      = bigSep Finset.univ fun k : Fin 31 => (iprop(cred (tallyAt (sendCell c k) () N) ∗ atPos ER (sendCell c k) 0 ∅ 0) : sProp 𝕄) :=
    upTo_all_rv fun k : Fin 31 => (iprop(cred (tallyAt (sendCell c k) () N) ∗ atPos ER (sendCell c k) 0 ∅ 0) : sProp 𝕄)
  unfold SWaitSt
  rw [e, upTo_back_none, bigSep_sep']
  iintro ⟨HO, Hc, Hat⟩
  isplitl [HO]; · iexact HO
  isplitl [Hc Hat]
  · isplitl [Hc]; · iexact Hc
    iexact Hat
  · iempintro

theorem swait_exit (c : Dev nD) : SWaitSt m ρ c 0 (Nat.zero_le _) ⊢ iprop((∃ W, owes (c : Thread nD τ) 0 W)
        ∗ (bigSep Finset.univ fun k : Fin 31 => rowPts c c (sendSh k.val) (stats m ρ)) ∗ (bigSep Finset.univ fun k : Fin 31 => semVal (sendCell c k) 0)) := by
  unfold SWaitSt
  rw [upTo_back_all, upTo_zero, bigSep_sep']
  iintro ⟨HO, -, Hrow, Hz⟩
  isplitl [HO]; · iexact HO
  isplitl [Hrow]; · iexact Hrow
  iexact Hz

end Cert.KernelIdeal.Proto

end
-- ==== Proof.Devs.lean ====
/-
  The peers the kernel's device-id chains name: the `i`-th signal and the `i`-th transfer both address the device
  `i` places ahead on the ring.
-/
import proofs.«900770_g7700000000000771_dist_diff_adaln_cshard_i_b4_s512_c256_v7x_i32_bf16_1_alg».proof.Proof.Sched
import proofs.«900770_g7700000000000771_dist_diff_adaln_cshard_i_b4_s512_c256_v7x_i32_bf16_1_alg».proof.Proof.Seq

noncomputable section

namespace Cert.KernelIdeal.Proto

open Cert.KernelIdeal Cert.KernelIdeal.Gen Cert.KernelIdeal.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

open Lean Elab Command in
/-- One equation per printed chain: chains 1 to 31 are the signals', 32 to 62 the transfers'; chain `i` names offset
    `i - 1`, respectively `i - 32`. -/
elab "dev_equations" : command => do
  for i in [1:63] do
    let j := if i ≤ 31 then i - 1 else i - 32
    let nm := mkIdent (Name.mkSimple s!"dev{i}_eq")
    let dv := mkIdent (Name.mkSimple s!"k0_dev{i}")
    let lt := mkIdent (Name.mkSimple s!"k0_dev{i}_lt")
    let eq := mkIdent (Name.mkSimple s!"k0_dev{i}_eq")
    let jl := Syntax.mkNumLit (toString j)
    elabCommand (← `(@[sl_canon] theorem $nm (c : Dev nD) : (⟨$dv c, $lt c⟩ : Dev nD) = fwd c ⟨$jl, by decide⟩ := Fin.ext (($eq c).trans rfl)))

dev_equations

end Cert.KernelIdeal.Proto

end
-- ==== Proof.Rows.lean ====
/-
  The table cut into its thirty-two rows, and a row cut into the shares the exchange lends out.

  The rows' element sets are pairwise disjoint and cover the table, so the table held at a share is the separating
  conjunction of its rows held at that share; a device's own row stands apart and the other thirty-one are named by
  offset, forwards or backwards round the ring. A row held in full is the half the device keeps, the thirty-one pieces
  lent to the transfers, and what is left of the other half after the thirty-one cuts.
-/
import proofs.«900770_g7700000000000771_dist_diff_adaln_cshard_i_b4_s512_c256_v7x_i32_bf16_1_alg».proof.Proof.Sched
import proofs.«900770_g7700000000000771_dist_diff_adaln_cshard_i_b4_s512_c256_v7x_i32_bf16_1_alg».proof.Proof.Seq

noncomputable section

namespace Cert.KernelIdeal.Proto

open Cert.KernelIdeal Cert.KernelIdeal.Gen Cert.KernelIdeal.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## Every other device is reached by exactly one offset, forwards and backwards -/

theorem fwd_surj (c d : Dev nD) (h : d ≠ c) : ∃ j : Fin 31, fwd c j = d := by
  have hc : c.val < 32 := c.isLt
  have hd : d.val < 32 := d.isLt
  have hne : d.val ≠ c.val := fun e => h (Fin.ext e)
  refine ⟨⟨(d.val + 31 - c.val) % 32, by omega⟩, Fin.ext ?_⟩
  show (c.val + ((d.val + 31 - c.val) % 32 + 1)) % 32 = d.val
  omega

theorem bwd_surj (c d : Dev nD) (h : d ≠ c) : ∃ j : Fin 31, bwd c j = d := by
  have hc : c.val < 32 := c.isLt
  have hd : d.val < 32 := d.isLt
  have hne : d.val ≠ c.val := fun e => h (Fin.ext e)
  refine ⟨⟨(c.val + 31 - d.val) % 32, by omega⟩, Fin.ext ?_⟩
  show (c.val + 31 - (c.val + 31 - d.val) % 32) % 32 = d.val
  omega

/-- The offsets, as an embedding into the devices: forwards. -/
def fwdEmb (c : Dev nD) : Fin 31 ↪ Dev nD := ⟨fwd c, fun _ _ h => fwd_inj c h⟩
/-- The offsets, as an embedding into the devices: backwards. -/
def bwdEmb (c : Dev nD) : Fin 31 ↪ Dev nD := ⟨bwd c, fun _ _ h => bwd_inj c h⟩

theorem map_fwdEmb (c : Dev nD) : (Finset.univ : Finset (Fin 31)).map (fwdEmb c) = Finset.univ.erase c := by
  ext d
  rw [Finset.mem_map, Finset.mem_erase]
  constructor
  · rintro ⟨j, -, rfl⟩; exact ⟨fwd_ne c j, Finset.mem_univ _⟩
  · rintro ⟨h, -⟩
    obtain ⟨j, hj⟩ := fwd_surj c d h
    exact ⟨j, Finset.mem_univ _, hj⟩

theorem map_bwdEmb (c : Dev nD) : (Finset.univ : Finset (Fin 31)).map (bwdEmb c) = Finset.univ.erase c := by
  ext d
  rw [Finset.mem_map, Finset.mem_erase]
  constructor
  · rintro ⟨j, -, rfl⟩; exact ⟨bwd_ne c j, Finset.mem_univ _⟩
  · rintro ⟨h, -⟩
    obtain ⟨j, hj⟩ := bwd_surj c d h
    exact ⟨j, Finset.mem_univ _, hj⟩

/-- A family over the devices: the member at `c`, and the others by forward offset. -/
theorem bigSep_dev_fwd {M : Type} [URA M] (c : Dev nD) (Φ : Dev nD → sProp M) :
    bigSep Finset.univ Φ = iprop(Φ c ∗ bigSep Finset.univ fun j : Fin 31 => Φ (fwd c j)) := by
  rw [bigSep_univ_split c, ← map_fwdEmb c, bigSep_map]
  rfl

/-- A family over the devices: the member at `c`, and the others by backward offset. -/
theorem bigSep_dev_bwd {M : Type} [URA M] (c : Dev nD) (Φ : Dev nD → sProp M) :
    bigSep Finset.univ Φ = iprop(Φ c ∗ bigSep Finset.univ fun j : Fin 31 => Φ (bwd c j)) := by
  rw [bigSep_univ_split c, ← map_bwdEmb c, bigSep_map]
  rfl

/-! ## The table is its rows -/

/-- The table held at a share is its thirty-two rows held at that share. -/
theorem table_rows (c : Dev nD) (q : PosShare TreeShare) (f : Buf (Elt F) ((c : Thread nD τ).loc cc0_scratch0)) :
    ((((c : Thread nD τ).loc cc0_scratch0) ↦{q} f : sProp 𝕄)) = bigSep Finset.univ fun i : Dev nD => rowPts c i q f := by
  have h := pointsTo_biUnion (ℓ := (c : Thread nD τ).loc cc0_scratch0) (q := q) (f := f) (Ix := Unit) (Name := ℕ) (U := UU) (Lvl := ℕ)
    (Finset.univ : Finset (Dev nD)) rowSet (fun i _ j _ hij => rowSet_disjoint hij)
  rw [rowSet_cover] at h
  exact h

theorem table_rows_fwd (c : Dev nD) (q : PosShare TreeShare) (f : Buf (Elt F) ((c : Thread nD τ).loc cc0_scratch0)) :
    ((((c : Thread nD τ).loc cc0_scratch0) ↦{q} f : sProp 𝕄))
      ⊣⊢ iprop(rowPts c c q f ∗ bigSep Finset.univ fun j : Fin 31 => rowPts c (fwd c j) q f) := by
  rw [table_rows c q f, bigSep_dev_fwd c]

theorem table_rows_bwd (c : Dev nD) (q : PosShare TreeShare) (f : Buf (Elt F) ((c : Thread nD τ).loc cc0_scratch0)) :
    ((((c : Thread nD τ).loc cc0_scratch0) ↦{q} f : sProp 𝕄))
      ⊣⊢ iprop(rowPts c c q f ∗ bigSep Finset.univ fun j : Fin 31 => rowPts c (bwd c j) q f) := by
  rw [table_rows c q f, bigSep_dev_bwd c]

/-! ## A row is its shares -/

/-- In this model of assertions, mutual entailment is equality. -/
theorem eq_of_biEntails {M : Type} [URA M] {P Q : sProp M} (h : P ⊣⊢ Q) : P = Q := BI.equiv_iff.mp ⟨h.1, h.2⟩

/-- A row cut along a cut of its share. -/
theorem rowPts_share (c i : Dev nD) {q q₁ q₂ : PosShare TreeShare} (h : q ∈ q₁ ·? q₂)
    (f : Buf (Elt F) ((c : Thread nD τ).loc cc0_scratch0)) :
    (rowPts c i q f : sProp 𝕄) = iprop(rowPts c i q₁ f ∗ rowPts c i q₂ f) := by
  have hs : (rowPts c i q f : sProp 𝕄) ⊣⊢ iprop(rowPts c i q₁ f ∗ rowPts c i q₂ f) := pointsTo_share h
  exact eq_of_biEntails hs

/-- A row held in full is the half the device keeps and the half it lends from. -/
theorem row_keep (c i : Dev nD) (f : Buf (Elt F) ((c : Thread nD τ).loc cc0_scratch0)) :
    (rowPts c i fullShare f : sProp 𝕄) ⊣⊢ iprop(rowPts c i keepSh f ∗ rowPts c i (restSh 0) f) := by
  rw [rowPts_share c i full_split f]
  exact sep_comm

/-- After `n` cuts the lending half is what is left of it and the `n` pieces cut so far. -/
theorem rest_cut (c i : Dev nD) (f : Buf (Elt F) ((c : Thread nD τ).loc cc0_scratch0)) (n : ℕ) (h : n ≤ 31) :
    (rowPts c i (restSh 0) f : sProp 𝕄)
      = iprop(rowPts c i (restSh n) f ∗ upTo (fun j : Fin 31 => (rowPts c i (sendSh j.val) f : sProp 𝕄)) n h) := by
  induction n with
  | zero =>
    rw [upTo_zero]
    exact (eq_of_biEntails Laws.sep_emp).symm
  | succ n ih =>
    rw [ih (Nat.le_of_succ_le h), rowPts_share c i (restSh_split n) f, upTo_succ]
    refine eq_of_biEntails ⟨?_, ?_⟩
    · iintro ⟨⟨Hs, Hr⟩, Hu⟩
      isplitl [Hr]; · iexact Hr
      isplitl [Hs]; · iexact Hs
      iexact Hu
    · iintro ⟨Hr, Hs, Hu⟩
      isplitr [Hu]
      · isplitl [Hs]; · iexact Hs
        iexact Hr
      · iexact Hu

/-- A row held in full is the half the device keeps, what is left of the other half after the thirty-one cuts, and the
    thirty-one pieces. -/
theorem row_shares (c i : Dev nD) (f : Buf (Elt F) ((c : Thread nD τ).loc cc0_scratch0)) :
    (rowPts c i fullShare f : sProp 𝕄)
      ⊣⊢ iprop(rowPts c i keepSh f ∗ rowPts c i (restSh 31) f ∗ bigSep Finset.univ fun j : Fin 31 => rowPts c i (sendSh j.val) f) := by
  rw [rowPts_share c i full_split f, rest_cut c i f 31 le_rfl, upTo_all]
  exact sep_comm

end Cert.KernelIdeal.Proto

end
-- ==== Proof.Local.lean ====
/-
  The body's local accesses to the table of partial sums while the table is held row by row: the load of the device's
  own row, the store of its partial sums into that row, and, once every row has landed and the table is held whole
  again, the load of the whole table.

  The own row's rectangle is the table's row `c`: its elements are those whose leading coordinate is `c`, and the
  element under the rectangle's index `(0, r, s)` is the table's `(c, r, s)`. So storing the device's partial sums
  through it leaves on the row exactly the table in which row `d` holds device `d`'s partial sums.
-/
import proofs.«900770_g7700000000000771_dist_diff_adaln_cshard_i_b4_s512_c256_v7x_i32_bf16_1_alg».proof.Proof.Steps

noncomputable section

namespace Cert.KernelIdeal.Proto

open Cert.KernelIdeal Cert.KernelIdeal.Gen Cert.KernelIdeal.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

/-! ## The rectangle of the device's own row -/

/-- The rectangle the local accesses go through, at device `c`. -/
abbrev ownR (c : Dev nD) : Rect S32x8x512 := Rect.unit (s := S32x8x512) (k0_off1 c) S1x8x512.size (k0_off1_inb c)

/-- Its elements are the table's elements of leading coordinate `c`: row `c`. -/
theorem ownR_set (c : Dev nD) : (ownR c).set = rowSet c := by
  ext x
  rw [mem_rowSet, Rect.mem_set_unit, k0_off1_eq]
  constructor
  · intro h; have := h 0; simp at this; omega
  · intro h a
    fin_cases a
    · simp; omega
    · simp; exact (x 1).isLt
    · simp; exact (x 2).isLt

/-- The element under the rectangle's index `y`: row `c`, at `y`'s two trailing coordinates. -/
theorem ownR_emb (c : Dev nD) (y : (ownR c).shape.Idx) :
    ((scrM.access (ownR c) : View sig .tc _ _ _).emb y : S32x8x512.Idx) = ValueIdx.ix3 c (y 1) (y 2) := by
  funext a
  apply Fin.ext
  show ((ownR c).emb y a : Nat) = _
  rw [Rect.emb_apply]
  show k0_off1 c a + 1 * (y a).val = _
  rw [k0_off1_eq]
  have h1 : (y 0).val < 1 := (y 0).isLt
  match a with
  | ⟨0, _⟩ => show c.val + 1 * (y 0).val = c.val; omega
  | ⟨1, _⟩ => show 0 + 1 * (y 1).val = (y 1).val; omega
  | ⟨2, _⟩ => show 0 + 1 * (y 2).val = (y 2).val; omega

/-- Every index of the rectangle has leading coordinate zero. -/
theorem ownR_idx (c : Dev nD) (y : (ownR c).shape.Idx) : y = ValueIdx.ix3 (0 : Fin 1) (y 1) (y 2) := by
  have h1 : (y 0).val < 1 := (y 0).isLt
  funext a
  match a with
  | ⟨0, _⟩ => exact Fin.ext (by show (y 0).val = 0; omega)
  | ⟨1, _⟩ => rfl
  | ⟨2, _⟩ => rfl

/-! ## The three accesses -/

/-- The kernel's store of its partial sums into its own row: the row then holds the table's row `c`. -/
theorem store_own (c : Dev nD) (f0 : Buf (Elt F) ((c : Thread nD τ).loc cc0_scratch0))
    {hx : ((scrM.access (Rect.unit (s := S32x8x512) (k0_off1 c) S1x8x512.size (k0_off1_inb c)) : View sig .tc _ _ _)).Stores Finset.univ}
    {hm : (Finset.univ : Finset (Rect.unit (s := S32x8x512) (k0_off1 c) S1x8x512.size (k0_off1_inb c)).shape.Idx) = Finset.univ ∨ ∀ a, (Rect.unit (s := S32x8x512) (k0_off1 c) S1x8x512.size (k0_off1_inb c)).stride a = 1}
    {α : Type} {Q : α → sProp 𝕄} {k : PUnit → Prog (TpuEff nD τ sig (Elt F) Λ₀ .tc) α} :
    (rowPts c c fullShare f0 : sProp 𝕄)
      ⊢ iprop((rowPts c c fullShare (stats m ρ) -∗ wp frame (wpE (defs₀ (F := F)) 𝒱₀ (c : Thread nD τ) none) Set.univ (k ⟨⟩) Q)
          -∗ wp frame (wpE (defs₀ (F := F)) 𝒱₀ (c : Thread nD τ) none) Set.univ
              (.op (.store scrM (Rect.unit (s := S32x8x512) (k0_off1 c) S1x8x512.size (k0_off1_inb c)) (k0_pay2 (xin m ρ c)) Finset.univ hx hm) k) Q) := by
  have hS : (scrM.access (ownR c) : View sig .tc _ _ _).setOn Finset.univ ⊆ rowSet c := by
    rw [View.setOn_univ, View.set_slice_whole, ownR_set]
  have hw : ∀ x ∈ rowSet c, (scrM.access (ownR c) : View sig .tc _ _ _).write (Elt F) f0 (k0_pay2 (xin m ρ c)) Finset.univ x
      = stats m ρ x := by
    intro x hx
    have hx' : x ∈ (scrM.access (ownR c) : View sig .tc _ _ _).set := by rw [View.set_slice_whole, ownR_set]; exact hx
    obtain ⟨y, rfl⟩ := View.exists_emb_of_mem_set _ hx'
    rw [View.write_emb_of_mem _ _ (Finset.mem_univ y), cast_eq, ownR_emb]
    exact congrArg (k0_pay2 (xin m ρ c)) (ownR_idx c y)
  have hc : ((((c : Thread nD τ).loc cc0_scratch0) ↦[rowSet c]{fullShare}
        (scrM.access (ownR c) : View sig .tc _ _ _).write (Elt F) f0 (k0_pay2 (xin m ρ c)) Finset.univ : sProp 𝕄))
      = (((c : Thread nD τ).loc cc0_scratch0) ↦[rowSet c]{fullShare} stats m ρ) := pointsTo_congr hw
  unfold rowPts
  rw [← hc]
  exact wp_store 𝒱₀ (c : Thread nD τ) none Set.univ (m := scrM) (r := ownR c) (Mk := Finset.univ) hS

/-- The kernel's (dead) load of its own row before that store. -/
theorem load_own (c : Dev nD) (q : PosShare TreeShare) (f0 : Buf (Elt F) ((c : Thread nD τ).loc cc0_scratch0))
    {hl : scrM.view.LoadsAt (Rect.unit (s := S32x8x512) (k0_off1 c) S1x8x512.size (k0_off1_inb c)).toLoadRect}
    {α : Type} {Q : α → sProp 𝕄} {k : ((Rect.unit (s := S32x8x512) (k0_off1 c) S1x8x512.size (k0_off1_inb c)).toLoadRect.shape.Idx → Elt F .bf16) → Prog (TpuEff nD τ sig (Elt F) Λ₀ .tc) α} :
    (rowPts c c q f0 : sProp 𝕄)
      ⊢ iprop((rowPts c c q f0 -∗ wp frame (wpE (defs₀ (F := F)) 𝒱₀ (c : Thread nD τ) none) Set.univ (k (scrM.view.readAt (Elt F) (Rect.unit (s := S32x8x512) (k0_off1 c) S1x8x512.size (k0_off1_inb c)).toLoadRect f0)) Q)
          -∗ wp frame (wpE (defs₀ (F := F)) 𝒱₀ (c : Thread nD τ) none) Set.univ
              (.op (.load scrM (Rect.unit (s := S32x8x512) (k0_off1 c) S1x8x512.size (k0_off1_inb c)).toLoadRect hl) k) Q) := by
  have hS : scrM.view.setOn (ownR c).toLoadRect.set ⊆ rowSet c := by
    intro x hx
    obtain ⟨y, hy, rfl⟩ := Finset.mem_map.mp hx
    rw [← ownR_set]; exact hy
  unfold rowPts
  exact wp_load 𝒱₀ (c : Thread nD τ) none Set.univ (m := scrM) (r := (ownR c).toLoadRect) hS

/-- The kernel's load of the whole table, held whole at any share with every row at its device's partial sums: it
    reads the table. -/
theorem load_table (c : Dev nD) (q : PosShare TreeShare)
    {hl : scrM.view.LoadsAt (Rect.unit (s := S32x8x512) ![0, 0, 0] S32x8x512.size inb_S32x8x512_S32x8x512_0_0_0).toLoadRect}
    {α : Type} {Q : α → sProp 𝕄} {k : (S32x8x512.Idx → Elt F .bf16) → Prog (TpuEff nD τ sig (Elt F) Λ₀ .tc) α} :
    ((((c : Thread nD τ).loc cc0_scratch0) ↦{q} stats m ρ : sProp 𝕄))
      ⊢ iprop(((((c : Thread nD τ).loc cc0_scratch0) ↦{q} stats m ρ) -∗ wp frame (wpE (defs₀ (F := F)) 𝒱₀ (c : Thread nD τ) none) Set.univ (k (stats m ρ)) Q)
          -∗ wp frame (wpE (defs₀ (F := F)) 𝒱₀ (c : Thread nD τ) none) Set.univ
              (.op (.load scrM (Rect.unit (s := S32x8x512) ![0, 0, 0] S32x8x512.size inb_S32x8x512_S32x8x512_0_0_0).toLoadRect hl) k) Q) := by
  have e : scrM.view.readAt (Elt F) (Rect.unit (s := S32x8x512) ![0, 0, 0] S32x8x512.size inb_S32x8x512_S32x8x512_0_0_0).toLoadRect
      (stats m ρ) = stats m ρ :=
    Memref.readAt_unit_zero (Elt F) cc0_scratch0 (funext fun a => by fin_cases a <;> rfl) _ _
  have h := wp_load 𝒱₀ (c : Thread nD τ) none Set.univ (defs := defs₀ (F := F)) (Γ := .empty) (Q := Q) (m := scrM)
    (r := (Rect.unit (s := S32x8x512) ![0, 0, 0] S32x8x512.size inb_S32x8x512_S32x8x512_0_0_0).toLoadRect) (hl := hl) (k := k)
    (S := Finset.univ) (q := q) (f := stats m ρ) (Finset.subset_univ _)
  rw [e] at h
  exact h

/-- info: 'Cert.KernelIdeal.Proto.store_own' depends on axioms: [propext, Classical.choice, Quot.sound] -/
#guard_msgs in #print axioms store_own

end Cert.KernelIdeal.Proto

end
-- ==== Proof.Body.lean ====
/-
  One device's body, stepped from the exchange's invariant: the thirty-one signals, the device's own partial sums
  stored, the barrier wait, the thirty-one transfers, the thirty-one landings awaited, the table read whole and the
  result block stored, the thirty-one transfers' reads awaited; every row of the table ends holding its device's
  partial sums and the device's own cells end closed.
-/
import proofs.«900770_g7700000000000771_dist_diff_adaln_cshard_i_b4_s512_c256_v7x_i32_bf16_1_alg».proof.Proof.PhaseIO
import proofs.«900770_g7700000000000771_dist_diff_adaln_cshard_i_b4_s512_c256_v7x_i32_bf16_1_alg».proof.Proof.Devs
import proofs.«900770_g7700000000000771_dist_diff_adaln_cshard_i_b4_s512_c256_v7x_i32_bf16_1_alg».proof.Proof.Rows
import proofs.«900770_g7700000000000771_dist_diff_adaln_cshard_i_b4_s512_c256_v7x_i32_bf16_1_alg».proof.Proof.Levels
import proofs.«900770_g7700000000000771_dist_diff_adaln_cshard_i_b4_s512_c256_v7x_i32_bf16_1_alg».proof.Proof.Local

noncomputable section

namespace Cert.KernelIdeal.Proto

open Cert.KernelIdeal Cert.KernelIdeal.Gen Cert.KernelIdeal.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-- A staging buffer held whole, reading `X`. -/
abbrev stg (c : Dev nD) (b : Ref sig .tc) (X : b.ty.shape.Idx → Elt F b.ty.elt) : sProp 𝕄 :=
  owns (Ix := Unit) (Name := ℕ) (U := UU) (Lvl := ℕ) (c : Thread nD τ) (Memref.whole b) fullShare X

def bodyPre (Kb : Dev nD → ℕ) (Ks Kr : Dev nD × Fin 31 → ℕ) (c : Dev nD) : sProp 𝕄 :=
  iprop((ghost m ρ Kb Ks Kr c ∗ cred (tallyAt (barCell c) () 31)
      ∗ (bigSep Finset.univ fun k : Fin 31 => cred (tallyAt (recvCell c k) () N)) ∗ levAts L lv
      ∗ ∃ f, ((c : Thread nD τ).loc cc0_scratch0) ↦{fullShare} f)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ m ρ c ∗ (dats m ρ 0 c).owesAt () t0_0.succ
    ∗ stg c cc0_stg0_0 (xin m ρ c) ∗ stg c cc0_stg1_0 (tin m ρ c) ∗ stg c cc0_stg2_0 (wsin m ρ c) ∗ stg c cc0_stg3_0 (wbin m ρ c)
    ∗ stg c cc0_stg4_0 (outAt m ρ c))

attribute [local sl_rounds] duties_bar duties_send duties_recv amount_bar amount_send amount_recv expect_bar expect_send expect_recv
  payload_bar payload_send payload_recv

-- Continue through the steps that act only on buffers held whole; elsewhere leave the goal as it is.
macro "adv" : tactic => `(tactic| first | sl_exec | skip)
-- The program's head spelt as an operation and its continuation.
macro "norm_head" : tactic =>
  `(tactic| simp (config := { proj := false }) only [semWaitWord, Prog.lift, Prog.bind_op, Prog.bind_ret, Prog.pure_eq_ret])

-- One signal: the rule at the offset reached with n + 1 signals left.
set_option hygiene false in
macro "sig_one " n:num : tactic => `(tactic| (
  iapply (sig_phase m ρ Kb c W $n (by decide)) $$ [HS]
  · isplitr
    · iexact HIb
    · iexact HS
  iintro HS
  adv))

syntax "sig_from " num : tactic
macro_rules
  | `(tactic| sig_from $n) => do
      let k := n.getNat
      if k == 0 then `(tactic| sig_one 0)
      else `(tactic| (sig_one $n; sig_from $(Lean.Syntax.mkNumLit (toString (k - 1)))))

-- One transfer: the rule at the offset reached with n + 1 transfers left, its peer named by the printed chain's equation.
syntax "send_one " num : tactic
set_option hygiene false in
macro_rules
  | `(tactic| send_one $n) => do
      let dv := Lean.mkIdent (Lean.Name.mkSimple s!"dev{62 - n.getNat}_eq")
      `(tactic| (
        iapply (send_phase m ρ Ks Kr c W' $n (by decide) _ ($dv c)) $$ [HS]
        · isplitr
          · iexact HIs
          isplitr
          · iexact HIr
          · iexact HS
        iintro HS
        adv))

syntax "send_from " num : tactic
macro_rules
  | `(tactic| send_from $n) => do
      let k := n.getNat
      if k == 0 then `(tactic| send_one 0)
      else `(tactic| (send_one $n; send_from $(Lean.Syntax.mkNumLit (toString (k - 1)))))

-- One landing awaited.
set_option hygiene false in
macro "recv_one " n:num : tactic => `(tactic| (
  iapply (recv_phase m ρ Kr c $n (by decide) (credit_row _ _)) $$ [HS]
  · isplitr
    · iexact HIr
    · iexact HS
  iintro HS
  adv))

syntax "recv_from " num : tactic
macro_rules
  | `(tactic| recv_from $n) => do
      let k := n.getNat
      if k == 0 then `(tactic| recv_one 0)
      else `(tactic| (recv_one $n; recv_from $(Lean.Syntax.mkNumLit (toString (k - 1)))))

-- One transfer's read awaited.
set_option hygiene false in
macro "swait_one " n:num : tactic => `(tactic| (
  iapply (swait_phase m ρ Ks c $n (by decide) (credit_row _ _)) $$ [HS]
  · isplitr
    · iexact HIs
    · iexact HS
  iintro HS
  adv))

syntax "swait_from " num : tactic
macro_rules
  | `(tactic| swait_from $n) => do
      let k := n.getNat
      if k == 0 then `(tactic| swait_one 0)
      else `(tactic| (swait_one $n; swait_from $(Lean.Syntax.mkNumLit (toString (k - 1)))))

/-- A transfer of one row credits a row's credit, whichever row. -/
theorem credit_row (off : Fin 3 → Nat) (inb : ∀ a, off a + S1x8x512.size a ≤ S32x8x512.size a) :
    ((scrM.slice (Rect.unit (s := S32x8x512) off S1x8x512.size inb) (fun _ => rfl)).squeeze S8x512 squeezes_S1x8x512_S8x512).view.dmaCredit = N := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- Every peer's row cut into the half kept for reading and the other half. -/
theorem rows_keep_eq (c : Dev nD) :
    (bigSep Finset.univ fun k : Fin 31 => (rowPts c (bwd c k) fullShare (stats m ρ) : sProp 𝕄))
      = iprop((bigSep Finset.univ fun k : Fin 31 => rowPts c (bwd c k) keepSh (stats m ρ))
          ∗ bigSep Finset.univ fun k : Fin 31 => rowPts c (bwd c k) (restSh 0) (stats m ρ)) := by
  rw [← bigSep_sep']
  exact bigSep_congr fun k _ => eq_of_biEntails (row_keep c (bwd c k) (stats m ρ))

set_option maxHeartbeats 4000000 in
theorem sound_body (Kb : Dev nD → ℕ) (Ks Kr : Dev nD × Fin 31 → ℕ) (c : Dev nD) (Kt : PUnit → sProp 𝕄) :
    iprop(bodyPre m ρ Kb Ks Kr c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2) Kt := by
  unfold bodyPre ghost records linear stg owns
  iintro ⟨⟨⟨⟨⟨#HIb, #HIs, #HIr⟩, HatB, HatS, HatR, HtB, HtR, HtS⟩, HcB, HcR, #Hlev, ⟨%f0, Hscr⟩⟩,
    Ho, ⟨%d0, %g0, %hg0, Hx⟩, ⟨%d1, %g1, %hg1, Ht⟩, ⟨%d2, %g2, %hg2, Hws⟩, ⟨%d3, %g3, %hg3, Hwb⟩, ⟨%d4, %g4, %hg4, Hout⟩⟩, Hk⟩
  unfold Dat.owesAt Pipeline.owesWithin
  icases Ho with ⟨%W, %hW, HO⟩
  rw [show (dats m ρ 0 c).owed t0_0.castSucc = O₀ c from rfl]
  -- the table by rows: the device's own, and one for each peer ahead
  ihave Hrows := (table_rows_fwd c fullShare f0).1 $$ Hscr
  icases Hrows with ⟨Hown, Hrows⟩
  ihave HS := (sig_init (F := F) c W f0) $$ [HO HtB Hrows]
  · isplitl [HO]; · iexact HO
    isplitl [HtB]; · iexact HtB
    iexact Hrows
  -- the thirty-one signals
  sl_exec
  sig_from 30
  ihave HO := (sig_exit (F := F) c W) $$ HS
  -- the staging buffer of x holds the device's block of x
  have hx0 : g0 = xin m ρ c := by
    refine Eq.trans (show g0 = (dats m ρ 0 c).before 0 t0_0 d0 from hg0) ?_
    unfold Dat.before; rw [if_pos (fetch0_0 t0_0)]; rfl
  subst hx0
  have hx1 : g1 = tin m ρ c := by
    refine Eq.trans (show g1 = (dats m ρ 0 c).before 1 t0_0 d1 from hg1) ?_
    unfold Dat.before; rw [if_pos (fetch0_1 t0_0)]; rfl
  subst hx1
  have hx2 : g2 = wsin m ρ c := by
    refine Eq.trans (show g2 = (dats m ρ 0 c).before 2 t0_0 d2 from hg2) ?_
    unfold Dat.before; rw [if_pos (fetch0_2 t0_0)]; rfl
  subst hx2
  have hx3 : g3 = wbin m ρ c := by
    refine Eq.trans (show g3 = (dats m ρ 0 c).before 3 t0_0 d3 from hg3) ?_
    unfold Dat.before; rw [if_pos (fetch0_3 t0_0)]; rfl
  subst hx3
  rw [show (Memref.whole cc0_stg0_0 : Memref sig .tc .vmem S4x512x256 .f32).view.readAt (Elt F)
      (Rect.unit (s := S4x512x256) ![0, 0, 0] S4x512x256.size inb_S4x512x256_S4x512x256_0_0_0).toLoadRect (xin m ρ c) = xin m ρ c from
    Memref.readAt_unit_zero (Elt F) cc0_stg0_0 hz3 _ _]
  -- its own row read and overwritten by its partial sums
  iapply (load_own c fullShare f0) $$ Hown
  iintro Hown
  norm_head
  iapply (store_own m ρ c f0) $$ Hown
  iintro Hown
  -- the barrier: every peer has entered and handed over its row c
  iapply (bar_wait m ρ Kb c _ W (mayWait_bar c 31 le_rfl)) $$ [HcB HO HatB]
  · isplitr
    · ihave HI := (bar_at m ρ Kb c) $$ HIb
      icases HI with ⟨#HI, -⟩
      iexact HI
    isplitl [HcB]; · iexact HcB
    isplitl [HO]; · iexact HO
    isplitr; · iexact Hlev
    iexact HatB
  iintro ⟨HO, HatB, Hpay⟩
  sl_exec
  generalize hW' : insert (SemLoc.reg barS, ()) W = W'
  -- the device's row shared out: one piece lent to each transfer, one half kept for its own reads
  ihave Hsh := (row_shares c c (stats m ρ)).1 $$ Hown
  icases Hsh with ⟨Hkeep, Hrest, Hsend⟩
  ihave HS := (send_init m ρ c W') $$ [HO HtS HtR Hsend Hpay]
  · isplitl [HO]; · iexact HO
    isplitl [HtS]; · iexact HtS
    isplitl [HtR]; · iexact HtR
    isplitl [Hsend]; · iexact Hsend
    iexact Hpay
  -- the thirty-one transfers
  send_from 30
  ihave Hx' := (send_exit m ρ c W') $$ HS
  icases Hx' with ⟨HO, HcS⟩
  -- the thirty-one landings
  ihave HS := (recv_init m ρ c) $$ [HO HcR HatR]
  · isplitl [HO]; · iexists W'; iexact HO
    isplitl [HcR]; · iexact HcR
    iexact HatR
  recv_from 30
  ihave Hx' := (recv_exit m ρ c) $$ HS
  icases Hx' with ⟨HOW, Hrows, HzR⟩
  -- the table whole again, at the kept share, every row at its device's partial sums
  ihave Hr2 := (Entails.of_eq (rows_keep_eq m ρ c)) $$ Hrows
  icases Hr2 with ⟨HrowsK, HrowsR⟩
  ihave Htab := (table_rows_bwd c keepSh (stats m ρ)).2 $$ [Hkeep HrowsK]
  · isplitl [Hkeep]; · iexact Hkeep
    iexact HrowsK
  norm_head
  iapply (load_table m ρ c keepSh) $$ Htab
  iintro Htab
  adv
  -- the thirty-one transfers' reads awaited
  ihave HS := (swait_init m ρ c) $$ [HOW HcS HatS]
  · isplitl [HOW]; · iexact HOW
    isplitl [HcS]; · iexact HcS
    iexact HatS
  swait_from 30
  ihave Hx' := (swait_exit m ρ c) $$ HS
  icases Hx' with ⟨HOW, HsendBack, HzS⟩
  -- the return
  first | sl_step | skip
  iapply Hk
  unfold bodyPost Φ₁ stg owns Dat.owesAt Pipeline.owesWithin
  rw [show (dats m ρ 0 c).owed t0_0.succ = 0 from rfl]
  -- the table put together again: the kept half and the other half of every peer's row, the pieces of the own row
  ihave Hr3 := (table_rows_bwd c keepSh (stats m ρ)).1 $$ Htab
  icases Hr3 with ⟨Hkeep, HrowsK⟩
  ihave Hrows := (Entails.of_eq (rows_keep_eq m ρ c).symm) $$ [HrowsK HrowsR]
  · isplitl [HrowsK]; · iexact HrowsK
    iexact HrowsR
  ihave Hown := (row_shares c c (stats m ρ)).2 $$ [Hkeep Hrest HsendBack]
  · isplitl [Hkeep]; · iexact Hkeep
    isplitl [Hrest]; · iexact Hrest
    iexact HsendBack
  ihave Htab := (table_rows_bwd c fullShare (stats m ρ)).2 $$ [Hown Hrows]
  · isplitl [Hown]; · iexact Hown
    iexact Hrows
  icases HOW with ⟨%W2, HO⟩
  isplitl [Htab HzS HzR]
  · isplitl [Htab]; · iexact Htab
    isplitl [HzS]; · iexact HzS
    iexact HzR
  isplitl [HO]
  · iexists W2
    isplitr; · ipureintro; exact fun _ _ => Or.inl trivial
    iexact HO
  isplitl [Hx]
  · iexists (xin m ρ c); isplitr; · (ipureintro; rfl)
    iexact Hx
  isplitl [Ht]
  · iexists (tin m ρ c); isplitr; · (ipureintro; rfl)
    iexact Ht
  isplitl [Hws]
  · iexists (wsin m ρ c); isplitr; · (ipureintro; rfl)
    iexact Hws
  isplitl [Hwb]
  · iexists (wbin m ρ c); isplitr; · (ipureintro; rfl)
    iexact Hwb
  iexists _
  isplitr
  pick_goal 2
  · iexact Hout
  ipureintro
  have hrd : ∀ X : BufTy.Contents (Elt F) (Memref.whole cc0_stg4_0 : Memref sig .tc .vmem S4x512x256 .f32).view.ty,
      View.read (Elt F) (Memref.whole cc0_stg4_0 : Memref sig .tc .vmem S4x512x256 .f32).view X = X := fun X => rfl
  rw [hrd, View.writes_singleton]
  refine Eq.trans (Memref.write_access_unit_zero_univ (Elt F) cc0_stg4_0 hz3 _ g4 _) ?_
  sl_unfold_run_names
  rw [show (Memref.whole cc0_stg1_0 : Memref sig .tc .vmem S4x128 .f32).view.readAt (Elt F)
        (Rect.unit (s := S4x128) ![0, 0] S4x128.size inb_S4x128_S4x128_0_0).toLoadRect (tin m ρ c) = tin m ρ c from
      Memref.readAt_unit_zero (Elt F) cc0_stg1_0 hz2 _ _,
    show (Memref.whole cc0_stg2_0 : Memref sig .tc .vmem S128x256 .f32).view.readAt (Elt F)
        (Rect.unit (s := S128x256) ![0, 0] S128x256.size inb_S128x256_S128x256_0_0).toLoadRect (wsin m ρ c) = wsin m ρ c from
      Memref.readAt_unit_zero (Elt F) cc0_stg2_0 hz2 _ _,
    show (Memref.whole cc0_stg3_0 : Memref sig .tc .vmem S128x256 .f32).view.readAt (Elt F)
        (Rect.unit (s := S128x256) ![0, 0] S128x256.size inb_S128x256_S128x256_0_0).toLoadRect (wbin m ρ c) = wbin m ρ c from
      Memref.readAt_unit_zero (Elt F) cc0_stg3_0 hz2 _ _]
  rfl

/-! ## The library's body obligation -/

def bodyPre' (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

set_option maxRecDepth 8000 in
/-- The body obligation on device `c`. -/
theorem body_obligation (c : Dev nD) : BodyObligation (dats (F := F) m ρ 0 c) (defs₀ (F := F)) 𝒱₀ () Set.univ := fun t => by
  rw [fin_N0 t]
  rw [bigSep_W0, bigSep_W0]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _)
      (Memref.whole cc0_scratch0) (Memref.isWhole_whole _) cc0_scratch1 cc0_scratch2) (fun _ => bodyPost m ρ c)
  unfold bodyPre' Φ₀ start
  iintro ⟨⟨⟨⟨%Kb, %Ks, %Kr, Hg⟩, Hrest⟩, Hscr⟩, Ho, Hx, Ht, Hws, Hwb, Hout⟩
  iapply (sound_body m ρ Kb Ks Kr c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Ht]; · iexact Ht
    isplitl [Hws]; · iexact Hws
    isplitl [Hwb]; · iexact Hwb
    iexact Hout
  · iintro H; iexact H

/-- info: 'Cert.KernelIdeal.Proto.body_obligation' depends on axioms: [propext, Classical.choice, Quot.sound] -/
#guard_msgs in #print axioms body_obligation

end Cert.KernelIdeal.Proto

end
-- ==== Proof.KVals.lean ====
/-
  The values the kernel moves and computes, as pure functions of the devices' blocks.

  Device `d` reduces its block of `x` along the channel axis to eight rows (four of sums, four of sums of
  squares); the exchange puts device `d`'s rows in row `d` of every device's table, so the table every device
  ends with is one function of all the blocks; each device then normalizes its own block by the table's column
  sums and applies its own block of the scale and shift products.
-/
import proofs.«900770_g7700000000000771_dist_diff_adaln_cshard_i_b4_s512_c256_v7x_i32_bf16_1_alg».proof.Proof.Gen.Kernel.Skeleton
import Idealize.ShloMosaic.Lib.ValueIdx

noncomputable section

namespace Cert.Kernel.Vals

open Idealize.ShloMosaic Cert.Kernel Cert.Kernel.Gen

variable {F : FTy → Type} [FloatOps F]

/-- One device's eight rows of partial sums, from its block of `x`. -/
def partialOf (X : Vec F S4x512x256 .f32) : Vec F S1x8x512 .bf16 := k0_pay2 X

/-- The gathered table: row `d` holds device `d`'s partial sums. -/
def statsOf (Xs : Dev nD → Vec F S4x512x256 .f32) : Vec F S32x8x512 .bf16 :=
  fun i => partialOf (Xs (i 0)) (ValueIdx.ix3 (0 : Fin 1) (i 1) (i 2))

/-- A device's result block: its block of `x` normalized by the table's totals, times one plus its block of the
    scale product, plus its block of the shift product. -/
def outOf (X : Vec F S4x512x256 .f32) (T : Vec F S4x128 .f32) (WS WB : Vec F S128x256 .f32)
    (S : Vec F S32x8x512 .bf16) : Vec F S4x512x256 .f32 :=
  k0_pay9 (k0_pay1 X) (k0_pay3 T WS) (k0_pay4 T WB) (k0_pay6 S) (k0_pay7 S) k0_pay8

end Cert.Kernel.Vals

end
-- ==== Proof.KSched.lean ====
/-
  The exchange's protocol: the cells, who pays what on them, and what each payment hands over.

  Thirty-two devices on a ring of offsets. Device `c` names its peers by offset: `fwd c j` is the device
  `j + 1` places after it and `bwd c j` the device `j + 1` places before it (`j` ranges over thirty-one
  offsets). Every device has one barrier cell, thirty-one send cells and thirty-one receive cells.
  * Barrier cell of `c`: thirty-one duties of one unit, duty `j` paid by `bwd c j` when it enters the kernel; with it
    that device hands `c` its own table's row `c`, the row `c`'s transfer to it will overwrite.
  * Receive cell `j` of `c`: one duty, paid by the transfer of `bwd c j`; it hands `c` its own table's row
    `bwd c j` holding that device's partial sums.
  * Send cell `j` of `c`: one duty, paid by `c`'s own transfer number `j`; it hands back the share of row `c`
    the transfer read from.
-/
import proofs.«900770_g7700000000000771_dist_diff_adaln_cshard_i_b4_s512_c256_v7x_i32_bf16_1_alg».proof.Proof.KVals
import proofs.«900770_g7700000000000771_dist_diff_adaln_cshard_i_b4_s512_c256_v7x_i32_bf16_1_alg».proof.Proof.Gen.Kernel.Launch
import proofs.«900770_g7700000000000771_dist_diff_adaln_cshard_i_b4_s512_c256_v7x_i32_bf16_1_alg».proof.Proof.Gen.Kernel.Points
import Idealize.ShloMosaic.Lib.Pipeline.Launch
import Idealize.ShloMosaic.Lib.Pipeline.Kit
import Idealize.ShloMosaic.Lib.Tactic

noncomputable section

namespace Cert.Kernel.Proto

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

/-! ## The resource algebra: the pipeline's copy and the exchange's, duties named by offset -/

abbrev DD : Type := Fin 31
abbrev UB : Type := URounds (GSem nD τ sig) DD
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring of offsets -/

def fwd (c : Dev nD) (j : Fin 31) : Dev nD := ⟨(c.val + (j.val + 1)) % 32, Nat.mod_lt _ (by decide)⟩
def bwd (c : Dev nD) (j : Fin 31) : Dev nD := ⟨(c.val + 31 - j.val) % 32, Nat.mod_lt _ (by decide)⟩

theorem bwd_fwd (c : Dev nD) (j : Fin 31) : bwd (fwd c j) j = c := by revert c j; decide
theorem fwd_bwd (c : Dev nD) (j : Fin 31) : fwd (bwd c j) j = c := by revert c j; decide
theorem fwd_ne (c : Dev nD) (j : Fin 31) : fwd c j ≠ c := by revert c j; decide
theorem bwd_ne (c : Dev nD) (j : Fin 31) : bwd c j ≠ c := by revert c j; decide
theorem fwd_inj (c : Dev nD) {j k : Fin 31} (h : fwd c j = fwd c k) : j = k := by
  have h1 : (c.val + (j.val + 1)) % 32 = (c.val + (k.val + 1)) % 32 := congrArg Fin.val h
  have := c.isLt; have := j.isLt; have := k.isLt
  exact Fin.ext (by omega)
theorem bwd_inj (c : Dev nD) {j k : Fin 31} (h : bwd c j = bwd c k) : j = k := by
  have h1 : (c.val + 31 - j.val) % 32 = (c.val + 31 - k.val) % 32 := congrArg Fin.val h
  have := c.isLt; have := j.isLt; have := k.isLt
  exact Fin.ext (by omega)

/-! ## Semaphores and cells -/

/-- The barrier semaphore; the `k`-th send and receive semaphores. -/
abbrev barS : Sem sig := (SemArray.scalar (sig.barrier 0 rfl) : Sems sig S_).sem
theorem inb31 (k : Fin 31) : ∀ a, (![k.val] : Fin 1 → Nat) a + S1.size a ≤ S31.size a := by
  intro a; fin_cases a; show k.val + 1 ≤ 31; omega
abbrev sendS (k : Fin 31) : DmaSem sig := ((cc0_scratch1.slice (Rect.unit (s := S31) ![k.val] S1.size (inb31 k))).squeeze S_ squeezes_S1_S_).sem
abbrev recvS (k : Fin 31) : DmaSem sig := ((cc0_scratch2.slice (Rect.unit (s := S31) ![k.val] S1.size (inb31 k))).squeeze S_ squeezes_S1_S_).sem

theorem sendS_val (k : Fin 31) : (sendS k).val = 5 + k.val := by revert k; decide
theorem recvS_val (k : Fin 31) : (recvS k).val = 36 + k.val := by revert k; decide

abbrev barCell (c : Dev nD) : GSem nD τ sig := ((c : Thread nD τ), .reg barS)
abbrev sendCell (c : Dev nD) (k : Fin 31) : GSem nD τ sig := ((c : Thread nD τ), .dma (sendS k))
abbrev recvCell (c : Dev nD) (k : Fin 31) : GSem nD τ sig := ((c : Thread nD τ), .dma (recvS k))

/-! ## The blocks a device starts from, and the values of `Vals` at them -/

def xin (c : Dev nD) : Vec F S4x512x256 .f32 :=
  (win0_0.blk t0_0).view.read (Elt F) ((s₀ m ρ).mem ((c : Thread nD τ).loc main_arg0))
def tin (c : Dev nD) : Vec F S4x128 .f32 :=
  (win0_1.blk t0_0).view.read (Elt F) ((s₀ m ρ).mem ((c : Thread nD τ).loc main_arg1))
def wsin (c : Dev nD) : Vec F S128x256 .f32 :=
  (win0_2.blk t0_0).view.read (Elt F) ((s₀ m ρ).mem ((c : Thread nD τ).loc main_arg2))
def wbin (c : Dev nD) : Vec F S128x256 .f32 :=
  (win0_3.blk t0_0).view.read (Elt F) ((s₀ m ρ).mem ((c : Thread nD τ).loc main_arg3))

/-- The table every device ends with: row `d` is device `d`'s partial sums. -/
def stats : Vec F S32x8x512 .bf16 := statsOf (fun d => xin m ρ d)
/-- Device `c`'s result block. -/
def outAt (c : Dev nD) : Vec F S4x512x256 .f32 := outOf (xin m ρ c) (tin m ρ c) (wsin m ρ c) (wbin m ρ c) (stats m ρ)

/-! ## The table's rows -/

abbrev scrM : Memref sig .tc .vmem S32x8x512 .bf16 := Memref.whole cc0_scratch0
/-- Row `i` of the table, as the kernel's transfers name a row. -/
abbrev rowM (i : Dev nD) : Memref sig .tc .vmem S8x512 .bf16 :=
  (scrM.slice (Rect.unit (s := S32x8x512) (k0_off2 i) S1x8x512.size (k0_off2_inb i)) (fun _ => rfl)).squeeze S8x512 squeezes_S1x8x512_S8x512

/-- The table's elements in row `i`. -/
def rowSet (i : Dev nD) : Finset S32x8x512.Idx := (Rect.unit (s := S32x8x512) (k0_off2 i) S1x8x512.size (k0_off2_inb i)).set

theorem mem_rowSet {i : Dev nD} {x : S32x8x512.Idx} : x ∈ rowSet i ↔ (x 0).val = i.val := by
  unfold rowSet
  rw [Rect.mem_set_unit, k0_off2_eq]
  constructor
  · intro h; have := h 0; simp at this; omega
  · intro h a
    fin_cases a
    · simp; omega
    · simp; exact (x 1).isLt
    · simp; exact (x 2).isLt

theorem rowSet_disjoint {i j : Dev nD} (h : i ≠ j) : Disjoint (rowSet i) (rowSet j) :=
  Finset.disjoint_left.mpr fun x hi hj => h (Fin.ext ((mem_rowSet.mp hi).symm.trans (mem_rowSet.mp hj)))

theorem rowSet_cover : (Finset.univ : Finset (Dev nD)).biUnion rowSet = Finset.univ := by
  ext x
  simp only [Finset.mem_biUnion, Finset.mem_univ, true_and, iff_true]
  exact ⟨x 0, mem_rowSet.mpr rfl⟩

/-- Row `i` of device `c`'s table, held at share `q` with contents `f`. -/
def rowPts (c : Dev nD) (i : Dev nD) (q : PosShare TreeShare) (f : Buf (Elt F) ((c : Thread nD τ).loc cc0_scratch0)) : sProp 𝕄 :=
  ((c : Thread nD τ).loc cc0_scratch0) ↦[rowSet i]{q} f

/-! ## Shares of a device's own row

One half stays with the device for its own reads of the table; the other half is cut thirty-one times, one piece lent
to each transfer until its send wait returns it. -/

def keepSh : PosShare TreeShare := fullShare.right
def restSh : ℕ → PosShare TreeShare
  | 0 => fullShare.left
  | n + 1 => (restSh n).right
def sendSh (n : ℕ) : PosShare TreeShare := (restSh n).left

theorem restSh_split (n : ℕ) : restSh n ∈ sendSh n ·? restSh (n + 1) := PosShare.mem_left_op_right (restSh n)
theorem full_split : (fullShare : PosShare TreeShare) ∈ restSh 0 ·? keepSh := PosShare.mem_left_op_right fullShare

/-! ## The schedule -/

abbrev N : ℕ := (rowM (0 : Dev nD)).view.dmaCredit
theorem N_pos : 0 < N := View.dmaCredit_pos _ (by decide)

/-- What `bwd c j` hands `c` when it signals `c`'s barrier: its own table's row `c`, at whatever contents. -/
def barPay (c : Dev nD) (j : Fin 31) : sProp 𝕄 := iprop(∃ f, rowPts (bwd c j) c fullShare f)
/-- What the landing on receive cell `j` hands `c`: its row `bwd c j` holding that device's partial sums. -/
def recvPay (c : Dev nD) (j : Fin 31) : sProp 𝕄 := rowPts c (bwd c j) fullShare (stats m ρ)
/-- What send cell `j` hands back: the share of its own row the transfer read. -/
def sendPay (c : Dev nD) (j : Fin 31) : sProp 𝕄 := rowPts c c (sendSh j.val) (stats m ρ)

abbrev IsBar (g : GSem nD τ sig) : Prop := g.1.2 = .tc ∧ g.2 = .reg barS
def IsSend (g : GSem nD τ sig) : Prop := g.1.2 = .tc ∧ ∃ k : Fin 31, g.2 = .dma (sendS k)
def IsRecv (g : GSem nD τ sig) : Prop := g.1.2 = .tc ∧ ∃ k : Fin 31, g.2 = .dma (recvS k)
instance (g : GSem nD τ sig) : Decidable (IsSend g) := by unfold IsSend; infer_instance
instance (g : GSem nD τ sig) : Decidable (IsRecv g) := by unfold IsRecv; infer_instance

/-- The offset a send or receive semaphore is numbered by (junk elsewhere). -/
def slotOf (sm : SemLoc sig) : Fin 31 :=
  match sm with
  | .dma q => if h : 5 ≤ q.val ∧ q.val < 36 then ⟨q.val - 5, by omega⟩ else if h : 36 ≤ q.val ∧ q.val < 67 then ⟨q.val - 36, by omega⟩ else 0
  | _ => 0

theorem slotOf_send (k : Fin 31) : slotOf (.dma (sendS k) : SemLoc sig) = k := by revert k; decide
theorem slotOf_recv (k : Fin 31) : slotOf (.dma (recvS k) : SemLoc sig) = k := by revert k; decide

/-- One round. A barrier cell has the thirty-one unit duties; a send or receive cell the one duty `0` of a row's
    credit. -/
def ringRd : Rounds.Schedule (GSem nD τ sig) DD 𝕄 where
  duties g r := if r = 0 ∧ IsBar g then Finset.univ else if r = 0 ∧ (IsSend g ∨ IsRecv g) then {0} else ∅
  unitless _ := False
  amount g _ _ := if g.2 = .reg barS then 1 else N
  payload g _ d :=
    if g.2 = .reg barS then barPay g.1.1 d
    else if IsRecv g then recvPay m ρ g.1.1 (slotOf g.2)
    else if IsSend g then sendPay m ρ g.1.1 (slotOf g.2)
    else iprop(emp)
  amount_pos g _ _ _ := by
    by_cases h : g.2 = .reg barS
    · rw [if_pos h]; exact Nat.one_pos
    · rw [if_neg h]; exact N_pos

end Cert.Kernel.Proto

end
-- ==== Proof.KData.lean ====
/-
  What a device holds and owes at the kernel's start and end: the ghost state of the exchange, the tallies it owes its
  peers, the order of the cells' levels, and the pipeline's proof data.
-/
import proofs.«900770_g7700000000000771_dist_diff_adaln_cshard_i_b4_s512_c256_v7x_i32_bf16_1_alg».proof.Proof.KSched
import proofs.«900770_g7700000000000771_dist_diff_adaln_cshard_i_b4_s512_c256_v7x_i32_bf16_1_alg».proof.Proof.Seq

noncomputable section

namespace Cert.Kernel.Proto

open Cert.Kernel Cert.Kernel.Gen Cert.Kernel.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes at launch

Device `c` owes every peer `fwd c j` one unit on its barrier cell and a row's credit on its receive cell `j`. The
tallies are summed by recursion so that the signals, then the transfers, each peel the last summand in program order:
with `n` payments left the next goes to offset `31 - n`. -/

def sigOwed (c : Dev nD) : (n : ℕ) → n ≤ 31 → CellTallies nD τ sig Unit
  | 0, _ => 0
  | n + 1, h => sigOwed c n (Nat.le_of_succ_le h) + tallyAt (barCell (fwd c ⟨30 - n, by omega⟩)) () 1

def sendOwed (c : Dev nD) : (n : ℕ) → n ≤ 31 → CellTallies nD τ sig Unit
  | 0, _ => 0
  | n + 1, h => sendOwed c n (Nat.le_of_succ_le h) + tallyAt (recvCell (fwd c ⟨30 - n, by omega⟩) ⟨30 - n, by omega⟩) () N

def O₀ (c : Dev nD) : CellTallies nD τ sig Unit := sendOwed c 31 le_rfl + sigOwed c 31 le_rfl

/-! ## Levels: barrier cells at 1, receive cells at 2, everything else (staging, send) at 0 -/

def L (g : GSem nD τ sig) : Finset Unit := if g.1.2 = .tc then {()} else ∅
def lv (g : GSem nD τ sig) (_ : Unit) : ℕ := if g.2 = .reg barS then 1 else if IsRecv g then 2 else 0

/-! ## The exchange's ghost state -/

/-- Every cell's invariant, under the names the launch allocated them at, and that every cell is at round 0 or later. -/
def records (Kb : Dev nD → ℕ) (Ks Kr : Dev nD × Fin 31 → ℕ) : sProp 𝕄 :=
  iprop((bigSep Finset.univ fun d : Dev nD => iprop(cellInv ER (ringRd m ρ) (Kb d) (barCell d) ∗ reached ER (barCell d) 0))
    ∗ (bigSep Finset.univ fun dk : Dev nD × Fin 31 => iprop(cellInv ER (ringRd m ρ) (Ks dk) (sendCell dk.1 dk.2) ∗ reached ER (sendCell dk.1 dk.2) 0))
    ∗ (bigSep Finset.univ fun dk : Dev nD × Fin 31 => iprop(cellInv ER (ringRd m ρ) (Kr dk) (recvCell dk.1 dk.2) ∗ reached ER (recvCell dk.1 dk.2) 0)))

instance records_persistent (Kb : Dev nD → ℕ) (Ks Kr : Dev nD × Fin 31 → ℕ) : BI.Persistent (records m ρ Kb Ks Kr) := by
  unfold records; infer_instance

/-- What is device `c`'s alone: its positions on its own cells, and the tokens of the duties IT pays — duty `j` of the
    barrier cell of `fwd c j`, the duty of receive cell `j` of `fwd c j`, the duty of its own send cell `j`. -/
def linear (c : Dev nD) : sProp 𝕄 :=
  iprop(atPos ER (barCell c) 0 ∅ 0
    ∗ (bigSep Finset.univ fun k : Fin 31 => atPos ER (sendCell c k) 0 ∅ 0)
    ∗ (bigSep Finset.univ fun k : Fin 31 => atPos ER (recvCell c k) 0 ∅ 0)
    ∗ (bigSep Finset.univ fun j : Fin 31 => dutyTok ER (barCell (fwd c j)) 0 j)
    ∗ (bigSep Finset.univ fun j : Fin 31 => dutyTok ER (recvCell (fwd c j) j) 0 (0 : Fin 31))
    ∗ (bigSep Finset.univ fun j : Fin 31 => dutyTok ER (sendCell c j) 0 (0 : Fin 31)))

def ghost (Kb : Dev nD → ℕ) (Ks Kr : Dev nD × Fin 31 → ℕ) (c : Dev nD) : sProp 𝕄 :=
  iprop(records m ρ Kb Ks Kr ∗ linear c)

/-- What device `c`'s body starts from besides its buffers: the ghost state at some names, the credit its peers owe its
    barrier cell (thirty-one units) and each receive cell (a row's credit), and the level facts. -/
def start (c : Dev nD) : sProp 𝕄 :=
  iprop((∃ Kb Ks Kr, ghost m ρ Kb Ks Kr c) ∗ cred (tallyAt (barCell c) () 31)
    ∗ (bigSep Finset.univ fun k : Fin 31 => cred (tallyAt (recvCell c k) () N)) ∗ levAts L lv)

/-- Before the point: that, and the table at whatever contents. -/
def Φ₀ (c : Dev nD) : sProp 𝕄 := iprop(start m ρ c ∗ ∃ f, ((c : Thread nD τ).loc cc0_scratch0) ↦{fullShare} f)
/-- After it: the table holding every device's partial sums, and the device's own sixty-two cells closed at zero. -/
def Φ₁ (c : Dev nD) : sProp 𝕄 :=
  iprop((((c : Thread nD τ).loc cc0_scratch0) ↦{fullShare} stats m ρ)
    ∗ (bigSep Finset.univ fun k : Fin 31 => semVal (sendCell c k) 0) ∗ (bigSep Finset.univ fun k : Fin 31 => semVal (recvCell c k) 0))

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => tin m ρ c
    | ⟨2, _⟩ => wsin m ρ c
    | ⟨3, _⟩ => wbin m ρ c
    | ⟨4, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

end Cert.Kernel.Proto

end
-- ==== Proof.KTables.lean ====
/-
  The schedule read at each kind of cell: which duties, what amounts, what payloads, how many units a round expects.
-/
import proofs.«900770_g7700000000000771_dist_diff_adaln_cshard_i_b4_s512_c256_v7x_i32_bf16_1_alg».proof.Proof.KSched

noncomputable section

namespace Cert.Kernel.Proto

open Cert.Kernel Cert.Kernel.Gen Cert.Kernel.Vals

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance ringRd_payload_storable (g : GSem nD τ sig) (r : ℕ) (d : DD) :
    BI.Storable (upEmb : UEmb _ 𝕄) ((ringRd (F := F) m ρ).payload g r d) := by
  show BI.Storable upEmb (if g.2 = .reg barS then barPay g.1.1 d
    else if IsRecv g then recvPay m ρ g.1.1 (slotOf g.2)
    else if IsSend g then sendPay m ρ g.1.1 (slotOf g.2) else iprop(emp))
  unfold barPay recvPay sendPay rowPts
  (repeat' split) <;> infer_instance

section Tables
variable (c : Dev nD) (k : Fin 31)

theorem send_ne_bar : (SemLoc.dma (sendS k) : SemLoc sig) ≠ .reg barS := fun h => by cases h
theorem recv_ne_bar : (SemLoc.dma (recvS k) : SemLoc sig) ≠ .reg barS := fun h => by cases h
theorem send_ne_recv (k' : Fin 31) : (SemLoc.dma (sendS k) : SemLoc sig) ≠ .dma (recvS k') := fun h => by
  have h1 : (sendS k).val = (recvS k').val := congrArg Fin.val (SemLoc.dma.inj h)
  rw [sendS_val, recvS_val] at h1; have := k.isLt; omega
theorem sendS_inj {k k' : Fin 31} (h : sendS k = sendS k') : k = k' := by
  have h1 := congrArg Fin.val h; rw [sendS_val, sendS_val] at h1; exact Fin.ext (by omega)
theorem recvS_inj {k k' : Fin 31} (h : recvS k = recvS k') : k = k' := by
  have h1 := congrArg Fin.val h; rw [recvS_val, recvS_val] at h1; exact Fin.ext (by omega)

theorem isSend_send : IsSend (sendCell c k) := ⟨rfl, k, rfl⟩
theorem isRecv_recv : IsRecv (recvCell c k) := ⟨rfl, k, rfl⟩
theorem not_isRecv_send : ¬ IsRecv (sendCell c k) := fun ⟨_, k', h⟩ => send_ne_recv k k' h
theorem not_isBar_send : ¬ IsBar (sendCell c k) := fun h => send_ne_bar k h.2
theorem not_isBar_recv : ¬ IsBar (recvCell c k) := fun h => recv_ne_bar k h.2
theorem not_isRecv_bar : ¬ IsRecv (barCell c) := fun ⟨_, k', h⟩ => (recv_ne_bar k' h.symm)

theorem duties_bar : (ringRd (F := F) m ρ).duties (barCell c) 0 = Finset.univ := by dsimp only [ringRd]; exact if_pos ⟨rfl, rfl, rfl⟩
theorem duties_send : (ringRd (F := F) m ρ).duties (sendCell c k) 0 = {0} := by
  dsimp only [ringRd]; rw [if_neg (fun h => not_isBar_send c k h.2)]; exact if_pos ⟨rfl, .inl (isSend_send c k)⟩
theorem duties_recv : (ringRd (F := F) m ρ).duties (recvCell c k) 0 = {0} := by
  dsimp only [ringRd]; rw [if_neg (fun h => not_isBar_recv c k h.2)]; exact if_pos ⟨rfl, .inr (isRecv_recv c k)⟩
theorem duties_later (g : GSem nD τ sig) : ∀ r, 1 ≤ r → (ringRd (F := F) m ρ).duties g r = ∅ :=
  fun r hr => by dsimp only [ringRd]; rw [if_neg fun h => by omega, if_neg fun h => by omega]

theorem amount_bar (d : DD) : (ringRd (F := F) m ρ).amount (barCell c) 0 d = 1 := by dsimp only [ringRd]; exact if_pos rfl
theorem amount_send (d : DD) : (ringRd (F := F) m ρ).amount (sendCell c k) 0 d = N := by dsimp only [ringRd]; exact if_neg (send_ne_bar k)
theorem amount_recv (d : DD) : (ringRd (F := F) m ρ).amount (recvCell c k) 0 d = N := by dsimp only [ringRd]; exact if_neg (recv_ne_bar k)

theorem expect_bar : (ringRd (F := F) m ρ).expect (barCell c) 0 = 31 := by
  unfold Schedule.expect Schedule.amountOf
  rw [duties_bar, Finset.sum_congr rfl fun d _ => amount_bar m ρ c d, Finset.sum_const, Finset.card_univ, Fintype.card_fin, smul_eq_mul]
theorem expect_send : (ringRd (F := F) m ρ).expect (sendCell c k) 0 = N := by
  unfold Schedule.expect Schedule.amountOf; rw [duties_send, Finset.sum_singleton, amount_send]
theorem expect_recv : (ringRd (F := F) m ρ).expect (recvCell c k) 0 = N := by
  unfold Schedule.expect Schedule.amountOf; rw [duties_recv, Finset.sum_singleton, amount_recv]

theorem payload_bar (d : DD) : (ringRd (F := F) m ρ).payload (barCell c) 0 d = barPay c d := by dsimp only [ringRd]; rw [if_pos rfl]
theorem payload_send (d : DD) : (ringRd (F := F) m ρ).payload (sendCell c k) 0 d = sendPay m ρ c k := by
  dsimp only [ringRd]; rw [if_neg (send_ne_bar k), if_neg (not_isRecv_send c k), if_pos (isSend_send c k), slotOf_send]
theorem payload_recv (d : DD) : (ringRd (F := F) m ρ).payload (recvCell c k) 0 d = recvPay m ρ c k := by
  dsimp only [ringRd]; rw [if_neg (recv_ne_bar k), if_pos (isRecv_recv c k), slotOf_recv]

theorem rest_bar : bigSep ((ringRd (F := F) m ρ).duties (barCell c) 0 \ ∅) (fun d => (ringRd (F := F) m ρ).payload (barCell c) 0 d)
    = bigSep Finset.univ (fun d => (barPay c d : sProp 𝕄)) := by
  rw [Finset.sdiff_empty, duties_bar]; exact bigSep_congr fun d _ => payload_bar m ρ c d
theorem rest_send : bigSep ((ringRd (F := F) m ρ).duties (sendCell c k) 0 \ ∅) (fun d => (ringRd (F := F) m ρ).payload (sendCell c k) 0 d) = sendPay m ρ c k := by
  rw [Finset.sdiff_empty, duties_send, bigSep_singleton, payload_send]
theorem rest_recv : bigSep ((ringRd (F := F) m ρ).duties (recvCell c k) 0 \ ∅) (fun d => (ringRd (F := F) m ρ).payload (recvCell c k) 0 d) = recvPay m ρ c k := by
  rw [Finset.sdiff_empty, duties_recv, bigSep_singleton, payload_recv]

end Tables

end Cert.Kernel.Proto

end
-- ==== Proof.KLevels.lean ====
/-
  The levels of the exchange's cells and the credit the launch deals each device.

  A device owes each of its thirty-one peers one unit on the peer's barrier cell and a row's credit on one of the
  peer's receive cells. Barrier cells sit at level 1, receive cells at level 2, every other cell at level 0: a device
  waits on its barrier cell while it still owes receive credits only, and on its staging and send cells whatever it
  owes. Summed over the devices, what the peers owe a device is thirty-one units on its own barrier cell and a row's
  credit on each of its own receive cells: the ring of offsets is a bijection of the devices at each offset.
-/
import proofs.«900770_g7700000000000771_dist_diff_adaln_cshard_i_b4_s512_c256_v7x_i32_bf16_1_alg».proof.Proof.KData
import proofs.«900770_g7700000000000771_dist_diff_adaln_cshard_i_b4_s512_c256_v7x_i32_bf16_1_alg».proof.Proof.KTables

noncomputable section

namespace Cert.Kernel.Proto

open Cert.Kernel Cert.Kernel.Gen Cert.Kernel.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Where the level facts live -/

theorem L_of_ne (g : GSem nD τ sig) (h : g.1.2 ≠ .tc) : L g = ∅ := if_neg h
theorem L_tc (c : Dev nD) (sm : SemLoc sig) : L ((c : Thread nD τ), sm) = {()} := if_pos rfl

/-! ## What is still owed with `n` payments left: the offsets from `31 - n` on -/

/-- With `n + 1` payments left the offsets still to pay are the next one, `30 - n`, and those left after it. -/
theorem left_succ (n : ℕ) (h : n + 1 ≤ 31) :
    (Finset.univ.filter fun j : Fin 31 => 31 - (n + 1) ≤ j.val)
      = insert (⟨30 - n, by omega⟩ : Fin 31) (Finset.univ.filter fun j : Fin 31 => 31 - n ≤ j.val) := by
  ext j
  simp only [Finset.mem_insert, Finset.mem_filter, Finset.mem_univ, true_and, Fin.ext_iff, Fin.val_mk]
  have := j.isLt
  omega

theorem left_not_mem (n : ℕ) (h : n + 1 ≤ 31) :
    (⟨30 - n, by omega⟩ : Fin 31) ∉ Finset.univ.filter fun j : Fin 31 => 31 - n ≤ j.val := by
  simp only [Finset.mem_filter, Finset.mem_univ, true_and, Fin.val_mk]
  omega

theorem left_zero : (Finset.univ.filter fun j : Fin 31 => 31 - 0 ≤ j.val) = ∅ :=
  Finset.filter_false_of_mem fun j _ => by have := j.isLt; omega

theorem left_all : (Finset.univ.filter fun j : Fin 31 => 31 - 31 ≤ j.val) = Finset.univ :=
  Finset.filter_true_of_mem fun j _ => by omega

/-- The barrier units still owed with `n` signals left: one to each peer at an offset from `31 - n` on. -/
theorem sigOwed_eq_left (c : Dev nD) (n : ℕ) (h : n ≤ 31) :
    sigOwed c n h = ∑ j ∈ Finset.univ.filter (fun j : Fin 31 => 31 - n ≤ j.val), tallyAt (barCell (fwd c j)) () 1 := by
  induction n with
  | zero => rw [left_zero, Finset.sum_empty]; rfl
  | succ n ih =>
    rw [left_succ n h, Finset.sum_insert (left_not_mem n h), ← ih (Nat.le_of_succ_le h)]
    exact add_comm _ _

/-- The receive credits still owed with `n` transfers left: a row's to each peer at an offset from `31 - n` on. -/
theorem sendOwed_eq_left (c : Dev nD) (n : ℕ) (h : n ≤ 31) :
    sendOwed c n h = ∑ j ∈ Finset.univ.filter (fun j : Fin 31 => 31 - n ≤ j.val), tallyAt (recvCell (fwd c j) j) () N := by
  induction n with
  | zero => rw [left_zero, Finset.sum_empty]; rfl
  | succ n ih =>
    rw [left_succ n h, Finset.sum_insert (left_not_mem n h), ← ih (Nat.le_of_succ_le h)]
    exact add_comm _ _

theorem sigOwed_eq (c : Dev nD) : sigOwed c 31 le_rfl = ∑ j : Fin 31, tallyAt (barCell (fwd c j)) () 1 := by
  rw [sigOwed_eq_left, left_all]

theorem sendOwed_eq (c : Dev nD) : sendOwed c 31 le_rfl = ∑ j : Fin 31, tallyAt (recvCell (fwd c j) j) () N := by
  rw [sendOwed_eq_left, left_all]

/-- A receive credit is owed only to a peer's receive cell at the peer's offset. -/
theorem sendOwed_pos {c : Dev nD} {n : ℕ} {h : n ≤ 31} {g : GSem nD τ sig} {u : Unit} (hp : 0 < sendOwed c n h g u) :
    ∃ j : Fin 31, g = recvCell (fwd c j) j := by
  rw [sendOwed_eq_left] at hp
  obtain ⟨j, -, hj⟩ := Pipeline.sum_pos_exists hp
  exact ⟨j, (Pipeline.tallyAt_pos hj).1⟩

/-- A barrier unit is owed only to a peer's barrier cell. -/
theorem sigOwed_pos {c : Dev nD} {n : ℕ} {h : n ≤ 31} {g : GSem nD τ sig} {u : Unit} (hp : 0 < sigOwed c n h g u) :
    ∃ j : Fin 31, g = barCell (fwd c j) := by
  rw [sigOwed_eq_left] at hp
  obtain ⟨j, -, hj⟩ := Pipeline.sum_pos_exists hp
  exact ⟨j, (Pipeline.tallyAt_pos hj).1⟩

theorem O₀_pos {c : Dev nD} {g : GSem nD τ sig} {u : Unit} (hp : 0 < O₀ c g u) :
    (∃ j : Fin 31, g = recvCell (fwd c j) j) ∨ ∃ j : Fin 31, g = barCell (fwd c j) := by
  unfold O₀ at hp
  rcases Pipeline.add_pos_cases hp with h | h
  · exact Or.inl (sendOwed_pos h)
  · exact Or.inr (sigOwed_pos h)

/-! ## The waits -/

theorem lv_bar (c : Dev nD) (u : Unit) : lv (barCell c) u = 1 := by dsimp only [lv]; rw [if_pos rfl]
theorem lv_recv (c : Dev nD) (k : Fin 31) (u : Unit) : lv (recvCell c k) u = 2 := by
  dsimp only [lv]; rw [if_neg (recv_ne_bar k), if_pos (isRecv_recv c k)]

/-- At its barrier wait a device owes receive credits only: receive cells, above its barrier cell. -/
theorem mayWait_bar (c : Dev nD) (n : ℕ) (h : n ≤ 31) :
    (levAts L lv : sProp 𝕄) ⊢ MayWait (c : Thread nD τ) (.reg barS) () (sendOwed c n h + sigOwed c 0 (Nat.zero_le _)) :=
  Pipeline.mayWait_of_levAts (by rw [L_tc]; exact Finset.mem_singleton_self _) fun g u hg => by
    rcases Pipeline.add_pos_cases hg with hg | hg
    · obtain ⟨j, rfl⟩ := sendOwed_pos hg
      refine ⟨by rw [L_tc]; exact Finset.mem_singleton_self _, ?_⟩
      rw [show lv ((c : Thread nD τ), SemLoc.reg barS) () = 1 from lv_bar c (), lv_recv]
      exact Nat.one_lt_two
    · exact absurd hg (Nat.lt_irrefl 0)

/-- On a cell that is no receive cell and no barrier cell — a staging or a send cell — a device may wait whatever it
    still owes: all of it is owed to barrier and receive cells, above level 0. -/
theorem mayWait_stage (c : Dev nD) (q : DmaSem sig) (hq : ¬ IsRecv (((c : Thread nD τ), SemLoc.dma q) : GSem nD τ sig))
    (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have h0 : lv ((c : Thread nD τ), SemLoc.dma q) () = 0 := by
      dsimp only [lv]; rw [if_neg (fun h => by cases h), if_neg hq]
    rw [h0]
    rcases O₀_pos hg with ⟨j, rfl⟩ | ⟨j, rfl⟩
    · refine ⟨by rw [L_tc]; exact Finset.mem_singleton_self _, ?_⟩
      rw [lv_recv]; exact Nat.zero_lt_two
    · refine ⟨by rw [L_tc]; exact Finset.mem_singleton_self _, ?_⟩
      rw [lv_bar]; exact Nat.zero_lt_one
  · rw [MayWait_zero]; iintro -; iempintro

/-- The pipeline's own staging semaphores are numbered below the receive semaphores. -/
theorem stage_not_recv (c : Dev nD) (w : Fin (cfgs 0).W) (s : Fin ((cfgs 0).win w).nbuf) :
    ¬ IsRecv (((c : Thread nD τ), SemLoc.dma (((cfgs 0).win w).sem s)) : GSem nD τ sig) := by
  rintro ⟨-, k, hk⟩
  have h1 : (((cfgs 0).win w).sem s).val = (recvS k).val := congrArg Fin.val (SemLoc.dma.inj hk)
  rw [recvS_val] at h1
  have hv : (((cfgs 0).win w).sem s).val < 36 := by fin_cases w <;> fin_cases s <;> decide
  omega

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_not_recv c w s) _ (by
      rcases t with ⟨_ | _, ht⟩
      · exact Or.inl rfl
      · exact Or.inr rfl)

/-! ## The credit the launch deals -/

theorem nsmul_tallyAt_one (g : GSem nD τ sig) (n : ℕ) :
    n • (tallyAt g () 1 : CellTallies nD τ sig Unit) = tallyAt g () n := by
  induction n with
  | zero => rw [zero_smul, tallyAt_zero]
  | succ n ih => rw [succ_nsmul, ih, tallyAt_add]

/-- What every device owes at launch, as two sums over the offsets. -/
theorem O₀_eq : (O₀ : Dev nD → CellTallies nD τ sig Unit)
    = fun d => (∑ j : Fin 31, tallyAt (recvCell (fwd d j) j) () N) + ∑ j : Fin 31, tallyAt (barCell (fwd d j)) () 1 :=
  funext fun d => by unfold O₀; rw [sendOwed_eq, sigOwed_eq]

/-- What the launch deals device `c`: at each offset `j` the device `bwd c j` owes `c` a unit on its barrier cell and a
    row's credit on its receive cell `j`, and `d ↦ fwd d j` is a bijection of the devices; the thirty-one units on the
    barrier cell add up. -/
theorem creds (c : Dev nD) :
    (Pipeline.launchCred O₀ c : sProp 𝕄)
      ⊢ iprop(cred (tallyAt (barCell c) () 31) ∗ bigSep Finset.univ fun k : Fin 31 => cred (tallyAt (recvCell c k) () N)) := by
  rw [O₀_eq, Pipeline.launchCred_add (fun d => ∑ j : Fin 31, tallyAt (recvCell (fwd d j) j) () N) (fun d => ∑ j : Fin 31, tallyAt (barCell (fwd d j)) () 1),
    Pipeline.launchCred_sum Finset.univ (fun (j : Fin 31) d => tallyAt (recvCell (fwd d j) j) () N),
    Pipeline.launchCred_sum Finset.univ (fun (j : Fin 31) d => tallyAt (barCell (fwd d j)) () 1)]
  refine sep_symm.trans (BI.sep_mono ?_ ?_)
  · refine (bigSep_mono fun j _ => Pipeline.launchCred_tallyAt (.reg barS) (fun d => fwd d j) (fun c => bwd c j)
      (fun c => fwd_bwd c j) (fun d => bwd_fwd d j) () 1 c).trans ?_
    rw [← Pipeline.cred_finsetSum Finset.univ (fun _ : Fin 31 => (tallyAt (barCell c) () 1 : CellTallies nD τ sig Unit)),
      Finset.sum_const, Finset.card_univ, Fintype.card_fin, nsmul_tallyAt_one]
    exact BI.Entails.refl _
  · exact bigSep_mono fun j _ => Pipeline.launchCred_tallyAt (.dma (recvS j)) (fun d => fwd d j) (fun c => bwd c j)
      (fun c => fwd_bwd c j) (fun d => bwd_fwd d j) () N c

/-- info: 'Cert.Kernel.Proto.creds' depends on axioms: [propext, Classical.choice, Quot.sound] -/
#guard_msgs in #print axioms creds

/-- info: 'Cert.Kernel.Proto.waits' depends on axioms: [propext, Classical.choice, Quot.sound] -/
#guard_msgs in #print axioms waits

end Cert.Kernel.Proto

end
-- ==== Proof.KLaunch.lean ====
/-
  The launch: from "every device's body is proved" to the run of the whole program on the mesh, with every array's
  final contents named.

  Each device has sixty-three cells in the exchange: its barrier cell, thirty-one send cells and thirty-one receive
  cells. The launch element of the exchange's copy of the algebra is dealt cell by cell and token by token; every cell's
  invariant is allocated from its counter at zero; the duty tokens minted on a cell are dealt to the devices that pay
  them (duty `j` of the barrier cell of `d`, and the duty of receive cell `j` of `d`, go to `bwd d j`); and what each
  device then holds is what its body starts from.
-/
import proofs.«900770_g7700000000000771_dist_diff_adaln_cshard_i_b4_s512_c256_v7x_i32_bf16_1_alg».proof.Proof.KData
import proofs.«900770_g7700000000000771_dist_diff_adaln_cshard_i_b4_s512_c256_v7x_i32_bf16_1_alg».proof.Proof.KTables
import proofs.«900770_g7700000000000771_dist_diff_adaln_cshard_i_b4_s512_c256_v7x_i32_bf16_1_alg».proof.Proof.KLevels
import proofs.«900770_g7700000000000771_dist_diff_adaln_cshard_i_b4_s512_c256_v7x_i32_bf16_1_alg».proof.Proof.LibDeal

noncomputable section

namespace Cert.Kernel.Proto

open Cert.Kernel Cert.Kernel.Gen Cert.Kernel.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The kernel's own semaphores, and a device's cells -/

/-- The kernel's own semaphores: the thirty-one send semaphores, then the thirty-one receive semaphores. -/
abbrev OwnK : Type := Fin 31 ⊕ Fin 31
abbrev osem : OwnK → SemLoc sig := fun
  | .inl k => .dma (sendS k)
  | .inr k => .dma (recvS k)

/-- A device's cells in the exchange: the barrier cell, then its own semaphores' cells. -/
abbrev CK : Type := Unit ⊕ OwnK
abbrev csem : CK → SemLoc sig := fun
  | .inl _ => .reg barS
  | .inr x => osem x
abbrev kcell (ck : Dev nD × CK) : GSem nD τ sig := ((ck.1 : Thread nD τ), csem ck.2)

theorem osem_injective : Function.Injective osem := by
  rintro (k | k) (k' | k') h
  · exact congrArg Sum.inl (sendS_inj (SemLoc.dma.inj h))
  · exact absurd h (send_ne_recv k k')
  · exact absurd h.symm (send_ne_recv k' k)
  · exact congrArg Sum.inr (recvS_inj (SemLoc.dma.inj h))

theorem osem_ne_bar (x : OwnK) : osem x ≠ .reg barS := by
  rcases x with k | k
  · exact send_ne_bar k
  · exact recv_ne_bar k

theorem csem_injective : Function.Injective csem := by
  rintro (u | x) (u' | x') h
  · rfl
  · exact absurd h.symm (osem_ne_bar x')
  · exact absurd h (osem_ne_bar x)
  · exact congrArg Sum.inr (osem_injective h)

theorem ownSemFacts : Pipeline.OwnSemFacts cfg0.spec osem where
  isScoped := by
    rintro (k | k)
    · revert k; decide
    · revert k; decide
  inj := osem_injective
  disj := by
    rintro (k | k)
    · revert k; decide
    · revert k; decide

theorem share_eq (c : Dev nD) (w : Fin cfg0.W) : (dats m ρ 0 c).share w = fullShare := by unfold Dat.share; split <;> rfl

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def ringCells : Finset (GSem nD τ sig) := Finset.univ.map ⟨kcell, kcell_injective⟩

/-- A device's own cells' duty tokens as minted: (device, which duty) — the thirty-one duties of its barrier cell, the
    one duty of each send cell and of each receive cell. -/
abbrev TK : Type := Fin 31 ⊕ OwnK
abbrev tokOf (ct : Dev nD × TK) : GSem nD τ sig × ℕ × DD := match ct.2 with
  | .inl j => (barCell ct.1, 0, j)
  | .inr x => (((ct.1 : Thread nD τ), osem x), 0, 0)
theorem tokOf_injective : Function.Injective (tokOf : Dev nD × TK → GSem nD τ sig × ℕ × DD) := by
  rintro ⟨c, t⟩ ⟨c', t'⟩ h
  have h1 : c = c' := by
    have := congrArg (fun x : GSem nD τ sig × ℕ × DD => x.1.1.1) h
    rcases t with j | x <;> rcases t' with j' | x' <;> exact this
  subst h1
  have : t = t' := by
    rcases t with j | x <;> rcases t' with j' | x'
    · exact congrArg Sum.inl (congrArg (fun x : GSem nD τ sig × ℕ × DD => x.2.2) h)
    · exact absurd (congrArg (fun x : GSem nD τ sig × ℕ × DD => x.1.2) h).symm (osem_ne_bar x')
    · exact absurd (congrArg (fun x : GSem nD τ sig × ℕ × DD => x.1.2) h) (osem_ne_bar x)
    · exact congrArg Sum.inr (osem_injective (congrArg (fun x : GSem nD τ sig × ℕ × DD => x.1.2) h))
  subst this; rfl
def ringToks : Finset (GSem nD τ sig × ℕ × DD) := Finset.univ.map ⟨tokOf, tokOf_injective⟩

def u₀ : UU :=
  (initOf (Pipeline.cells cfgs cellOf_inj) (Pipeline.launchToks cfgs cellOf_inj), initOf ringCells ringToks)

/-! ## Conjunctions over a device's cells and tokens, family by family -/

omit [FloatOps F] in
theorem bigSep_CK (Φ : CK → sProp 𝕄) :
    bigSep Finset.univ Φ = iprop(Φ (.inl ()) ∗ (bigSep Finset.univ fun k : Fin 31 => Φ (.inr (.inl k)))
      ∗ (bigSep Finset.univ fun k : Fin 31 => Φ (.inr (.inr k)))) := by
  rw [bigSep_univ_sum, bigSep_univ_sum, bigSep_univ_of_subsingleton ()]
  rfl

omit [FloatOps F] in
theorem bigSep_TK (Φ : TK → sProp 𝕄) :
    bigSep Finset.univ Φ = iprop((bigSep Finset.univ fun j : Fin 31 => Φ (.inl j)) ∗ (bigSep Finset.univ fun k : Fin 31 => Φ (.inr (.inl k)))
      ∗ (bigSep Finset.univ fun k : Fin 31 => Φ (.inr (.inr k)))) := by
  rw [bigSep_univ_sum, bigSep_univ_sum]
  rfl

omit [FloatOps F] in
/-- Over every device's cells: the barrier cells, the send cells, the receive cells. -/
theorem bigSep_DevCK (Φ : Dev nD × CK → sProp 𝕄) :
    bigSep Finset.univ Φ = iprop((bigSep Finset.univ fun d : Dev nD => Φ (d, .inl ()))
      ∗ (bigSep Finset.univ fun dk : Dev nD × Fin 31 => Φ (dk.1, .inr (.inl dk.2)))
      ∗ (bigSep Finset.univ fun dk : Dev nD × Fin 31 => Φ (dk.1, .inr (.inr dk.2)))) := by
  rw [bigSep_univ_prod, bigSep_congr (fun d _ => bigSep_CK (fun k => Φ (d, k))), bigSep_sep', bigSep_sep',
    bigSep_univ_prod (fun dk : Dev nD × Fin 31 => Φ (dk.1, .inr (.inl dk.2))),
    bigSep_univ_prod (fun dk : Dev nD × Fin 31 => Φ (dk.1, .inr (.inr dk.2)))]

/-! ## What the launch element deals -/

/-- The duty tokens of device `c`'s own cells. -/
def toks (c : Dev nD) : sProp 𝕄 :=
  iprop((bigSep Finset.univ fun j : Fin 31 => dutyTok ER (barCell c) 0 j)
    ∗ (bigSep Finset.univ fun k : Fin 31 => dutyTok ER (sendCell c k) 0 (0 : Fin 31))
    ∗ (bigSep Finset.univ fun k : Fin 31 => dutyTok ER (recvCell c k) 0 (0 : Fin 31)))

/-- What the launch element deals device `c` (the theorem's `G`). -/
def G (c : Dev nD) : sProp 𝕄 :=
  iprop((bigSep Finset.univ fun k : CK => roundState ER (ringRd m ρ) (kcell (c, k)) 0)
    ∗ (bigSep Finset.univ fun k : CK => iprop(atPos ER (kcell (c, k)) 0 ∅ 0 ∗ reached ER (kcell (c, k)) 0)) ∗ toks c)

/-- What the global step makes of it (`G'`). -/
def G' (c : Dev nD) : sProp 𝕄 := iprop(∃ Kb Ks Kr, ghost m ρ Kb Ks Kr c)

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_TK]; rfl
  iintro HX
  imod (Rounds.fund ER (ringRd m ρ) ringCells ringToks) $$ HX with ⟨Hst, Hr, Hat, Htok⟩
  imodintro
  ihave Hst' := (Entails.of_eq (hX fun g => roundState ER (ringRd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores at zero, and the cells' invariants -/

omit [FloatOps F] in
/-- The send and receive semaphores are the kernel's own sixty-two; -/
theorem ownSems0_eq (c : Dev nD) : (Pipeline.ownSems0 (Ix := Unit) (Name := ℕ) (U := UU) (Lvl := ℕ) (Val := Elt F) (τ := τ) osem c : sProp 𝕄)
    = iprop((bigSep Finset.univ fun k : Fin 31 => semVal (sendCell c k) 0) ∗ (bigSep Finset.univ fun k : Fin 31 => semVal (recvCell c k) 0)) := by
  unfold Pipeline.ownSems0; rw [bigSep_univ_sum]; rfl
omit [FloatOps F] in
/-- the barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : CK => iprop(∃ κ : ℕ, cellInv ER (ringRd m ρ) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (ringRd m ρ) (kcell (c, k)) 0)
      ⊢ (|={Set.univ}=> bigSep Finset.univ fun k : CK => iprop(∃ κ : ℕ, cellInv ER (ringRd m ρ) κ (kcell (c, k))) : sProp 𝕄) from by
        rw [← bigSep_sep']
        exact (bigSep_mono fun k _ => (Rounds.body_intro ER (ringRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## From the allocated invariants to what each device starts from -/

/-- The names of the three families of cells, read off one naming of all cells. -/
def KbOf (K : Dev nD × CK → ℕ) : Dev nD → ℕ := fun d => K (d, .inl ())
def KsOf (K : Dev nD × CK → ℕ) : Dev nD × Fin 31 → ℕ := fun dk => K (dk.1, .inr (.inl dk.2))
def KrOf (K : Dev nD × CK → ℕ) : Dev nD × Fin 31 → ℕ := fun dk => K (dk.1, .inr (.inr dk.2))

theorem records_of (K : Dev nD × CK → ℕ) :
    iprop((bigSep Finset.univ fun ck : Dev nD × CK => (cellInv ER (ringRd m ρ) (K ck) (kcell ck) : sProp 𝕄))
        ∗ bigSep Finset.univ fun ck : Dev nD × CK => (reached ER (kcell ck) 0 : sProp 𝕄))
      ⊢ records m ρ (KbOf K) (KsOf K) (KrOf K) := by
  rw [← bigSep_sep', bigSep_DevCK]
  exact Entails.of_eq rfl

/-- The tokens of the duties device `c` pays. -/
def payToks (c : Dev nD) : sProp 𝕄 :=
  iprop((bigSep Finset.univ fun j : Fin 31 => dutyTok ER (barCell (fwd c j)) 0 j)
    ∗ (bigSep Finset.univ fun j : Fin 31 => dutyTok ER (recvCell (fwd c j) j) 0 (0 : Fin 31))
    ∗ (bigSep Finset.univ fun j : Fin 31 => dutyTok ER (sendCell c j) 0 (0 : Fin 31)))

omit [FloatOps F] in
theorem linear_intro (c : Dev nD) :
    iprop((bigSep Finset.univ fun k : CK => (atPos ER (kcell (c, k)) 0 ∅ 0 : sProp 𝕄)) ∗ payToks c) ⊢ linear c := by
  rw [bigSep_CK]
  unfold linear payToks
  iintro ⟨⟨HaB, HaS, HaV⟩, HtB, HtV, HtS⟩
  isplitl [HaB]; · iexact HaB
  isplitl [HaS]; · iexact HaS
  isplitl [HaV]; · iexact HaV
  isplitl [HtB]; · iexact HtB
  isplitl [HtV]; · iexact HtV
  iexact HtS

theorem ghost_intro (Kb : Dev nD → ℕ) (Ks Kr : Dev nD × Fin 31 → ℕ) (c : Dev nD) :
    iprop(records m ρ Kb Ks Kr ∗ linear c) ⊢ G' m ρ c := by
  unfold G' ghost
  iintro H
  iexists Kb; iexists Ks; iexists Kr
  iexact H

omit [FloatOps F] in
/-- The tokens dealt to their payers: duty `j` of a barrier cell, and the duty of receive cell `j`, `j + 1` places
    back around the ring; a send cell's duty stays. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    Cert.LibDeal.bigSep_deal_fn (fun j c => fwd c j) (fun j c => bwd c j) (fun j c => fwd_bwd c j) (fun j c => bwd_fwd c j)
      (fun (c : Dev nD) (j : Fin 31) => (dutyTok ER (barCell c) 0 j : sProp 𝕄)),
    Cert.LibDeal.bigSep_deal_fn (fun j c => fwd c j) (fun j c => bwd c j) (fun j c => fwd_bwd c j) (fun j c => bwd_fwd c j)
      (fun (c : Dev nD) (j : Fin 31) => (dutyTok ER (recvCell c j) 0 (0 : Fin 31) : sProp 𝕄))]
  iintro ⟨H1, H2, H3⟩
  isplitl [H1]; · iexact H1
  isplitl [H3]; · iexact H3
  iexact H2

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k : CK => iprop(∃ κ : ℕ, cellInv ER (ringRd m ρ) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × CK => iprop(∃ κ : ℕ, cellInv ER (ringRd m ρ) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (ringRd m ρ) κ (kcell ck) : sProp 𝕄))) $$ HI
  icases HK with ⟨%K, #HI⟩
  ihave Htk := (toks_around (F := F)) $$ Htok
  iapply (bigSep_with_persistent (R := records m ρ (KbOf K) (KsOf K) (KrOf K)) fun c _ => ghost_intro m ρ (KbOf K) (KsOf K) (KrOf K) c)
  isplitr
  · iapply (records_of m ρ K)
    isplitl; · iexact HI
    iexact HR
  · iapply ((Entails.of_eq (bigSep_sep' Finset.univ (fun c : Dev nD => bigSep Finset.univ fun k : CK => (atPos ER (kcell (c, k)) 0 ∅ 0 : sProp 𝕄)) payToks).symm).trans
      (bigSep_mono fun c _ => linear_intro c))
    isplitl [Hat]; · iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq, ownSems0_eq]
  unfold Φ₁
  iintro ⟨Hr, HzS, HzV⟩
  isplitr; · iempintro
  isplitl [HzS HzV]
  · isplitl [HzS] <;> iassumption
  iexists (stats m ρ); iexact Hr

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of thirty-two devices, for any float values, from any memory with zero counters: given every
    device's body, every weakly fair execution of the program — the devices handshaking on the barrier semaphore, then
    each sending its partial sums to every other — terminates, and every final state has each device's arrays at the
    named contents. -/
theorem run_main (hbody : ∀ c : Dev nD, BodyObligation (dats (F := F) m ρ 0 c) (defs₀ (F := F)) 𝒱₀ () Set.univ) :
    θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- info: 'Cert.Kernel.Proto.run_main' depends on axioms: [propext, Classical.choice, Quot.sound] -/
#guard_msgs in #print axioms run_main

end Cert.Kernel.Proto

end
-- ==== Proof.KFinal.lean ====
/-
  The run's final arrays, read: from the launch's post (every window's array at what the pipeline's write-backs leave)
  to the values.

  The kernel has no grid: one point, and every window's one block is its whole array read at the origin. So each
  input's block is the launch memory's array, an input array ends as it began, and the output array ends as what the
  body left in the output's staging buffer at the one point, which the one write-back copies over the whole array.
-/
import proofs.«900770_g7700000000000771_dist_diff_adaln_cshard_i_b4_s512_c256_v7x_i32_bf16_1_alg».proof.Proof.KLaunch
import Idealize.ShloMosaic.Lib.Pipeline.Value

noncomputable section

namespace Cert.Kernel.Proto

open Cert.Kernel Cert.Kernel.Gen Cert.Kernel.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Each window's one block is its whole array -/

/-- Device `c`'s block of `x` is its argument array at launch. -/
theorem xin_eq (c : Dev nD) : xin m ρ c = m ((c : Thread nD τ).loc main_arg0) := by
  have hz : (fun a => win0_0.index t0_0 a * main_arg0.ty.shape.size a) = fun _ => 0 := funext fun a => Nat.zero_mul _
  exact Memref.read_access_unit_zero (Elt F) main_arg0 hz (fun a => by rw [congrFun hz a]; simp) (m ((c : Thread nD τ).loc main_arg0))

/-- Device `c`'s copy of the conditioning vector is its argument array at launch. -/
theorem tin_eq (c : Dev nD) : tin m ρ c = m ((c : Thread nD τ).loc main_arg1) := by
  have hz : (fun a => win0_1.index t0_0 a * main_arg1.ty.shape.size a) = fun _ => 0 := funext fun a => Nat.zero_mul _
  exact Memref.read_access_unit_zero (Elt F) main_arg1 hz (fun a => by rw [congrFun hz a]; simp) (m ((c : Thread nD τ).loc main_arg1))

/-- Device `c`'s block of the scale weights is its argument array at launch. -/
theorem wsin_eq (c : Dev nD) : wsin m ρ c = m ((c : Thread nD τ).loc main_arg2) := by
  have hz : (fun a => win0_2.index t0_0 a * main_arg2.ty.shape.size a) = fun _ => 0 := funext fun a => Nat.zero_mul _
  exact Memref.read_access_unit_zero (Elt F) main_arg2 hz (fun a => by rw [congrFun hz a]; simp) (m ((c : Thread nD τ).loc main_arg2))

/-- Device `c`'s block of the shift weights is its argument array at launch. -/
theorem wbin_eq (c : Dev nD) : wbin m ρ c = m ((c : Thread nD τ).loc main_arg3) := by
  have hz : (fun a => win0_3.index t0_0 a * main_arg3.ty.shape.size a) = fun _ => 0 := funext fun a => Nat.zero_mul _
  exact Memref.read_access_unit_zero (Elt F) main_arg3 hz (fun a => by rw [congrFun hz a]; simp) (m ((c : Thread nD τ).loc main_arg3))

/-- Device `c`'s result block over the launch memory's arrays. -/
theorem outAt_eq (c : Dev nD) :
    outAt m ρ c = outOf (m ((c : Thread nD τ).loc main_arg0)) (m ((c : Thread nD τ).loc main_arg1))
      (m ((c : Thread nD τ).loc main_arg2)) (m ((c : Thread nD τ).loc main_arg3))
      (statsOf fun d : Dev nD => m ((d : Thread nD τ).loc main_arg0)) := by
  unfold outAt stats
  rw [xin_eq, tin_eq, wsin_eq, wbin_eq, show (fun d => xin m ρ d) = fun d : Dev nD => m ((d : Thread nD τ).loc main_arg0) from
    funext (xin_eq m ρ)]

/-! ## The arrays after the run -/

/-- An input array is never written back: it ends as launched. -/
theorem finalA_in0 (c : Dev nD) : finalA m ρ c (0 : Fin 5) = m ((c : Thread nD τ).loc main_arg0) :=
  (dats (F := F) m ρ 0 c).arrAt_in (0 : Fin 5) rfl _
theorem finalA_in1 (c : Dev nD) : finalA m ρ c (1 : Fin 5) = m ((c : Thread nD τ).loc main_arg1) :=
  (dats (F := F) m ρ 0 c).arrAt_in (1 : Fin 5) rfl _
theorem finalA_in2 (c : Dev nD) : finalA m ρ c (2 : Fin 5) = m ((c : Thread nD τ).loc main_arg2) :=
  (dats (F := F) m ρ 0 c).arrAt_in (2 : Fin 5) rfl _
theorem finalA_in3 (c : Dev nD) : finalA m ρ c (3 : Fin 5) = m ((c : Thread nD τ).loc main_arg3) :=
  (dats (F := F) m ρ 0 c).arrAt_in (3 : Fin 5) rfl _

/-- The one point writes the output's whole block back: the result array ends as what the body left. -/
theorem finalA_out (c : Dev nD) : finalA m ρ c (4 : Fin 5) = outAt m ρ c := by
  have hz : (fun a => win0_4.index t0_0 a * main_v1.ty.shape.size a) = fun _ => 0 := funext fun a => Nat.zero_mul _
  refine (congrArg ((dats (F := F) m ρ 0 c).arrAt (4 : Fin 5)) N_0).trans ?_
  refine ((dats (F := F) m ρ 0 c).arrAt_succ (4 : Fin 5) t0_0).trans ?_
  rw [flush0_4 t0_0, if_pos rfl]
  exact Memref.write_access_unit_zero_univ (Elt F) main_v1 hz (fun a => by rw [congrFun hz a]; simp) _ (outAt m ρ c)

/-! ## The run, read -/

/-- Every fair run of the kernel's program ends with each device's result array at its result block over the launch
    memory's arrays, and its argument arrays unchanged. -/
theorem run_val (hbody : ∀ c : Dev nD, BodyObligation (dats (F := F) m ρ 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = outOf (m ((c.tc : Thread nD τ).loc main_arg0)) (m ((c.tc : Thread nD τ).loc main_arg1)) (m ((c.tc : Thread nD τ).loc main_arg2)) (m ((c.tc : Thread nD τ).loc main_arg3)) (statsOf fun d : Dev nD => m ((d.tc : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c 4).trans ((finalA_out m ρ c).trans (outAt_eq m ρ c)),
      (h c 0).trans (finalA_in0 m ρ c), (h c 1).trans (finalA_in1 m ρ c), (h c 2).trans (finalA_in2 m ρ c),
      (h c 3).trans (finalA_in3 m ρ c)⟩) (run_main m ρ hbody)

/-- info: 'Cert.Kernel.Proto.finalA_out' depends on axioms: [propext, Classical.choice, Quot.sound] -/
#guard_msgs in #print axioms finalA_out

end Cert.Kernel.Proto

end
-- ==== Proof.KSteps.lean ====
/-
  One rule per kind of step of a device's body, stated at a symbolic device and offset: the signal to a peer's barrier,
  the wait on the device's own barrier, the transfer of its row to a peer, the wait for a peer's row to land, the wait
  for one of its own transfers to have read its row.
-/
import proofs.«900770_g7700000000000771_dist_diff_adaln_cshard_i_b4_s512_c256_v7x_i32_bf16_1_alg».proof.Proof.KData
import proofs.«900770_g7700000000000771_dist_diff_adaln_cshard_i_b4_s512_c256_v7x_i32_bf16_1_alg».proof.Proof.KTables
import Idealize.ShloMosaic.Lib.Pipeline.Value

noncomputable section

namespace Cert.Kernel.Proto

open Cert.Kernel Cert.Kernel.Gen Cert.Kernel.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

/-! ## A row through the transfers' view of it -/

theorem rowM_set (i : Dev nD) : (rowM i).view.set = rowSet i := by
  unfold rowSet
  exact (View.set_reshape _ _).trans (View.set_slice_whole cc0_scratch0 _)

/-- Writing what the view reads of `f` leaves `f` on the view's elements. -/
theorem row_write_read (i : Dev nD) (fd f : (rowM i).view.ty.Contents (Elt F)) :
    ∀ x ∈ (rowM i).view.set, (rowM i).view.write (Elt F) fd ((rowM i).view.read (Elt F) f) Finset.univ x = f x := by
  intro x hx
  obtain ⟨y, rfl⟩ := View.exists_emb_of_mem_set _ hx
  rw [View.write_emb_of_mem _ _ (Finset.mem_univ y), View.read_apply, cast_cast, cast_eq]

/-! ## The signal to the barrier of the peer at offset `j` -/

theorem sig_step (Kb : Dev nD → ℕ) (c : Dev nD) (j : Fin 31) (O : CellTallies nD τ sig Unit) (W : Waits sig Unit)
    {α : Type} {Q : α → sProp 𝕄} {k : PUnit → Prog (TpuEff nD τ sig (Elt F) Λ₀ .tc) α} :
    iprop(cellInv ER (ringRd m ρ) (Kb (fwd c j)) (barCell (fwd c j)) ∗ reached ER (barCell (fwd c j)) 0
        ∗ owes (c : Thread nD τ) (O + tallyAt (barCell (fwd c j)) () 1) W
        ∗ dutyTok ER (barCell (fwd c j)) 0 j
        ∗ (∃ f, rowPts c (fwd c j) fullShare f))
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((fwd c j : Dev nD) : Thread nD τ) barS (1#32 : BitVec 32).toNat) k) Q) := by
  iintro ⟨#HI, #Hr, HO, Ht, Hrow⟩
  iapply (Rounds.wp_signal 𝒱₀ ER (ringRd m ρ) (c : Thread nD τ) none (dst := (fwd c j : Thread nD τ)) (κ := Kb (fwd c j))
      (d := j) (by rw [duties_bar]; exact Finset.mem_univ _) ((amount_bar m ρ (fwd c j) j).trans (by decide)) () O rfl)
  isplitr; · iexact HI
  isplitl [HO]; · iexact HO
  isplitl [Ht]; · iexact Ht
  isplitl [Hrow]
  · rw [payload_bar]; unfold barPay; rw [bwd_fwd]; iexact Hrow
  · iexact Hr

/-! ## The wait on the device's own barrier: every peer's row `c` comes with it -/

theorem bar_wait (Kb : Dev nD → ℕ) (c : Dev nD) (O : CellTallies nD τ sig Unit) (W : Waits sig Unit)
    (hO : (levAts L lv : sProp 𝕄) ⊢ MayWait (c : Thread nD τ) (.reg barS) () O)
    {α : Type} {Q : α → sProp 𝕄} {k : PUnit → Prog (TpuEff nD τ sig (Elt F) Λ₀ .tc) α} :
    iprop(cellInv ER (ringRd m ρ) (Kb c) (barCell c) ∗ cred (tallyAt (barCell c) () 31) ∗ owes (c : Thread nD τ) O W
        ∗ levAts L lv ∗ atPos ER (barCell c) 0 ∅ 0)
      ⊢ iprop(((owes (c : Thread nD τ) O (insert (SemLoc.reg barS, ()) W) ∗ atPos ER (barCell c) (0 + 1) ∅ 0
              ∗ bigSep Finset.univ (fun d => (barPay c d : sProp 𝕄)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.semWait barS (31#32 : BitVec 32).toNat) k) Q) := by
  iintro ⟨#HI, Hc, HO, #Hlev, Hat⟩ Hk
  iapply (Rounds.wp_wait_rest_token 𝒱₀ ER (ringRd m ρ) (c : Thread nD τ) none (κ := Kb c)
      (wpE_semWait_eq 𝒱₀ (c : Thread nD τ) none Set.univ) (Set.mem_univ _) () (O := O) (W := W) (R := 0) (m := 0) (T := ∅)
      (by rw [expect_bar]; decide)) $$ [Hc HO Hat]
  · isplitr; · iexact HI
    isplitl [Hc]; · iexact Hc
    isplitl [HO]; · iexact HO
    isplitr; · iapply hO; iexact Hlev
    iexact Hat
  iintro ⟨HO, Hat, -, Hpay⟩
  iapply Hk
  isplitl [HO]; · iexact HO
  isplitl [Hat]; · iexact Hat
  iapply (Entails.of_eq (rest_bar m ρ c)); iexact Hpay

/-! ## The transfer of the device's row to the peer at offset `j` -/

theorem send_step (Ks Kr : Dev nD × Fin 31 → ℕ) (c n : Dev nD) (j : Fin 31) (hn : n = fwd c j)
    {hsc : (rowM c : Memref sig (Dev.tc n : Thread nD τ).2.kind .vmem S8x512 .bf16).view.ref.isScScratch = false}
    {hsrc : (rowM c : Memref sig .tc .vmem S8x512 .bf16).view.WordExact} {hdst : (rowM c : Memref sig .tc .vmem S8x512 .bf16).view.WordExact}
    {hsem : DmaTarget.Typed .vmem (.dma (recvS j)) (.remote (Dev.tc n : Thread nD τ) (rowM c : Memref sig .tc .vmem S8x512 .bf16) (.dma (sendS j)) hsc)}
    {α : Type} {Q : α → sProp 𝕄} {k : PUnit → Prog (TpuEff nD τ sig (Elt F) Λ₀ .tc) α}
    (fd : Buf (Elt F) (((fwd c j : Dev nD) : Thread nD τ).loc cc0_scratch0)) (O : CellTallies nD τ sig Unit) (W : Waits sig Unit) :
    iprop(cellInv ER (ringRd m ρ) (Ks (c, j)) (sendCell c j) ∗ cellInv ER (ringRd m ρ) (Kr (fwd c j, j)) (recvCell (fwd c j) j)
        ∗ rowPts c c (sendSh j.val) (stats m ρ) ∗ rowPts (fwd c j) c fullShare fd
        ∗ owes (c : Thread nD τ) (O + tallyAt (recvCell (fwd c j) j) () N) W
        ∗ dutyTok ER (sendCell c j) 0 (0 : Fin 31) ∗ reached ER (sendCell c j) 0
        ∗ dutyTok ER (recvCell (fwd c j) j) 0 (0 : Fin 31) ∗ reached ER (recvCell (fwd c j) j) 0)
      ⊢ iprop(((cred (tallyAt (sendCell c j) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc n : Thread nD τ) (rowM c) (.dma (sendS j)) hsc) (.dma (recvS j)) hsrc hdst hsem) k) Q) := by
  subst hn
  unfold rowPts
  rw [← rowM_set c]
  exact Rounds.wp_send_pointsTo 𝒱₀ ER (ringRd m ρ) (c : Thread nD τ) none (κ₁ := Ks (c, j)) (κ₂ := Kr (fwd c j, j))
    (src := rowM c) (dst := rowM c) (c' := (Dev.tc (fwd c j) : Thread nD τ)) (q := sendSh j.val) (fs := stats m ρ)
    (r₁ := 0) (r₂ := 0) (d₁ := (0 : Fin 31)) (d₂ := (0 : Fin 31)) (fd := fd)
    (by rw [duties_send]; exact Finset.mem_singleton_self _) (by rw [duties_recv]; exact Finset.mem_singleton_self _)
    () () N rfl (amount_send m ρ c j 0) (amount_recv m ρ (fwd c j) j 0) O rfl (W := W)
    (by rw [payload_send]; unfold sendPay rowPts; rw [← rowM_set c])
    (by rw [payload_recv]; unfold recvPay rowPts; rw [bwd_fwd, ← rowM_set c]
        exact Entails.of_eq (pointsTo_congr (row_write_read c fd (stats m ρ))))

/-! ## The wait for the row of the peer at offset `j` behind to have landed; the receive cell closes -/

theorem recv_wait (Kr : Dev nD × Fin 31 → ℕ) (c : Dev nD) (j : Fin 31) (W : Waits sig Unit)
    {sp' : Space} {s s' : Shape} {e e' : EltTy} {κ' : Kind}
    {src : Memref sig (c : Thread nD τ).2.kind sp' s' e'} {dst : Memref sig κ' .vmem s e} {hsrc : src.view.WordExact} {hdst : dst.view.WordExact}
    (hN : dst.view.dmaCredit = N)
    {α : Type} {Q : α → sProp 𝕄} {k : PUnit → Prog (TpuEff nD τ sig (Elt F) Λ₀ .tc) α} :
    iprop(cellInv ER (ringRd m ρ) (Kr (c, j)) (recvCell c j) ∗ cred (tallyAt (recvCell c j) () N) ∗ owes (c : Thread nD τ) 0 W
        ∗ atPos ER (recvCell c j) 0 ∅ 0)
      ⊢ iprop(((owes (c : Thread nD τ) 0 (insert (SemLoc.dma (recvS j), ()) W) ∗ rowPts c (bwd c j) fullShare (stats m ρ)
              ∗ semVal (recvCell c j) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS j) src dst hsrc hdst) k) Q) := by
  iintro ⟨#HI, Hc, HO, Hat⟩ Hk
  iapply (Rounds.wp_wait_rest_token 𝒱₀ ER (ringRd m ρ) (c : Thread nD τ) none (κ := Kr (c, j))
      (wpE_waitDma2_eq 𝒱₀ (c : Thread nD τ) none Set.univ) (Set.mem_univ _) () (O := 0) (W := W) (R := 0) (m := 0) (T := ∅)
      (by rw [Nat.zero_add, expect_recv, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hrow := (Entails.of_eq (rest_recv m ρ c j)) $$ Hpay
  imod (Rounds.cell_close ER (ringRd m ρ) (Set.mem_univ (Kr (c, j))) (fun h => h) (R := 0 + 1) (duties_later m ρ (recvCell c j))) $$ [Hat] with Hz
  · isplitr; · iexact HI
    iexact Hat
  iapply Hk
  isplitl [HO]; · iexact HO
  isplitl [Hrow]; · unfold recvPay; iexact Hrow
  iexact Hz

/-! ## The wait for the transfer to offset `j` to have read the device's row; the send cell closes -/

theorem send_wait (Ks : Dev nD × Fin 31 → ℕ) (c : Dev nD) (j : Fin 31) (W : Waits sig Unit)
    {sp' : Space} {s s' : Shape} {e e' : EltTy} {κ' : Kind}
    {src : Memref sig (c : Thread nD τ).2.kind sp' s' e'} {dst : Memref sig κ' .vmem s e} {hsrc : src.view.WordExact} {hdst : dst.view.WordExact}
    (hN : dst.view.dmaCredit = N)
    {α : Type} {Q : α → sProp 𝕄} {k : PUnit → Prog (TpuEff nD τ sig (Elt F) Λ₀ .tc) α} :
    iprop(cellInv ER (ringRd m ρ) (Ks (c, j)) (sendCell c j) ∗ cred (tallyAt (sendCell c j) () N) ∗ owes (c : Thread nD τ) 0 W
        ∗ atPos ER (sendCell c j) 0 ∅ 0)
      ⊢ iprop(((owes (c : Thread nD τ) 0 (insert (SemLoc.dma (sendS j), ()) W) ∗ rowPts c c (sendSh j.val) (stats m ρ)
              ∗ semVal (sendCell c j) 0)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS j) src dst hsrc hdst) k) Q) := by
  iintro ⟨#HI, Hc, HO, Hat⟩ Hk
  iapply (Rounds.wp_wait_rest_token 𝒱₀ ER (ringRd m ρ) (c : Thread nD τ) none (κ := Ks (c, j))
      (wpE_waitDma2_eq 𝒱₀ (c : Thread nD τ) none Set.univ) (Set.mem_univ _) () (O := 0) (W := W) (R := 0) (m := 0) (T := ∅)
      (by rw [Nat.zero_add, expect_send, hN])) $$ [Hc HO Hat]
  · isplitr; · iexact HI
    isplitl [Hc]; · rw [hN]; iexact Hc
    isplitl [HO]; · iexact HO
    isplitr; · rw [MayWait_zero]; iempintro
    iexact Hat
  iintro ⟨HO, Hat, -, Hpay⟩
  ihave Hrow := (Entails.of_eq (rest_send m ρ c j)) $$ Hpay
  imod (Rounds.cell_close ER (ringRd m ρ) (Set.mem_univ (Ks (c, j))) (fun h => h) (R := 0 + 1) (duties_later m ρ (sendCell c j))) $$ [Hat] with Hz
  · isplitr; · iexact HI
    iexact Hat
  iapply Hk
  isplitl [HO]; · iexact HO
  isplitl [Hrow]; · unfold sendPay; iexact Hrow
  iexact Hz

end Cert.Kernel.Proto

end
-- ==== Proof.KPhases.lean ====
/-
  The body's four unrolled sequences, each as a state indexed by the number of steps left and one rule that takes a
  step: with `n + 1` steps left the next is the one at offset `30 - n`; what is still to be paid or awaited is a
  conjunction over the offsets not yet reached, what has come back a conjunction over those passed.
-/
import proofs.«900770_g7700000000000771_dist_diff_adaln_cshard_i_b4_s512_c256_v7x_i32_bf16_1_alg».proof.Proof.KSteps

noncomputable section

namespace Cert.Kernel.Proto

open Cert.Kernel Cert.Kernel.Gen Cert.Kernel.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

/-- The offset reached with `k + 1` steps left. -/
def rv (k : Fin 31) : Fin 31 := ⟨30 - k.val, by omega⟩
theorem rv_rv (k : Fin 31) : rv (rv k) = k := Fin.ext (by simp only [rv]; omega)
def rvEquiv : Fin 31 ≃ Fin 31 := ⟨rv, rv, rv_rv, rv_rv⟩

section Util
universe u
variable {M : Type u} [URA M]

theorem upTo_all_rv (Φ : Fin 31 → sProp M) : upTo (fun k => Φ (rv k)) 31 le_rfl = bigSep Finset.univ Φ := by
  rw [upTo_all]
  exact (bigSep_univ_equiv rvEquiv Φ).symm

theorem upTo_cast (Ψ : Fin 31 → sProp M) {a b : ℕ} (e : a = b) (ha : a ≤ 31) (hb : b ≤ 31) : upTo Ψ a ha = upTo Ψ b hb := by
  subst e; rfl

/-- What has come back grows by the conjunct at the offset just passed. -/
theorem upTo_acc (Ψ : Fin 31 → sProp M) (n : ℕ) (h : n + 1 ≤ 31) :
    upTo Ψ (31 - n) (Nat.sub_le _ _) = iprop(Ψ ⟨30 - n, by omega⟩ ∗ upTo Ψ (31 - (n + 1)) (Nat.sub_le _ _)) := by
  have e : 31 - n = (31 - (n + 1)) + 1 := by omega
  rw [upTo_cast Ψ e (Nat.sub_le _ _) (by omega), upTo_succ]
  have e2 : (⟨31 - (n + 1), by omega⟩ : Fin 31) = ⟨30 - n, by omega⟩ := Fin.ext (show 31 - (n + 1) = 30 - n by omega)
  rw [e2]
end Util

variable (Kb : Dev nD → ℕ) (Ks Kr : Dev nD × Fin 31 → ℕ) (c : Dev nD)

/-! ## The records read at one cell -/

theorem bar_at (d : Dev nD) :
    (bigSep Finset.univ fun d : Dev nD => iprop(cellInv ER (ringRd m ρ) (Kb d) (barCell d) ∗ reached ER (barCell d) 0) : sProp 𝕄)
      ⊢ iprop(cellInv ER (ringRd m ρ) (Kb d) (barCell d) ∗ reached ER (barCell d) 0) := bigSep_elim (Finset.mem_univ d)
theorem send_at (d : Dev nD) (k : Fin 31) :
    (bigSep Finset.univ fun dk : Dev nD × Fin 31 => iprop(cellInv ER (ringRd m ρ) (Ks dk) (sendCell dk.1 dk.2) ∗ reached ER (sendCell dk.1 dk.2) 0) : sProp 𝕄)
      ⊢ iprop(cellInv ER (ringRd m ρ) (Ks (d, k)) (sendCell d k) ∗ reached ER (sendCell d k) 0) := bigSep_elim (Finset.mem_univ (d, k))
theorem recv_at (d : Dev nD) (k : Fin 31) :
    (bigSep Finset.univ fun dk : Dev nD × Fin 31 => iprop(cellInv ER (ringRd m ρ) (Kr dk) (recvCell dk.1 dk.2) ∗ reached ER (recvCell dk.1 dk.2) 0) : sProp 𝕄)
      ⊢ iprop(cellInv ER (ringRd m ρ) (Kr (d, k)) (recvCell d k) ∗ reached ER (recvCell d k) 0) := bigSep_elim (Finset.mem_univ (d, k))

/-! ## The signals -/

def SigSt (W : Waits sig Unit) (n : ℕ) (h : n ≤ 31) : sProp 𝕄 :=
  iprop(owes (c : Thread nD τ) (sendOwed c 31 le_rfl + sigOwed c n h) W
    ∗ upTo (fun k => iprop(dutyTok ER (barCell (fwd c (rv k))) 0 (rv k) ∗ ∃ f, rowPts c (fwd c (rv k)) fullShare f)) n h)

theorem sig_phase (W : Waits sig Unit) (n : ℕ) (h : n + 1 ≤ 31)
    {α : Type} {Q : α → sProp 𝕄} {k : PUnit → Prog (TpuEff nD τ sig (Elt F) Λ₀ .tc) α} :
    iprop((bigSep Finset.univ fun d : Dev nD => iprop(cellInv ER (ringRd m ρ) (Kb d) (barCell d) ∗ reached ER (barCell d) 0))
        ∗ SigSt (F := F) c W (n + 1) h)
      ⊢ iprop((SigSt (F := F) c W n (Nat.le_of_succ_le h) -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal ((fwd c ⟨30 - n, by omega⟩ : Dev nD) : Thread nD τ) barS (1#32 : BitVec 32).toNat) k) Q) := by
  have hj : 30 - n < 31 := by omega
  unfold SigSt
  rw [upTo_succ]
  iintro ⟨#HIb, HO, ⟨Ht, Hrow⟩, HS⟩ Hk
  ihave HI := (bar_at m ρ Kb (fwd c ⟨30 - n, hj⟩)) $$ HIb
  icases HI with ⟨#HI, #Hr⟩
  iapply (sig_step m ρ Kb c ⟨30 - n, hj⟩ (sendOwed c 31 le_rfl + sigOwed c n (Nat.le_of_succ_le h)) W) $$ [HO Ht Hrow]
  · isplitr; · iexact HI
    isplitr; · iexact Hr
    isplitl [HO]
    · rw [show sigOwed c (n + 1) h = sigOwed c n (Nat.le_of_succ_le h) + tallyAt (barCell (fwd c ⟨30 - n, hj⟩)) () 1 from rfl, ← add_assoc]
      iexact HO
    isplitl [Ht]; · iexact Ht
    iexact Hrow
  iintro HO
  iapply Hk
  isplitl [HO]; · iexact HO
  iexact HS

/-! ## The transfers -/

def SendSt (W : Waits sig Unit) (n : ℕ) (h : n ≤ 31) : sProp 𝕄 :=
  iprop(owes (c : Thread nD τ) (sendOwed c n h) W
    ∗ upTo (fun k => iprop(dutyTok ER (sendCell c (rv k)) 0 (0 : Fin 31) ∗ dutyTok ER (recvCell (fwd c (rv k)) (rv k)) 0 (0 : Fin 31)
        ∗ rowPts c c (sendSh (rv k).val) (stats m ρ) ∗ ∃ fd, rowPts (fwd c (rv k)) c fullShare fd)) n h
    ∗ upTo (fun k => cred (tallyAt (sendCell c k) () N)) (31 - n) (Nat.sub_le _ _))

theorem send_phase (W : Waits sig Unit) (n : ℕ) (h : n + 1 ≤ 31) (d : Dev nD) (hd : d = fwd c ⟨30 - n, by omega⟩)
    {hsc : (rowM c : Memref sig (Dev.tc d : Thread nD τ).2.kind .vmem S8x512 .bf16).view.ref.isScScratch = false}
    {hsrc : (rowM c : Memref sig .tc .vmem S8x512 .bf16).view.WordExact} {hdst : (rowM c : Memref sig .tc .vmem S8x512 .bf16).view.WordExact}
    {hsem : DmaTarget.Typed .vmem (.dma (recvS ⟨30 - n, by omega⟩)) (.remote (Dev.tc d : Thread nD τ) (rowM c : Memref sig .tc .vmem S8x512 .bf16) (.dma (sendS ⟨30 - n, by omega⟩)) hsc)}
    {α : Type} {Q : α → sProp 𝕄} {k : PUnit → Prog (TpuEff nD τ sig (Elt F) Λ₀ .tc) α} :
    iprop((bigSep Finset.univ fun dk : Dev nD × Fin 31 => iprop(cellInv ER (ringRd m ρ) (Ks dk) (sendCell dk.1 dk.2) ∗ reached ER (sendCell dk.1 dk.2) 0))
        ∗ (bigSep Finset.univ fun dk : Dev nD × Fin 31 => iprop(cellInv ER (ringRd m ρ) (Kr dk) (recvCell dk.1 dk.2) ∗ reached ER (recvCell dk.1 dk.2) 0))
        ∗ SendSt m ρ c W (n + 1) h)
      ⊢ iprop((SendSt m ρ c W n (Nat.le_of_succ_le h) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (rowM c) (.remote (Dev.tc d : Thread nD τ) (rowM c) (.dma (sendS ⟨30 - n, by omega⟩)) hsc) (.dma (recvS ⟨30 - n, by omega⟩)) hsrc hdst hsem) k) Q) := by
  have hj : 30 - n < 31 := by omega
  unfold SendSt
  rw [upTo_succ, upTo_acc _ n h]
  iintro ⟨#HIs, #HIr, HO, ⟨⟨HtS, HtR, Hsrc, ⟨%fd, Hdst⟩⟩, HS⟩, HC⟩ Hk
  ihave HI1 := (send_at m ρ Ks c ⟨30 - n, hj⟩) $$ HIs
  icases HI1 with ⟨#HI1, #Hr1⟩
  ihave HI2 := (recv_at m ρ Kr (fwd c ⟨30 - n, hj⟩) ⟨30 - n, hj⟩) $$ HIr
  icases HI2 with ⟨#HI2, #Hr2⟩
  iapply (send_step m ρ Ks Kr c d ⟨30 - n, hj⟩ hd fd (sendOwed c n (Nat.le_of_succ_le h)) W) $$ [HO HtS HtR Hsrc Hdst]
  · isplitr; · iexact HI1
    isplitr; · iexact HI2
    isplitl [Hsrc]; · iexact Hsrc
    isplitl [Hdst]; · iexact Hdst
    isplitl [HO]; · iexact HO
    isplitl [HtS]; · iexact HtS
    isplitr; · iexact Hr1
    isplitl [HtR]; · iexact HtR
    iexact Hr2
  iintro ⟨Hc, HO⟩
  iapply Hk
  isplitl [HO]; · iexact HO
  isplitl [HS]; · iexact HS
  isplitl [Hc]; · iexact Hc
  iexact HC

/-! ## The waits for the landings -/

def RecvSt (n : ℕ) (h : n ≤ 31) : sProp 𝕄 :=
  iprop((∃ W, owes (c : Thread nD τ) 0 W)
    ∗ upTo (fun k => iprop(cred (tallyAt (recvCell c (rv k)) () N) ∗ atPos ER (recvCell c (rv k)) 0 ∅ 0)) n h
    ∗ upTo (fun k => iprop(rowPts c (bwd c k) fullShare (stats m ρ) ∗ semVal (recvCell c k) 0)) (31 - n) (Nat.sub_le _ _))

theorem recv_phase (n : ℕ) (h : n + 1 ≤ 31)
    {sp' : Space} {s s' : Shape} {e e' : EltTy} {κ' : Kind}
    {src : Memref sig (c : Thread nD τ).2.kind sp' s' e'} {dst : Memref sig κ' .vmem s e} {hsrc : src.view.WordExact} {hdst : dst.view.WordExact}
    (hN : dst.view.dmaCredit = N)
    {α : Type} {Q : α → sProp 𝕄} {k : PUnit → Prog (TpuEff nD τ sig (Elt F) Λ₀ .tc) α} :
    iprop((bigSep Finset.univ fun dk : Dev nD × Fin 31 => iprop(cellInv ER (ringRd m ρ) (Kr dk) (recvCell dk.1 dk.2) ∗ reached ER (recvCell dk.1 dk.2) 0))
        ∗ RecvSt m ρ c (n + 1) h)
      ⊢ iprop((RecvSt m ρ c n (Nat.le_of_succ_le h) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (recvS ⟨30 - n, by omega⟩) src dst hsrc hdst) k) Q) := by
  have hj : 30 - n < 31 := by omega
  unfold RecvSt
  rw [upTo_succ, upTo_acc _ n h]
  iintro ⟨#HIr, ⟨%W, HO⟩, ⟨⟨Hc, Hat⟩, HS⟩, HA⟩ Hk
  ihave HI := (recv_at m ρ Kr c ⟨30 - n, hj⟩) $$ HIr
  icases HI with ⟨#HI, -⟩
  iapply (recv_wait m ρ Kr c ⟨30 - n, hj⟩ W hN) $$ [Hc HO Hat]
  · isplitr; · iexact HI
    isplitl [Hc]; · iexact Hc
    isplitl [HO]; · iexact HO
    iexact Hat
  iintro ⟨HO, Hrow, Hz⟩
  iapply Hk
  isplitl [HO]; · iexists _; iexact HO
  isplitl [HS]; · iexact HS
  isplitl [Hrow Hz]
  · isplitl [Hrow]; · iexact Hrow
    iexact Hz
  iexact HA

/-! ## The waits for the transfers' reads -/

def SWaitSt (n : ℕ) (h : n ≤ 31) : sProp 𝕄 :=
  iprop((∃ W, owes (c : Thread nD τ) 0 W)
    ∗ upTo (fun k => iprop(cred (tallyAt (sendCell c (rv k)) () N) ∗ atPos ER (sendCell c (rv k)) 0 ∅ 0)) n h
    ∗ upTo (fun k => iprop(rowPts c c (sendSh k.val) (stats m ρ) ∗ semVal (sendCell c k) 0)) (31 - n) (Nat.sub_le _ _))

theorem swait_phase (n : ℕ) (h : n + 1 ≤ 31)
    {sp' : Space} {s s' : Shape} {e e' : EltTy} {κ' : Kind}
    {src : Memref sig (c : Thread nD τ).2.kind sp' s' e'} {dst : Memref sig κ' .vmem s e} {hsrc : src.view.WordExact} {hdst : dst.view.WordExact}
    (hN : dst.view.dmaCredit = N)
    {α : Type} {Q : α → sProp 𝕄} {k : PUnit → Prog (TpuEff nD τ sig (Elt F) Λ₀ .tc) α} :
    iprop((bigSep Finset.univ fun dk : Dev nD × Fin 31 => iprop(cellInv ER (ringRd m ρ) (Ks dk) (sendCell dk.1 dk.2) ∗ reached ER (sendCell dk.1 dk.2) 0))
        ∗ SWaitSt m ρ c (n + 1) h)
      ⊢ iprop((SWaitSt m ρ c n (Nat.le_of_succ_le h) -∗ wp frame (wpE (defs₀ (F := F)) 𝒱₀ (c : Thread nD τ) none) Set.univ (k ⟨⟩) Q)
          -∗ wp frame (wpE (defs₀ (F := F)) 𝒱₀ (c : Thread nD τ) none) Set.univ
              (.op (.waitDma2 (sendS ⟨30 - n, by omega⟩) src dst hsrc hdst) k) Q) := by
  have hj : 30 - n < 31 := by omega
  unfold SWaitSt
  rw [upTo_succ, upTo_acc _ n h]
  iintro ⟨#HIs, ⟨%W, HO⟩, ⟨⟨Hc, Hat⟩, HS⟩, HA⟩ Hk
  ihave HI := (send_at m ρ Ks c ⟨30 - n, hj⟩) $$ HIs
  icases HI with ⟨#HI, -⟩
  iapply (send_wait m ρ Ks c ⟨30 - n, hj⟩ W hN) $$ [Hc HO Hat]
  · isplitr; · iexact HI
    isplitl [Hc]; · iexact Hc
    isplitl [HO]; · iexact HO
    iexact Hat
  iintro ⟨HO, Hrow, Hz⟩
  iapply Hk
  isplitl [HO]; · iexists _; iexact HO
  isplitl [HS]; · iexact HS
  isplitl [Hrow Hz]
  · isplitl [Hrow]; · iexact Hrow
    iexact Hz
  iexact HA

end Cert.Kernel.Proto

end
-- ==== Proof.KPhaseIO.lean ====
/-
  Entering and leaving the four unrolled sequences: the state with all thirty-one steps left follows from what the
  device holds before the sequence, offset by offset; the state with no step left hands on what has come back, as
  conjunctions over all the offsets.
-/
import proofs.«900770_g7700000000000771_dist_diff_adaln_cshard_i_b4_s512_c256_v7x_i32_bf16_1_alg».proof.Proof.KPhases

noncomputable section

namespace Cert.Kernel.Proto

open Cert.Kernel Cert.Kernel.Gen Cert.Kernel.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

/-- The device `d + 1` places before `c` is the one the forward offset opposite to `d` reaches. -/
theorem bwd_eq_fwd_rv (c : Dev nD) (d : Fin 31) : bwd c d = fwd c (rv d) := by
  have hd := d.isLt
  apply Fin.ext
  show (c.val + 31 - d.val) % 32 = (c.val + ((30 - d.val) + 1)) % 32
  congr 1
  omega

section Util
universe u
variable {M : Type u} [URA M]

/-- Entailment summand by summand. -/
theorem bigSep_mono_bi {I : Type} {s : Finset I} {Φ Ψ : I → sProp M} (h : ∀ i ∈ s, Φ i ⊢ Ψ i) :
    bigSep s Φ ⊢ bigSep s Ψ := bigSep_mono h

/-- With no step left, what has come back is the conjunction over all the offsets. -/
theorem upTo_back_all (Ψ : Fin 31 → sProp M) : upTo Ψ (31 - 0) (Nat.sub_le _ _) = bigSep Finset.univ Ψ := by
  rw [upTo_cast Ψ (show 31 - 0 = 31 from rfl) (Nat.sub_le _ _) le_rfl, upTo_all]

/-- With every step left, nothing has come back. -/
theorem upTo_back_none (Ψ : Fin 31 → sProp M) : upTo Ψ (31 - 31) (Nat.sub_le _ _) = iprop(emp) := by
  rw [upTo_cast Ψ (show 31 - 31 = 0 from rfl) (Nat.sub_le _ _) (Nat.zero_le _), upTo_zero]
end Util

/-! ## The signals -/

theorem sig_init (c : Dev nD) (W : Waits sig Unit) (f0 : Buf (Elt F) ((c : Thread nD τ).loc cc0_scratch0)) :
    iprop(owes (c : Thread nD τ) (O₀ c) W ∗ (bigSep Finset.univ fun j : Fin 31 => dutyTok ER (barCell (fwd c j)) 0 j)
        ∗ (bigSep Finset.univ fun j : Fin 31 => rowPts c (fwd c j) fullShare f0)) ⊢ (SigSt (F := F) c W 31 le_rfl : sProp 𝕄) := by
  have e : upTo (fun k => (iprop(dutyTok ER (barCell (fwd c (rv k))) 0 (rv k) ∗ ∃ f, rowPts c (fwd c (rv k)) fullShare f) : sProp 𝕄)) 31 le_rfl
      = bigSep Finset.univ fun j : Fin 31 => (iprop(dutyTok ER (barCell (fwd c j)) 0 j ∗ ∃ f, rowPts c (fwd c j) fullShare f) : sProp 𝕄) :=
    upTo_all_rv fun j : Fin 31 => (iprop(dutyTok ER (barCell (fwd c j)) 0 j ∗ ∃ f, rowPts c (fwd c j) fullShare f) : sProp 𝕄)
  have hrow : (bigSep Finset.univ fun j : Fin 31 => (rowPts c (fwd c j) fullShare f0 : sProp 𝕄))
      ⊢ bigSep Finset.univ fun j : Fin 31 => (iprop(∃ f, rowPts c (fwd c j) fullShare f) : sProp 𝕄) :=
    bigSep_mono_bi fun j _ => by iintro H; iexists f0; iexact H
  unfold SigSt O₀
  rw [e, bigSep_sep']
  iintro ⟨HO, Ht, Hr⟩
  isplitl [HO]; · iexact HO
  isplitl [Ht]; · iexact Ht
  ihave Hr' := hrow $$ Hr
  iexact Hr'

theorem sig_exit (c : Dev nD) (W : Waits sig Unit) :
    (SigSt (F := F) c W 0 (Nat.zero_le _) : sProp 𝕄) ⊢ owes (c : Thread nD τ) (sendOwed c 31 le_rfl + sigOwed c 0 (Nat.zero_le _)) W := by
  unfold SigSt
  rw [upTo_zero]
  iintro ⟨HO, -⟩
  iexact HO

/-! ## The transfers -/

theorem send_init (c : Dev nD) (W : Waits sig Unit) :
    iprop(owes (c : Thread nD τ) (sendOwed c 31 le_rfl + sigOwed c 0 (Nat.zero_le _)) W
        ∗ (bigSep Finset.univ fun j : Fin 31 => dutyTok ER (sendCell c j) 0 (0 : Fin 31))
        ∗ (bigSep Finset.univ fun j : Fin 31 => dutyTok ER (recvCell (fwd c j) j) 0 (0 : Fin 31))
        ∗ (bigSep Finset.univ fun j : Fin 31 => rowPts c c (sendSh j.val) (stats m ρ))
        ∗ (bigSep Finset.univ fun d : Fin 31 => (barPay c d : sProp 𝕄))) ⊢ SendSt m ρ c W 31 le_rfl := by
  have e : upTo (fun k => (iprop(dutyTok ER (sendCell c (rv k)) 0 (0 : Fin 31) ∗ dutyTok ER (recvCell (fwd c (rv k)) (rv k)) 0 (0 : Fin 31)
        ∗ rowPts c c (sendSh (rv k).val) (stats m ρ) ∗ ∃ fd, rowPts (fwd c (rv k)) c fullShare fd) : sProp 𝕄)) 31 le_rfl
      = bigSep Finset.univ fun j : Fin 31 => (iprop(dutyTok ER (sendCell c j) 0 (0 : Fin 31) ∗ dutyTok ER (recvCell (fwd c j) j) 0 (0 : Fin 31)
        ∗ rowPts c c (sendSh j.val) (stats m ρ) ∗ ∃ fd, rowPts (fwd c j) c fullShare fd) : sProp 𝕄) :=
    upTo_all_rv fun j : Fin 31 => (iprop(dutyTok ER (sendCell c j) 0 (0 : Fin 31) ∗ dutyTok ER (recvCell (fwd c j) j) 0 (0 : Fin 31)
        ∗ rowPts c c (sendSh j.val) (stats m ρ) ∗ ∃ fd, rowPts (fwd c j) c fullShare fd) : sProp 𝕄)
  have hpay : (bigSep Finset.univ fun d : Fin 31 => (barPay c d : sProp 𝕄))
      = bigSep Finset.univ fun j : Fin 31 => (iprop(∃ fd, rowPts (fwd c j) c fullShare fd) : sProp 𝕄) := by
    rw [bigSep_univ_equiv rvEquiv fun j : Fin 31 => (iprop(∃ fd, rowPts (fwd c j) c fullShare fd) : sProp 𝕄)]
    refine bigSep_congr fun d _ => ?_
    show (barPay c d : sProp 𝕄) = iprop(∃ fd, rowPts (fwd c (rv d)) c fullShare fd)
    unfold barPay
    rw [bwd_eq_fwd_rv]
  unfold SendSt
  rw [e, upTo_back_none, bigSep_sep', bigSep_sep', bigSep_sep', hpay, show sigOwed c 0 (Nat.zero_le _) = 0 from rfl, add_zero]
  iintro ⟨HO, HtS, HtR, Hsrc, Hdst⟩
  isplitl [HO]; · iexact HO
  isplitl [HtS HtR Hsrc Hdst]
  · isplitl [HtS]; · iexact HtS
    isplitl [HtR]; · iexact HtR
    isplitl [Hsrc]; · iexact Hsrc
    iexact Hdst
  · iempintro

theorem send_exit (c : Dev nD) (W : Waits sig Unit) :
    SendSt m ρ c W 0 (Nat.zero_le _) ⊢ iprop(owes (c : Thread nD τ) 0 W ∗ bigSep Finset.univ fun k : Fin 31 => cred (tallyAt (sendCell c k) () N)) := by
  unfold SendSt
  rw [upTo_back_all, upTo_zero, show sendOwed c 0 (Nat.zero_le _) = 0 from rfl]
  iintro ⟨HO, -, HC⟩
  isplitl [HO]; · iexact HO
  iexact HC

/-! ## The waits for the landings -/

theorem recv_init (c : Dev nD) :
    iprop((∃ W, owes (c : Thread nD τ) 0 W) ∗ (bigSep Finset.univ fun k : Fin 31 => cred (tallyAt (recvCell c k) () N))
        ∗ (bigSep Finset.univ fun k : Fin 31 => atPos ER (recvCell c k) 0 ∅ 0)) ⊢ RecvSt m ρ c 31 le_rfl := by
  have e : upTo (fun k => (iprop(cred (tallyAt (recvCell c (rv k)) () N) ∗ atPos ER (recvCell c (rv k)) 0 ∅ 0) : sProp 𝕄)) 31 le_rfl
      = bigSep Finset.univ fun k : Fin 31 => (iprop(cred (tallyAt (recvCell c k) () N) ∗ atPos ER (recvCell c k) 0 ∅ 0) : sProp 𝕄) :=
    upTo_all_rv fun k : Fin 31 => (iprop(cred (tallyAt (recvCell c k) () N) ∗ atPos ER (recvCell c k) 0 ∅ 0) : sProp 𝕄)
  unfold RecvSt
  rw [e, upTo_back_none, bigSep_sep']
  iintro ⟨HO, Hc, Hat⟩
  isplitl [HO]; · iexact HO
  isplitl [Hc Hat]
  · isplitl [Hc]; · iexact Hc
    iexact Hat
  · iempintro

theorem recv_exit (c : Dev nD) : RecvSt m ρ c 0 (Nat.zero_le _) ⊢ iprop((∃ W, owes (c : Thread nD τ) 0 W)
        ∗ (bigSep Finset.univ fun k : Fin 31 => rowPts c (bwd c k) fullShare (stats m ρ)) ∗ (bigSep Finset.univ fun k : Fin 31 => semVal (recvCell c k) 0)) := by
  unfold RecvSt
  rw [upTo_back_all, upTo_zero, bigSep_sep']
  iintro ⟨HO, -, Hrow, Hz⟩
  isplitl [HO]; · iexact HO
  isplitl [Hrow]; · iexact Hrow
  iexact Hz

/-! ## The waits for the transfers' reads -/

theorem swait_init (c : Dev nD) :
    iprop((∃ W, owes (c : Thread nD τ) 0 W) ∗ (bigSep Finset.univ fun k : Fin 31 => cred (tallyAt (sendCell c k) () N))
        ∗ (bigSep Finset.univ fun k : Fin 31 => atPos ER (sendCell c k) 0 ∅ 0)) ⊢ SWaitSt m ρ c 31 le_rfl := by
  have e : upTo (fun k => (iprop(cred (tallyAt (sendCell c (rv k)) () N) ∗ atPos ER (sendCell c (rv k)) 0 ∅ 0) : sProp 𝕄)) 31 le_rfl
      = bigSep Finset.univ fun k : Fin 31 => (iprop(cred (tallyAt (sendCell c k) () N) ∗ atPos ER (sendCell c k) 0 ∅ 0) : sProp 𝕄) :=
    upTo_all_rv fun k : Fin 31 => (iprop(cred (tallyAt (sendCell c k) () N) ∗ atPos ER (sendCell c k) 0 ∅ 0) : sProp 𝕄)
  unfold SWaitSt
  rw [e, upTo_back_none, bigSep_sep']
  iintro ⟨HO, Hc, Hat⟩
  isplitl [HO]; · iexact HO
  isplitl [Hc Hat]
  · isplitl [Hc]; · iexact Hc
    iexact Hat
  · iempintro

theorem swait_exit (c : Dev nD) : SWaitSt m ρ c 0 (Nat.zero_le _) ⊢ iprop((∃ W, owes (c : Thread nD τ) 0 W)
        ∗ (bigSep Finset.univ fun k : Fin 31 => rowPts c c (sendSh k.val) (stats m ρ)) ∗ (bigSep Finset.univ fun k : Fin 31 => semVal (sendCell c k) 0)) := by
  unfold SWaitSt
  rw [upTo_back_all, upTo_zero, bigSep_sep']
  iintro ⟨HO, -, Hrow, Hz⟩
  isplitl [HO]; · iexact HO
  isplitl [Hrow]; · iexact Hrow
  iexact Hz

end Cert.Kernel.Proto

end
-- ==== Proof.KDevs.lean ====
/-
  The peers the kernel's device-id chains name: the `i`-th signal and the `i`-th transfer both address the device
  `i` places ahead on the ring.
-/
import proofs.«900770_g7700000000000771_dist_diff_adaln_cshard_i_b4_s512_c256_v7x_i32_bf16_1_alg».proof.Proof.KSched
import proofs.«900770_g7700000000000771_dist_diff_adaln_cshard_i_b4_s512_c256_v7x_i32_bf16_1_alg».proof.Proof.Seq

noncomputable section

namespace Cert.Kernel.Proto

open Cert.Kernel Cert.Kernel.Gen Cert.Kernel.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

open Lean Elab Command in
/-- One equation per printed chain: chains 1 to 31 are the signals', 32 to 62 the transfers'; chain `i` names offset
    `i - 1`, respectively `i - 32`. -/
elab "dev_equations" : command => do
  for i in [1:63] do
    let j := if i ≤ 31 then i - 1 else i - 32
    let nm := mkIdent (Name.mkSimple s!"dev{i}_eq")
    let dv := mkIdent (Name.mkSimple s!"k0_dev{i}")
    let lt := mkIdent (Name.mkSimple s!"k0_dev{i}_lt")
    let eq := mkIdent (Name.mkSimple s!"k0_dev{i}_eq")
    let jl := Syntax.mkNumLit (toString j)
    elabCommand (← `(@[sl_canon] theorem $nm (c : Dev nD) : (⟨$dv c, $lt c⟩ : Dev nD) = fwd c ⟨$jl, by decide⟩ := Fin.ext (($eq c).trans rfl)))

dev_equations

end Cert.Kernel.Proto

end
-- ==== Proof.KRows.lean ====
/-
  The table cut into its thirty-two rows, and a row cut into the shares the exchange lends out.

  The rows' element sets are pairwise disjoint and cover the table, so the table held at a share is the separating
  conjunction of its rows held at that share; a device's own row stands apart and the other thirty-one are named by
  offset, forwards or backwards round the ring. A row held in full is the half the device keeps, the thirty-one pieces
  lent to the transfers, and what is left of the other half after the thirty-one cuts.
-/
import proofs.«900770_g7700000000000771_dist_diff_adaln_cshard_i_b4_s512_c256_v7x_i32_bf16_1_alg».proof.Proof.KSched
import proofs.«900770_g7700000000000771_dist_diff_adaln_cshard_i_b4_s512_c256_v7x_i32_bf16_1_alg».proof.Proof.Seq

noncomputable section

namespace Cert.Kernel.Proto

open Cert.Kernel Cert.Kernel.Gen Cert.Kernel.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

/-! ## Every other device is reached by exactly one offset, forwards and backwards -/

theorem fwd_surj (c d : Dev nD) (h : d ≠ c) : ∃ j : Fin 31, fwd c j = d := by
  have hc : c.val < 32 := c.isLt
  have hd : d.val < 32 := d.isLt
  have hne : d.val ≠ c.val := fun e => h (Fin.ext e)
  refine ⟨⟨(d.val + 31 - c.val) % 32, by omega⟩, Fin.ext ?_⟩
  show (c.val + ((d.val + 31 - c.val) % 32 + 1)) % 32 = d.val
  omega

theorem bwd_surj (c d : Dev nD) (h : d ≠ c) : ∃ j : Fin 31, bwd c j = d := by
  have hc : c.val < 32 := c.isLt
  have hd : d.val < 32 := d.isLt
  have hne : d.val ≠ c.val := fun e => h (Fin.ext e)
  refine ⟨⟨(c.val + 31 - d.val) % 32, by omega⟩, Fin.ext ?_⟩
  show (c.val + 31 - (c.val + 31 - d.val) % 32) % 32 = d.val
  omega

/-- The offsets, as an embedding into the devices: forwards. -/
def fwdEmb (c : Dev nD) : Fin 31 ↪ Dev nD := ⟨fwd c, fun _ _ h => fwd_inj c h⟩
/-- The offsets, as an embedding into the devices: backwards. -/
def bwdEmb (c : Dev nD) : Fin 31 ↪ Dev nD := ⟨bwd c, fun _ _ h => bwd_inj c h⟩

theorem map_fwdEmb (c : Dev nD) : (Finset.univ : Finset (Fin 31)).map (fwdEmb c) = Finset.univ.erase c := by
  ext d
  rw [Finset.mem_map, Finset.mem_erase]
  constructor
  · rintro ⟨j, -, rfl⟩; exact ⟨fwd_ne c j, Finset.mem_univ _⟩
  · rintro ⟨h, -⟩
    obtain ⟨j, hj⟩ := fwd_surj c d h
    exact ⟨j, Finset.mem_univ _, hj⟩

theorem map_bwdEmb (c : Dev nD) : (Finset.univ : Finset (Fin 31)).map (bwdEmb c) = Finset.univ.erase c := by
  ext d
  rw [Finset.mem_map, Finset.mem_erase]
  constructor
  · rintro ⟨j, -, rfl⟩; exact ⟨bwd_ne c j, Finset.mem_univ _⟩
  · rintro ⟨h, -⟩
    obtain ⟨j, hj⟩ := bwd_surj c d h
    exact ⟨j, Finset.mem_univ _, hj⟩

/-- A family over the devices: the member at `c`, and the others by forward offset. -/
theorem bigSep_dev_fwd {M : Type} [URA M] (c : Dev nD) (Φ : Dev nD → sProp M) :
    bigSep Finset.univ Φ = iprop(Φ c ∗ bigSep Finset.univ fun j : Fin 31 => Φ (fwd c j)) := by
  rw [bigSep_univ_split c, ← map_fwdEmb c, bigSep_map]
  rfl

/-- A family over the devices: the member at `c`, and the others by backward offset. -/
theorem bigSep_dev_bwd {M : Type} [URA M] (c : Dev nD) (Φ : Dev nD → sProp M) :
    bigSep Finset.univ Φ = iprop(Φ c ∗ bigSep Finset.univ fun j : Fin 31 => Φ (bwd c j)) := by
  rw [bigSep_univ_split c, ← map_bwdEmb c, bigSep_map]
  rfl

/-! ## The table is its rows -/

/-- The table held at a share is its thirty-two rows held at that share. -/
theorem table_rows (c : Dev nD) (q : PosShare TreeShare) (f : Buf (Elt F) ((c : Thread nD τ).loc cc0_scratch0)) :
    ((((c : Thread nD τ).loc cc0_scratch0) ↦{q} f : sProp 𝕄)) = bigSep Finset.univ fun i : Dev nD => rowPts c i q f := by
  have h := pointsTo_biUnion (ℓ := (c : Thread nD τ).loc cc0_scratch0) (q := q) (f := f) (Ix := Unit) (Name := ℕ) (U := UU) (Lvl := ℕ)
    (Finset.univ : Finset (Dev nD)) rowSet (fun i _ j _ hij => rowSet_disjoint hij)
  rw [rowSet_cover] at h
  exact h

theorem table_rows_fwd (c : Dev nD) (q : PosShare TreeShare) (f : Buf (Elt F) ((c : Thread nD τ).loc cc0_scratch0)) :
    ((((c : Thread nD τ).loc cc0_scratch0) ↦{q} f : sProp 𝕄))
      ⊣⊢ iprop(rowPts c c q f ∗ bigSep Finset.univ fun j : Fin 31 => rowPts c (fwd c j) q f) := by
  rw [table_rows c q f, bigSep_dev_fwd c]

theorem table_rows_bwd (c : Dev nD) (q : PosShare TreeShare) (f : Buf (Elt F) ((c : Thread nD τ).loc cc0_scratch0)) :
    ((((c : Thread nD τ).loc cc0_scratch0) ↦{q} f : sProp 𝕄))
      ⊣⊢ iprop(rowPts c c q f ∗ bigSep Finset.univ fun j : Fin 31 => rowPts c (bwd c j) q f) := by
  rw [table_rows c q f, bigSep_dev_bwd c]

/-! ## A row is its shares -/

/-- In this model of assertions, mutual entailment is equality. -/
theorem eq_of_biEntails {M : Type} [URA M] {P Q : sProp M} (h : P ⊣⊢ Q) : P = Q := BI.equiv_iff.mp ⟨h.1, h.2⟩

/-- A row cut along a cut of its share. -/
theorem rowPts_share (c i : Dev nD) {q q₁ q₂ : PosShare TreeShare} (h : q ∈ q₁ ·? q₂)
    (f : Buf (Elt F) ((c : Thread nD τ).loc cc0_scratch0)) :
    (rowPts c i q f : sProp 𝕄) = iprop(rowPts c i q₁ f ∗ rowPts c i q₂ f) := by
  have hs : (rowPts c i q f : sProp 𝕄) ⊣⊢ iprop(rowPts c i q₁ f ∗ rowPts c i q₂ f) := pointsTo_share h
  exact eq_of_biEntails hs

/-- A row held in full is the half the device keeps and the half it lends from. -/
theorem row_keep (c i : Dev nD) (f : Buf (Elt F) ((c : Thread nD τ).loc cc0_scratch0)) :
    (rowPts c i fullShare f : sProp 𝕄) ⊣⊢ iprop(rowPts c i keepSh f ∗ rowPts c i (restSh 0) f) := by
  rw [rowPts_share c i full_split f]
  exact sep_comm

/-- After `n` cuts the lending half is what is left of it and the `n` pieces cut so far. -/
theorem rest_cut (c i : Dev nD) (f : Buf (Elt F) ((c : Thread nD τ).loc cc0_scratch0)) (n : ℕ) (h : n ≤ 31) :
    (rowPts c i (restSh 0) f : sProp 𝕄)
      = iprop(rowPts c i (restSh n) f ∗ upTo (fun j : Fin 31 => (rowPts c i (sendSh j.val) f : sProp 𝕄)) n h) := by
  induction n with
  | zero =>
    rw [upTo_zero]
    exact (eq_of_biEntails Laws.sep_emp).symm
  | succ n ih =>
    rw [ih (Nat.le_of_succ_le h), rowPts_share c i (restSh_split n) f, upTo_succ]
    refine eq_of_biEntails ⟨?_, ?_⟩
    · iintro ⟨⟨Hs, Hr⟩, Hu⟩
      isplitl [Hr]; · iexact Hr
      isplitl [Hs]; · iexact Hs
      iexact Hu
    · iintro ⟨Hr, Hs, Hu⟩
      isplitr [Hu]
      · isplitl [Hs]; · iexact Hs
        iexact Hr
      · iexact Hu

/-- A row held in full is the half the device keeps, what is left of the other half after the thirty-one cuts, and the
    thirty-one pieces. -/
theorem row_shares (c i : Dev nD) (f : Buf (Elt F) ((c : Thread nD τ).loc cc0_scratch0)) :
    (rowPts c i fullShare f : sProp 𝕄)
      ⊣⊢ iprop(rowPts c i keepSh f ∗ rowPts c i (restSh 31) f ∗ bigSep Finset.univ fun j : Fin 31 => rowPts c i (sendSh j.val) f) := by
  rw [rowPts_share c i full_split f, rest_cut c i f 31 le_rfl, upTo_all]
  exact sep_comm

end Cert.Kernel.Proto

end
-- ==== Proof.KLocal.lean ====
/-
  The body's local accesses to the table of partial sums while the table is held row by row: the load of the device's
  own row, the store of its partial sums into that row, and, once every row has landed and the table is held whole
  again, the load of the whole table.

  The own row's rectangle is the table's row `c`: its elements are those whose leading coordinate is `c`, and the
  element under the rectangle's index `(0, r, s)` is the table's `(c, r, s)`. So storing the device's partial sums
  through it leaves on the row exactly the table in which row `d` holds device `d`'s partial sums.
-/
import proofs.«900770_g7700000000000771_dist_diff_adaln_cshard_i_b4_s512_c256_v7x_i32_bf16_1_alg».proof.Proof.KSteps

noncomputable section

namespace Cert.Kernel.Proto

open Cert.Kernel Cert.Kernel.Gen Cert.Kernel.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

/-! ## The rectangle of the device's own row -/

/-- The rectangle the local accesses go through, at device `c`. -/
abbrev ownR (c : Dev nD) : Rect S32x8x512 := Rect.unit (s := S32x8x512) (k0_off1 c) S1x8x512.size (k0_off1_inb c)

/-- Its elements are the table's elements of leading coordinate `c`: row `c`. -/
theorem ownR_set (c : Dev nD) : (ownR c).set = rowSet c := by
  ext x
  rw [mem_rowSet, Rect.mem_set_unit, k0_off1_eq]
  constructor
  · intro h; have := h 0; simp at this; omega
  · intro h a
    fin_cases a
    · simp; omega
    · simp; exact (x 1).isLt
    · simp; exact (x 2).isLt

/-- The element under the rectangle's index `y`: row `c`, at `y`'s two trailing coordinates. -/
theorem ownR_emb (c : Dev nD) (y : (ownR c).shape.Idx) :
    ((scrM.access (ownR c) : View sig .tc _ _ _).emb y : S32x8x512.Idx) = ValueIdx.ix3 c (y 1) (y 2) := by
  funext a
  apply Fin.ext
  show ((ownR c).emb y a : Nat) = _
  rw [Rect.emb_apply]
  show k0_off1 c a + 1 * (y a).val = _
  rw [k0_off1_eq]
  have h1 : (y 0).val < 1 := (y 0).isLt
  match a with
  | ⟨0, _⟩ => show c.val + 1 * (y 0).val = c.val; omega
  | ⟨1, _⟩ => show 0 + 1 * (y 1).val = (y 1).val; omega
  | ⟨2, _⟩ => show 0 + 1 * (y 2).val = (y 2).val; omega

/-- Every index of the rectangle has leading coordinate zero. -/
theorem ownR_idx (c : Dev nD) (y : (ownR c).shape.Idx) : y = ValueIdx.ix3 (0 : Fin 1) (y 1) (y 2) := by
  have h1 : (y 0).val < 1 := (y 0).isLt
  funext a
  match a with
  | ⟨0, _⟩ => exact Fin.ext (by show (y 0).val = 0; omega)
  | ⟨1, _⟩ => rfl
  | ⟨2, _⟩ => rfl

/-! ## The three accesses -/

/-- The kernel's store of its partial sums into its own row: the row then holds the table's row `c`. -/
theorem store_own (c : Dev nD) (f0 : Buf (Elt F) ((c : Thread nD τ).loc cc0_scratch0))
    {hx : ((scrM.access (Rect.unit (s := S32x8x512) (k0_off1 c) S1x8x512.size (k0_off1_inb c)) : View sig .tc _ _ _)).Stores Finset.univ}
    {hm : (Finset.univ : Finset (Rect.unit (s := S32x8x512) (k0_off1 c) S1x8x512.size (k0_off1_inb c)).shape.Idx) = Finset.univ ∨ ∀ a, (Rect.unit (s := S32x8x512) (k0_off1 c) S1x8x512.size (k0_off1_inb c)).stride a = 1}
    {α : Type} {Q : α → sProp 𝕄} {k : PUnit → Prog (TpuEff nD τ sig (Elt F) Λ₀ .tc) α} :
    (rowPts c c fullShare f0 : sProp 𝕄)
      ⊢ iprop((rowPts c c fullShare (stats m ρ) -∗ wp frame (wpE (defs₀ (F := F)) 𝒱₀ (c : Thread nD τ) none) Set.univ (k ⟨⟩) Q)
          -∗ wp frame (wpE (defs₀ (F := F)) 𝒱₀ (c : Thread nD τ) none) Set.univ
              (.op (.store scrM (Rect.unit (s := S32x8x512) (k0_off1 c) S1x8x512.size (k0_off1_inb c)) (k0_pay2 (xin m ρ c)) Finset.univ hx hm) k) Q) := by
  have hS : (scrM.access (ownR c) : View sig .tc _ _ _).setOn Finset.univ ⊆ rowSet c := by
    rw [View.setOn_univ, View.set_slice_whole, ownR_set]
  have hw : ∀ x ∈ rowSet c, (scrM.access (ownR c) : View sig .tc _ _ _).write (Elt F) f0 (k0_pay2 (xin m ρ c)) Finset.univ x
      = stats m ρ x := by
    intro x hx
    have hx' : x ∈ (scrM.access (ownR c) : View sig .tc _ _ _).set := by rw [View.set_slice_whole, ownR_set]; exact hx
    obtain ⟨y, rfl⟩ := View.exists_emb_of_mem_set _ hx'
    rw [View.write_emb_of_mem _ _ (Finset.mem_univ y), cast_eq, ownR_emb]
    exact congrArg (k0_pay2 (xin m ρ c)) (ownR_idx c y)
  have hc : ((((c : Thread nD τ).loc cc0_scratch0) ↦[rowSet c]{fullShare}
        (scrM.access (ownR c) : View sig .tc _ _ _).write (Elt F) f0 (k0_pay2 (xin m ρ c)) Finset.univ : sProp 𝕄))
      = (((c : Thread nD τ).loc cc0_scratch0) ↦[rowSet c]{fullShare} stats m ρ) := pointsTo_congr hw
  unfold rowPts
  rw [← hc]
  exact wp_store 𝒱₀ (c : Thread nD τ) none Set.univ (m := scrM) (r := ownR c) (Mk := Finset.univ) hS

/-- The kernel's (dead) load of its own row before that store. -/
theorem load_own (c : Dev nD) (q : PosShare TreeShare) (f0 : Buf (Elt F) ((c : Thread nD τ).loc cc0_scratch0))
    {hl : scrM.view.LoadsAt (Rect.unit (s := S32x8x512) (k0_off1 c) S1x8x512.size (k0_off1_inb c)).toLoadRect}
    {α : Type} {Q : α → sProp 𝕄} {k : ((Rect.unit (s := S32x8x512) (k0_off1 c) S1x8x512.size (k0_off1_inb c)).toLoadRect.shape.Idx → Elt F .bf16) → Prog (TpuEff nD τ sig (Elt F) Λ₀ .tc) α} :
    (rowPts c c q f0 : sProp 𝕄)
      ⊢ iprop((rowPts c c q f0 -∗ wp frame (wpE (defs₀ (F := F)) 𝒱₀ (c : Thread nD τ) none) Set.univ (k (scrM.view.readAt (Elt F) (Rect.unit (s := S32x8x512) (k0_off1 c) S1x8x512.size (k0_off1_inb c)).toLoadRect f0)) Q)
          -∗ wp frame (wpE (defs₀ (F := F)) 𝒱₀ (c : Thread nD τ) none) Set.univ
              (.op (.load scrM (Rect.unit (s := S32x8x512) (k0_off1 c) S1x8x512.size (k0_off1_inb c)).toLoadRect hl) k) Q) := by
  have hS : scrM.view.setOn (ownR c).toLoadRect.set ⊆ rowSet c := by
    intro x hx
    obtain ⟨y, hy, rfl⟩ := Finset.mem_map.mp hx
    rw [← ownR_set]; exact hy
  unfold rowPts
  exact wp_load 𝒱₀ (c : Thread nD τ) none Set.univ (m := scrM) (r := (ownR c).toLoadRect) hS

/-- The kernel's load of the whole table, held whole at any share with every row at its device's partial sums: it
    reads the table. -/
theorem load_table (c : Dev nD) (q : PosShare TreeShare)
    {hl : scrM.view.LoadsAt (Rect.unit (s := S32x8x512) ![0, 0, 0] S32x8x512.size inb_S32x8x512_S32x8x512_0_0_0).toLoadRect}
    {α : Type} {Q : α → sProp 𝕄} {k : (S32x8x512.Idx → Elt F .bf16) → Prog (TpuEff nD τ sig (Elt F) Λ₀ .tc) α} :
    ((((c : Thread nD τ).loc cc0_scratch0) ↦{q} stats m ρ : sProp 𝕄))
      ⊢ iprop(((((c : Thread nD τ).loc cc0_scratch0) ↦{q} stats m ρ) -∗ wp frame (wpE (defs₀ (F := F)) 𝒱₀ (c : Thread nD τ) none) Set.univ (k (stats m ρ)) Q)
          -∗ wp frame (wpE (defs₀ (F := F)) 𝒱₀ (c : Thread nD τ) none) Set.univ
              (.op (.load scrM (Rect.unit (s := S32x8x512) ![0, 0, 0] S32x8x512.size inb_S32x8x512_S32x8x512_0_0_0).toLoadRect hl) k) Q) := by
  have e : scrM.view.readAt (Elt F) (Rect.unit (s := S32x8x512) ![0, 0, 0] S32x8x512.size inb_S32x8x512_S32x8x512_0_0_0).toLoadRect
      (stats m ρ) = stats m ρ :=
    Memref.readAt_unit_zero (Elt F) cc0_scratch0 (funext fun a => by fin_cases a <;> rfl) _ _
  have h := wp_load 𝒱₀ (c : Thread nD τ) none Set.univ (defs := defs₀ (F := F)) (Γ := .empty) (Q := Q) (m := scrM)
    (r := (Rect.unit (s := S32x8x512) ![0, 0, 0] S32x8x512.size inb_S32x8x512_S32x8x512_0_0_0).toLoadRect) (hl := hl) (k := k)
    (S := Finset.univ) (q := q) (f := stats m ρ) (Finset.subset_univ _)
  rw [e] at h
  exact h

/-- info: 'Cert.Kernel.Proto.store_own' depends on axioms: [propext, Classical.choice, Quot.sound] -/
#guard_msgs in #print axioms store_own

end Cert.Kernel.Proto

end
-- ==== Proof.KBody.lean ====
/-
  One device's body, stepped from the exchange's invariant: the thirty-one signals, the device's own partial sums
  stored, the barrier wait, the thirty-one transfers, the thirty-one landings awaited, the table read whole and the
  result block stored, the thirty-one transfers' reads awaited; every row of the table ends holding its device's
  partial sums and the device's own cells end closed.
-/
import proofs.«900770_g7700000000000771_dist_diff_adaln_cshard_i_b4_s512_c256_v7x_i32_bf16_1_alg».proof.Proof.KPhaseIO
import proofs.«900770_g7700000000000771_dist_diff_adaln_cshard_i_b4_s512_c256_v7x_i32_bf16_1_alg».proof.Proof.KDevs
import proofs.«900770_g7700000000000771_dist_diff_adaln_cshard_i_b4_s512_c256_v7x_i32_bf16_1_alg».proof.Proof.KRows
import proofs.«900770_g7700000000000771_dist_diff_adaln_cshard_i_b4_s512_c256_v7x_i32_bf16_1_alg».proof.Proof.KLevels
import proofs.«900770_g7700000000000771_dist_diff_adaln_cshard_i_b4_s512_c256_v7x_i32_bf16_1_alg».proof.Proof.KLocal

noncomputable section

namespace Cert.Kernel.Proto

open Cert.Kernel Cert.Kernel.Gen Cert.Kernel.Vals Cert.Seq

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open PCS

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Tactic

/-- A staging buffer held whole, reading `X`. -/
abbrev stg (c : Dev nD) (b : Ref sig .tc) (X : b.ty.shape.Idx → Elt F b.ty.elt) : sProp 𝕄 :=
  owns (Ix := Unit) (Name := ℕ) (U := UU) (Lvl := ℕ) (c : Thread nD τ) (Memref.whole b) fullShare X

def bodyPre (Kb : Dev nD → ℕ) (Ks Kr : Dev nD × Fin 31 → ℕ) (c : Dev nD) : sProp 𝕄 :=
  iprop((ghost m ρ Kb Ks Kr c ∗ cred (tallyAt (barCell c) () 31)
      ∗ (bigSep Finset.univ fun k : Fin 31 => cred (tallyAt (recvCell c k) () N)) ∗ levAts L lv
      ∗ ∃ f, ((c : Thread nD τ).loc cc0_scratch0) ↦{fullShare} f)
    ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

def bodyPost (c : Dev nD) : sProp 𝕄 :=
  iprop(Φ₁ m ρ c ∗ (dats m ρ 0 c).owesAt () t0_0.succ
    ∗ stg c cc0_stg0_0 (xin m ρ c) ∗ stg c cc0_stg1_0 (tin m ρ c) ∗ stg c cc0_stg2_0 (wsin m ρ c) ∗ stg c cc0_stg3_0 (wbin m ρ c)
    ∗ stg c cc0_stg4_0 (outAt m ρ c))

attribute [local sl_rounds] duties_bar duties_send duties_recv amount_bar amount_send amount_recv expect_bar expect_send expect_recv
  payload_bar payload_send payload_recv

-- Continue through the steps that act only on buffers held whole; elsewhere leave the goal as it is.
macro "adv" : tactic => `(tactic| first | sl_exec | skip)
-- The program's head spelt as an operation and its continuation.
macro "norm_head" : tactic =>
  `(tactic| simp (config := { proj := false }) only [semWaitWord, Prog.lift, Prog.bind_op, Prog.bind_ret, Prog.pure_eq_ret])

-- One signal: the rule at the offset reached with n + 1 signals left.
set_option hygiene false in
macro "sig_one " n:num : tactic => `(tactic| (
  iapply (sig_phase m ρ Kb c W $n (by decide)) $$ [HS]
  · isplitr
    · iexact HIb
    · iexact HS
  iintro HS
  adv))

syntax "sig_from " num : tactic
macro_rules
  | `(tactic| sig_from $n) => do
      let k := n.getNat
      if k == 0 then `(tactic| sig_one 0)
      else `(tactic| (sig_one $n; sig_from $(Lean.Syntax.mkNumLit (toString (k - 1)))))

-- One transfer: the rule at the offset reached with n + 1 transfers left, its peer named by the printed chain's equation.
syntax "send_one " num : tactic
set_option hygiene false in
macro_rules
  | `(tactic| send_one $n) => do
      let dv := Lean.mkIdent (Lean.Name.mkSimple s!"dev{62 - n.getNat}_eq")
      `(tactic| (
        iapply (send_phase m ρ Ks Kr c W' $n (by decide) _ ($dv c)) $$ [HS]
        · isplitr
          · iexact HIs
          isplitr
          · iexact HIr
          · iexact HS
        iintro HS
        adv))

syntax "send_from " num : tactic
macro_rules
  | `(tactic| send_from $n) => do
      let k := n.getNat
      if k == 0 then `(tactic| send_one 0)
      else `(tactic| (send_one $n; send_from $(Lean.Syntax.mkNumLit (toString (k - 1)))))

-- One landing awaited.
set_option hygiene false in
macro "recv_one " n:num : tactic => `(tactic| (
  iapply (recv_phase m ρ Kr c $n (by decide) (credit_row _ _)) $$ [HS]
  · isplitr
    · iexact HIr
    · iexact HS
  iintro HS
  adv))

syntax "recv_from " num : tactic
macro_rules
  | `(tactic| recv_from $n) => do
      let k := n.getNat
      if k == 0 then `(tactic| recv_one 0)
      else `(tactic| (recv_one $n; recv_from $(Lean.Syntax.mkNumLit (toString (k - 1)))))

-- One transfer's read awaited.
set_option hygiene false in
macro "swait_one " n:num : tactic => `(tactic| (
  iapply (swait_phase m ρ Ks c $n (by decide) (credit_row _ _)) $$ [HS]
  · isplitr
    · iexact HIs
    · iexact HS
  iintro HS
  adv))

syntax "swait_from " num : tactic
macro_rules
  | `(tactic| swait_from $n) => do
      let k := n.getNat
      if k == 0 then `(tactic| swait_one 0)
      else `(tactic| (swait_one $n; swait_from $(Lean.Syntax.mkNumLit (toString (k - 1)))))

/-- A transfer of one row credits a row's credit, whichever row. -/
theorem credit_row (off : Fin 3 → Nat) (inb : ∀ a, off a + S1x8x512.size a ≤ S32x8x512.size a) :
    ((scrM.slice (Rect.unit (s := S32x8x512) off S1x8x512.size inb) (fun _ => rfl)).squeeze S8x512 squeezes_S1x8x512_S8x512).view.dmaCredit = N := rfl

theorem hz3 : (![0, 0, 0] : Fin 3 → Nat) = fun _ => 0 := funext fun a => by fin_cases a <;> rfl
theorem hz2 : (![0, 0] : Fin 2 → Nat) = fun _ => 0 := funext fun a => by fin_cases a <;> rfl

/-- Every peer's row cut into the half kept for reading and the other half. -/
theorem rows_keep_eq (c : Dev nD) :
    (bigSep Finset.univ fun k : Fin 31 => (rowPts c (bwd c k) fullShare (stats m ρ) : sProp 𝕄))
      = iprop((bigSep Finset.univ fun k : Fin 31 => rowPts c (bwd c k) keepSh (stats m ρ))
          ∗ bigSep Finset.univ fun k : Fin 31 => rowPts c (bwd c k) (restSh 0) (stats m ρ)) := by
  rw [← bigSep_sep']
  exact bigSep_congr fun k _ => eq_of_biEntails (row_keep c (bwd c k) (stats m ρ))

set_option maxHeartbeats 4000000 in
theorem sound_body (Kb : Dev nD → ℕ) (Ks Kr : Dev nD × Fin 31 → ℕ) (c : Dev nD) (Kt : PUnit → sProp 𝕄) :
    iprop(bodyPre m ρ Kb Ks Kr c ∗ (bodyPost m ρ c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _)
            (Memref.whole cc0_scratch0) (Memref.isWhole_whole _) cc0_scratch1 cc0_scratch2) Kt := by
  unfold bodyPre ghost records linear stg owns
  iintro ⟨⟨⟨⟨⟨#HIb, #HIs, #HIr⟩, HatB, HatS, HatR, HtB, HtR, HtS⟩, HcB, HcR, #Hlev, ⟨%f0, Hscr⟩⟩,
    Ho, ⟨%d0, %g0, %hg0, Hx⟩, ⟨%d1, %g1, %hg1, Ht⟩, ⟨%d2, %g2, %hg2, Hws⟩, ⟨%d3, %g3, %hg3, Hwb⟩, ⟨%d4, %g4, %hg4, Hout⟩⟩, Hk⟩
  unfold Dat.owesAt Pipeline.owesWithin
  icases Ho with ⟨%W, %hW, HO⟩
  rw [show (dats m ρ 0 c).owed t0_0.castSucc = O₀ c from rfl]
  -- the table by rows: the device's own, and one for each peer ahead
  ihave Hrows := (table_rows_fwd c fullShare f0).1 $$ Hscr
  icases Hrows with ⟨Hown, Hrows⟩
  ihave HS := (sig_init (F := F) c W f0) $$ [HO HtB Hrows]
  · isplitl [HO]; · iexact HO
    isplitl [HtB]; · iexact HtB
    iexact Hrows
  -- the thirty-one signals
  sl_exec
  sig_from 30
  ihave HO := (sig_exit (F := F) c W) $$ HS
  -- the staging buffer of x holds the device's block of x
  have hx0 : g0 = xin m ρ c := by
    refine Eq.trans (show g0 = (dats m ρ 0 c).before 0 t0_0 d0 from hg0) ?_
    unfold Dat.before; rw [if_pos (fetch0_0 t0_0)]; rfl
  subst hx0
  have hx1 : g1 = tin m ρ c := by
    refine Eq.trans (show g1 = (dats m ρ 0 c).before 1 t0_0 d1 from hg1) ?_
    unfold Dat.before; rw [if_pos (fetch0_1 t0_0)]; rfl
  subst hx1
  have hx2 : g2 = wsin m ρ c := by
    refine Eq.trans (show g2 = (dats m ρ 0 c).before 2 t0_0 d2 from hg2) ?_
    unfold Dat.before; rw [if_pos (fetch0_2 t0_0)]; rfl
  subst hx2
  have hx3 : g3 = wbin m ρ c := by
    refine Eq.trans (show g3 = (dats m ρ 0 c).before 3 t0_0 d3 from hg3) ?_
    unfold Dat.before; rw [if_pos (fetch0_3 t0_0)]; rfl
  subst hx3
  rw [show (Memref.whole cc0_stg0_0 : Memref sig .tc .vmem S4x512x256 .f32).view.readAt (Elt F)
      (Rect.unit (s := S4x512x256) ![0, 0, 0] S4x512x256.size inb_S4x512x256_S4x512x256_0_0_0).toLoadRect (xin m ρ c) = xin m ρ c from
    Memref.readAt_unit_zero (Elt F) cc0_stg0_0 hz3 _ _]
  -- its own row read and overwritten by its partial sums
  iapply (load_own c fullShare f0) $$ Hown
  iintro Hown
  norm_head
  iapply (store_own m ρ c f0) $$ Hown
  iintro Hown
  -- the barrier: every peer has entered and handed over its row c
  iapply (bar_wait m ρ Kb c _ W (mayWait_bar c 31 le_rfl)) $$ [HcB HO HatB]
  · isplitr
    · ihave HI := (bar_at m ρ Kb c) $$ HIb
      icases HI with ⟨#HI, -⟩
      iexact HI
    isplitl [HcB]; · iexact HcB
    isplitl [HO]; · iexact HO
    isplitr; · iexact Hlev
    iexact HatB
  iintro ⟨HO, HatB, Hpay⟩
  sl_exec
  generalize hW' : insert (SemLoc.reg barS, ()) W = W'
  -- the device's row shared out: one piece lent to each transfer, one half kept for its own reads
  ihave Hsh := (row_shares c c (stats m ρ)).1 $$ Hown
  icases Hsh with ⟨Hkeep, Hrest, Hsend⟩
  ihave HS := (send_init m ρ c W') $$ [HO HtS HtR Hsend Hpay]
  · isplitl [HO]; · iexact HO
    isplitl [HtS]; · iexact HtS
    isplitl [HtR]; · iexact HtR
    isplitl [Hsend]; · iexact Hsend
    iexact Hpay
  -- the thirty-one transfers
  send_from 30
  ihave Hx' := (send_exit m ρ c W') $$ HS
  icases Hx' with ⟨HO, HcS⟩
  -- the thirty-one landings
  ihave HS := (recv_init m ρ c) $$ [HO HcR HatR]
  · isplitl [HO]; · iexists W'; iexact HO
    isplitl [HcR]; · iexact HcR
    iexact HatR
  recv_from 30
  ihave Hx' := (recv_exit m ρ c) $$ HS
  icases Hx' with ⟨HOW, Hrows, HzR⟩
  -- the table whole again, at the kept share, every row at its device's partial sums
  ihave Hr2 := (Entails.of_eq (rows_keep_eq m ρ c)) $$ Hrows
  icases Hr2 with ⟨HrowsK, HrowsR⟩
  ihave Htab := (table_rows_bwd c keepSh (stats m ρ)).2 $$ [Hkeep HrowsK]
  · isplitl [Hkeep]; · iexact Hkeep
    iexact HrowsK
  norm_head
  iapply (load_table m ρ c keepSh) $$ Htab
  iintro Htab
  adv
  -- the thirty-one transfers' reads awaited
  ihave HS := (swait_init m ρ c) $$ [HOW HcS HatS]
  · isplitl [HOW]; · iexact HOW
    isplitl [HcS]; · iexact HcS
    iexact HatS
  swait_from 30
  ihave Hx' := (swait_exit m ρ c) $$ HS
  icases Hx' with ⟨HOW, HsendBack, HzS⟩
  -- the return
  first | sl_step | skip
  iapply Hk
  unfold bodyPost Φ₁ stg owns Dat.owesAt Pipeline.owesWithin
  rw [show (dats m ρ 0 c).owed t0_0.succ = 0 from rfl]
  -- the table put together again: the kept half and the other half of every peer's row, the pieces of the own row
  ihave Hr3 := (table_rows_bwd c keepSh (stats m ρ)).1 $$ Htab
  icases Hr3 with ⟨Hkeep, HrowsK⟩
  ihave Hrows := (Entails.of_eq (rows_keep_eq m ρ c).symm) $$ [HrowsK HrowsR]
  · isplitl [HrowsK]; · iexact HrowsK
    iexact HrowsR
  ihave Hown := (row_shares c c (stats m ρ)).2 $$ [Hkeep Hrest HsendBack]
  · isplitl [Hkeep]; · iexact Hkeep
    isplitl [Hrest]; · iexact Hrest
    iexact HsendBack
  ihave Htab := (table_rows_bwd c fullShare (stats m ρ)).2 $$ [Hown Hrows]
  · isplitl [Hown]; · iexact Hown
    iexact Hrows
  icases HOW with ⟨%W2, HO⟩
  isplitl [Htab HzS HzR]
  · isplitl [Htab]; · iexact Htab
    isplitl [HzS]; · iexact HzS
    iexact HzR
  isplitl [HO]
  · iexists W2
    isplitr; · ipureintro; exact fun _ _ => Or.inl trivial
    iexact HO
  isplitl [Hx]
  · iexists (xin m ρ c); isplitr; · (ipureintro; rfl)
    iexact Hx
  isplitl [Ht]
  · iexists (tin m ρ c); isplitr; · (ipureintro; rfl)
    iexact Ht
  isplitl [Hws]
  · iexists (wsin m ρ c); isplitr; · (ipureintro; rfl)
    iexact Hws
  isplitl [Hwb]
  · iexists (wbin m ρ c); isplitr; · (ipureintro; rfl)
    iexact Hwb
  iexists _
  isplitr
  pick_goal 2
  · iexact Hout
  ipureintro
  have hrd : ∀ X : BufTy.Contents (Elt F) (Memref.whole cc0_stg4_0 : Memref sig .tc .vmem S4x512x256 .f32).view.ty,
      View.read (Elt F) (Memref.whole cc0_stg4_0 : Memref sig .tc .vmem S4x512x256 .f32).view X = X := fun X => rfl
  rw [hrd, View.writes_singleton]
  refine Eq.trans (Memref.write_access_unit_zero_univ (Elt F) cc0_stg4_0 hz3 _ g4 _) ?_
  sl_unfold_run_names
  rw [show (Memref.whole cc0_stg1_0 : Memref sig .tc .vmem S4x128 .f32).view.readAt (Elt F)
        (Rect.unit (s := S4x128) ![0, 0] S4x128.size inb_S4x128_S4x128_0_0).toLoadRect (tin m ρ c) = tin m ρ c from
      Memref.readAt_unit_zero (Elt F) cc0_stg1_0 hz2 _ _,
    show (Memref.whole cc0_stg2_0 : Memref sig .tc .vmem S128x256 .f32).view.readAt (Elt F)
        (Rect.unit (s := S128x256) ![0, 0] S128x256.size inb_S128x256_S128x256_0_0).toLoadRect (wsin m ρ c) = wsin m ρ c from
      Memref.readAt_unit_zero (Elt F) cc0_stg2_0 hz2 _ _,
    show (Memref.whole cc0_stg3_0 : Memref sig .tc .vmem S128x256 .f32).view.readAt (Elt F)
        (Rect.unit (s := S128x256) ![0, 0] S128x256.size inb_S128x256_S128x256_0_0).toLoadRect (wbin m ρ c) = wbin m ρ c from
      Memref.readAt_unit_zero (Elt F) cc0_stg3_0 hz2 _ _]
  rfl

/-! ## The library's body obligation -/

def bodyPre' (c : Dev nD) : sProp 𝕄 :=
  iprop(Φ₀ m ρ c ∗ (dats m ρ 0 c).owesAt () t0_0.castSucc
    ∗ (∃ d, stg c cc0_stg0_0 ((dats m ρ 0 c).before (0 : Fin 5) t0_0 d))
    ∗ (∃ d, stg c cc0_stg1_0 ((dats m ρ 0 c).before (1 : Fin 5) t0_0 d))
    ∗ (∃ d, stg c cc0_stg2_0 ((dats m ρ 0 c).before (2 : Fin 5) t0_0 d))
    ∗ (∃ d, stg c cc0_stg3_0 ((dats m ρ 0 c).before (3 : Fin 5) t0_0 d))
    ∗ (∃ d, stg c cc0_stg4_0 ((dats m ρ 0 c).before (4 : Fin 5) t0_0 d)))

set_option maxRecDepth 8000 in
/-- The body obligation on device `c`. -/
theorem body_obligation (c : Dev nD) : BodyObligation (dats (F := F) m ρ 0 c) (defs₀ (F := F)) 𝒱₀ () Set.univ := fun t => by
  rw [fin_N0 t]
  rw [bigSep_W0, bigSep_W0]
  show bodyPre' m ρ c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_stg4_0) (Memref.isWhole_whole _)
      (Memref.whole cc0_scratch0) (Memref.isWhole_whole _) cc0_scratch1 cc0_scratch2) (fun _ => bodyPost m ρ c)
  unfold bodyPre' Φ₀ start
  iintro ⟨⟨⟨⟨%Kb, %Ks, %Kr, Hg⟩, Hrest⟩, Hscr⟩, Ho, Hx, Ht, Hws, Hwb, Hout⟩
  iapply (sound_body m ρ Kb Ks Kr c fun _ => bodyPost m ρ c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx]; · iexact Hx
    isplitl [Ht]; · iexact Ht
    isplitl [Hws]; · iexact Hws
    isplitl [Hwb]; · iexact Hwb
    iexact Hout
  · iintro H; iexact H

/-- info: 'Cert.Kernel.Proto.body_obligation' depends on axioms: [propext, Classical.choice, Quot.sound] -/
#guard_msgs in #print axioms body_obligation

end Cert.Kernel.Proto

end
-- ==== Proof.lean ====
/-
  The certificate's claim, assembled. Thirty-two devices each hold a block of 256 of the 8192 channels of `x` and of the
  two weight matrices; every device reduces its block to eight rows of partial sums, the devices exchange those rows
  (an entry handshake on the barrier semaphore, then thirty-one transfers each way) so that each ends with the whole
  table, and each then normalizes, scales and shifts its own block. The run of that program is proved once, generic in
  the float values: each device's body against the exchange's invariant, then the launch over the thirty-two devices;
  read at the words it gives the word-level frame, read at the extended reals the idealized frame and the value. The
  reference is a straight line of host operations whose run is its composed term. Both values are the one function
  `Cert.Spec.G` of the whole arrays — the reference's index by index, a device's as block `c` of it — which is the
  algebraic claim; no operation was rewritten by the idealization, so nothing is to be preserved.
-/
import proofs.«900770_g7700000000000771_dist_diff_adaln_cshard_i_b4_s512_c256_v7x_i32_bf16_1_alg».proof.Defs
import proofs.«900770_g7700000000000771_dist_diff_adaln_cshard_i_b4_s512_c256_v7x_i32_bf16_1_alg».proof.Proof.Gen.Kernel
import proofs.«900770_g7700000000000771_dist_diff_adaln_cshard_i_b4_s512_c256_v7x_i32_bf16_1_alg».proof.Proof.Gen.Kernel.Skeleton
import proofs.«900770_g7700000000000771_dist_diff_adaln_cshard_i_b4_s512_c256_v7x_i32_bf16_1_alg».proof.Proof.Gen.Kernel.Launch
import proofs.«900770_g7700000000000771_dist_diff_adaln_cshard_i_b4_s512_c256_v7x_i32_bf16_1_alg».proof.Proof.Gen.Kernel.Points
import proofs.«900770_g7700000000000771_dist_diff_adaln_cshard_i_b4_s512_c256_v7x_i32_bf16_1_alg».proof.Proof.Gen.Kernel.Frame
import proofs.«900770_g7700000000000771_dist_diff_adaln_cshard_i_b4_s512_c256_v7x_i32_bf16_1_alg».proof.Proof.Gen.KernelIdeal
import proofs.«900770_g7700000000000771_dist_diff_adaln_cshard_i_b4_s512_c256_v7x_i32_bf16_1_alg».proof.Proof.Gen.KernelIdeal.Skeleton
import proofs.«900770_g7700000000000771_dist_diff_adaln_cshard_i_b4_s512_c256_v7x_i32_bf16_1_alg».proof.Proof.Gen.KernelIdeal.Launch
import proofs.«900770_g7700000000000771_dist_diff_adaln_cshard_i_b4_s512_c256_v7x_i32_bf16_1_alg».proof.Proof.Gen.KernelIdeal.Points
import proofs.«900770_g7700000000000771_dist_diff_adaln_cshard_i_b4_s512_c256_v7x_i32_bf16_1_alg».proof.Proof.Gen.KernelIdeal.Frame
import proofs.«900770_g7700000000000771_dist_diff_adaln_cshard_i_b4_s512_c256_v7x_i32_bf16_1_alg».proof.Proof.Gen.ReferenceIdeal
import proofs.«900770_g7700000000000771_dist_diff_adaln_cshard_i_b4_s512_c256_v7x_i32_bf16_1_alg».proof.Proof.Gen.Pre_finite_inputs_Kernel
import proofs.«900770_g7700000000000771_dist_diff_adaln_cshard_i_b4_s512_c256_v7x_i32_bf16_1_alg».proof.Proof.Gen.Pre_finite_inputs_ReferenceIdeal
import proofs.«900770_g7700000000000771_dist_diff_adaln_cshard_i_b4_s512_c256_v7x_i32_bf16_1_alg».proof.Proof.RefRun
import proofs.«900770_g7700000000000771_dist_diff_adaln_cshard_i_b4_s512_c256_v7x_i32_bf16_1_alg».proof.Proof.RefVal
import proofs.«900770_g7700000000000771_dist_diff_adaln_cshard_i_b4_s512_c256_v7x_i32_bf16_1_alg».proof.Proof.Finite
import proofs.«900770_g7700000000000771_dist_diff_adaln_cshard_i_b4_s512_c256_v7x_i32_bf16_1_alg».proof.Proof.KerVal
import proofs.«900770_g7700000000000771_dist_diff_adaln_cshard_i_b4_s512_c256_v7x_i32_bf16_1_alg».proof.Proof.Final
import proofs.«900770_g7700000000000771_dist_diff_adaln_cshard_i_b4_s512_c256_v7x_i32_bf16_1_alg».proof.Proof.Body
import proofs.«900770_g7700000000000771_dist_diff_adaln_cshard_i_b4_s512_c256_v7x_i32_bf16_1_alg».proof.Proof.KFinal
import proofs.«900770_g7700000000000771_dist_diff_adaln_cshard_i_b4_s512_c256_v7x_i32_bf16_1_alg».proof.Proof.KBody
import Idealize.ShloMosaic.Adequacy
import Idealize.ShloMosaic.Init

noncomputable section

namespace Cert.Proof

open Idealize.ShloMosaic Idealize.SL.Sem

/-- The word-level program terminates from every memory and leaves its four argument arrays as they were: its run
    (the exchange's launch over each device's body) with the result forgotten. -/
theorem frame_Kernel : Cert.frame_Kernel := fun m g _ =>
  (θ_run _ _ _).mono (fun _ h c => (h c).2)
    (Cert.Kernel.Proto.run_val (F := Bits) m g (Cert.Kernel.Proto.body_obligation m g))

/-- The same for the idealized program: the same modules read at the extended reals. -/
theorem frame_KernelIdeal : Cert.frame_KernelIdeal := fun m g _ =>
  (θ_run _ _ _).mono (fun _ h c => (h c).2)
    (Cert.KernelIdeal.Proto.run_val (F := Ideal) m g (Cert.KernelIdeal.Proto.body_obligation m g))

/-- The reference terminates and leaves its arguments as they were: its run, a straight line of host operations,
    with the result forgotten. -/
theorem frame_ReferenceIdeal : Cert.frame_ReferenceIdeal := fun m g _ =>
  (θ_run Cert.ReferenceIdeal.defs _ _).mono (fun _ h c => (h c).2) (Cert.RefRun.run (F := Ideal) m g)

/-- The two programs compute the same function. The common value is the specification `Cert.Spec.G` of the
    reference's whole arrays: the reference's composed term is `G` index by index; and device `c`'s result — its
    block of `x` normalized by the column totals of the table the exchange gathers, then scaled and shifted by its
    blocks of the two products — is block `c` of `G`, because the table's totals over the thirty-two devices'
    partial sums are the sums over all 8192 channels (the entries being real numbers, by the precondition). -/
theorem algebraic : Cert.algebraic_KernelIdeal_ReferenceIdeal := fun m g m' g' hpre hagree =>
  ⟨Cert.Spec.G (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)),
    (θ_run _ _ _).mono (fun _ h c => ⟨(h c).1.trans
        (Cert.KerVal.outOf_eq_block
          (fun d => m ((d.tc : Thread Cert.KernelIdeal.nD Cert.KernelIdeal.τ).loc Cert.KernelIdeal.main_arg0)) (fun d => m ((d.tc : Thread Cert.KernelIdeal.nD Cert.KernelIdeal.τ).loc Cert.KernelIdeal.main_arg1))
          (fun d => m ((d.tc : Thread Cert.KernelIdeal.nD Cert.KernelIdeal.τ).loc Cert.KernelIdeal.main_arg2)) (fun d => m ((d.tc : Thread Cert.KernelIdeal.nD Cert.KernelIdeal.τ).loc Cert.KernelIdeal.main_arg3))
          _ _ _ _ (fun d => (hagree d).1) (fun d => (hagree d).2.1) (fun d => (hagree d).2.2.1) (fun d => (hagree d).2.2.2)
          (fun d => Cert.Finite.finite_of_pre m hpre d) c),
        (h c).2⟩)
      (Cert.KernelIdeal.Proto.run_val (F := Ideal) m g (Cert.KernelIdeal.Proto.body_obligation m g)),
    (θ_run Cert.ReferenceIdeal.defs _ _).mono (fun _ h => ⟨(h 0).1.trans (Cert.RefVal.refTerm_eq_G _ _ _ _), (h 0).2⟩)
      (Cert.RefRun.run (F := Ideal) m' g')⟩

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_Kernel, frame_KernelIdeal, frame_ReferenceIdeal, trivial, algebraic⟩

end Cert.Proof

end
